-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v206)) (v1 : (c : Dev Cert.KernelIdeal.nD) → Buf (Elt Ideal) ((c.tc : Thread Cert.KernelIdeal.nD Cert.KernelIdeal.τ).loc Cert.KernelIdeal.main_v255)) (v2 : (c : Dev Cert.KernelIdeal.nD) → Buf (Elt Ideal) ((c.tc : Thread Cert.KernelIdeal.nD Cert.KernelIdeal.τ).loc Cert.KernelIdeal.main_v262)) (v3 : (c : Dev Cert.KernelIdeal.nD) → Buf (Elt Ideal) ((c.tc : Thread Cert.KernelIdeal.nD Cert.KernelIdeal.τ).loc Cert.KernelIdeal.main_v182)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v206) = v0 c
          ∧ r.2.mem ((c.tc : Thread Cert.KernelIdeal.nD Cert.KernelIdeal.τ).loc Cert.KernelIdeal.main_v255) = v1 c
          ∧ r.2.mem ((c.tc : Thread Cert.KernelIdeal.nD Cert.KernelIdeal.τ).loc Cert.KernelIdeal.main_v262) = v2 c
          ∧ r.2.mem ((c.tc : Thread Cert.KernelIdeal.nD Cert.KernelIdeal.τ).loc Cert.KernelIdeal.main_v182) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v242) = v0 c
          ∧ r.2.mem ((c.tc : Thread Cert.ReferenceIdeal.nD Cert.ReferenceIdeal.τ).loc Cert.ReferenceIdeal.main_v291) = v1 c
          ∧ r.2.mem ((c.tc : Thread Cert.ReferenceIdeal.nD Cert.ReferenceIdeal.τ).loc Cert.ReferenceIdeal.main_v298) = v2 c
          ∧ r.2.mem ((c.tc : Thread Cert.ReferenceIdeal.nD Cert.ReferenceIdeal.τ).loc Cert.ReferenceIdeal.main_v218) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x10000x3 : Shape := ⟨3, ![8, 10000, 3]⟩
abbrev S8x156x3 : Shape := ⟨3, ![8, 156, 3]⟩
abbrev S8x618x3 : Shape := ⟨3, ![8, 618, 3]⟩
abbrev S8x2466x3 : Shape := ⟨3, ![8, 2466, 3]⟩
abbrev S156x10 : Shape := ⟨2, ![156, 10]⟩
abbrev S618x10 : Shape := ⟨2, ![618, 10]⟩
abbrev S2466x10 : Shape := ⟨2, ![2466, 10]⟩
abbrev S462x2 : Shape := ⟨2, ![462, 2]⟩
abbrev S1848x2 : Shape := ⟨2, ![1848, 2]⟩
abbrev S7392x2 : Shape := ⟨2, ![7392, 2]⟩
abbrev S_ : Shape := ⟨0, ![]⟩

class Facts : Prop where
  bcast_S_S8x10000x3 : S_.BroadcastsInDim S8x10000x3 (![] : Fin 0 → Fin S8x10000x3.rank)
  reducesTo_S8x10000x3_S_d0_1_2 : S8x10000x3.ReducesTo [0, 1, 2] S_
  h_S_ : 0 < S_.numel
  bcast_S_S8x156x3 : S_.BroadcastsInDim S8x156x3 (![] : Fin 0 → Fin S8x156x3.rank)
  reducesTo_S8x156x3_S_d0_1_2 : S8x156x3.ReducesTo [0, 1, 2] S_
  bcast_S_S8x618x3 : S_.BroadcastsInDim S8x618x3 (![] : Fin 0 → Fin S8x618x3.rank)
  reducesTo_S8x618x3_S_d0_1_2 : S8x618x3.ReducesTo [0, 1, 2] S_
  bcast_S_S8x2466x3 : S_.BroadcastsInDim S8x2466x3 (![] : Fin 0 → Fin S8x2466x3.rank)
  reducesTo_S8x2466x3_S_d0_1_2 : S8x2466x3.ReducesTo [0, 1, 2] S_

variable [Facts]

def fn_part2 {F : FTy → Type} [FloatOps F] (main_arg7 : FVec F S8x156x3 .f32) (main_arg8 : FVec F S8x618x3 .f32) (main_arg9 : FVec F S8x2466x3 .f32) (main_v33 : IVec S_ 1) : IVec S_ 1 :=
  let main_v34 : FVec F S8x156x3 .f32 := Host.absf main_arg7
  let main_cst_12 : FVec F S_ .f32 := constant S_ .f32 0x7F800000#32
  let main_v35 : FVec F S8x156x3 .f32 := broadcastInDim S8x156x3 ![] bcast_S_S8x156x3 main_cst_12
  let main_v36 : IVec S8x156x3 1 := cmpf .olt main_v34 main_v35
  let main_c_13 : IVec S_ 1 := constantI S_ 1 1#1
  let main_v37 : IVec S_ 1 := (fun x v => Host.reduce IntOp.andi x v reducesTo_S8x156x3_S_d0_1_2 h_S_) main_v36 main_c_13
  let main_v38 : IVec S_ 1 := andi main_v33 main_v37
  let main_v39 : FVec F S8x618x3 .f32 := Host.absf main_arg8
  let main_cst_14 : FVec F S_ .f32 := constant S_ .f32 0x7F800000#32
  let main_v40 : FVec F S8x618x3 .f32 := broadcastInDim S8x618x3 ![] bcast_S_S8x618x3 main_cst_14
  let main_v41 : IVec S8x618x3 1 := cmpf .olt main_v39 main_v40
  let main_c_15 : IVec S_ 1 := constantI S_ 1 1#1
  let main_v42 : IVec S_ 1 := (fun x v => Host.reduce IntOp.andi x v reducesTo_S8x618x3_S_d0_1_2 h_S_) main_v41 main_c_15
  let main_v43 : IVec S_ 1 := andi main_v38 main_v42
  let main_v44 : FVec F S8x2466x3 .f32 := Host.absf main_arg9
  let main_cst_16 : FVec F S_ .f32 := constant S_ .f32 0x7F800000#32
  let main_v45 : FVec F S8x2466x3 .f32 := broadcastInDim S8x2466x3 ![] bcast_S_S8x2466x3 main_cst_16
  let main_v46 : IVec S8x2466x3 1 := cmpf .olt main_v44 main_v45
  let main_c_17 : IVec S_ 1 := constantI S_ 1 1#1
  let main_v47 : IVec S_ 1 := (fun x v => Host.reduce IntOp.andi x v reducesTo_S8x2466x3_S_d0_1_2 h_S_) main_v46 main_c_17
  let main_v48 : IVec S_ 1 := andi main_v43 main_v47
  main_v48

def fn_part1 {F : FTy → Type} [FloatOps F] (main_arg4 : FVec F S8x156x3 .f32) (main_arg5 : FVec F S8x618x3 .f32) (main_arg6 : FVec F S8x2466x3 .f32) (main_arg7 : FVec F S8x156x3 .f32) (main_arg8 : FVec F S8x618x3 .f32) (main_arg9 : FVec F S8x2466x3 .f32) (main_v13 : IVec S_ 1) (main_v16 : IVec S8x2466x3 1) : IVec S_ 1 :=
  let main_c_5 : IVec S_ 1 := constantI S_ 1 1#1
  let main_v17 : IVec S_ 1 := (fun x v => Host.reduce IntOp.andi x v reducesTo_S8x2466x3_S_d0_1_2 h_S_) main_v16 main_c_5
  let main_v18 : IVec S_ 1 := andi main_v13 main_v17
  let main_v19 : FVec F S8x156x3 .f32 := Host.absf main_arg4
  let main_cst_6 : FVec F S_ .f32 := constant S_ .f32 0x7F800000#32
  let main_v20 : FVec F S8x156x3 .f32 := broadcastInDim S8x156x3 ![] bcast_S_S8x156x3 main_cst_6
  let main_v21 : IVec S8x156x3 1 := cmpf .olt main_v19 main_v20
  let main_c_7 : IVec S_ 1 := constantI S_ 1 1#1
  let main_v22 : IVec S_ 1 := (fun x v => Host.reduce IntOp.andi x v reducesTo_S8x156x3_S_d0_1_2 h_S_) main_v21 main_c_7
  let main_v23 : IVec S_ 1 := andi main_v18 main_v22
  let main_v24 : FVec F S8x618x3 .f32 := Host.absf main_arg5
  let main_cst_8 : FVec F S_ .f32 := constant S_ .f32 0x7F800000#32
  let main_v25 : FVec F S8x618x3 .f32 := broadcastInDim S8x618x3 ![] bcast_S_S8x618x3 main_cst_8
  let main_v26 : IVec S8x618x3 1 := cmpf .olt main_v24 main_v25
  let main_c_9 : IVec S_ 1 := constantI S_ 1 1#1
  let main_v27 : IVec S_ 1 := (fun x v => Host.reduce IntOp.andi x v reducesTo_S8x618x3_S_d0_1_2 h_S_) main_v26 main_c_9
  let main_v28 : IVec S_ 1 := andi main_v23 main_v27
  let main_v29 : FVec F S8x2466x3 .f32 := Host.absf main_arg6
  let main_cst_10 : FVec F S_ .f32 := constant S_ .f32 0x7F800000#32
  let main_v30 : FVec F S8x2466x3 .f32 := broadcastInDim S8x2466x3 ![] bcast_S_S8x2466x3 main_cst_10
  let main_v31 : IVec S8x2466x3 1 := cmpf .olt main_v29 main_v30
  let main_c_11 : IVec S_ 1 := constantI S_ 1 1#1
  let main_v32 : IVec S_ 1 := (fun x v => Host.reduce IntOp.andi x v reducesTo_S8x2466x3_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S8x10000x3 .f32) (main_arg1 : FVec F S8x156x3 .f32) (main_arg2 : FVec F S8x618x3 .f32) (main_arg3 : FVec F S8x2466x3 .f32) (main_arg4 : FVec F S8x156x3 .f32) (main_arg5 : FVec F S8x618x3 .f32) (main_arg6 : FVec F S8x2466x3 .f32) (main_arg7 : FVec F S8x156x3 .f32) (main_arg8 : FVec F S8x618x3 .f32) (main_arg9 : FVec F S8x2466x3 .f32) (main_arg10 : IVec S156x10 32) (main_arg11 : IVec S618x10 32) (main_arg12 : IVec S2466x10 32) (main_arg13 : IVec S462x2 32) (main_arg14 : IVec S1848x2 32) (main_arg15 : IVec S7392x2 32) : IVec S_ 1 :=
  let main_v0 : FVec F S8x10000x3 .f32 := Host.absf main_arg0
  let main_cst : FVec F S_ .f32 := constant S_ .f32 0x7F800000#32
  let main_v1 : FVec F S8x10000x3 .f32 := broadcastInDim S8x10000x3 ![] bcast_S_S8x10000x3 main_cst
  let main_v2 : IVec S8x10000x3 1 := cmpf .olt main_v0 main_v1
  let main_c : IVec S_ 1 := constantI S_ 1 1#1
  let main_v3 : IVec S_ 1 := (fun x v => Host.reduce IntOp.andi x v reducesTo_S8x10000x3_S_d0_1_2 h_S_) main_v2 main_c
  let main_v4 : FVec F S8x156x3 .f32 := Host.absf main_arg1
  let main_cst_0 : FVec F S_ .f32 := constant S_ .f32 0x7F800000#32
  let main_v5 : FVec F S8x156x3 .f32 := broadcastInDim S8x156x3 ![] bcast_S_S8x156x3 main_cst_0
  let main_v6 : IVec S8x156x3 1 := cmpf .olt main_v4 main_v5
  let main_c_1 : IVec S_ 1 := constantI S_ 1 1#1
  let main_v7 : IVec S_ 1 := (fun x v => Host.reduce IntOp.andi x v reducesTo_S8x156x3_S_d0_1_2 h_S_) main_v6 main_c_1
  let main_v8 : IVec S_ 1 := andi main_v3 main_v7
  let main_v9 : FVec F S8x618x3 .f32 := Host.absf main_arg2
  let main_cst_2 : FVec F S_ .f32 := constant S_ .f32 0x7F800000#32
  let main_v10 : FVec F S8x618x3 .f32 := broadcastInDim S8x618x3 ![] bcast_S_S8x618x3 main_cst_2
  let main_v11 : IVec S8x618x3 1 := cmpf .olt main_v9 main_v10
  let main_c_3 : IVec S_ 1 := constantI S_ 1 1#1
  let main_v12 : IVec S_ 1 := (fun x v => Host.reduce IntOp.andi x v reducesTo_S8x618x3_S_d0_1_2 h_S_) main_v11 main_c_3
  let main_v13 : IVec S_ 1 := andi main_v8 main_v12
  let main_v14 : FVec F S8x2466x3 .f32 := Host.absf main_arg3
  let main_cst_4 : FVec F S_ .f32 := constant S_ .f32 0x7F800000#32
  let main_v15 : FVec F S8x2466x3 .f32 := broadcastInDim S8x2466x3 ![] bcast_S_S8x2466x3 main_cst_4
  let main_v16 : IVec S8x2466x3 1 := cmpf .olt main_v14 main_v15
  fn_part1 (F := F) main_arg4 main_arg5 main_arg6 main_arg7 main_arg8 main_arg9 main_v13 main_v16
-- ==== Kernel.lean ====
abbrev S8x10000x3 : Shape := ⟨3, ![8, 10000, 3]⟩
abbrev S8x156x3 : Shape := ⟨3, ![8, 156, 3]⟩
abbrev S8x618x3 : Shape := ⟨3, ![8, 618, 3]⟩
abbrev S8x2466x3 : Shape := ⟨3, ![8, 2466, 3]⟩
abbrev S156x10 : Shape := ⟨2, ![156, 10]⟩
abbrev S618x10 : Shape := ⟨2, ![618, 10]⟩
abbrev S2466x10 : Shape := ⟨2, ![2466, 10]⟩
abbrev S462x2 : Shape := ⟨2, ![462, 2]⟩
abbrev S1848x2 : Shape := ⟨2, ![1848, 2]⟩
abbrev S7392x2 : Shape := ⟨2, ![7392, 2]⟩
abbrev S8x10000x1 : Shape := ⟨3, ![8, 10000, 1]⟩
abbrev S8x156x1 : Shape := ⟨3, ![8, 156, 1]⟩
abbrev S1x1000x3 : Shape := ⟨3, ![1, 1000, 3]⟩
abbrev S1x156x3 : Shape := ⟨3, ![1, 156, 3]⟩
abbrev S1x1000x1 : Shape := ⟨3, ![1, 1000, 1]⟩
abbrev S1x156x1 : Shape := ⟨3, ![1, 156, 1]⟩
abbrev S1000x3 : Shape := ⟨2, ![1000, 3]⟩
abbrev S156x3 : Shape := ⟨2, ![156, 3]⟩
abbrev S1000 : Shape := ⟨1, ![1000]⟩
abbrev S1000x1 : Shape := ⟨2, ![1000, 1]⟩
abbrev S156 : Shape := ⟨1, ![156]⟩
abbrev S1x156 : Shape := ⟨2, ![1, 156]⟩
abbrev S3x156 : Shape := ⟨2, ![3, 156]⟩
abbrev S1000x156 : Shape := ⟨2, ![1000, 156]⟩
abbrev S156x1 : Shape := ⟨2, ![156, 1]⟩
abbrev S8x10000 : Shape := ⟨2, ![8, 10000]⟩
abbrev S8x156 : Shape := ⟨2, ![8, 156]⟩
abbrev S_ : Shape := ⟨0, ![]⟩
abbrev S462x1 : Shape := ⟨2, ![462, 1]⟩
abbrev S462 : Shape := ⟨1, ![462]⟩
abbrev S8x462x3 : Shape := ⟨3, ![8, 462, 3]⟩
abbrev S156x8 : Shape := ⟨2, ![156, 8]⟩
abbrev S156x8x1 : Shape := ⟨3, ![156, 8, 1]⟩
abbrev S8x156x8x3 : Shape := ⟨4, ![8, 156, 8, 3]⟩
abbrev S1x156x8x1 : Shape := ⟨4, ![1, 156, 8, 1]⟩
abbrev S8x618x1 : Shape := ⟨3, ![8, 618, 1]⟩
abbrev S1x618x3 : Shape := ⟨3, ![1, 618, 3]⟩
abbrev S1x618x1 : Shape := ⟨3, ![1, 618, 1]⟩
abbrev S618x3 : Shape := ⟨2, ![618, 3]⟩
abbrev S618 : Shape := ⟨1, ![618]⟩
abbrev S1x618 : Shape := ⟨2, ![1, 618]⟩
abbrev S3x618 : Shape := ⟨2, ![3, 618]⟩
abbrev S1000x618 : Shape := ⟨2, ![1000, 618]⟩
abbrev S618x1 : Shape := ⟨2, ![618, 1]⟩
abbrev S8x618 : Shape := ⟨2, ![8, 618]⟩
abbrev S1848x1 : Shape := ⟨2, ![1848, 1]⟩
abbrev S1848 : Shape := ⟨1, ![1848]⟩
abbrev S8x1848x3 : Shape := ⟨3, ![8, 1848, 3]⟩
abbrev S618x8 : Shape := ⟨2, ![618, 8]⟩
abbrev S618x8x1 : Shape := ⟨3, ![618, 8, 1]⟩
abbrev S8x618x8x3 : Shape := ⟨4, ![8, 618, 8, 3]⟩
abbrev S1x618x8x1 : Shape := ⟨4, ![1, 618, 8, 1]⟩
abbrev S8x2466x1 : Shape := ⟨3, ![8, 2466, 1]⟩
abbrev S1x2466x3 : Shape := ⟨3, ![1, 2466, 3]⟩
abbrev S1x2466x1 : Shape := ⟨3, ![1, 2466, 1]⟩
abbrev S2466x3 : Shape := ⟨2, ![2466, 3]⟩
abbrev S2466 : Shape := ⟨1, ![2466]⟩
abbrev S1x2466 : Shape := ⟨2, ![1, 2466]⟩
abbrev S3x2466 : Shape := ⟨2, ![3, 2466]⟩
abbrev S1000x2466 : Shape := ⟨2, ![1000, 2466]⟩
abbrev S2466x1 : Shape := ⟨2, ![2466, 1]⟩
abbrev S8x2466 : Shape := ⟨2, ![8, 2466]⟩
abbrev S7392x1 : Shape := ⟨2, ![7392, 1]⟩
abbrev S7392 : Shape := ⟨1, ![7392]⟩
abbrev S8x7392x3 : Shape := ⟨3, ![8, 7392, 3]⟩
abbrev S2466x8 : Shape := ⟨2, ![2466, 8]⟩
abbrev S2466x8x1 : Shape := ⟨3, ![2466, 8, 1]⟩
abbrev S8x2466x8x3 : Shape := ⟨4, ![8, 2466, 8, 3]⟩
abbrev S1x2466x8x1 : Shape := ⟨4, ![1, 2466, 8, 1]⟩

abbrev nBuf : Space → Nat
  | .hbm => 402
  | .vmem => 27
  | .smem => 0
  | _ => 0

abbrev hbmTy0_0 (i : Nat) : BufTy := match i % 128 with
  | 0 => ⟨S8x10000x3, .f32⟩
  | 1 => ⟨S8x156x3, .f32⟩
  | 2 => ⟨S8x618x3, .f32⟩
  | 3 => ⟨S8x2466x3, .f32⟩
  | 4 => ⟨S8x156x3, .f32⟩
  | 5 => ⟨S8x618x3, .f32⟩
  | 6 => ⟨S8x2466x3, .f32⟩
  | 7 => ⟨S8x156x3, .f32⟩
  | 8 => ⟨S8x618x3, .f32⟩
  | 9 => ⟨S8x2466x3, .f32⟩
  | 10 => ⟨S156x10, .i32⟩
  | 11 => ⟨S618x10, .i32⟩
  | 12 => ⟨S2466x10, .i32⟩
  | 13 => ⟨S462x2, .i32⟩
  | 14 => ⟨S1848x2, .i32⟩
  | 15 => ⟨S7392x2, .i32⟩
  | 16 => ⟨S8x10000x1, .f32⟩
  | 17 => ⟨S8x156x1, .f32⟩
  | 18 => ⟨S8x10000, .f32⟩
  | 19 => ⟨S8x156, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S462x1, .i32⟩
  | 34 => ⟨S462, .i32⟩
  | 35 => ⟨S_, .i32⟩
  | 36 => ⟨S462, .i32⟩
  | 37 => ⟨S462, .i1⟩
  | 38 => ⟨S_, .i32⟩
  | 39 => ⟨S462, .i32⟩
  | 40 => ⟨S462, .i32⟩
  | 41 => ⟨S462, .i32⟩
  | 42 => ⟨S462x1, .i32⟩
  | 43 => ⟨S8x462x3, .f32⟩
  | 44 => ⟨S462x1, .i32⟩
  | 45 => ⟨S462, .i32⟩
  | 46 => ⟨S_, .i32⟩
  | 47 => ⟨S462, .i32⟩
  | 48 => ⟨S462, .i1⟩
  | 49 => ⟨S_, .i32⟩
  | 50 => ⟨S462, .i32⟩
  | 51 => ⟨S462, .i32⟩
  | 52 => ⟨S462, .i32⟩
  | 53 => ⟨S462x1, .i32⟩
  | 54 => ⟨S8x462x3, .f32⟩
  | 55 => ⟨S8x462x3, .f32⟩
  | 56 => ⟨S8x462x3, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S156x8, .i32⟩
  | 66 => ⟨S_, .i32⟩
  | 67 => ⟨S156x8, .i32⟩
  | 68 => ⟨S156x8, .i1⟩
  | 69 => ⟨S_, .i32⟩
  | 70 => ⟨S_, .i32⟩
  | 71 => ⟨S156x8, .i32⟩
  | 72 => ⟨S156x8, .i32⟩
  | 73 => ⟨S_, .i32⟩
  | 74 => ⟨S156x8, .i32⟩
  | 75 => ⟨S156x8, .i1⟩
  | 76 => ⟨S_, .i32⟩
  | 77 => ⟨S156x8, .i32⟩
  | 78 => ⟨S156x8, .i32⟩
  | 79 => ⟨S156x8, .i32⟩
  | 80 => ⟨S156x8x1, .i32⟩
  | 81 => ⟨S8x156x8x3, .f32⟩
  | 82 => ⟨S1x156x8x1, .i1⟩
  | 83 => ⟨S_, .f32⟩
  | 84 => ⟨S8x156x8x3, .i1⟩
  | 85 => ⟨S8x156x8x3, .f32⟩
  | 86 => ⟨S8x156x8x3, .f32⟩
  | 87 => ⟨S156x1, .i32⟩
  | 88 => ⟨S156, .i32⟩
  | 89 => ⟨S156, .f32⟩
  | 90 => ⟨S_, .f32⟩
  | 91 => ⟨S8x156x3, .f32⟩
  | 92 => ⟨S1x156x1, .f32⟩
  | 93 => ⟨S8x156x3, .f32⟩
  | 94 => ⟨S8x156x3, .f32⟩
  | 95 => ⟨S8x156x3, .f32⟩
  | 96 => ⟨S156x8, .i32⟩
  | 97 => ⟨S_, .i32⟩
  | 98 => ⟨S156x8, .i32⟩
  | 99 => ⟨S156x8, .i1⟩
  | 100 => ⟨S_, .i32⟩
  | 101 => ⟨S_, .i32⟩
  | 102 => ⟨S156x8, .i32⟩
  | 103 => ⟨S156x8, .i32⟩
  | 104 => ⟨S_, .i32⟩
  | 105 => ⟨S156x8, .i32⟩
  | 106 => ⟨S156x8, .i1⟩
  | 107 => ⟨S_, .i32⟩
  | 108 => ⟨S156x8, .i32⟩
  | 109 => ⟨S156x8, .i32⟩
  | 110 => ⟨S156x8, .i32⟩
  | 111 => ⟨S156x8x1, .i32⟩
  | 112 => ⟨S8x156x8x3, .f32⟩
  | 113 => ⟨S1x156x8x1, .i1⟩
  | 114 => ⟨S_, .f32⟩
  | 115 => ⟨S8x156x8x3, .i1⟩
  | 116 => ⟨S8x156x8x3, .f32⟩
  | 117 => ⟨S8x156x8x3, .f32⟩
  | 118 => ⟨S156x1, .i32⟩
  | 119 => ⟨S156, .i32⟩
  | 120 => ⟨S156, .f32⟩
  | 121 => ⟨S_, .f32⟩
  | 122 => ⟨S8x156x3, .f32⟩
  | 123 => ⟨S1x156x1, .f32⟩
  | 124 => ⟨S8x156x3, .f32⟩
  | 125 => ⟨S8x156x3, .f32⟩
  | 126 => ⟨S8x156x3, .f32⟩
  | 127 => ⟨S8x156x3, .f32⟩
  | _ => ⟨S8x10000x3, .f32⟩

abbrev hbmTy0_1 (i : Nat) : BufTy := match i % 128 with
  | 0 => ⟨S8x156x3, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S8x10000x1, .f32⟩
  | 12 => ⟨S8x618x1, .f32⟩
  | 13 => ⟨S8x10000, .f32⟩
  | 14 => ⟨S8x618, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S1848x1, .i32⟩
  | 28 => ⟨S1848, .i32⟩
  | 29 => ⟨S_, .i32⟩
  | 30 => ⟨S1848, .i32⟩
  | 31 => ⟨S1848, .i1⟩
  | 32 => ⟨S_, .i32⟩
  | 33 => ⟨S1848, .i32⟩
  | 34 => ⟨S1848, .i32⟩
  | 35 => ⟨S1848, .i32⟩
  | 36 => ⟨S1848x1, .i32⟩
  | 37 => ⟨S8x1848x3, .f32⟩
  | 38 => ⟨S1848x1, .i32⟩
  | 39 => ⟨S1848, .i32⟩
  | 40 => ⟨S_, .i32⟩
  | 41 => ⟨S1848, .i32⟩
  | 42 => ⟨S1848, .i1⟩
  | 43 => ⟨S_, .i32⟩
  | 44 => ⟨S1848, .i32⟩
  | 45 => ⟨S1848, .i32⟩
  | 46 => ⟨S1848, .i32⟩
  | 47 => ⟨S1848x1, .i32⟩
  | 48 => ⟨S8x1848x3, .f32⟩
  | 49 => ⟨S8x1848x3, .f32⟩
  | 50 => ⟨S8x1848x3, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S618x8, .i32⟩
  | 59 => ⟨S_, .i32⟩
  | 60 => ⟨S618x8, .i32⟩
  | 61 => ⟨S618x8, .i1⟩
  | 62 => ⟨S_, .i32⟩
  | 63 => ⟨S_, .i32⟩
  | 64 => ⟨S618x8, .i32⟩
  | 65 => ⟨S618x8, .i32⟩
  | 66 => ⟨S_, .i32⟩
  | 67 => ⟨S618x8, .i32⟩
  | 68 => ⟨S618x8, .i1⟩
  | 69 => ⟨S_, .i32⟩
  | 70 => ⟨S618x8, .i32⟩
  | 71 => ⟨S618x8, .i32⟩
  | 72 => ⟨S618x8, .i32⟩
  | 73 => ⟨S618x8x1, .i32⟩
  | 74 => ⟨S8x618x8x3, .f32⟩
  | 75 => ⟨S1x618x8x1, .i1⟩
  | 76 => ⟨S_, .f32⟩
  | 77 => ⟨S8x618x8x3, .i1⟩
  | 78 => ⟨S8x618x8x3, .f32⟩
  | 79 => ⟨S8x618x8x3, .f32⟩
  | 80 => ⟨S618x1, .i32⟩
  | 81 => ⟨S618, .i32⟩
  | 82 => ⟨S618, .f32⟩
  | 83 => ⟨S_, .f32⟩
  | 84 => ⟨S8x618x3, .f32⟩
  | 85 => ⟨S1x618x1, .f32⟩
  | 86 => ⟨S8x618x3, .f32⟩
  | 87 => ⟨S8x618x3, .f32⟩
  | 88 => ⟨S8x618x3, .f32⟩
  | 89 => ⟨S618x8, .i32⟩
  | 90 => ⟨S_, .i32⟩
  | 91 => ⟨S618x8, .i32⟩
  | 92 => ⟨S618x8, .i1⟩
  | 93 => ⟨S_, .i32⟩
  | 94 => ⟨S_, .i32⟩
  | 95 => ⟨S618x8, .i32⟩
  | 96 => ⟨S618x8, .i32⟩
  | 97 => ⟨S_, .i32⟩
  | 98 => ⟨S618x8, .i32⟩
  | 99 => ⟨S618x8, .i1⟩
  | 100 => ⟨S_, .i32⟩
  | 101 => ⟨S618x8, .i32⟩
  | 102 => ⟨S618x8, .i32⟩
  | 103 => ⟨S618x8, .i32⟩
  | 104 => ⟨S618x8x1, .i32⟩
  | 105 => ⟨S8x618x8x3, .f32⟩
  | 106 => ⟨S1x618x8x1, .i1⟩
  | 107 => ⟨S_, .f32⟩
  | 108 => ⟨S8x618x8x3, .i1⟩
  | 109 => ⟨S8x618x8x3, .f32⟩
  | 110 => ⟨S8x618x8x3, .f32⟩
  | 111 => ⟨S618x1, .i32⟩
  | 112 => ⟨S618, .i32⟩
  | 113 => ⟨S618, .f32⟩
  | 114 => ⟨S_, .f32⟩
  | 115 => ⟨S8x618x3, .f32⟩
  | 116 => ⟨S1x618x1, .f32⟩
  | 117 => ⟨S8x618x3, .f32⟩
  | 118 => ⟨S8x618x3, .f32⟩
  | 119 => ⟨S8x618x3, .f32⟩
  | 120 => ⟨S8x618x3, .f32⟩
  | 121 => ⟨S8x618x3, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S8x10000x3, .f32⟩

abbrev hbmTy0_2 (i : Nat) : BufTy := match i % 128 with
  | 0 => ⟨S_, .f32⟩
  | 1 => ⟨S_, .f32⟩
  | 2 => ⟨S_, .f32⟩
  | 3 => ⟨S8x618x3, .f32⟩
  | 4 => ⟨S8x618x3, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S8x10000x1, .f32⟩
  | 16 => ⟨S8x2466x1, .f32⟩
  | 17 => ⟨S8x10000, .f32⟩
  | 18 => ⟨S8x2466, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S7392x1, .i32⟩
  | 32 => ⟨S7392, .i32⟩
  | 33 => ⟨S_, .i32⟩
  | 34 => ⟨S7392, .i32⟩
  | 35 => ⟨S7392, .i1⟩
  | 36 => ⟨S_, .i32⟩
  | 37 => ⟨S7392, .i32⟩
  | 38 => ⟨S7392, .i32⟩
  | 39 => ⟨S7392, .i32⟩
  | 40 => ⟨S7392x1, .i32⟩
  | 41 => ⟨S8x7392x3, .f32⟩
  | 42 => ⟨S7392x1, .i32⟩
  | 43 => ⟨S7392, .i32⟩
  | 44 => ⟨S_, .i32⟩
  | 45 => ⟨S7392, .i32⟩
  | 46 => ⟨S7392, .i1⟩
  | 47 => ⟨S_, .i32⟩
  | 48 => ⟨S7392, .i32⟩
  | 49 => ⟨S7392, .i32⟩
  | 50 => ⟨S7392, .i32⟩
  | 51 => ⟨S7392x1, .i32⟩
  | 52 => ⟨S8x7392x3, .f32⟩
  | 53 => ⟨S8x7392x3, .f32⟩
  | 54 => ⟨S8x7392x3, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S2466x8, .i32⟩
  | 63 => ⟨S_, .i32⟩
  | 64 => ⟨S2466x8, .i32⟩
  | 65 => ⟨S2466x8, .i1⟩
  | 66 => ⟨S_, .i32⟩
  | 67 => ⟨S_, .i32⟩
  | 68 => ⟨S2466x8, .i32⟩
  | 69 => ⟨S2466x8, .i32⟩
  | 70 => ⟨S_, .i32⟩
  | 71 => ⟨S2466x8, .i32⟩
  | 72 => ⟨S2466x8, .i1⟩
  | 73 => ⟨S_, .i32⟩
  | 74 => ⟨S2466x8, .i32⟩
  | 75 => ⟨S2466x8, .i32⟩
  | 76 => ⟨S2466x8, .i32⟩
  | 77 => ⟨S2466x8x1, .i32⟩
  | 78 => ⟨S8x2466x8x3, .f32⟩
  | 79 => ⟨S1x2466x8x1, .i1⟩
  | 80 => ⟨S_, .f32⟩
  | 81 => ⟨S8x2466x8x3, .i1⟩
  | 82 => ⟨S8x2466x8x3, .f32⟩
  | 83 => ⟨S8x2466x8x3, .f32⟩
  | 84 => ⟨S2466x1, .i32⟩
  | 85 => ⟨S2466, .i32⟩
  | 86 => ⟨S2466, .f32⟩
  | 87 => ⟨S_, .f32⟩
  | 88 => ⟨S8x2466x3, .f32⟩
  | 89 => ⟨S1x2466x1, .f32⟩
  | 90 => ⟨S8x2466x3, .f32⟩
  | 91 => ⟨S8x2466x3, .f32⟩
  | 92 => ⟨S8x2466x3, .f32⟩
  | 93 => ⟨S2466x8, .i32⟩
  | 94 => ⟨S_, .i32⟩
  | 95 => ⟨S2466x8, .i32⟩
  | 96 => ⟨S2466x8, .i1⟩
  | 97 => ⟨S_, .i32⟩
  | 98 => ⟨S_, .i32⟩
  | 99 => ⟨S2466x8, .i32⟩
  | 100 => ⟨S2466x8, .i32⟩
  | 101 => ⟨S_, .i32⟩
  | 102 => ⟨S2466x8, .i32⟩
  | 103 => ⟨S2466x8, .i1⟩
  | 104 => ⟨S_, .i32⟩
  | 105 => ⟨S2466x8, .i32⟩
  | 106 => ⟨S2466x8, .i32⟩
  | 107 => ⟨S2466x8, .i32⟩
  | 108 => ⟨S2466x8x1, .i32⟩
  | 109 => ⟨S8x2466x8x3, .f32⟩
  | 110 => ⟨S1x2466x8x1, .i1⟩
  | 111 => ⟨S_, .f32⟩
  | 112 => ⟨S8x2466x8x3, .i1⟩
  | 113 => ⟨S8x2466x8x3, .f32⟩
  | 114 => ⟨S8x2466x8x3, .f32⟩
  | 115 => ⟨S2466x1, .i32⟩
  | 116 => ⟨S2466, .i32⟩
  | 117 => ⟨S2466, .f32⟩
  | 118 => ⟨S_, .f32⟩
  | 119 => ⟨S8x2466x3, .f32⟩
  | 120 => ⟨S1x2466x1, .f32⟩
  | 121 => ⟨S8x2466x3, .f32⟩
  | 122 => ⟨S8x2466x3, .f32⟩
  | 123 => ⟨S8x2466x3, .f32⟩
  | 124 => ⟨S8x2466x3, .f32⟩
  | 125 => ⟨S8x2466x3, .f32⟩
  | 126 => ⟨S_, .f32⟩
  | 127 => ⟨S_, .f32⟩
  | _ => ⟨S8x10000x3, .f32⟩

abbrev hbmTy0_3 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S8x2466x3, .f32⟩
  | 8 => ⟨S8x2466x3, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | _ => ⟨S8x10000x3, .f32⟩

abbrev hbmTy (i : Nat) : BufTy := match i / 128 with
  | 0 => hbmTy0_0 i
  | 1 => hbmTy0_1 i
  | 2 => hbmTy0_2 i
  | 3 => hbmTy0_3 i
  | _ => ⟨S8x10000x3, .f32⟩

abbrev bufTy : (tb : Table) → Fin (tcTables nBuf tb) → BufTy
  | .hbm, ⟨i, _⟩ => hbmTy i
  | .local _ .vmem, ⟨0, _⟩ => ⟨S1x1000x3, .f32⟩
  | .local _ .vmem, ⟨1, _⟩ => ⟨S1x1000x3, .f32⟩
  | .local _ .vmem, ⟨2, _⟩ => ⟨S1x156x3, .f32⟩
  | .local _ .vmem, ⟨3, _⟩ => ⟨S1x156x3, .f32⟩
  | .local _ .vmem, ⟨4, _⟩ => ⟨S1x1000x1, .f32⟩
  | .local _ .vmem, ⟨5, _⟩ => ⟨S1x1000x1, .f32⟩
  | .local _ .vmem, ⟨6, _⟩ => ⟨S1x156x1, .f32⟩
  | .local _ .vmem, ⟨7, _⟩ => ⟨S1x156x1, .f32⟩
  | .local _ .vmem, ⟨8, _⟩ => ⟨S1x156x1, .f32⟩
  | .local _ .vmem, ⟨9, _⟩ => ⟨S1x1000x3, .f32⟩
  | .local _ .vmem, ⟨10, _⟩ => ⟨S1x1000x3, .f32⟩
  | .local _ .vmem, ⟨11, _⟩ => ⟨S1x618x3, .f32⟩
  | .local _ .vmem, ⟨12, _⟩ => ⟨S1x618x3, .f32⟩
  | .local _ .vmem, ⟨13, _⟩ => ⟨S1x1000x1, .f32⟩
  | .local _ .vmem, ⟨14, _⟩ => ⟨S1x1000x1, .f32⟩
  | .local _ .vmem, ⟨15, _⟩ => ⟨S1x618x1, .f32⟩
  | .local _ .vmem, ⟨16, _⟩ => ⟨S1x618x1, .f32⟩
  | .local _ .vmem, ⟨17, _⟩ => ⟨S1x618x1, .f32⟩
  | .local _ .vmem, ⟨18, _⟩ => ⟨S1x1000x3, .f32⟩
  | .local _ .vmem, ⟨19, _⟩ => ⟨S1x1000x3, .f32⟩
  | .local _ .vmem, ⟨20, _⟩ => ⟨S1x2466x3, .f32⟩
  | .local _ .vmem, ⟨21, _⟩ => ⟨S1x2466x3, .f32⟩
  | .local _ .vmem, ⟨22, _⟩ => ⟨S1x1000x1, .f32⟩
  | .local _ .vmem, ⟨23, _⟩ => ⟨S1x1000x1, .f32⟩
  | .local _ .vmem, ⟨24, _⟩ => ⟨S1x2466x1, .f32⟩
  | .local _ .vmem, ⟨25, _⟩ => ⟨S1x2466x1, .f32⟩
  | .local _ .vmem, ⟨26, _⟩ => ⟨S1x2466x1, .f32⟩
  | _, _ => ⟨S8x10000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v1 : Ref sig .tc := ⟨.hbm, 18, rfl⟩
abbrev main_v2 : Ref sig .tc := ⟨.hbm, 19, rfl⟩
abbrev main_cst : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_cst_2 : Ref sig .tc := ⟨.hbm, 26, rfl⟩
abbrev main_v6 : Ref sig .tc := ⟨.hbm, 27, rfl⟩
abbrev main_cst_3 : Ref sig .tc := ⟨.hbm, 28, rfl⟩
abbrev main_v7 : Ref sig .tc := ⟨.hbm, 29, rfl⟩
abbrev main_cst_4 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c : Ref sig .tc := ⟨.hbm, 35, rfl⟩
abbrev main_v12 : Ref sig .tc := ⟨.hbm, 36, rfl⟩
abbrev main_v13 : Ref sig .tc := ⟨.hbm, 37, rfl⟩
abbrev main_c_5 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_6 : Ref sig .tc := ⟨.hbm, 46, rfl⟩
abbrev main_v21 : Ref sig .tc := ⟨.hbm, 47, rfl⟩
abbrev main_v22 : Ref sig .tc := ⟨.hbm, 48, rfl⟩
abbrev main_c_7 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_8 : Ref sig .tc := ⟨.hbm, 57, rfl⟩
abbrev main_v30 : Ref sig .tc := ⟨.hbm, 58, rfl⟩
abbrev main_cst_9 : Ref sig .tc := ⟨.hbm, 59, rfl⟩
abbrev main_v31 : Ref sig .tc := ⟨.hbm, 60, rfl⟩
abbrev main_cst_10 : Ref sig .tc := ⟨.hbm, 61, rfl⟩
abbrev main_v32 : Ref sig .tc := ⟨.hbm, 62, rfl⟩
abbrev main_cst_11 : Ref sig .tc := ⟨.hbm, 63, rfl⟩
abbrev main_v33 : Ref sig .tc := ⟨.hbm, 64, rfl⟩
abbrev main_v34 : Ref sig .tc := ⟨.hbm, 65, rfl⟩
abbrev main_c_12 : Ref sig .tc := ⟨.hbm, 66, rfl⟩
abbrev main_v35 : Ref sig .tc := ⟨.hbm, 67, rfl⟩
abbrev main_v36 : Ref sig .tc := ⟨.hbm, 68, rfl⟩
abbrev main_c_13 : Ref sig .tc := ⟨.hbm, 69, rfl⟩
abbrev main_call0_v0 : Ref sig .tc := ⟨.hbm, 70, rfl⟩
abbrev main_call0_v1 : Ref sig .tc := ⟨.hbm, 71, rfl⟩
abbrev main_v37 : Ref sig .tc := ⟨.hbm, 72, rfl⟩
abbrev main_c_14 : Ref sig .tc := ⟨.hbm, 73, rfl⟩
abbrev main_v38 : Ref sig .tc := ⟨.hbm, 74, rfl⟩
abbrev main_v39 : Ref sig .tc := ⟨.hbm, 75, rfl⟩
abbrev main_c_15 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_16 : Ref sig .tc := ⟨.hbm, 83, rfl⟩
abbrev main_call1_v0 : Ref sig .tc := ⟨.hbm, 84, rfl⟩
abbrev main_call1_v1 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_cst_17 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_c_18 : Ref sig .tc := ⟨.hbm, 97, rfl⟩
abbrev main_v56 : Ref sig .tc := ⟨.hbm, 98, rfl⟩
abbrev main_v57 : Ref sig .tc := ⟨.hbm, 99, rfl⟩
abbrev main_c_19 : Ref sig .tc := ⟨.hbm, 100, rfl⟩
abbrev main_call2_v0 : Ref sig .tc := ⟨.hbm, 101, rfl⟩
abbrev main_call2_v1 : Ref sig .tc := ⟨.hbm, 102, rfl⟩
abbrev main_v58 : Ref sig .tc := ⟨.hbm, 103, rfl⟩
abbrev main_c_20 : Ref sig .tc := ⟨.hbm, 104, rfl⟩
abbrev main_v59 : Ref sig .tc := ⟨.hbm, 105, rfl⟩
abbrev main_v60 : Ref sig .tc := ⟨.hbm, 106, rfl⟩
abbrev main_c_21 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_cst_22 : Ref sig .tc := ⟨.hbm, 114, rfl⟩
abbrev main_call3_v0 : Ref sig .tc := ⟨.hbm, 115, rfl⟩
abbrev main_call3_v1 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_cst_23 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_cst_24 : Ref sig .tc := ⟨.hbm, 129, rfl⟩
abbrev main_v78 : Ref sig .tc := ⟨.hbm, 130, rfl⟩
abbrev main_cst_25 : Ref sig .tc := ⟨.hbm, 131, rfl⟩
abbrev main_v79 : Ref sig .tc := ⟨.hbm, 132, rfl⟩
abbrev main_cst_26 : Ref sig .tc := ⟨.hbm, 133, rfl⟩
abbrev main_v80 : Ref sig .tc := ⟨.hbm, 134, rfl⟩
abbrev main_cst_27 : Ref sig .tc := ⟨.hbm, 135, rfl⟩
abbrev main_v81 : Ref sig .tc := ⟨.hbm, 136, rfl⟩
abbrev main_cst_28 : Ref sig .tc := ⟨.hbm, 137, rfl⟩
abbrev main_v82 : Ref sig .tc := ⟨.hbm, 138, rfl⟩
abbrev main_v83_0 : Ref sig .tc := ⟨.hbm, 139, rfl⟩
abbrev main_v83_1 : Ref sig .tc := ⟨.hbm, 140, rfl⟩
abbrev main_v84 : Ref sig .tc := ⟨.hbm, 141, rfl⟩
abbrev main_v85 : Ref sig .tc := ⟨.hbm, 142, rfl⟩
abbrev main_cst_29 : Ref sig .tc := ⟨.hbm, 143, rfl⟩
abbrev main_v86 : Ref sig .tc := ⟨.hbm, 144, rfl⟩
abbrev main_cst_30 : Ref sig .tc := ⟨.hbm, 145, rfl⟩
abbrev main_v87 : Ref sig .tc := ⟨.hbm, 146, rfl⟩
abbrev main_v88 : Ref sig .tc := ⟨.hbm, 147, rfl⟩
abbrev main_cst_31 : Ref sig .tc := ⟨.hbm, 148, rfl⟩
abbrev main_v89 : Ref sig .tc := ⟨.hbm, 149, rfl⟩
abbrev main_cst_32 : Ref sig .tc := ⟨.hbm, 150, rfl⟩
abbrev main_v90 : Ref sig .tc := ⟨.hbm, 151, rfl⟩
abbrev main_cst_33 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_c_34 : Ref sig .tc := ⟨.hbm, 157, rfl⟩
abbrev main_v95 : Ref sig .tc := ⟨.hbm, 158, rfl⟩
abbrev main_v96 : Ref sig .tc := ⟨.hbm, 159, rfl⟩
abbrev main_c_35 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_c_36 : Ref sig .tc := ⟨.hbm, 168, rfl⟩
abbrev main_v104 : Ref sig .tc := ⟨.hbm, 169, rfl⟩
abbrev main_v105 : Ref sig .tc := ⟨.hbm, 170, rfl⟩
abbrev main_c_37 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_cst_38 : Ref sig .tc := ⟨.hbm, 179, rfl⟩
abbrev main_v113 : Ref sig .tc := ⟨.hbm, 180, rfl⟩
abbrev main_cst_39 : Ref sig .tc := ⟨.hbm, 181, rfl⟩
abbrev main_v114 : Ref sig .tc := ⟨.hbm, 182, rfl⟩
abbrev main_cst_40 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_c_41 : Ref sig .tc := ⟨.hbm, 187, rfl⟩
abbrev main_v118 : Ref sig .tc := ⟨.hbm, 188, rfl⟩
abbrev main_v119 : Ref sig .tc := ⟨.hbm, 189, rfl⟩
abbrev main_c_42 : Ref sig .tc := ⟨.hbm, 190, rfl⟩
abbrev main_call4_v0 : Ref sig .tc := ⟨.hbm, 191, rfl⟩
abbrev main_call4_v1 : Ref sig .tc := ⟨.hbm, 192, rfl⟩
abbrev main_v120 : Ref sig .tc := ⟨.hbm, 193, rfl⟩
abbrev main_c_43 : Ref sig .tc := ⟨.hbm, 194, rfl⟩
abbrev main_v121 : Ref sig .tc := ⟨.hbm, 195, rfl⟩
abbrev main_v122 : Ref sig .tc := ⟨.hbm, 196, rfl⟩
abbrev main_c_44 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_cst_45 : Ref sig .tc := ⟨.hbm, 204, rfl⟩
abbrev main_call5_v0 : Ref sig .tc := ⟨.hbm, 205, rfl⟩
abbrev main_call5_v1 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_cst_46 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_c_47 : Ref sig .tc := ⟨.hbm, 218, rfl⟩
abbrev main_v139 : Ref sig .tc := ⟨.hbm, 219, rfl⟩
abbrev main_v140 : Ref sig .tc := ⟨.hbm, 220, rfl⟩
abbrev main_c_48 : Ref sig .tc := ⟨.hbm, 221, rfl⟩
abbrev main_call6_v0 : Ref sig .tc := ⟨.hbm, 222, rfl⟩
abbrev main_call6_v1 : Ref sig .tc := ⟨.hbm, 223, rfl⟩
abbrev main_v141 : Ref sig .tc := ⟨.hbm, 224, rfl⟩
abbrev main_c_49 : Ref sig .tc := ⟨.hbm, 225, rfl⟩
abbrev main_v142 : Ref sig .tc := ⟨.hbm, 226, rfl⟩
abbrev main_v143 : Ref sig .tc := ⟨.hbm, 227, rfl⟩
abbrev main_c_50 : Ref sig .tc := ⟨.hbm, 228, rfl⟩
abbrev main_v144 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_cst_51 : Ref sig .tc := ⟨.hbm, 235, rfl⟩
abbrev main_call7_v0 : Ref sig .tc := ⟨.hbm, 236, rfl⟩
abbrev main_call7_v1 : Ref sig .tc := ⟨.hbm, 237, rfl⟩
abbrev main_v150 : Ref sig .tc := ⟨.hbm, 238, rfl⟩
abbrev main_v151 : Ref sig .tc := ⟨.hbm, 239, rfl⟩
abbrev main_v152 : Ref sig .tc := ⟨.hbm, 240, rfl⟩
abbrev main_v153 : Ref sig .tc := ⟨.hbm, 241, rfl⟩
abbrev main_cst_52 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_cst_53 : Ref sig .tc := ⟨.hbm, 250, rfl⟩
abbrev main_v161 : Ref sig .tc := ⟨.hbm, 251, rfl⟩
abbrev main_cst_54 : Ref sig .tc := ⟨.hbm, 252, rfl⟩
abbrev main_v162 : Ref sig .tc := ⟨.hbm, 253, rfl⟩
abbrev main_cst_55 : Ref sig .tc := ⟨.hbm, 254, rfl⟩
abbrev main_v163 : Ref sig .tc := ⟨.hbm, 255, rfl⟩
abbrev main_cst_56 : Ref sig .tc := ⟨.hbm, 256, rfl⟩
abbrev main_v164 : Ref sig .tc := ⟨.hbm, 257, rfl⟩
abbrev main_v165 : Ref sig .tc := ⟨.hbm, 258, rfl⟩
abbrev main_v166 : Ref sig .tc := ⟨.hbm, 259, rfl⟩
abbrev main_v167 : Ref sig .tc := ⟨.hbm, 260, rfl⟩
abbrev main_cst_57 : Ref sig .tc := ⟨.hbm, 261, rfl⟩
abbrev main_v168 : Ref sig .tc := ⟨.hbm, 262, rfl⟩
abbrev main_cst_58 : Ref sig .tc := ⟨.hbm, 263, rfl⟩
abbrev main_v169 : Ref sig .tc := ⟨.hbm, 264, rfl⟩
abbrev main_cst_59 : Ref sig .tc := ⟨.hbm, 265, rfl⟩
abbrev main_v170 : Ref sig .tc := ⟨.hbm, 266, rfl⟩
abbrev main_cst_60 : Ref sig .tc := ⟨.hbm, 267, rfl⟩
abbrev main_v171 : Ref sig .tc := ⟨.hbm, 268, rfl⟩
abbrev main_cst_61 : Ref sig .tc := ⟨.hbm, 269, rfl⟩
abbrev main_v172 : Ref sig .tc := ⟨.hbm, 270, rfl⟩
abbrev main_v173_0 : Ref sig .tc := ⟨.hbm, 271, rfl⟩
abbrev main_v173_1 : Ref sig .tc := ⟨.hbm, 272, rfl⟩
abbrev main_v174 : Ref sig .tc := ⟨.hbm, 273, rfl⟩
abbrev main_v175 : Ref sig .tc := ⟨.hbm, 274, rfl⟩
abbrev main_cst_62 : Ref sig .tc := ⟨.hbm, 275, rfl⟩
abbrev main_v176 : Ref sig .tc := ⟨.hbm, 276, rfl⟩
abbrev main_cst_63 : Ref sig .tc := ⟨.hbm, 277, rfl⟩
abbrev main_v177 : Ref sig .tc := ⟨.hbm, 278, rfl⟩
abbrev main_v178 : Ref sig .tc := ⟨.hbm, 279, rfl⟩
abbrev main_cst_64 : Ref sig .tc := ⟨.hbm, 280, rfl⟩
abbrev main_v179 : Ref sig .tc := ⟨.hbm, 281, rfl⟩
abbrev main_cst_65 : Ref sig .tc := ⟨.hbm, 282, rfl⟩
abbrev main_v180 : Ref sig .tc := ⟨.hbm, 283, rfl⟩
abbrev main_cst_66 : Ref sig .tc := ⟨.hbm, 284, rfl⟩
abbrev main_v181 : Ref sig .tc := ⟨.hbm, 285, rfl⟩
abbrev main_v182 : Ref sig .tc := ⟨.hbm, 286, rfl⟩
abbrev main_v183 : Ref sig .tc := ⟨.hbm, 287, rfl⟩
abbrev main_v184 : Ref sig .tc := ⟨.hbm, 288, rfl⟩
abbrev main_c_67 : Ref sig .tc := ⟨.hbm, 289, rfl⟩
abbrev main_v185 : Ref sig .tc := ⟨.hbm, 290, rfl⟩
abbrev main_v186 : Ref sig .tc := ⟨.hbm, 291, rfl⟩
abbrev main_c_68 : Ref sig .tc := ⟨.hbm, 292, rfl⟩
abbrev main_v187 : Ref sig .tc := ⟨.hbm, 293, rfl⟩
abbrev main_v188 : Ref sig .tc := ⟨.hbm, 294, rfl⟩
abbrev main_v189 : Ref sig .tc := ⟨.hbm, 295, rfl⟩
abbrev main_v190 : Ref sig .tc := ⟨.hbm, 296, rfl⟩
abbrev main_v191 : Ref sig .tc := ⟨.hbm, 297, rfl⟩
abbrev main_v192 : Ref sig .tc := ⟨.hbm, 298, rfl⟩
abbrev main_v193 : Ref sig .tc := ⟨.hbm, 299, rfl⟩
abbrev main_c_69 : Ref sig .tc := ⟨.hbm, 300, rfl⟩
abbrev main_v194 : Ref sig .tc := ⟨.hbm, 301, rfl⟩
abbrev main_v195 : Ref sig .tc := ⟨.hbm, 302, rfl⟩
abbrev main_c_70 : Ref sig .tc := ⟨.hbm, 303, rfl⟩
abbrev main_v196 : Ref sig .tc := ⟨.hbm, 304, rfl⟩
abbrev main_v197 : Ref sig .tc := ⟨.hbm, 305, rfl⟩
abbrev main_v198 : Ref sig .tc := ⟨.hbm, 306, rfl⟩
abbrev main_v199 : Ref sig .tc := ⟨.hbm, 307, rfl⟩
abbrev main_v200 : Ref sig .tc := ⟨.hbm, 308, rfl⟩
abbrev main_v201 : Ref sig .tc := ⟨.hbm, 309, rfl⟩
abbrev main_v202 : Ref sig .tc := ⟨.hbm, 310, rfl⟩
abbrev main_cst_71 : Ref sig .tc := ⟨.hbm, 311, rfl⟩
abbrev main_v203 : Ref sig .tc := ⟨.hbm, 312, rfl⟩
abbrev main_cst_72 : Ref sig .tc := ⟨.hbm, 313, rfl⟩
abbrev main_v204 : Ref sig .tc := ⟨.hbm, 314, rfl⟩
abbrev main_cst_73 : Ref sig .tc := ⟨.hbm, 315, rfl⟩
abbrev main_v205 : Ref sig .tc := ⟨.hbm, 316, rfl⟩
abbrev main_v206 : Ref sig .tc := ⟨.hbm, 317, rfl⟩
abbrev main_v207 : Ref sig .tc := ⟨.hbm, 318, rfl⟩
abbrev main_c_74 : Ref sig .tc := ⟨.hbm, 319, rfl⟩
abbrev main_v208 : Ref sig .tc := ⟨.hbm, 320, rfl⟩
abbrev main_v209 : Ref sig .tc := ⟨.hbm, 321, rfl⟩
abbrev main_c_75 : Ref sig .tc := ⟨.hbm, 322, rfl⟩
abbrev main_call8_v0 : Ref sig .tc := ⟨.hbm, 323, rfl⟩
abbrev main_call8_v1 : Ref sig .tc := ⟨.hbm, 324, rfl⟩
abbrev main_v210 : Ref sig .tc := ⟨.hbm, 325, rfl⟩
abbrev main_c_76 : Ref sig .tc := ⟨.hbm, 326, rfl⟩
abbrev main_v211 : Ref sig .tc := ⟨.hbm, 327, rfl⟩
abbrev main_v212 : Ref sig .tc := ⟨.hbm, 328, rfl⟩
abbrev main_c_77 : Ref sig .tc := ⟨.hbm, 329, rfl⟩
abbrev main_v213 : Ref sig .tc := ⟨.hbm, 330, rfl⟩
abbrev main_v214 : Ref sig .tc := ⟨.hbm, 331, rfl⟩
abbrev main_v215 : Ref sig .tc := ⟨.hbm, 332, rfl⟩
abbrev main_v216 : Ref sig .tc := ⟨.hbm, 333, rfl⟩
abbrev main_v217 : Ref sig .tc := ⟨.hbm, 334, rfl⟩
abbrev main_v218 : Ref sig .tc := ⟨.hbm, 335, rfl⟩
abbrev main_cst_78 : Ref sig .tc := ⟨.hbm, 336, rfl⟩
abbrev main_call9_v0 : Ref sig .tc := ⟨.hbm, 337, rfl⟩
abbrev main_call9_v1 : Ref sig .tc := ⟨.hbm, 338, rfl⟩
abbrev main_v219 : Ref sig .tc := ⟨.hbm, 339, rfl⟩
abbrev main_v220 : Ref sig .tc := ⟨.hbm, 340, rfl⟩
abbrev main_v221 : Ref sig .tc := ⟨.hbm, 341, rfl⟩
abbrev main_v222 : Ref sig .tc := ⟨.hbm, 342, rfl⟩
abbrev main_cst_79 : Ref sig .tc := ⟨.hbm, 343, rfl⟩
abbrev main_v223 : Ref sig .tc := ⟨.hbm, 344, rfl⟩
abbrev main_v224 : Ref sig .tc := ⟨.hbm, 345, rfl⟩
abbrev main_v225 : Ref sig .tc := ⟨.hbm, 346, rfl⟩
abbrev main_v226 : Ref sig .tc := ⟨.hbm, 347, rfl⟩
abbrev main_v227 : Ref sig .tc := ⟨.hbm, 348, rfl⟩
abbrev main_v228 : Ref sig .tc := ⟨.hbm, 349, rfl⟩
abbrev main_c_80 : Ref sig .tc := ⟨.hbm, 350, rfl⟩
abbrev main_v229 : Ref sig .tc := ⟨.hbm, 351, rfl⟩
abbrev main_v230 : Ref sig .tc := ⟨.hbm, 352, rfl⟩
abbrev main_c_81 : Ref sig .tc := ⟨.hbm, 353, rfl⟩
abbrev main_call10_v0 : Ref sig .tc := ⟨.hbm, 354, rfl⟩
abbrev main_call10_v1 : Ref sig .tc := ⟨.hbm, 355, rfl⟩
abbrev main_v231 : Ref sig .tc := ⟨.hbm, 356, rfl⟩
abbrev main_c_82 : Ref sig .tc := ⟨.hbm, 357, rfl⟩
abbrev main_v232 : Ref sig .tc := ⟨.hbm, 358, rfl⟩
abbrev main_v233 : Ref sig .tc := ⟨.hbm, 359, rfl⟩
abbrev main_c_83 : Ref sig .tc := ⟨.hbm, 360, rfl⟩
abbrev main_v234 : Ref sig .tc := ⟨.hbm, 361, rfl⟩
abbrev main_v235 : Ref sig .tc := ⟨.hbm, 362, rfl⟩
abbrev main_v236 : Ref sig .tc := ⟨.hbm, 363, rfl⟩
abbrev main_v237 : Ref sig .tc := ⟨.hbm, 364, rfl⟩
abbrev main_v238 : Ref sig .tc := ⟨.hbm, 365, rfl⟩
abbrev main_v239 : Ref sig .tc := ⟨.hbm, 366, rfl⟩
abbrev main_cst_84 : Ref sig .tc := ⟨.hbm, 367, rfl⟩
abbrev main_call11_v0 : Ref sig .tc := ⟨.hbm, 368, rfl⟩
abbrev main_call11_v1 : Ref sig .tc := ⟨.hbm, 369, rfl⟩
abbrev main_v240 : Ref sig .tc := ⟨.hbm, 370, rfl⟩
abbrev main_v241 : Ref sig .tc := ⟨.hbm, 371, rfl⟩
abbrev main_v242 : Ref sig .tc := ⟨.hbm, 372, rfl⟩
abbrev main_v243 : Ref sig .tc := ⟨.hbm, 373, rfl⟩
abbrev main_cst_85 : Ref sig .tc := ⟨.hbm, 374, rfl⟩
abbrev main_v244 : Ref sig .tc := ⟨.hbm, 375, rfl⟩
abbrev main_v245 : Ref sig .tc := ⟨.hbm, 376, rfl⟩
abbrev main_v246 : Ref sig .tc := ⟨.hbm, 377, rfl⟩
abbrev main_v247 : Ref sig .tc := ⟨.hbm, 378, rfl⟩
abbrev main_v248 : Ref sig .tc := ⟨.hbm, 379, rfl⟩
abbrev main_v249 : Ref sig .tc := ⟨.hbm, 380, rfl⟩
abbrev main_v250 : Ref sig .tc := ⟨.hbm, 381, rfl⟩
abbrev main_cst_86 : Ref sig .tc := ⟨.hbm, 382, rfl⟩
abbrev main_v251 : Ref sig .tc := ⟨.hbm, 383, rfl⟩
abbrev main_cst_87 : Ref sig .tc := ⟨.hbm, 384, rfl⟩
abbrev main_v252 : Ref sig .tc := ⟨.hbm, 385, rfl⟩
abbrev main_cst_88 : Ref sig .tc := ⟨.hbm, 386, rfl⟩
abbrev main_v253 : Ref sig .tc := ⟨.hbm, 387, rfl⟩
abbrev main_cst_89 : Ref sig .tc := ⟨.hbm, 388, rfl⟩
abbrev main_v254 : Ref sig .tc := ⟨.hbm, 389, rfl⟩
abbrev main_v255 : Ref sig .tc := ⟨.hbm, 390, rfl⟩
abbrev main_v256 : Ref sig .tc := ⟨.hbm, 391, rfl⟩
abbrev main_v257 : Ref sig .tc := ⟨.hbm, 392, rfl⟩
abbrev main_cst_90 : Ref sig .tc := ⟨.hbm, 393, rfl⟩
abbrev main_v258 : Ref sig .tc := ⟨.hbm, 394, rfl⟩
abbrev main_cst_91 : Ref sig .tc := ⟨.hbm, 395, rfl⟩
abbrev main_v259 : Ref sig .tc := ⟨.hbm, 396, rfl⟩
abbrev main_cst_92 : Ref sig .tc := ⟨.hbm, 397, rfl⟩
abbrev main_v260 : Ref sig .tc := ⟨.hbm, 398, rfl⟩
abbrev main_cst_93 : Ref sig .tc := ⟨.hbm, 399, rfl⟩
abbrev main_v261 : Ref sig .tc := ⟨.hbm, 400, rfl⟩
abbrev main_v262 : Ref sig .tc := ⟨.hbm, 401, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨2, ![8, 10], ![false, false]⟩

def k0_cond3 (i : grid0.Coords) : BitVec 1 :=
  let arg1 : BitVec 32 := BitVec.ofNat 32 (i 1).val
  let c9_i32 : BitVec 32 := 9#32
  let v31 : BitVec 1 := Scalar.cmpi .eq arg1 c9_i32
  let v32 : BitVec 32 := Scalar.extui v31
  let c0_i32_16 : BitVec 32 := 0#32
  let v33 : BitVec 1 := Scalar.cmpi .ne v32 c0_i32_16
  v33

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x156x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x156x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 10], ![false, false]⟩

def k1_cond3 (i : grid1.Coords) : BitVec 1 :=
  let arg1 : BitVec 32 := BitVec.ofNat 32 (i 1).val
  let c9_i32 : BitVec 32 := 9#32
  let v31 : BitVec 1 := Scalar.cmpi .eq arg1 c9_i32
  let v32 : BitVec 32 := Scalar.extui v31
  let c0_i32_16 : BitVec 32 := 0#32
  let v33 : BitVec 1 := Scalar.cmpi .ne v32 c0_i32_16
  v33

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x618x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x618x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 10], ![false, false]⟩

def k2_cond3 (i : grid2.Coords) : BitVec 1 :=
  let arg1 : BitVec 32 := BitVec.ofNat 32 (i 1).val
  let c9_i32 : BitVec 32 := 9#32
  let v31 : BitVec 1 := Scalar.cmpi .eq arg1 c9_i32
  let v32 : BitVec 32 := Scalar.extui v31
  let c0_i32_16 : BitVec 32 := 0#32
  let v33 : BitVec 1 := Scalar.cmpi .ne v32 c0_i32_16
  v33

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1000x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2466x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x2466x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  inb_S1x1000x3_S1x1000x3_0_0_0 : ∀ a, (![0, 0, 0] : Fin 3 → Nat) a + S1x1000x3.size a ≤ S1x1000x3.size a
  h_S1x1000x3 : 0 < S1x1000x3.numel
  shapeCasts_S1x1000x3_S1000x3 : S1x1000x3.ShapeCasts S1000x3
  inb_S1x156x3_S1x156x3_0_0_0 : ∀ a, (![0, 0, 0] : Fin 3 → Nat) a + S1x156x3.size a ≤ S1x156x3.size a
  h_S1x156x3 : 0 < S1x156x3.numel
  shapeCasts_S1x156x3_S156x3 : S1x156x3.ShapeCasts S156x3
  reduces_S1000x3_S1000 : S1000x3.Reduces [1] S1000
  shapeCasts_S1000_S1000x1 : S1000.ShapeCasts S1000x1
  reduces_S156x3_S156 : S156x3.Reduces [1] S156
  shapeCasts_S156_S1x156 : S156.ShapeCasts S1x156
  transposes_S156x3_p1_0_S3x156 : S156x3.Transposes [1, 0] S3x156
  broadcasts_S1000x1_S1000x156 : S1000x1.Broadcasts S1000x156
  broadcasts_S1x156_S1000x156 : S1x156.Broadcasts S1000x156
  reduces_S1000x156_S1000 : S1000x156.Reduces [1] S1000
  inb_S1x1000x1_S1x1000x1_0_0_0 : ∀ a, (![0, 0, 0] : Fin 3 → Nat) a + S1x1000x1.size a ≤ S1x1000x1.size a
  h_S1x1000x1 : 0 < S1x1000x1.numel
  shapeCasts_S1x1000x1_S1000x1 : S1x1000x1.ShapeCasts S1000x1
  shapeCasts_S1000x1_S1x1000x1 : S1000x1.ShapeCasts S1x1000x1
  reduces_S1000x156_S156 : S1000x156.Reduces [0] S156
  shapeCasts_S156_S156x1 : S156.ShapeCasts S156x1
  inb_S1x156x1_S1x156x1_0_0_0 : ∀ a, (![0, 0, 0] : Fin 3 → Nat) a + S1x156x1.size a ≤ S1x156x1.size a
  h_S1x156x1 : 0 < S1x156x1.numel
  shapeCasts_S1x156x1_S156x1 : S1x156x1.ShapeCasts S156x1
  shapeCasts_S156x1_S1x156x1 : S156x1.ShapeCasts S1x156x1
  shapeCasts_S8x10000x1_S8x10000 : S8x10000x1.ShapeCasts S8x10000
  shapeCasts_S8x156x1_S8x156 : S8x156x1.ShapeCasts S8x156
  reducesTo_S8x10000_S_d0_1 : S8x10000.ReducesTo [0, 1] S_
  h_S_ : 0 < S_.numel
  reducesTo_S8x156_S_d0_1 : S8x156.ReducesTo [0, 1] S_
  slices_S462x2_S462x1_0_0 : S462x2.Slices ![0, 0] S462x1
  shapeCasts_S462x1_S462 : S462x1.ShapeCasts S462
  bcast_S_S462 : S_.BroadcastsInDim S462 (![] : Fin 0 → Fin S462.rank)
  bcast_S462_S462x1_0 : S462.BroadcastsInDim S462x1 (![0] : Fin 1 → Fin S462x1.rank)
  slices_S462x2_S462x1_0_1 : S462x2.Slices ![0, 1] S462x1
  reducesTo_S8x462x3_S_d0_1_2 : S8x462x3.ReducesTo [0, 1, 2] S_
  slices_S156x10_S156x8_0_0 : S156x10.Slices ![0, 0] S156x8
  bcast_S_S156x8 : S_.BroadcastsInDim S156x8 (![] : Fin 0 → Fin S156x8.rank)
  bcast_S156x8_S156x8x1_0_1 : S156x8.BroadcastsInDim S156x8x1 (![0, 1] : Fin 2 → Fin S156x8x1.rank)
  bcast_S156x8_S1x156x8x1_1_2 : S156x8.BroadcastsInDim S1x156x8x1 (![1, 2] : Fin 2 → Fin S1x156x8x1.rank)
  bcast_S1x156x8x1_S8x156x8x3_0_1_2_3 : S1x156x8x1.BroadcastsInDim S8x156x8x3 (![0, 1, 2, 3] : Fin 4 → Fin S8x156x8x3.rank)
  bcast_S_S8x156x8x3 : S_.BroadcastsInDim S8x156x8x3 (![] : Fin 0 → Fin S8x156x8x3.rank)
  slices_S156x10_S156x1_0_9 : S156x10.Slices ![0, 9] S156x1
  shapeCasts_S156x1_S156 : S156x1.ShapeCasts S156
  reducesTo_S8x156x8x3_S8x156x3_d2 : S8x156x8x3.ReducesTo [2] S8x156x3
  bcast_S156_S1x156x1_1 : S156.BroadcastsInDim S1x156x1 (![1] : Fin 1 → Fin S1x156x1.rank)
  bcast_S1x156x1_S8x156x3_0_1_2 : S1x156x1.BroadcastsInDim S8x156x3 (![0, 1, 2] : Fin 3 → Fin S8x156x3.rank)
  reducesTo_S8x156x3_S_d0_1_2 : S8x156x3.ReducesTo [0, 1, 2] S_
  inb_S1x618x3_S1x618x3_0_0_0 : ∀ a, (![0, 0, 0] : Fin 3 → Nat) a + S1x618x3.size a ≤ S1x618x3.size a
  h_S1x618x3 : 0 < S1x618x3.numel
  shapeCasts_S1x618x3_S618x3 : S1x618x3.ShapeCasts S618x3
  reduces_S618x3_S618 : S618x3.Reduces [1] S618
  shapeCasts_S618_S1x618 : S618.ShapeCasts S1x618
  transposes_S618x3_p1_0_S3x618 : S618x3.Transposes [1, 0] S3x618
  broadcasts_S1000x1_S1000x618 : S1000x1.Broadcasts S1000x618
  broadcasts_S1x618_S1000x618 : S1x618.Broadcasts S1000x618
  reduces_S1000x618_S1000 : S1000x618.Reduces [1] S1000
  reduces_S1000x618_S618 : S1000x618.Reduces [0] S618
  shapeCasts_S618_S618x1 : S618.ShapeCasts S618x1
  inb_S1x618x1_S1x618x1_0_0_0 : ∀ a, (![0, 0, 0] : Fin 3 → Nat) a + S1x618x1.size a ≤ S1x618x1.size a
  h_S1x618x1 : 0 < S1x618x1.numel
  shapeCasts_S1x618x1_S618x1 : S1x618x1.ShapeCasts S618x1
  shapeCasts_S618x1_S1x618x1 : S618x1.ShapeCasts S1x618x1
  shapeCasts_S8x618x1_S8x618 : S8x618x1.ShapeCasts S8x618
  reducesTo_S8x618_S_d0_1 : S8x618.ReducesTo [0, 1] S_
  slices_S1848x2_S1848x1_0_0 : S1848x2.Slices ![0, 0] S1848x1
  shapeCasts_S1848x1_S1848 : S1848x1.ShapeCasts S1848
  bcast_S_S1848 : S_.BroadcastsInDim S1848 (![] : Fin 0 → Fin S1848.rank)
  bcast_S1848_S1848x1_0 : S1848.BroadcastsInDim S1848x1 (![0] : Fin 1 → Fin S1848x1.rank)
  slices_S1848x2_S1848x1_0_1 : S1848x2.Slices ![0, 1] S1848x1
  reducesTo_S8x1848x3_S_d0_1_2 : S8x1848x3.ReducesTo [0, 1, 2] S_
  slices_S618x10_S618x8_0_0 : S618x10.Slices ![0, 0] S618x8
  bcast_S_S618x8 : S_.BroadcastsInDim S618x8 (![] : Fin 0 → Fin S618x8.rank)
  bcast_S618x8_S618x8x1_0_1 : S618x8.BroadcastsInDim S618x8x1 (![0, 1] : Fin 2 → Fin S618x8x1.rank)
  bcast_S618x8_S1x618x8x1_1_2 : S618x8.BroadcastsInDim S1x618x8x1 (![1, 2] : Fin 2 → Fin S1x618x8x1.rank)
  bcast_S1x618x8x1_S8x618x8x3_0_1_2_3 : S1x618x8x1.BroadcastsInDim S8x618x8x3 (![0, 1, 2, 3] : Fin 4 → Fin S8x618x8x3.rank)
  bcast_S_S8x618x8x3 : S_.BroadcastsInDim S8x618x8x3 (![] : Fin 0 → Fin S8x618x8x3.rank)
  slices_S618x10_S618x1_0_9 : S618x10.Slices ![0, 9] S618x1
  shapeCasts_S618x1_S618 : S618x1.ShapeCasts S618
  reducesTo_S8x618x8x3_S8x618x3_d2 : S8x618x8x3.ReducesTo [2] S8x618x3
  bcast_S618_S1x618x1_1 : S618.BroadcastsInDim S1x618x1 (![1] : Fin 1 → Fin S1x618x1.rank)
  bcast_S1x618x1_S8x618x3_0_1_2 : S1x618x1.BroadcastsInDim S8x618x3 (![0, 1, 2] : Fin 3 → Fin S8x618x3.rank)
  reducesTo_S8x618x3_S_d0_1_2 : S8x618x3.ReducesTo [0, 1, 2] S_
  inb_S1x2466x3_S1x2466x3_0_0_0 : ∀ a, (![0, 0, 0] : Fin 3 → Nat) a + S1x2466x3.size a ≤ S1x2466x3.size a
  h_S1x2466x3 : 0 < S1x2466x3.numel
  shapeCasts_S1x2466x3_S2466x3 : S1x2466x3.ShapeCasts S2466x3
  reduces_S2466x3_S2466 : S2466x3.Reduces [1] S2466
  shapeCasts_S2466_S1x2466 : S2466.ShapeCasts S1x2466
  transposes_S2466x3_p1_0_S3x2466 : S2466x3.Transposes [1, 0] S3x2466
  broadcasts_S1000x1_S1000x2466 : S1000x1.Broadcasts S1000x2466
  broadcasts_S1x2466_S1000x2466 : S1x2466.Broadcasts S1000x2466
  reduces_S1000x2466_S1000 : S1000x2466.Reduces [1] S1000
  reduces_S1000x2466_S2466 : S1000x2466.Reduces [0] S2466
  shapeCasts_S2466_S2466x1 : S2466.ShapeCasts S2466x1
  inb_S1x2466x1_S1x2466x1_0_0_0 : ∀ a, (![0, 0, 0] : Fin 3 → Nat) a + S1x2466x1.size a ≤ S1x2466x1.size a
  h_S1x2466x1 : 0 < S1x2466x1.numel
  shapeCasts_S1x2466x1_S2466x1 : S1x2466x1.ShapeCasts S2466x1
  shapeCasts_S2466x1_S1x2466x1 : S2466x1.ShapeCasts S1x2466x1
  shapeCasts_S8x2466x1_S8x2466 : S8x2466x1.ShapeCasts S8x2466
  reducesTo_S8x2466_S_d0_1 : S8x2466.ReducesTo [0, 1] S_
  slices_S7392x2_S7392x1_0_0 : S7392x2.Slices ![0, 0] S7392x1
  shapeCasts_S7392x1_S7392 : S7392x1.ShapeCasts S7392
  bcast_S_S7392 : S_.BroadcastsInDim S7392 (![] : Fin 0 → Fin S7392.rank)
  bcast_S7392_S7392x1_0 : S7392.BroadcastsInDim S7392x1 (![0] : Fin 1 → Fin S7392x1.rank)
  slices_S7392x2_S7392x1_0_1 : S7392x2.Slices ![0, 1] S7392x1
  reducesTo_S8x7392x3_S_d0_1_2 : S8x7392x3.ReducesTo [0, 1, 2] S_
  slices_S2466x10_S2466x8_0_0 : S2466x10.Slices ![0, 0] S2466x8
  bcast_S_S2466x8 : S_.BroadcastsInDim S2466x8 (![] : Fin 0 → Fin S2466x8.rank)
  bcast_S2466x8_S2466x8x1_0_1 : S2466x8.BroadcastsInDim S2466x8x1 (![0, 1] : Fin 2 → Fin S2466x8x1.rank)
  bcast_S2466x8_S1x2466x8x1_1_2 : S2466x8.BroadcastsInDim S1x2466x8x1 (![1, 2] : Fin 2 → Fin S1x2466x8x1.rank)
  bcast_S1x2466x8x1_S8x2466x8x3_0_1_2_3 : S1x2466x8x1.BroadcastsInDim S8x2466x8x3 (![0, 1, 2, 3] : Fin 4 → Fin S8x2466x8x3.rank)
  bcast_S_S8x2466x8x3 : S_.BroadcastsInDim S8x2466x8x3 (![] : Fin 0 → Fin S8x2466x8x3.rank)
  slices_S2466x10_S2466x1_0_9 : S2466x10.Slices ![0, 9] S2466x1
  shapeCasts_S2466x1_S2466 : S2466x1.ShapeCasts S2466
  reducesTo_S8x2466x8x3_S8x2466x3_d2 : S8x2466x8x3.ReducesTo [2] S8x2466x3
  bcast_S2466_S1x2466x1_1 : S2466.BroadcastsInDim S1x2466x1 (![1] : Fin 1 → Fin S1x2466x1.rank)
  bcast_S1x2466x1_S8x2466x3_0_1_2 : S1x2466x1.BroadcastsInDim S8x2466x3 (![0, 1, 2] : Fin 3 → Fin S8x2466x3.rank)
  reducesTo_S8x2466x3_S_d0_1_2 : S8x2466x3.ReducesTo [0, 1, 2] S_
  dot_S1000x3_S3x156_S1000x156_1_0_0_1_n_n_wf : DotDims.WF S1000x3 S3x156 S1000x156 [1] [0] [0] [1] [] []
  gather_S8x156x3_S462x1_S8x462x3_02_1_n_n_1_1_813_wf : GatherDims.WF S8x156x3 S462x1 S8x462x3 [0, 2] [1] [] [1] [] 1 ![8, 1, 3]
  gather_S8x156x3_S156x8x1_S8x156x8x3_03_1_n_n_1_2_813_wf : GatherDims.WF S8x156x3 S156x8x1 S8x156x8x3 [0, 3] [1] [] [1] [] 2 ![8, 1, 3]
  dot_S1000x3_S3x618_S1000x618_1_0_0_1_n_n_wf : DotDims.WF S1000x3 S3x618 S1000x618 [1] [0] [0] [1] [] []
  gather_S8x618x3_S1848x1_S8x1848x3_02_1_n_n_1_1_813_wf : GatherDims.WF S8x618x3 S1848x1 S8x1848x3 [0, 2] [1] [] [1] [] 1 ![8, 1, 3]
  gather_S8x618x3_S618x8x1_S8x618x8x3_03_1_n_n_1_2_813_wf : GatherDims.WF S8x618x3 S618x8x1 S8x618x8x3 [0, 3] [1] [] [1] [] 2 ![8, 1, 3]
  dot_S1000x3_S3x2466_S1000x2466_1_0_0_1_n_n_wf : DotDims.WF S1000x3 S3x2466 S1000x2466 [1] [0] [0] [1] [] []
  gather_S8x2466x3_S7392x1_S8x7392x3_02_1_n_n_1_1_813_wf : GatherDims.WF S8x2466x3 S7392x1 S8x7392x3 [0, 2] [1] [] [1] [] 1 ![8, 1, 3]
  gather_S8x2466x3_S2466x8x1_S8x2466x8x3_03_1_n_n_1_2_813_wf : GatherDims.WF S8x2466x3 S2466x8x1 S8x2466x8x3 [0, 3] [1] [] [1] [] 2 ![8, 1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1000x3.size a ≤ S8x10000x3.size a
  hwx0_0 : ∀ i : grid0.Coords, EltTy.bits .f32 = 32 ∨ (Rect.block (s := S8x10000x3) S1x1000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x156x3.size a ≤ S8x156x3.size a
  hwx0_1 : ∀ i : grid0.Coords, EltTy.bits .f32 = 32 ∨ (Rect.block (s := S8x156x3) S1x156x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1000x1.size a ≤ S8x10000x1.size a
  hwx0_2 : ∀ i : grid0.Coords, EltTy.bits .f32 = 32 ∨ (Rect.block (s := S8x10000x1) S1x1000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x156x1.size a ≤ S8x156x1.size a
  hwx0_3 : ∀ i : grid0.Coords, EltTy.bits .f32 = 32 ∨ (Rect.block (s := S8x156x1) S1x156x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1000x3.size a ≤ S8x10000x3.size a
  hwx1_0 : ∀ i : grid1.Coords, EltTy.bits .f32 = 32 ∨ (Rect.block (s := S8x10000x3) S1x1000x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x618x3.size a ≤ S8x618x3.size a
  hwx1_1 : ∀ i : grid1.Coords, EltTy.bits .f32 = 32 ∨ (Rect.block (s := S8x618x3) S1x618x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1000x1.size a ≤ S8x10000x1.size a
  hwx1_2 : ∀ i : grid1.Coords, EltTy.bits .f32 = 32 ∨ (Rect.block (s := S8x10000x1) S1x1000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x618x1.size a ≤ S8x618x1.size a
  hwx1_3 : ∀ i : grid1.Coords, EltTy.bits .f32 = 32 ∨ (Rect.block (s := S8x618x1) S1x618x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1000x3.size a ≤ S8x10000x3.size a
  hwx2_0 : ∀ i : grid2.Coords, EltTy.bits .f32 = 32 ∨ (Rect.block (s := S8x10000x3) S1x1000x3.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2466x3.size a ≤ S8x2466x3.size a
  hwx2_1 : ∀ i : grid2.Coords, EltTy.bits .f32 = 32 ∨ (Rect.block (s := S8x2466x3) S1x2466x3.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1000x1.size a ≤ S8x10000x1.size a
  hwx2_2 : ∀ i : grid2.Coords, EltTy.bits .f32 = 32 ∨ (Rect.block (s := S8x10000x1) S1x1000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x2466x1.size a ≤ S8x2466x1.size a
  hwx2_3 : ∀ i : grid2.Coords, EltTy.bits .f32 = 32 ∨ (Rect.block (s := S8x2466x1) S1x2466x1.size (cc2_transform_3 i) (hinb2_3 i)).WholeWords (EltTy.packing .f32)

variable [Facts₀]

def dot_S1000x3_S3x156_S1000x156_1_0_0_1_n_n : DotDims S1000x3 S3x156 S1000x156 where
  lhsContracting := [1]
  rhsContracting := [0]
  lhsNonContracting := [0]
  rhsNonContracting := [1]
  lhsBatch := []
  rhsBatch := []
  wf := dot_S1000x3_S3x156_S1000x156_1_0_0_1_n_n_wf
def gather_S8x156x3_S462x1_S8x462x3_02_1_n_n_1_1_813 : GatherDims S8x156x3 S462x1 S8x462x3 where
  offsetDims := [0, 2]
  collapsedSliceDims := [1]
  operandBatchingDims := []
  startIndicesBatchingDims := []
  startIndexMap := [1]
  indexVectorDim := 1
  sliceSizes := ![8, 1, 3]
  wf := gather_S8x156x3_S462x1_S8x462x3_02_1_n_n_1_1_813_wf
def gather_S8x156x3_S156x8x1_S8x156x8x3_03_1_n_n_1_2_813 : GatherDims S8x156x3 S156x8x1 S8x156x8x3 where
  offsetDims := [0, 3]
  collapsedSliceDims := [1]
  operandBatchingDims := []
  startIndicesBatchingDims := []
  startIndexMap := [1]
  indexVectorDim := 2
  sliceSizes := ![8, 1, 3]
  wf := gather_S8x156x3_S156x8x1_S8x156x8x3_03_1_n_n_1_2_813_wf
def dot_S1000x3_S3x618_S1000x618_1_0_0_1_n_n : DotDims S1000x3 S3x618 S1000x618 where
  lhsContracting := [1]
  rhsContracting := [0]
  lhsNonContracting := [0]
  rhsNonContracting := [1]
  lhsBatch := []
  rhsBatch := []
  wf := dot_S1000x3_S3x618_S1000x618_1_0_0_1_n_n_wf
def gather_S8x618x3_S1848x1_S8x1848x3_02_1_n_n_1_1_813 : GatherDims S8x618x3 S1848x1 S8x1848x3 where
  offsetDims := [0, 2]
  collapsedSliceDims := [1]
  operandBatchingDims := []
  startIndicesBatchingDims := []
  startIndexMap := [1]
  indexVectorDim := 1
  sliceSizes := ![8, 1, 3]
  wf := gather_S8x618x3_S1848x1_S8x1848x3_02_1_n_n_1_1_813_wf
def gather_S8x618x3_S618x8x1_S8x618x8x3_03_1_n_n_1_2_813 : GatherDims S8x618x3 S618x8x1 S8x618x8x3 where
  offsetDims := [0, 3]
  collapsedSliceDims := [1]
  operandBatchingDims := []
  startIndicesBatchingDims := []
  startIndexMap := [1]
  indexVectorDim := 2
  sliceSizes := ![8, 1, 3]
  wf := gather_S8x618x3_S618x8x1_S8x618x8x3_03_1_n_n_1_2_813_wf
def dot_S1000x3_S3x2466_S1000x2466_1_0_0_1_n_n : DotDims S1000x3 S3x2466 S1000x2466 where
  lhsContracting := [1]
  rhsContracting := [0]
  lhsNonContracting := [0]
  rhsNonContracting := [1]
  lhsBatch := []
  rhsBatch := []
  wf := dot_S1000x3_S3x2466_S1000x2466_1_0_0_1_n_n_wf
def gather_S8x2466x3_S7392x1_S8x7392x3_02_1_n_n_1_1_813 : GatherDims S8x2466x3 S7392x1 S8x7392x3 where
  offsetDims := [0, 2]
  collapsedSliceDims := [1]
  operandBatchingDims := []
  startIndicesBatchingDims := []
  startIndexMap := [1]
  indexVectorDim := 1
  sliceSizes := ![8, 1, 3]
  wf := gather_S8x2466x3_S7392x1_S8x7392x3_02_1_n_n_1_1_813_wf
def gather_S8x2466x3_S2466x8x1_S8x2466x8x3_03_1_n_n_1_2_813 : GatherDims S8x2466x3 S2466x8x1 S8x2466x8x3 where
  offsetDims := [0, 3]
  collapsedSliceDims := [1]
  operandBatchingDims := []
  startIndicesBatchingDims := []
  startIndexMap := [1]
  indexVectorDim := 2
  sliceSizes := ![8, 1, 3]
  wf := gather_S8x2466x3_S2466x8x1_S8x2466x8x3_03_1_n_n_1_2_813_wf

abbrev win0_0 : Pipeline.Window sig grid0 :=
  Pipeline.Window.ofSpec (Memref.whole main_arg0) S1x1000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S1x156x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1000x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x156x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

abbrev win1_0 : Pipeline.Window sig grid1 :=
  Pipeline.Window.ofSpec (Memref.whole main_arg0) S1x1000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S1x618x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v83_0) S1x1000x1.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v83_1) S1x618x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

abbrev win2_0 : Pipeline.Window sig grid2 :=
  Pipeline.Window.ofSpec (Memref.whole main_arg0) S1x1000x3.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S1x2466x3.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v173_0) S1x1000x1.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v173_1) S1x2466x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond3 i == 1#1) | ⟨_ + 4, h⟩ => absurd h (Nat.not_lt.2 (Nat.le_add_left _ _))

class Facts : Prop extends Facts₀ where

variable [Facts]
-- ==== ReferenceIdeal.lean ====
abbrev S8x10000x3 : Shape := ⟨3, ![8, 10000, 3]⟩
abbrev S8x156x3 : Shape := ⟨3, ![8, 156, 3]⟩
abbrev S8x618x3 : Shape := ⟨3, ![8, 618, 3]⟩
abbrev S8x2466x3 : Shape := ⟨3, ![8, 2466, 3]⟩
abbrev S156x10 : Shape := ⟨2, ![156, 10]⟩
abbrev S618x10 : Shape := ⟨2, ![618, 10]⟩
abbrev S2466x10 : Shape := ⟨2, ![2466, 10]⟩
abbrev S462x2 : Shape := ⟨2, ![462, 2]⟩
abbrev S1848x2 : Shape := ⟨2, ![1848, 2]⟩
abbrev S7392x2 : Shape := ⟨2, ![7392, 2]⟩
abbrev S_ : Shape := ⟨0, ![]⟩
abbrev S8x10000 : Shape := ⟨2, ![8, 10000]⟩
abbrev S8x10000x1 : Shape := ⟨3, ![8, 10000, 1]⟩
abbrev S8x156 : Shape := ⟨2, ![8, 156]⟩
abbrev S8x1x156 : Shape := ⟨3, ![8, 1, 156]⟩
abbrev S8x10000x156 : Shape := ⟨3, ![8, 10000, 156]⟩
abbrev S462x1 : Shape := ⟨2, ![462, 1]⟩
abbrev S462 : Shape := ⟨1, ![462]⟩
abbrev S8x462x3 : Shape := ⟨3, ![8, 462, 3]⟩
abbrev S156x8 : Shape := ⟨2, ![156, 8]⟩
abbrev S156x8x1 : Shape := ⟨3, ![156, 8, 1]⟩
abbrev S8x156x8x3 : Shape := ⟨4, ![8, 156, 8, 3]⟩
abbrev S1x156x8x1 : Shape := ⟨4, ![1, 156, 8, 1]⟩
abbrev S156x1 : Shape := ⟨2, ![156, 1]⟩
abbrev S156 : Shape := ⟨1, ![156]⟩
abbrev S1x156x1 : Shape := ⟨3, ![1, 156, 1]⟩
abbrev S8x618 : Shape := ⟨2, ![8, 618]⟩
abbrev S8x1x618 : Shape := ⟨3, ![8, 1, 618]⟩
abbrev S8x10000x618 : Shape := ⟨3, ![8, 10000, 618]⟩
abbrev S1848x1 : Shape := ⟨2, ![1848, 1]⟩
abbrev S1848 : Shape := ⟨1, ![1848]⟩
abbrev S8x1848x3 : Shape := ⟨3, ![8, 1848, 3]⟩
abbrev S618x8 : Shape := ⟨2, ![618, 8]⟩
abbrev S618x8x1 : Shape := ⟨3, ![618, 8, 1]⟩
abbrev S8x618x8x3 : Shape := ⟨4, ![8, 618, 8, 3]⟩
abbrev S1x618x8x1 : Shape := ⟨4, ![1, 618, 8, 1]⟩
abbrev S618x1 : Shape := ⟨2, ![618, 1]⟩
abbrev S618 : Shape := ⟨1, ![618]⟩
abbrev S1x618x1 : Shape := ⟨3, ![1, 618, 1]⟩
abbrev S8x2466 : Shape := ⟨2, ![8, 2466]⟩
abbrev S8x1x2466 : Shape := ⟨3, ![8, 1, 2466]⟩
abbrev S8x10000x2466 : Shape := ⟨3, ![8, 10000, 2466]⟩
abbrev S7392x1 : Shape := ⟨2, ![7392, 1]⟩
abbrev S7392 : Shape := ⟨1, ![7392]⟩
abbrev S8x7392x3 : Shape := ⟨3, ![8, 7392, 3]⟩
abbrev S2466x8 : Shape := ⟨2, ![2466, 8]⟩
abbrev S2466x8x1 : Shape := ⟨3, ![2466, 8, 1]⟩
abbrev S8x2466x8x3 : Shape := ⟨4, ![8, 2466, 8, 3]⟩
abbrev S1x2466x8x1 : Shape := ⟨4, ![1, 2466, 8, 1]⟩
abbrev S2466x1 : Shape := ⟨2, ![2466, 1]⟩
abbrev S2466 : Shape := ⟨1, ![2466]⟩
abbrev S1x2466x1 : Shape := ⟨3, ![1, 2466, 1]⟩

abbrev nBuf : Space → Nat
  | .hbm => 450
  | .vmem => 0
  | .smem => 0
  | _ => 0

abbrev hbmTy0_0 (i : Nat) : BufTy := match i % 128 with
  | 0 => ⟨S8x10000x3, .f32⟩
  | 1 => ⟨S8x156x3, .f32⟩
  | 2 => ⟨S8x618x3, .f32⟩
  | 3 => ⟨S8x2466x3, .f32⟩
  | 4 => ⟨S8x156x3, .f32⟩
  | 5 => ⟨S8x618x3, .f32⟩
  | 6 => ⟨S8x2466x3, .f32⟩
  | 7 => ⟨S8x156x3, .f32⟩
  | 8 => ⟨S8x618x3, .f32⟩
  | 9 => ⟨S8x2466x3, .f32⟩
  | 10 => ⟨S156x10, .i32⟩
  | 11 => ⟨S618x10, .i32⟩
  | 12 => ⟨S2466x10, .i32⟩
  | 13 => ⟨S462x2, .i32⟩
  | 14 => ⟨S1848x2, .i32⟩
  | 15 => ⟨S7392x2, .i32⟩
  | 16 => ⟨S8x10000x3, .f32⟩
  | 17 => ⟨S_, .f32⟩
  | 18 => ⟨S8x10000, .f32⟩
  | 19 => ⟨S8x10000x1, .f32⟩
  | 20 => ⟨S8x156x3, .f32⟩
  | 21 => ⟨S_, .f32⟩
  | 22 => ⟨S8x156, .f32⟩
  | 23 => ⟨S8x1x156, .f32⟩
  | 24 => ⟨S8x10000x156, .f32⟩
  | 25 => ⟨S8x10000x156, .f32⟩
  | 26 => ⟨S8x10000x156, .f32⟩
  | 27 => ⟨S8x10000x156, .f32⟩
  | 28 => ⟨S_, .f32⟩
  | 29 => ⟨S8x10000x156, .f32⟩
  | 30 => ⟨S8x10000x156, .f32⟩
  | 31 => ⟨S8x10000x156, .f32⟩
  | 32 => ⟨S_, .f32⟩
  | 33 => ⟨S8x10000, .f32⟩
  | 34 => ⟨S_, .f32⟩
  | 35 => ⟨S8x156, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S462x1, .i32⟩
  | 50 => ⟨S462, .i32⟩
  | 51 => ⟨S_, .i32⟩
  | 52 => ⟨S462, .i32⟩
  | 53 => ⟨S462, .i1⟩
  | 54 => ⟨S_, .i32⟩
  | 55 => ⟨S462, .i32⟩
  | 56 => ⟨S462, .i32⟩
  | 57 => ⟨S462, .i32⟩
  | 58 => ⟨S462x1, .i32⟩
  | 59 => ⟨S8x462x3, .f32⟩
  | 60 => ⟨S462x1, .i32⟩
  | 61 => ⟨S462, .i32⟩
  | 62 => ⟨S_, .i32⟩
  | 63 => ⟨S462, .i32⟩
  | 64 => ⟨S462, .i1⟩
  | 65 => ⟨S_, .i32⟩
  | 66 => ⟨S462, .i32⟩
  | 67 => ⟨S462, .i32⟩
  | 68 => ⟨S462, .i32⟩
  | 69 => ⟨S462x1, .i32⟩
  | 70 => ⟨S8x462x3, .f32⟩
  | 71 => ⟨S8x462x3, .f32⟩
  | 72 => ⟨S8x462x3, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S156x8, .i32⟩
  | 82 => ⟨S_, .i32⟩
  | 83 => ⟨S156x8, .i32⟩
  | 84 => ⟨S156x8, .i1⟩
  | 85 => ⟨S_, .i32⟩
  | 86 => ⟨S_, .i32⟩
  | 87 => ⟨S156x8, .i32⟩
  | 88 => ⟨S156x8, .i32⟩
  | 89 => ⟨S_, .i32⟩
  | 90 => ⟨S156x8, .i32⟩
  | 91 => ⟨S156x8, .i1⟩
  | 92 => ⟨S_, .i32⟩
  | 93 => ⟨S156x8, .i32⟩
  | 94 => ⟨S156x8, .i32⟩
  | 95 => ⟨S156x8, .i32⟩
  | 96 => ⟨S156x8x1, .i32⟩
  | 97 => ⟨S8x156x8x3, .f32⟩
  | 98 => ⟨S1x156x8x1, .i1⟩
  | 99 => ⟨S_, .f32⟩
  | 100 => ⟨S8x156x8x3, .i1⟩
  | 101 => ⟨S8x156x8x3, .f32⟩
  | 102 => ⟨S8x156x8x3, .f32⟩
  | 103 => ⟨S156x1, .i32⟩
  | 104 => ⟨S156, .i32⟩
  | 105 => ⟨S156, .f32⟩
  | 106 => ⟨S_, .f32⟩
  | 107 => ⟨S8x156x3, .f32⟩
  | 108 => ⟨S1x156x1, .f32⟩
  | 109 => ⟨S8x156x3, .f32⟩
  | 110 => ⟨S8x156x3, .f32⟩
  | 111 => ⟨S8x156x3, .f32⟩
  | 112 => ⟨S156x8, .i32⟩
  | 113 => ⟨S_, .i32⟩
  | 114 => ⟨S156x8, .i32⟩
  | 115 => ⟨S156x8, .i1⟩
  | 116 => ⟨S_, .i32⟩
  | 117 => ⟨S_, .i32⟩
  | 118 => ⟨S156x8, .i32⟩
  | 119 => ⟨S156x8, .i32⟩
  | 120 => ⟨S_, .i32⟩
  | 121 => ⟨S156x8, .i32⟩
  | 122 => ⟨S156x8, .i1⟩
  | 123 => ⟨S_, .i32⟩
  | 124 => ⟨S156x8, .i32⟩
  | 125 => ⟨S156x8, .i32⟩
  | 126 => ⟨S156x8, .i32⟩
  | 127 => ⟨S156x8x1, .i32⟩
  | _ => ⟨S8x10000x3, .f32⟩

abbrev hbmTy0_1 (i : Nat) : BufTy := match i % 128 with
  | 0 => ⟨S8x156x8x3, .f32⟩
  | 1 => ⟨S1x156x8x1, .i1⟩
  | 2 => ⟨S_, .f32⟩
  | 3 => ⟨S8x156x8x3, .i1⟩
  | 4 => ⟨S8x156x8x3, .f32⟩
  | 5 => ⟨S8x156x8x3, .f32⟩
  | 6 => ⟨S156x1, .i32⟩
  | 7 => ⟨S156, .i32⟩
  | 8 => ⟨S156, .f32⟩
  | 9 => ⟨S_, .f32⟩
  | 10 => ⟨S8x156x3, .f32⟩
  | 11 => ⟨S1x156x1, .f32⟩
  | 12 => ⟨S8x156x3, .f32⟩
  | 13 => ⟨S8x156x3, .f32⟩
  | 14 => ⟨S8x156x3, .f32⟩
  | 15 => ⟨S8x156x3, .f32⟩
  | 16 => ⟨S8x156x3, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S8x10000x3, .f32⟩
  | 28 => ⟨S_, .f32⟩
  | 29 => ⟨S8x10000, .f32⟩
  | 30 => ⟨S8x10000x1, .f32⟩
  | 31 => ⟨S8x618x3, .f32⟩
  | 32 => ⟨S_, .f32⟩
  | 33 => ⟨S8x618, .f32⟩
  | 34 => ⟨S8x1x618, .f32⟩
  | 35 => ⟨S8x10000x618, .f32⟩
  | 36 => ⟨S8x10000x618, .f32⟩
  | 37 => ⟨S8x10000x618, .f32⟩
  | 38 => ⟨S8x10000x618, .f32⟩
  | 39 => ⟨S_, .f32⟩
  | 40 => ⟨S8x10000x618, .f32⟩
  | 41 => ⟨S8x10000x618, .f32⟩
  | 42 => ⟨S8x10000x618, .f32⟩
  | 43 => ⟨S_, .f32⟩
  | 44 => ⟨S8x10000, .f32⟩
  | 45 => ⟨S_, .f32⟩
  | 46 => ⟨S8x618, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S1848x1, .i32⟩
  | 60 => ⟨S1848, .i32⟩
  | 61 => ⟨S_, .i32⟩
  | 62 => ⟨S1848, .i32⟩
  | 63 => ⟨S1848, .i1⟩
  | 64 => ⟨S_, .i32⟩
  | 65 => ⟨S1848, .i32⟩
  | 66 => ⟨S1848, .i32⟩
  | 67 => ⟨S1848, .i32⟩
  | 68 => ⟨S1848x1, .i32⟩
  | 69 => ⟨S8x1848x3, .f32⟩
  | 70 => ⟨S1848x1, .i32⟩
  | 71 => ⟨S1848, .i32⟩
  | 72 => ⟨S_, .i32⟩
  | 73 => ⟨S1848, .i32⟩
  | 74 => ⟨S1848, .i1⟩
  | 75 => ⟨S_, .i32⟩
  | 76 => ⟨S1848, .i32⟩
  | 77 => ⟨S1848, .i32⟩
  | 78 => ⟨S1848, .i32⟩
  | 79 => ⟨S1848x1, .i32⟩
  | 80 => ⟨S8x1848x3, .f32⟩
  | 81 => ⟨S8x1848x3, .f32⟩
  | 82 => ⟨S8x1848x3, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S618x8, .i32⟩
  | 91 => ⟨S_, .i32⟩
  | 92 => ⟨S618x8, .i32⟩
  | 93 => ⟨S618x8, .i1⟩
  | 94 => ⟨S_, .i32⟩
  | 95 => ⟨S_, .i32⟩
  | 96 => ⟨S618x8, .i32⟩
  | 97 => ⟨S618x8, .i32⟩
  | 98 => ⟨S_, .i32⟩
  | 99 => ⟨S618x8, .i32⟩
  | 100 => ⟨S618x8, .i1⟩
  | 101 => ⟨S_, .i32⟩
  | 102 => ⟨S618x8, .i32⟩
  | 103 => ⟨S618x8, .i32⟩
  | 104 => ⟨S618x8, .i32⟩
  | 105 => ⟨S618x8x1, .i32⟩
  | 106 => ⟨S8x618x8x3, .f32⟩
  | 107 => ⟨S1x618x8x1, .i1⟩
  | 108 => ⟨S_, .f32⟩
  | 109 => ⟨S8x618x8x3, .i1⟩
  | 110 => ⟨S8x618x8x3, .f32⟩
  | 111 => ⟨S8x618x8x3, .f32⟩
  | 112 => ⟨S618x1, .i32⟩
  | 113 => ⟨S618, .i32⟩
  | 114 => ⟨S618, .f32⟩
  | 115 => ⟨S_, .f32⟩
  | 116 => ⟨S8x618x3, .f32⟩
  | 117 => ⟨S1x618x1, .f32⟩
  | 118 => ⟨S8x618x3, .f32⟩
  | 119 => ⟨S8x618x3, .f32⟩
  | 120 => ⟨S8x618x3, .f32⟩
  | 121 => ⟨S618x8, .i32⟩
  | 122 => ⟨S_, .i32⟩
  | 123 => ⟨S618x8, .i32⟩
  | 124 => ⟨S618x8, .i1⟩
  | 125 => ⟨S_, .i32⟩
  | 126 => ⟨S_, .i32⟩
  | 127 => ⟨S618x8, .i32⟩
  | _ => ⟨S8x10000x3, .f32⟩

abbrev hbmTy0_2 (i : Nat) : BufTy := match i % 128 with
  | 0 => ⟨S618x8, .i32⟩
  | 1 => ⟨S_, .i32⟩
  | 2 => ⟨S618x8, .i32⟩
  | 3 => ⟨S618x8, .i1⟩
  | 4 => ⟨S_, .i32⟩
  | 5 => ⟨S618x8, .i32⟩
  | 6 => ⟨S618x8, .i32⟩
  | 7 => ⟨S618x8, .i32⟩
  | 8 => ⟨S618x8x1, .i32⟩
  | 9 => ⟨S8x618x8x3, .f32⟩
  | 10 => ⟨S1x618x8x1, .i1⟩
  | 11 => ⟨S_, .f32⟩
  | 12 => ⟨S8x618x8x3, .i1⟩
  | 13 => ⟨S8x618x8x3, .f32⟩
  | 14 => ⟨S8x618x8x3, .f32⟩
  | 15 => ⟨S618x1, .i32⟩
  | 16 => ⟨S618, .i32⟩
  | 17 => ⟨S618, .f32⟩
  | 18 => ⟨S_, .f32⟩
  | 19 => ⟨S8x618x3, .f32⟩
  | 20 => ⟨S1x618x1, .f32⟩
  | 21 => ⟨S8x618x3, .f32⟩
  | 22 => ⟨S8x618x3, .f32⟩
  | 23 => ⟨S8x618x3, .f32⟩
  | 24 => ⟨S8x618x3, .f32⟩
  | 25 => ⟨S8x618x3, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S8x618x3, .f32⟩
  | 36 => ⟨S8x618x3, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S8x10000x3, .f32⟩
  | 48 => ⟨S_, .f32⟩
  | 49 => ⟨S8x10000, .f32⟩
  | 50 => ⟨S8x10000x1, .f32⟩
  | 51 => ⟨S8x2466x3, .f32⟩
  | 52 => ⟨S_, .f32⟩
  | 53 => ⟨S8x2466, .f32⟩
  | 54 => ⟨S8x1x2466, .f32⟩
  | 55 => ⟨S8x10000x2466, .f32⟩
  | 56 => ⟨S8x10000x2466, .f32⟩
  | 57 => ⟨S8x10000x2466, .f32⟩
  | 58 => ⟨S8x10000x2466, .f32⟩
  | 59 => ⟨S_, .f32⟩
  | 60 => ⟨S8x10000x2466, .f32⟩
  | 61 => ⟨S8x10000x2466, .f32⟩
  | 62 => ⟨S8x10000x2466, .f32⟩
  | 63 => ⟨S_, .f32⟩
  | 64 => ⟨S8x10000, .f32⟩
  | 65 => ⟨S_, .f32⟩
  | 66 => ⟨S8x2466, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S7392x1, .i32⟩
  | 80 => ⟨S7392, .i32⟩
  | 81 => ⟨S_, .i32⟩
  | 82 => ⟨S7392, .i32⟩
  | 83 => ⟨S7392, .i1⟩
  | 84 => ⟨S_, .i32⟩
  | 85 => ⟨S7392, .i32⟩
  | 86 => ⟨S7392, .i32⟩
  | 87 => ⟨S7392, .i32⟩
  | 88 => ⟨S7392x1, .i32⟩
  | 89 => ⟨S8x7392x3, .f32⟩
  | 90 => ⟨S7392x1, .i32⟩
  | 91 => ⟨S7392, .i32⟩
  | 92 => ⟨S_, .i32⟩
  | 93 => ⟨S7392, .i32⟩
  | 94 => ⟨S7392, .i1⟩
  | 95 => ⟨S_, .i32⟩
  | 96 => ⟨S7392, .i32⟩
  | 97 => ⟨S7392, .i32⟩
  | 98 => ⟨S7392, .i32⟩
  | 99 => ⟨S7392x1, .i32⟩
  | 100 => ⟨S8x7392x3, .f32⟩
  | 101 => ⟨S8x7392x3, .f32⟩
  | 102 => ⟨S8x7392x3, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S2466x8, .i32⟩
  | 111 => ⟨S_, .i32⟩
  | 112 => ⟨S2466x8, .i32⟩
  | 113 => ⟨S2466x8, .i1⟩
  | 114 => ⟨S_, .i32⟩
  | 115 => ⟨S_, .i32⟩
  | 116 => ⟨S2466x8, .i32⟩
  | 117 => ⟨S2466x8, .i32⟩
  | 118 => ⟨S_, .i32⟩
  | 119 => ⟨S2466x8, .i32⟩
  | 120 => ⟨S2466x8, .i1⟩
  | 121 => ⟨S_, .i32⟩
  | 122 => ⟨S2466x8, .i32⟩
  | 123 => ⟨S2466x8, .i32⟩
  | 124 => ⟨S2466x8, .i32⟩
  | 125 => ⟨S2466x8x1, .i32⟩
  | 126 => ⟨S8x2466x8x3, .f32⟩
  | 127 => ⟨S1x2466x8x1, .i1⟩
  | _ => ⟨S8x10000x3, .f32⟩

abbrev hbmTy0_3 (i : Nat) : BufTy := match i % 128 with
  | 0 => ⟨S_, .f32⟩
  | 1 => ⟨S8x2466x8x3, .i1⟩
  | 2 => ⟨S8x2466x8x3, .f32⟩
  | 3 => ⟨S8x2466x8x3, .f32⟩
  | 4 => ⟨S2466x1, .i32⟩
  | 5 => ⟨S2466, .i32⟩
  | 6 => ⟨S2466, .f32⟩
  | 7 => ⟨S_, .f32⟩
  | 8 => ⟨S8x2466x3, .f32⟩
  | 9 => ⟨S1x2466x1, .f32⟩
  | 10 => ⟨S8x2466x3, .f32⟩
  | 11 => ⟨S8x2466x3, .f32⟩
  | 12 => ⟨S8x2466x3, .f32⟩
  | 13 => ⟨S2466x8, .i32⟩
  | 14 => ⟨S_, .i32⟩
  | 15 => ⟨S2466x8, .i32⟩
  | 16 => ⟨S2466x8, .i1⟩
  | 17 => ⟨S_, .i32⟩
  | 18 => ⟨S_, .i32⟩
  | 19 => ⟨S2466x8, .i32⟩
  | 20 => ⟨S2466x8, .i32⟩
  | 21 => ⟨S_, .i32⟩
  | 22 => ⟨S2466x8, .i32⟩
  | 23 => ⟨S2466x8, .i1⟩
  | 24 => ⟨S_, .i32⟩
  | 25 => ⟨S2466x8, .i32⟩
  | 26 => ⟨S2466x8, .i32⟩
  | 27 => ⟨S2466x8, .i32⟩
  | 28 => ⟨S2466x8x1, .i32⟩
  | 29 => ⟨S8x2466x8x3, .f32⟩
  | 30 => ⟨S1x2466x8x1, .i1⟩
  | 31 => ⟨S_, .f32⟩
  | 32 => ⟨S8x2466x8x3, .i1⟩
  | 33 => ⟨S8x2466x8x3, .f32⟩
  | 34 => ⟨S8x2466x8x3, .f32⟩
  | 35 => ⟨S2466x1, .i32⟩
  | 36 => ⟨S2466, .i32⟩
  | 37 => ⟨S2466, .f32⟩
  | 38 => ⟨S_, .f32⟩
  | 39 => ⟨S8x2466x3, .f32⟩
  | 40 => ⟨S1x2466x1, .f32⟩
  | 41 => ⟨S8x2466x3, .f32⟩
  | 42 => ⟨S8x2466x3, .f32⟩
  | 43 => ⟨S8x2466x3, .f32⟩
  | 44 => ⟨S8x2466x3, .f32⟩
  | 45 => ⟨S8x2466x3, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S8x2466x3, .f32⟩
  | 56 => ⟨S8x2466x3, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | _ => ⟨S8x10000x3, .f32⟩

abbrev hbmTy (i : Nat) : BufTy := match i / 128 with
  | 0 => hbmTy0_0 i
  | 1 => hbmTy0_1 i
  | 2 => hbmTy0_2 i
  | 3 => hbmTy0_3 i
  | _ => ⟨S8x10000x3, .f32⟩

abbrev bufTy : (tb : Table) → Fin (tcTables nBuf tb) → BufTy
  | .hbm, ⟨i, _⟩ => hbmTy i
  | _, _ => ⟨S8x10000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_cst_4 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_cst_6 : Ref sig .tc := ⟨.hbm, 40, rfl⟩
abbrev main_v17 : Ref sig .tc := ⟨.hbm, 41, rfl⟩
abbrev main_cst_7 : Ref sig .tc := ⟨.hbm, 42, rfl⟩
abbrev main_v18 : Ref sig .tc := ⟨.hbm, 43, rfl⟩
abbrev main_cst_8 : Ref sig .tc := ⟨.hbm, 44, rfl⟩
abbrev main_v19 : Ref sig .tc := ⟨.hbm, 45, rfl⟩
abbrev main_cst_9 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c : Ref sig .tc := ⟨.hbm, 51, rfl⟩
abbrev main_v24 : Ref sig .tc := ⟨.hbm, 52, rfl⟩
abbrev main_v25 : Ref sig .tc := ⟨.hbm, 53, rfl⟩
abbrev main_c_10 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_11 : Ref sig .tc := ⟨.hbm, 62, rfl⟩
abbrev main_v33 : Ref sig .tc := ⟨.hbm, 63, rfl⟩
abbrev main_v34 : Ref sig .tc := ⟨.hbm, 64, rfl⟩
abbrev main_c_12 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_13 : Ref sig .tc := ⟨.hbm, 73, rfl⟩
abbrev main_v42 : Ref sig .tc := ⟨.hbm, 74, rfl⟩
abbrev main_cst_14 : Ref sig .tc := ⟨.hbm, 75, rfl⟩
abbrev main_v43 : Ref sig .tc := ⟨.hbm, 76, rfl⟩
abbrev main_cst_15 : Ref sig .tc := ⟨.hbm, 77, rfl⟩
abbrev main_v44 : Ref sig .tc := ⟨.hbm, 78, rfl⟩
abbrev main_cst_16 : Ref sig .tc := ⟨.hbm, 79, rfl⟩
abbrev main_v45 : Ref sig .tc := ⟨.hbm, 80, rfl⟩
abbrev main_v46 : Ref sig .tc := ⟨.hbm, 81, rfl⟩
abbrev main_c_17 : Ref sig .tc := ⟨.hbm, 82, rfl⟩
abbrev main_v47 : Ref sig .tc := ⟨.hbm, 83, rfl⟩
abbrev main_v48 : Ref sig .tc := ⟨.hbm, 84, rfl⟩
abbrev main_c_18 : Ref sig .tc := ⟨.hbm, 85, rfl⟩
abbrev main_call0_v0 : Ref sig .tc := ⟨.hbm, 86, rfl⟩
abbrev main_call0_v1 : Ref sig .tc := ⟨.hbm, 87, rfl⟩
abbrev main_v49 : Ref sig .tc := ⟨.hbm, 88, rfl⟩
abbrev main_c_19 : Ref sig .tc := ⟨.hbm, 89, rfl⟩
abbrev main_v50 : Ref sig .tc := ⟨.hbm, 90, rfl⟩
abbrev main_v51 : Ref sig .tc := ⟨.hbm, 91, rfl⟩
abbrev main_c_20 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_21 : Ref sig .tc := ⟨.hbm, 99, rfl⟩
abbrev main_call1_v0 : Ref sig .tc := ⟨.hbm, 100, rfl⟩
abbrev main_call1_v1 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_cst_22 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_c_23 : Ref sig .tc := ⟨.hbm, 113, rfl⟩
abbrev main_v68 : Ref sig .tc := ⟨.hbm, 114, rfl⟩
abbrev main_v69 : Ref sig .tc := ⟨.hbm, 115, rfl⟩
abbrev main_c_24 : Ref sig .tc := ⟨.hbm, 116, rfl⟩
abbrev main_call2_v0 : Ref sig .tc := ⟨.hbm, 117, rfl⟩
abbrev main_call2_v1 : Ref sig .tc := ⟨.hbm, 118, rfl⟩
abbrev main_v70 : Ref sig .tc := ⟨.hbm, 119, rfl⟩
abbrev main_c_25 : Ref sig .tc := ⟨.hbm, 120, rfl⟩
abbrev main_v71 : Ref sig .tc := ⟨.hbm, 121, rfl⟩
abbrev main_v72 : Ref sig .tc := ⟨.hbm, 122, rfl⟩
abbrev main_c_26 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_cst_27 : Ref sig .tc := ⟨.hbm, 130, rfl⟩
abbrev main_call3_v0 : Ref sig .tc := ⟨.hbm, 131, rfl⟩
abbrev main_call3_v1 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_cst_28 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_cst_29 : Ref sig .tc := ⟨.hbm, 145, rfl⟩
abbrev main_v90 : Ref sig .tc := ⟨.hbm, 146, rfl⟩
abbrev main_cst_30 : Ref sig .tc := ⟨.hbm, 147, rfl⟩
abbrev main_v91 : Ref sig .tc := ⟨.hbm, 148, rfl⟩
abbrev main_cst_31 : Ref sig .tc := ⟨.hbm, 149, rfl⟩
abbrev main_v92 : Ref sig .tc := ⟨.hbm, 150, rfl⟩
abbrev main_cst_32 : Ref sig .tc := ⟨.hbm, 151, rfl⟩
abbrev main_v93 : Ref sig .tc := ⟨.hbm, 152, rfl⟩
abbrev main_cst_33 : Ref sig .tc := ⟨.hbm, 153, rfl⟩
abbrev main_v94 : Ref sig .tc := ⟨.hbm, 154, rfl⟩
abbrev main_v95 : Ref sig .tc := ⟨.hbm, 155, rfl⟩
abbrev main_cst_34 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_cst_35 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_cst_36 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_cst_37 : Ref sig .tc := ⟨.hbm, 171, rfl⟩
abbrev main_v108 : Ref sig .tc := ⟨.hbm, 172, rfl⟩
abbrev main_cst_38 : Ref sig .tc := ⟨.hbm, 173, rfl⟩
abbrev main_v109 : Ref sig .tc := ⟨.hbm, 174, rfl⟩
abbrev main_cst_39 : Ref sig .tc := ⟨.hbm, 175, rfl⟩
abbrev main_v110 : Ref sig .tc := ⟨.hbm, 176, rfl⟩
abbrev main_cst_40 : Ref sig .tc := ⟨.hbm, 177, rfl⟩
abbrev main_v111 : Ref sig .tc := ⟨.hbm, 178, rfl⟩
abbrev main_v112 : Ref sig .tc := ⟨.hbm, 179, rfl⟩
abbrev main_cst_41 : Ref sig .tc := ⟨.hbm, 180, rfl⟩
abbrev main_v113 : Ref sig .tc := ⟨.hbm, 181, rfl⟩
abbrev main_cst_42 : Ref sig .tc := ⟨.hbm, 182, rfl⟩
abbrev main_v114 : Ref sig .tc := ⟨.hbm, 183, rfl⟩
abbrev main_cst_43 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_c_44 : Ref sig .tc := ⟨.hbm, 189, rfl⟩
abbrev main_v119 : Ref sig .tc := ⟨.hbm, 190, rfl⟩
abbrev main_v120 : Ref sig .tc := ⟨.hbm, 191, rfl⟩
abbrev main_c_45 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_c_46 : Ref sig .tc := ⟨.hbm, 200, rfl⟩
abbrev main_v128 : Ref sig .tc := ⟨.hbm, 201, rfl⟩
abbrev main_v129 : Ref sig .tc := ⟨.hbm, 202, rfl⟩
abbrev main_c_47 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_cst_48 : Ref sig .tc := ⟨.hbm, 211, rfl⟩
abbrev main_v137 : Ref sig .tc := ⟨.hbm, 212, rfl⟩
abbrev main_cst_49 : Ref sig .tc := ⟨.hbm, 213, rfl⟩
abbrev main_v138 : Ref sig .tc := ⟨.hbm, 214, rfl⟩
abbrev main_cst_50 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_c_51 : Ref sig .tc := ⟨.hbm, 219, rfl⟩
abbrev main_v142 : Ref sig .tc := ⟨.hbm, 220, rfl⟩
abbrev main_v143 : Ref sig .tc := ⟨.hbm, 221, rfl⟩
abbrev main_c_52 : Ref sig .tc := ⟨.hbm, 222, rfl⟩
abbrev main_call4_v0 : Ref sig .tc := ⟨.hbm, 223, rfl⟩
abbrev main_call4_v1 : Ref sig .tc := ⟨.hbm, 224, rfl⟩
abbrev main_v144 : Ref sig .tc := ⟨.hbm, 225, rfl⟩
abbrev main_c_53 : Ref sig .tc := ⟨.hbm, 226, rfl⟩
abbrev main_v145 : Ref sig .tc := ⟨.hbm, 227, rfl⟩
abbrev main_v146 : Ref sig .tc := ⟨.hbm, 228, rfl⟩
abbrev main_c_54 : Ref sig .tc := ⟨.hbm, 229, rfl⟩
abbrev main_v147 : Ref sig .tc := ⟨.hbm, 230, rfl⟩
abbrev main_v148 : Ref sig .tc := ⟨.hbm, 231, rfl⟩
abbrev main_v149 : Ref sig .tc := ⟨.hbm, 232, rfl⟩
abbrev main_v150 : Ref sig .tc := ⟨.hbm, 233, rfl⟩
abbrev main_v151 : Ref sig .tc := ⟨.hbm, 234, rfl⟩
abbrev main_v152 : Ref sig .tc := ⟨.hbm, 235, rfl⟩
abbrev main_cst_55 : Ref sig .tc := ⟨.hbm, 236, rfl⟩
abbrev main_call5_v0 : Ref sig .tc := ⟨.hbm, 237, rfl⟩
abbrev main_call5_v1 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_v156 : Ref sig .tc := ⟨.hbm, 242, rfl⟩
abbrev main_cst_56 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_c_57 : Ref sig .tc := ⟨.hbm, 250, rfl⟩
abbrev main_v163 : Ref sig .tc := ⟨.hbm, 251, rfl⟩
abbrev main_v164 : Ref sig .tc := ⟨.hbm, 252, rfl⟩
abbrev main_c_58 : Ref sig .tc := ⟨.hbm, 253, rfl⟩
abbrev main_call6_v0 : Ref sig .tc := ⟨.hbm, 254, rfl⟩
abbrev main_call6_v1 : Ref sig .tc := ⟨.hbm, 255, rfl⟩
abbrev main_v165 : Ref sig .tc := ⟨.hbm, 256, rfl⟩
abbrev main_c_59 : Ref sig .tc := ⟨.hbm, 257, rfl⟩
abbrev main_v166 : Ref sig .tc := ⟨.hbm, 258, rfl⟩
abbrev main_v167 : Ref sig .tc := ⟨.hbm, 259, rfl⟩
abbrev main_c_60 : Ref sig .tc := ⟨.hbm, 260, rfl⟩
abbrev main_v168 : Ref sig .tc := ⟨.hbm, 261, rfl⟩
abbrev main_v169 : Ref sig .tc := ⟨.hbm, 262, rfl⟩
abbrev main_v170 : Ref sig .tc := ⟨.hbm, 263, rfl⟩
abbrev main_v171 : Ref sig .tc := ⟨.hbm, 264, rfl⟩
abbrev main_v172 : Ref sig .tc := ⟨.hbm, 265, rfl⟩
abbrev main_v173 : Ref sig .tc := ⟨.hbm, 266, rfl⟩
abbrev main_cst_61 : Ref sig .tc := ⟨.hbm, 267, rfl⟩
abbrev main_call7_v0 : Ref sig .tc := ⟨.hbm, 268, rfl⟩
abbrev main_call7_v1 : Ref sig .tc := ⟨.hbm, 269, rfl⟩
abbrev main_v174 : Ref sig .tc := ⟨.hbm, 270, rfl⟩
abbrev main_v175 : Ref sig .tc := ⟨.hbm, 271, rfl⟩
abbrev main_v176 : Ref sig .tc := ⟨.hbm, 272, rfl⟩
abbrev main_v177 : Ref sig .tc := ⟨.hbm, 273, rfl⟩
abbrev main_cst_62 : Ref sig .tc := ⟨.hbm, 274, rfl⟩
abbrev main_v178 : Ref sig .tc := ⟨.hbm, 275, rfl⟩
abbrev main_v179 : Ref sig .tc := ⟨.hbm, 276, rfl⟩
abbrev main_v180 : Ref sig .tc := ⟨.hbm, 277, rfl⟩
abbrev main_v181 : Ref sig .tc := ⟨.hbm, 278, rfl⟩
abbrev main_v182 : Ref sig .tc := ⟨.hbm, 279, rfl⟩
abbrev main_v183 : Ref sig .tc := ⟨.hbm, 280, rfl⟩
abbrev main_v184 : Ref sig .tc := ⟨.hbm, 281, rfl⟩
abbrev main_cst_63 : Ref sig .tc := ⟨.hbm, 282, rfl⟩
abbrev main_v185 : Ref sig .tc := ⟨.hbm, 283, rfl⟩
abbrev main_cst_64 : Ref sig .tc := ⟨.hbm, 284, rfl⟩
abbrev main_v186 : Ref sig .tc := ⟨.hbm, 285, rfl⟩
abbrev main_cst_65 : Ref sig .tc := ⟨.hbm, 286, rfl⟩
abbrev main_v187 : Ref sig .tc := ⟨.hbm, 287, rfl⟩
abbrev main_cst_66 : Ref sig .tc := ⟨.hbm, 288, rfl⟩
abbrev main_v188 : Ref sig .tc := ⟨.hbm, 289, rfl⟩
abbrev main_v189 : Ref sig .tc := ⟨.hbm, 290, rfl⟩
abbrev main_v190 : Ref sig .tc := ⟨.hbm, 291, rfl⟩
abbrev main_v191 : Ref sig .tc := ⟨.hbm, 292, rfl⟩
abbrev main_cst_67 : Ref sig .tc := ⟨.hbm, 293, rfl⟩
abbrev main_v192 : Ref sig .tc := ⟨.hbm, 294, rfl⟩
abbrev main_cst_68 : Ref sig .tc := ⟨.hbm, 295, rfl⟩
abbrev main_v193 : Ref sig .tc := ⟨.hbm, 296, rfl⟩
abbrev main_cst_69 : Ref sig .tc := ⟨.hbm, 297, rfl⟩
abbrev main_v194 : Ref sig .tc := ⟨.hbm, 298, rfl⟩
abbrev main_cst_70 : Ref sig .tc := ⟨.hbm, 299, rfl⟩
abbrev main_v195 : Ref sig .tc := ⟨.hbm, 300, rfl⟩
abbrev main_cst_71 : Ref sig .tc := ⟨.hbm, 301, rfl⟩
abbrev main_v196 : Ref sig .tc := ⟨.hbm, 302, rfl⟩
abbrev main_v197 : Ref sig .tc := ⟨.hbm, 303, rfl⟩
abbrev main_cst_72 : Ref sig .tc := ⟨.hbm, 304, rfl⟩
abbrev main_v198 : Ref sig .tc := ⟨.hbm, 305, rfl⟩
abbrev main_v199 : Ref sig .tc := ⟨.hbm, 306, rfl⟩
abbrev main_v200 : Ref sig .tc := ⟨.hbm, 307, rfl⟩
abbrev main_cst_73 : Ref sig .tc := ⟨.hbm, 308, rfl⟩
abbrev main_v201 : Ref sig .tc := ⟨.hbm, 309, rfl⟩
abbrev main_v202 : Ref sig .tc := ⟨.hbm, 310, rfl⟩
abbrev main_v203 : Ref sig .tc := ⟨.hbm, 311, rfl⟩
abbrev main_v204 : Ref sig .tc := ⟨.hbm, 312, rfl⟩
abbrev main_v205 : Ref sig .tc := ⟨.hbm, 313, rfl⟩
abbrev main_v206 : Ref sig .tc := ⟨.hbm, 314, rfl⟩
abbrev main_cst_74 : Ref sig .tc := ⟨.hbm, 315, rfl⟩
abbrev main_v207 : Ref sig .tc := ⟨.hbm, 316, rfl⟩
abbrev main_v208 : Ref sig .tc := ⟨.hbm, 317, rfl⟩
abbrev main_v209 : Ref sig .tc := ⟨.hbm, 318, rfl⟩
abbrev main_cst_75 : Ref sig .tc := ⟨.hbm, 319, rfl⟩
abbrev main_v210 : Ref sig .tc := ⟨.hbm, 320, rfl⟩
abbrev main_cst_76 : Ref sig .tc := ⟨.hbm, 321, rfl⟩
abbrev main_v211 : Ref sig .tc := ⟨.hbm, 322, rfl⟩
abbrev main_cst_77 : Ref sig .tc := ⟨.hbm, 323, rfl⟩
abbrev main_v212 : Ref sig .tc := ⟨.hbm, 324, rfl⟩
abbrev main_cst_78 : Ref sig .tc := ⟨.hbm, 325, rfl⟩
abbrev main_v213 : Ref sig .tc := ⟨.hbm, 326, rfl⟩
abbrev main_v214 : Ref sig .tc := ⟨.hbm, 327, rfl⟩
abbrev main_cst_79 : Ref sig .tc := ⟨.hbm, 328, rfl⟩
abbrev main_v215 : Ref sig .tc := ⟨.hbm, 329, rfl⟩
abbrev main_cst_80 : Ref sig .tc := ⟨.hbm, 330, rfl⟩
abbrev main_v216 : Ref sig .tc := ⟨.hbm, 331, rfl⟩
abbrev main_cst_81 : Ref sig .tc := ⟨.hbm, 332, rfl⟩
abbrev main_v217 : Ref sig .tc := ⟨.hbm, 333, rfl⟩
abbrev main_v218 : Ref sig .tc := ⟨.hbm, 334, rfl⟩
abbrev main_v219 : Ref sig .tc := ⟨.hbm, 335, rfl⟩
abbrev main_v220 : Ref sig .tc := ⟨.hbm, 336, rfl⟩
abbrev main_c_82 : Ref sig .tc := ⟨.hbm, 337, rfl⟩
abbrev main_v221 : Ref sig .tc := ⟨.hbm, 338, rfl⟩
abbrev main_v222 : Ref sig .tc := ⟨.hbm, 339, rfl⟩
abbrev main_c_83 : Ref sig .tc := ⟨.hbm, 340, rfl⟩
abbrev main_v223 : Ref sig .tc := ⟨.hbm, 341, rfl⟩
abbrev main_v224 : Ref sig .tc := ⟨.hbm, 342, rfl⟩
abbrev main_v225 : Ref sig .tc := ⟨.hbm, 343, rfl⟩
abbrev main_v226 : Ref sig .tc := ⟨.hbm, 344, rfl⟩
abbrev main_v227 : Ref sig .tc := ⟨.hbm, 345, rfl⟩
abbrev main_v228 : Ref sig .tc := ⟨.hbm, 346, rfl⟩
abbrev main_v229 : Ref sig .tc := ⟨.hbm, 347, rfl⟩
abbrev main_c_84 : Ref sig .tc := ⟨.hbm, 348, rfl⟩
abbrev main_v230 : Ref sig .tc := ⟨.hbm, 349, rfl⟩
abbrev main_v231 : Ref sig .tc := ⟨.hbm, 350, rfl⟩
abbrev main_c_85 : Ref sig .tc := ⟨.hbm, 351, rfl⟩
abbrev main_v232 : Ref sig .tc := ⟨.hbm, 352, rfl⟩
abbrev main_v233 : Ref sig .tc := ⟨.hbm, 353, rfl⟩
abbrev main_v234 : Ref sig .tc := ⟨.hbm, 354, rfl⟩
abbrev main_v235 : Ref sig .tc := ⟨.hbm, 355, rfl⟩
abbrev main_v236 : Ref sig .tc := ⟨.hbm, 356, rfl⟩
abbrev main_v237 : Ref sig .tc := ⟨.hbm, 357, rfl⟩
abbrev main_v238 : Ref sig .tc := ⟨.hbm, 358, rfl⟩
abbrev main_cst_86 : Ref sig .tc := ⟨.hbm, 359, rfl⟩
abbrev main_v239 : Ref sig .tc := ⟨.hbm, 360, rfl⟩
abbrev main_cst_87 : Ref sig .tc := ⟨.hbm, 361, rfl⟩
abbrev main_v240 : Ref sig .tc := ⟨.hbm, 362, rfl⟩
abbrev main_cst_88 : Ref sig .tc := ⟨.hbm, 363, rfl⟩
abbrev main_v241 : Ref sig .tc := ⟨.hbm, 364, rfl⟩
abbrev main_v242 : Ref sig .tc := ⟨.hbm, 365, rfl⟩
abbrev main_v243 : Ref sig .tc := ⟨.hbm, 366, rfl⟩
abbrev main_c_89 : Ref sig .tc := ⟨.hbm, 367, rfl⟩
abbrev main_v244 : Ref sig .tc := ⟨.hbm, 368, rfl⟩
abbrev main_v245 : Ref sig .tc := ⟨.hbm, 369, rfl⟩
abbrev main_c_90 : Ref sig .tc := ⟨.hbm, 370, rfl⟩
abbrev main_call8_v0 : Ref sig .tc := ⟨.hbm, 371, rfl⟩
abbrev main_call8_v1 : Ref sig .tc := ⟨.hbm, 372, rfl⟩
abbrev main_v246 : Ref sig .tc := ⟨.hbm, 373, rfl⟩
abbrev main_c_91 : Ref sig .tc := ⟨.hbm, 374, rfl⟩
abbrev main_v247 : Ref sig .tc := ⟨.hbm, 375, rfl⟩
abbrev main_v248 : Ref sig .tc := ⟨.hbm, 376, rfl⟩
abbrev main_c_92 : Ref sig .tc := ⟨.hbm, 377, rfl⟩
abbrev main_v249 : Ref sig .tc := ⟨.hbm, 378, rfl⟩
abbrev main_v250 : Ref sig .tc := ⟨.hbm, 379, rfl⟩
abbrev main_v251 : Ref sig .tc := ⟨.hbm, 380, rfl⟩
abbrev main_v252 : Ref sig .tc := ⟨.hbm, 381, rfl⟩
abbrev main_v253 : Ref sig .tc := ⟨.hbm, 382, rfl⟩
abbrev main_v254 : Ref sig .tc := ⟨.hbm, 383, rfl⟩
abbrev main_cst_93 : Ref sig .tc := ⟨.hbm, 384, rfl⟩
abbrev main_call9_v0 : Ref sig .tc := ⟨.hbm, 385, rfl⟩
abbrev main_call9_v1 : Ref sig .tc := ⟨.hbm, 386, rfl⟩
abbrev main_v255 : Ref sig .tc := ⟨.hbm, 387, rfl⟩
abbrev main_v256 : Ref sig .tc := ⟨.hbm, 388, rfl⟩
abbrev main_v257 : Ref sig .tc := ⟨.hbm, 389, rfl⟩
abbrev main_v258 : Ref sig .tc := ⟨.hbm, 390, rfl⟩
abbrev main_cst_94 : Ref sig .tc := ⟨.hbm, 391, rfl⟩
abbrev main_v259 : Ref sig .tc := ⟨.hbm, 392, rfl⟩
abbrev main_v260 : Ref sig .tc := ⟨.hbm, 393, rfl⟩
abbrev main_v261 : Ref sig .tc := ⟨.hbm, 394, rfl⟩
abbrev main_v262 : Ref sig .tc := ⟨.hbm, 395, rfl⟩
abbrev main_v263 : Ref sig .tc := ⟨.hbm, 396, rfl⟩
abbrev main_v264 : Ref sig .tc := ⟨.hbm, 397, rfl⟩
abbrev main_c_95 : Ref sig .tc := ⟨.hbm, 398, rfl⟩
abbrev main_v265 : Ref sig .tc := ⟨.hbm, 399, rfl⟩
abbrev main_v266 : Ref sig .tc := ⟨.hbm, 400, rfl⟩
abbrev main_c_96 : Ref sig .tc := ⟨.hbm, 401, rfl⟩
abbrev main_call10_v0 : Ref sig .tc := ⟨.hbm, 402, rfl⟩
abbrev main_call10_v1 : Ref sig .tc := ⟨.hbm, 403, rfl⟩
abbrev main_v267 : Ref sig .tc := ⟨.hbm, 404, rfl⟩
abbrev main_c_97 : Ref sig .tc := ⟨.hbm, 405, rfl⟩
abbrev main_v268 : Ref sig .tc := ⟨.hbm, 406, rfl⟩
abbrev main_v269 : Ref sig .tc := ⟨.hbm, 407, rfl⟩
abbrev main_c_98 : Ref sig .tc := ⟨.hbm, 408, rfl⟩
abbrev main_v270 : Ref sig .tc := ⟨.hbm, 409, rfl⟩
abbrev main_v271 : Ref sig .tc := ⟨.hbm, 410, rfl⟩
abbrev main_v272 : Ref sig .tc := ⟨.hbm, 411, rfl⟩
abbrev main_v273 : Ref sig .tc := ⟨.hbm, 412, rfl⟩
abbrev main_v274 : Ref sig .tc := ⟨.hbm, 413, rfl⟩
abbrev main_v275 : Ref sig .tc := ⟨.hbm, 414, rfl⟩
abbrev main_cst_99 : Ref sig .tc := ⟨.hbm, 415, rfl⟩
abbrev main_call11_v0 : Ref sig .tc := ⟨.hbm, 416, rfl⟩
abbrev main_call11_v1 : Ref sig .tc := ⟨.hbm, 417, rfl⟩
abbrev main_v276 : Ref sig .tc := ⟨.hbm, 418, rfl⟩
abbrev main_v277 : Ref sig .tc := ⟨.hbm, 419, rfl⟩
abbrev main_v278 : Ref sig .tc := ⟨.hbm, 420, rfl⟩
abbrev main_v279 : Ref sig .tc := ⟨.hbm, 421, rfl⟩
abbrev main_cst_100 : Ref sig .tc := ⟨.hbm, 422, rfl⟩
abbrev main_v280 : Ref sig .tc := ⟨.hbm, 423, rfl⟩
abbrev main_v281 : Ref sig .tc := ⟨.hbm, 424, rfl⟩
abbrev main_v282 : Ref sig .tc := ⟨.hbm, 425, rfl⟩
abbrev main_v283 : Ref sig .tc := ⟨.hbm, 426, rfl⟩
abbrev main_v284 : Ref sig .tc := ⟨.hbm, 427, rfl⟩
abbrev main_v285 : Ref sig .tc := ⟨.hbm, 428, rfl⟩
abbrev main_v286 : Ref sig .tc := ⟨.hbm, 429, rfl⟩
abbrev main_cst_101 : Ref sig .tc := ⟨.hbm, 430, rfl⟩
abbrev main_v287 : Ref sig .tc := ⟨.hbm, 431, rfl⟩
abbrev main_cst_102 : Ref sig .tc := ⟨.hbm, 432, rfl⟩
abbrev main_v288 : Ref sig .tc := ⟨.hbm, 433, rfl⟩
abbrev main_cst_103 : Ref sig .tc := ⟨.hbm, 434, rfl⟩
abbrev main_v289 : Ref sig .tc := ⟨.hbm, 435, rfl⟩
abbrev main_cst_104 : Ref sig .tc := ⟨.hbm, 436, rfl⟩
abbrev main_v290 : Ref sig .tc := ⟨.hbm, 437, rfl⟩
abbrev main_v291 : Ref sig .tc := ⟨.hbm, 438, rfl⟩
abbrev main_v292 : Ref sig .tc := ⟨.hbm, 439, rfl⟩
abbrev main_v293 : Ref sig .tc := ⟨.hbm, 440, rfl⟩
abbrev main_cst_105 : Ref sig .tc := ⟨.hbm, 441, rfl⟩
abbrev main_v294 : Ref sig .tc := ⟨.hbm, 442, rfl⟩
abbrev main_cst_106 : Ref sig .tc := ⟨.hbm, 443, rfl⟩
abbrev main_v295 : Ref sig .tc := ⟨.hbm, 444, rfl⟩
abbrev main_cst_107 : Ref sig .tc := ⟨.hbm, 445, rfl⟩
abbrev main_v296 : Ref sig .tc := ⟨.hbm, 446, rfl⟩
abbrev main_cst_108 : Ref sig .tc := ⟨.hbm, 447, rfl⟩
abbrev main_v297 : Ref sig .tc := ⟨.hbm, 448, rfl⟩
abbrev main_v298 : Ref sig .tc := ⟨.hbm, 449, rfl⟩

abbrev nD : Nat := 1
abbrev τ : Topo := Topo.v7x

variable {F : FTy → Type} [FloatOps F]

class Facts₀ : Prop where
  reducesTo_S8x10000x3_S8x10000_d2 : S8x10000x3.ReducesTo [2] S8x10000
  h_S_ : 0 < S_.numel
  bcast_S8x10000_S8x10000x1_0_1 : S8x10000.BroadcastsInDim S8x10000x1 (![0, 1] : Fin 2 → Fin S8x10000x1.rank)
  reducesTo_S8x156x3_S8x156_d2 : S8x156x3.ReducesTo [2] S8x156
  bcast_S8x156_S8x1x156_0_2 : S8x156.BroadcastsInDim S8x1x156 (![0, 2] : Fin 2 → Fin S8x1x156.rank)
  bcast_S8x10000x1_S8x10000x156_0_1_2 : S8x10000x1.BroadcastsInDim S8x10000x156 (![0, 1, 2] : Fin 3 → Fin S8x10000x156.rank)
  bcast_S8x1x156_S8x10000x156_0_1_2 : S8x1x156.BroadcastsInDim S8x10000x156 (![0, 1, 2] : Fin 3 → Fin S8x10000x156.rank)
  bcast_S_S8x10000x156 : S_.BroadcastsInDim S8x10000x156 (![] : Fin 0 → Fin S8x10000x156.rank)
  reducesTo_S8x10000x156_S8x10000_d2 : S8x10000x156.ReducesTo [2] S8x10000
  reducesTo_S8x10000x156_S8x156_d1 : S8x10000x156.ReducesTo [1] S8x156
  reducesTo_S8x10000_S_d0_1 : S8x10000.ReducesTo [0, 1] S_
  reducesTo_S8x156_S_d0_1 : S8x156.ReducesTo [0, 1] S_
  slices_S462x2_S462x1_0_0 : S462x2.Slices ![0, 0] S462x1
  shapeCasts_S462x1_S462 : S462x1.ShapeCasts S462
  bcast_S_S462 : S_.BroadcastsInDim S462 (![] : Fin 0 → Fin S462.rank)
  bcast_S462_S462x1_0 : S462.BroadcastsInDim S462x1 (![0] : Fin 1 → Fin S462x1.rank)
  slices_S462x2_S462x1_0_1 : S462x2.Slices ![0, 1] S462x1
  reducesTo_S8x462x3_S_d0_1_2 : S8x462x3.ReducesTo [0, 1, 2] S_
  slices_S156x10_S156x8_0_0 : S156x10.Slices ![0, 0] S156x8
  bcast_S_S156x8 : S_.BroadcastsInDim S156x8 (![] : Fin 0 → Fin S156x8.rank)
  bcast_S156x8_S156x8x1_0_1 : S156x8.BroadcastsInDim S156x8x1 (![0, 1] : Fin 2 → Fin S156x8x1.rank)
  bcast_S156x8_S1x156x8x1_1_2 : S156x8.BroadcastsInDim S1x156x8x1 (![1, 2] : Fin 2 → Fin S1x156x8x1.rank)
  bcast_S1x156x8x1_S8x156x8x3_0_1_2_3 : S1x156x8x1.BroadcastsInDim S8x156x8x3 (![0, 1, 2, 3] : Fin 4 → Fin S8x156x8x3.rank)
  bcast_S_S8x156x8x3 : S_.BroadcastsInDim S8x156x8x3 (![] : Fin 0 → Fin S8x156x8x3.rank)
  slices_S156x10_S156x1_0_9 : S156x10.Slices ![0, 9] S156x1
  shapeCasts_S156x1_S156 : S156x1.ShapeCasts S156
  reducesTo_S8x156x8x3_S8x156x3_d2 : S8x156x8x3.ReducesTo [2] S8x156x3
  bcast_S156_S1x156x1_1 : S156.BroadcastsInDim S1x156x1 (![1] : Fin 1 → Fin S1x156x1.rank)
  bcast_S1x156x1_S8x156x3_0_1_2 : S1x156x1.BroadcastsInDim S8x156x3 (![0, 1, 2] : Fin 3 → Fin S8x156x3.rank)
  reducesTo_S8x156x3_S_d0_1_2 : S8x156x3.ReducesTo [0, 1, 2] S_
  reducesTo_S8x618x3_S8x618_d2 : S8x618x3.ReducesTo [2] S8x618
  bcast_S8x618_S8x1x618_0_2 : S8x618.BroadcastsInDim S8x1x618 (![0, 2] : Fin 2 → Fin S8x1x618.rank)
  bcast_S8x10000x1_S8x10000x618_0_1_2 : S8x10000x1.BroadcastsInDim S8x10000x618 (![0, 1, 2] : Fin 3 → Fin S8x10000x618.rank)
  bcast_S8x1x618_S8x10000x618_0_1_2 : S8x1x618.BroadcastsInDim S8x10000x618 (![0, 1, 2] : Fin 3 → Fin S8x10000x618.rank)
  bcast_S_S8x10000x618 : S_.BroadcastsInDim S8x10000x618 (![] : Fin 0 → Fin S8x10000x618.rank)
  reducesTo_S8x10000x618_S8x10000_d2 : S8x10000x618.ReducesTo [2] S8x10000
  reducesTo_S8x10000x618_S8x618_d1 : S8x10000x618.ReducesTo [1] S8x618
  reducesTo_S8x618_S_d0_1 : S8x618.ReducesTo [0, 1] S_
  slices_S1848x2_S1848x1_0_0 : S1848x2.Slices ![0, 0] S1848x1
  shapeCasts_S1848x1_S1848 : S1848x1.ShapeCasts S1848
  bcast_S_S1848 : S_.BroadcastsInDim S1848 (![] : Fin 0 → Fin S1848.rank)
  bcast_S1848_S1848x1_0 : S1848.BroadcastsInDim S1848x1 (![0] : Fin 1 → Fin S1848x1.rank)
  slices_S1848x2_S1848x1_0_1 : S1848x2.Slices ![0, 1] S1848x1
  reducesTo_S8x1848x3_S_d0_1_2 : S8x1848x3.ReducesTo [0, 1, 2] S_
  slices_S618x10_S618x8_0_0 : S618x10.Slices ![0, 0] S618x8
  bcast_S_S618x8 : S_.BroadcastsInDim S618x8 (![] : Fin 0 → Fin S618x8.rank)
  bcast_S618x8_S618x8x1_0_1 : S618x8.BroadcastsInDim S618x8x1 (![0, 1] : Fin 2 → Fin S618x8x1.rank)
  bcast_S618x8_S1x618x8x1_1_2 : S618x8.BroadcastsInDim S1x618x8x1 (![1, 2] : Fin 2 → Fin S1x618x8x1.rank)
  bcast_S1x618x8x1_S8x618x8x3_0_1_2_3 : S1x618x8x1.BroadcastsInDim S8x618x8x3 (![0, 1, 2, 3] : Fin 4 → Fin S8x618x8x3.rank)
  bcast_S_S8x618x8x3 : S_.BroadcastsInDim S8x618x8x3 (![] : Fin 0 → Fin S8x618x8x3.rank)
  slices_S618x10_S618x1_0_9 : S618x10.Slices ![0, 9] S618x1
  shapeCasts_S618x1_S618 : S618x1.ShapeCasts S618
  reducesTo_S8x618x8x3_S8x618x3_d2 : S8x618x8x3.ReducesTo [2] S8x618x3
  bcast_S618_S1x618x1_1 : S618.BroadcastsInDim S1x618x1 (![1] : Fin 1 → Fin S1x618x1.rank)
  bcast_S1x618x1_S8x618x3_0_1_2 : S1x618x1.BroadcastsInDim S8x618x3 (![0, 1, 2] : Fin 3 → Fin S8x618x3.rank)
  reducesTo_S8x618x3_S_d0_1_2 : S8x618x3.ReducesTo [0, 1, 2] S_
  reducesTo_S8x2466x3_S8x2466_d2 : S8x2466x3.ReducesTo [2] S8x2466
  bcast_S8x2466_S8x1x2466_0_2 : S8x2466.BroadcastsInDim S8x1x2466 (![0, 2] : Fin 2 → Fin S8x1x2466.rank)
  bcast_S8x10000x1_S8x10000x2466_0_1_2 : S8x10000x1.BroadcastsInDim S8x10000x2466 (![0, 1, 2] : Fin 3 → Fin S8x10000x2466.rank)
  bcast_S8x1x2466_S8x10000x2466_0_1_2 : S8x1x2466.BroadcastsInDim S8x10000x2466 (![0, 1, 2] : Fin 3 → Fin S8x10000x2466.rank)
  bcast_S_S8x10000x2466 : S_.BroadcastsInDim S8x10000x2466 (![] : Fin 0 → Fin S8x10000x2466.rank)
  reducesTo_S8x10000x2466_S8x10000_d2 : S8x10000x2466.ReducesTo [2] S8x10000
  reducesTo_S8x10000x2466_S8x2466_d1 : S8x10000x2466.ReducesTo [1] S8x2466
  reducesTo_S8x2466_S_d0_1 : S8x2466.ReducesTo [0, 1] S_
  slices_S7392x2_S7392x1_0_0 : S7392x2.Slices ![0, 0] S7392x1
  shapeCasts_S7392x1_S7392 : S7392x1.ShapeCasts S7392
  bcast_S_S7392 : S_.BroadcastsInDim S7392 (![] : Fin 0 → Fin S7392.rank)
  bcast_S7392_S7392x1_0 : S7392.BroadcastsInDim S7392x1 (![0] : Fin 1 → Fin S7392x1.rank)
  slices_S7392x2_S7392x1_0_1 : S7392x2.Slices ![0, 1] S7392x1
  reducesTo_S8x7392x3_S_d0_1_2 : S8x7392x3.ReducesTo [0, 1, 2] S_
  slices_S2466x10_S2466x8_0_0 : S2466x10.Slices ![0, 0] S2466x8
  bcast_S_S2466x8 : S_.BroadcastsInDim S2466x8 (![] : Fin 0 → Fin S2466x8.rank)
  bcast_S2466x8_S2466x8x1_0_1 : S2466x8.BroadcastsInDim S2466x8x1 (![0, 1] : Fin 2 → Fin S2466x8x1.rank)
  bcast_S2466x8_S1x2466x8x1_1_2 : S2466x8.BroadcastsInDim S1x2466x8x1 (![1, 2] : Fin 2 → Fin S1x2466x8x1.rank)
  bcast_S1x2466x8x1_S8x2466x8x3_0_1_2_3 : S1x2466x8x1.BroadcastsInDim S8x2466x8x3 (![0, 1, 2, 3] : Fin 4 → Fin S8x2466x8x3.rank)
  bcast_S_S8x2466x8x3 : S_.BroadcastsInDim S8x2466x8x3 (![] : Fin 0 → Fin S8x2466x8x3.rank)
  slices_S2466x10_S2466x1_0_9 : S2466x10.Slices ![0, 9] S2466x1
  shapeCasts_S2466x1_S2466 : S2466x1.ShapeCasts S2466
  reducesTo_S8x2466x8x3_S8x2466x3_d2 : S8x2466x8x3.ReducesTo [2] S8x2466x3
  bcast_S2466_S1x2466x1_1 : S2466.BroadcastsInDim S1x2466x1 (![1] : Fin 1 → Fin S1x2466x1.rank)
  bcast_S1x2466x1_S8x2466x3_0_1_2 : S1x2466x1.BroadcastsInDim S8x2466x3 (![0, 1, 2] : Fin 3 → Fin S8x2466x3.rank)
  reducesTo_S8x2466x3_S_d0_1_2 : S8x2466x3.ReducesTo [0, 1, 2] S_
  dot_S8x10000x3_S8x156x3_S8x10000x156_2_2_1_1_0_0_wf : DotDims.WF S8x10000x3 S8x156x3 S8x10000x156 [2] [2] [1] [1] [0] [0]
  gather_S8x156x3_S462x1_S8x462x3_02_1_n_n_1_1_813_wf : GatherDims.WF S8x156x3 S462x1 S8x462x3 [0, 2] [1] [] [1] [] 1 ![8, 1, 3]
  gather_S8x156x3_S156x8x1_S8x156x8x3_03_1_n_n_1_2_813_wf : GatherDims.WF S8x156x3 S156x8x1 S8x156x8x3 [0, 3] [1] [] [1] [] 2 ![8, 1, 3]
  dot_S8x10000x3_S8x618x3_S8x10000x618_2_2_1_1_0_0_wf : DotDims.WF S8x10000x3 S8x618x3 S8x10000x618 [2] [2] [1] [1] [0] [0]
  gather_S8x618x3_S1848x1_S8x1848x3_02_1_n_n_1_1_813_wf : GatherDims.WF S8x618x3 S1848x1 S8x1848x3 [0, 2] [1] [] [1] [] 1 ![8, 1, 3]
  gather_S8x618x3_S618x8x1_S8x618x8x3_03_1_n_n_1_2_813_wf : GatherDims.WF S8x618x3 S618x8x1 S8x618x8x3 [0, 3] [1] [] [1] [] 2 ![8, 1, 3]
  dot_S8x10000x3_S8x2466x3_S8x10000x2466_2_2_1_1_0_0_wf : DotDims.WF S8x10000x3 S8x2466x3 S8x10000x2466 [2] [2] [1] [1] [0] [0]
  gather_S8x2466x3_S7392x1_S8x7392x3_02_1_n_n_1_1_813_wf : GatherDims.WF S8x2466x3 S7392x1 S8x7392x3 [0, 2] [1] [] [1] [] 1 ![8, 1, 3]
  gather_S8x2466x3_S2466x8x1_S8x2466x8x3_03_1_n_n_1_2_813_wf : GatherDims.WF S8x2466x3 S2466x8x1 S8x2466x8x3 [0, 3] [1] [] [1] [] 2 ![8, 1, 3]

variable [Facts₀]

def dot_S8x10000x3_S8x156x3_S8x10000x156_2_2_1_1_0_0 : DotDims S8x10000x3 S8x156x3 S8x10000x156 where
  lhsContracting := [2]
  rhsContracting := [2]
  lhsNonContracting := [1]
  rhsNonContracting := [1]
  lhsBatch := [0]
  rhsBatch := [0]
  wf := dot_S8x10000x3_S8x156x3_S8x10000x156_2_2_1_1_0_0_wf
def gather_S8x156x3_S462x1_S8x462x3_02_1_n_n_1_1_813 : GatherDims S8x156x3 S462x1 S8x462x3 where
  offsetDims := [0, 2]
  collapsedSliceDims := [1]
  operandBatchingDims := []
  startIndicesBatchingDims := []
  startIndexMap := [1]
  indexVectorDim := 1
  sliceSizes := ![8, 1, 3]
  wf := gather_S8x156x3_S462x1_S8x462x3_02_1_n_n_1_1_813_wf
def gather_S8x156x3_S156x8x1_S8x156x8x3_03_1_n_n_1_2_813 : GatherDims S8x156x3 S156x8x1 S8x156x8x3 where
  offsetDims := [0, 3]
  collapsedSliceDims := [1]
  operandBatchingDims := []
  startIndicesBatchingDims := []
  startIndexMap := [1]
  indexVectorDim := 2
  sliceSizes := ![8, 1, 3]
  wf := gather_S8x156x3_S156x8x1_S8x156x8x3_03_1_n_n_1_2_813_wf
def dot_S8x10000x3_S8x618x3_S8x10000x618_2_2_1_1_0_0 : DotDims S8x10000x3 S8x618x3 S8x10000x618 where
  lhsContracting := [2]
  rhsContracting := [2]
  lhsNonContracting := [1]
  rhsNonContracting := [1]
  lhsBatch := [0]
  rhsBatch := [0]
  wf := dot_S8x10000x3_S8x618x3_S8x10000x618_2_2_1_1_0_0_wf
def gather_S8x618x3_S1848x1_S8x1848x3_02_1_n_n_1_1_813 : GatherDims S8x618x3 S1848x1 S8x1848x3 where
  offsetDims := [0, 2]
  collapsedSliceDims := [1]
  operandBatchingDims := []
  startIndicesBatchingDims := []
  startIndexMap := [1]
  indexVectorDim := 1
  sliceSizes := ![8, 1, 3]
  wf := gather_S8x618x3_S1848x1_S8x1848x3_02_1_n_n_1_1_813_wf
def gather_S8x618x3_S618x8x1_S8x618x8x3_03_1_n_n_1_2_813 : GatherDims S8x618x3 S618x8x1 S8x618x8x3 where
  offsetDims := [0, 3]
  collapsedSliceDims := [1]
  operandBatchingDims := []
  startIndicesBatchingDims := []
  startIndexMap := [1]
  indexVectorDim := 2
  sliceSizes := ![8, 1, 3]
  wf := gather_S8x618x3_S618x8x1_S8x618x8x3_03_1_n_n_1_2_813_wf
def dot_S8x10000x3_S8x2466x3_S8x10000x2466_2_2_1_1_0_0 : DotDims S8x10000x3 S8x2466x3 S8x10000x2466 where
  lhsContracting := [2]
  rhsContracting := [2]
  lhsNonContracting := [1]
  rhsNonContracting := [1]
  lhsBatch := [0]
  rhsBatch := [0]
  wf := dot_S8x10000x3_S8x2466x3_S8x10000x2466_2_2_1_1_0_0_wf
def gather_S8x2466x3_S7392x1_S8x7392x3_02_1_n_n_1_1_813 : GatherDims S8x2466x3 S7392x1 S8x7392x3 where
  offsetDims := [0, 2]
  collapsedSliceDims := [1]
  operandBatchingDims := []
  startIndicesBatchingDims := []
  startIndexMap := [1]
  indexVectorDim := 1
  sliceSizes := ![8, 1, 3]
  wf := gather_S8x2466x3_S7392x1_S8x7392x3_02_1_n_n_1_1_813_wf
def gather_S8x2466x3_S2466x8x1_S8x2466x8x3_03_1_n_n_1_2_813 : GatherDims S8x2466x3 S2466x8x1 S8x2466x8x3 where
  offsetDims := [0, 3]
  collapsedSliceDims := [1]
  operandBatchingDims := []
  startIndicesBatchingDims := []
  startIndexMap := [1]
  indexVectorDim := 2
  sliceSizes := ![8, 1, 3]
  wf := gather_S8x2466x3_S2466x8x1_S8x2466x8x3_03_1_n_n_1_2_813_wf

class Facts : Prop extends Facts₀ where

variable [Facts]
-- ==== Proof.KI.Chamfer0Cases.lean ====
/-
  Region 0 of the program (the squared-distance kernel against the 156 rest points): the grid is 8 batches by
  10 tiles of 1000 ground-truth rows, point t = 10 * batch + tile. The body branches three times on the tile
  number n: at n = 0 the running column minimum is reset, at n > 0 it is lowered by the tile's column minimum,
  at n = 9 it is copied out. Here: those three conditions in closed form over the 80 points, where the second
  output window is idle, the staging memrefs the body is called with, and that every input window's staging
  buffer holds the window's block of the array as the region found it.
-/
import proofs.«112199_j59459527246412_1_alg».proof.Proof.Gen.KernelIdeal.Launch
import proofs.«112199_j59459527246412_1_alg».proof.Proof.Gen.KernelIdeal.Skeleton
import proofs.«112199_j59459527246412_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three branch conditions over the grid -/

/-- The tile number is 0 (the reset branch), as the body computes it from the grid coordinates. -/
abbrev isFirst0 (i : grid0.Coords) : Prop :=
  (Scalar.cmpi .ne (Scalar.extui (Scalar.cmpi .eq (BitVec.ofNat 32 (i 1).val) 0#32)) 0#32) = 1#1
/-- The tile number is positive (the lowering branch). -/
abbrev isLater0 (i : grid0.Coords) : Prop :=
  (Scalar.cmpi .ne (Scalar.extui (Scalar.cmpi .sgt (BitVec.ofNat 32 (i 1).val) 0#32)) 0#32) = 1#1
/-- The tile number is 9 (the copy-out branch). -/
abbrev isLast0 (i : grid0.Coords) : Prop := k0_cond3 i = 1#1

theorem isFirst0_iff : ∀ t : Fin cfg0.N, isFirst0 (grid0.coords t) ↔ t.val % 10 = 0 :=
  (by decide +kernel : ∀ t : Fin grid0.N, isFirst0 (grid0.coords t) ↔ t.val % 10 = 0)
theorem isLater0_iff : ∀ t : Fin cfg0.N, isLater0 (grid0.coords t) ↔ ¬ t.val % 10 = 0 :=
  (by decide +kernel : ∀ t : Fin grid0.N, isLater0 (grid0.coords t) ↔ ¬ t.val % 10 = 0)
theorem isLast0_iff : ∀ t : Fin cfg0.N, isLast0 (grid0.coords t) ↔ t.val % 10 = 9 :=
  (by decide +kernel : ∀ t : Fin grid0.N, isLast0 (grid0.coords t) ↔ t.val % 10 = 9)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last tile of a batch the column-minimum output is idle and is not written back. -/
theorem idle0_3 : ∀ t : Fin cfg0.N, ¬ t.val % 10 = 9 → cfg0.idle 3 (grid0.coords t) = true := by decide +kernel
theorem noFlush0_3 : ∀ t : Fin cfg0.N, ¬ t.val % 10 = 9 → (cfg0.win 3).flush t = false := by decide +kernel
theorem live0_3 : ∀ t : Fin cfg0.N, t.val % 10 = 9 → cfg0.idle 3 (grid0.coords t) = false := by decide +kernel

/-! ## The staging memrefs at a point, and the scratch -/

abbrev ms0_0 (t : Fin cfg0.N) : Memref sig .tc .vmem S1x1000x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x156x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1000x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x156x1 .f32 := win0_3.stage (cfg0.slots t 3)
abbrev hs0_3 (t : Fin cfg0.N) : (ms0_3 t).IsWhole := hstage0_3 ((cfg0.slots t 3).cast nbuf0_3)
/-- The running column minimum lives in the kernel's one scratch buffer. -/
abbrev scM0 : Memref sig .tc .vmem S1x156x1 .f32 := Memref.whole cc0_scratch0

/-- The other scoped buffers of the core (the other regions' staging buffers and scratch), at some contents each. -/
abbrev others0 (c : Dev nD) : sProp 𝕄 := Pipeline.scopedRestBut (Ix := Unit) (Name := ℕ) (U := UR sig nD τ) (Lvl := ℕ) (Val := Elt F) spec0 c [cc0_scratch0]

/-- The class invariant with the scratch spelt as an owned memref at some contents, the other scoped buffers unopened. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA
  rw [Pipeline.scopedRest_split_of_list spec0 c [cc0_scratch0] (by decide) (by decide)]
  simp only [Idealize.SL.BI.bigSepL_singleton, scM0, owns_whole]; try rfl

/-! ## The input windows' blocks -/

section Blocks
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The ground-truth window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The rest-point window's staging buffer holds its block at every point (fetched once per batch, the block index
    unchanged in between). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Blocks

end Cert.KernelIdeal.Chamfer

end
-- ==== Proof.KI.Chamfer0First.lean ====
/-
  Region 0, a point with tile number 0: the body loads the tile of ground-truth rows and the rest points, stores the
  row minima of their squared distances into the first output's buffer, and RESETS the scratch to the tile's column
  minima; the second output's buffer is not touched. The run is found by the symbolic executor; the pieces each
  written buffer ends with are the witness it finds.
-/
import proofs.«112199_j59459527246412_1_alg».proof.Proof.KI.Chamfer0Cases

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first tile, on whole staging memrefs: the inputs at their contents, the row-minimum output and the
    scratch at anything, the column-minimum output at some contents `d3`. It runs to the continuation with the inputs as
    they were, the row-minimum output's buffer with its pieces `L2` written, the column-minimum output's buffer untouched,
    and the scratch with its pieces `LS` written. -/
noncomputable def runFirst0 (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole)
    (hA : isFirst0 i) (hB : ¬isLater0 i) (hC : ¬isLast0 i)
    (x0 : Vec F S1x1000x3 .f32) (x1 : Vec F S1x156x3 .f32) :
    Σ' (L2 : List (View.Piece (Elt F) S1x1000x1 .f32)), { LS : List (View.Piece (Elt F) S1x156x1 .f32) //
      ∀ (d3 : Vec F S1x156x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare d3 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare d3 ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_kernel i arg2 harg2 arg3 harg3 arg4 harg4 arg5 harg5 arg6 harg6) K } := by
  refine ⟨?_, ?_, fun d3 E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, ⟨%ds, %fs, -, HS⟩, Hk⟩
    obtain rfl := harg2.eq_unread hf0; obtain rfl := harg3.eq_unread hf1
    sl_exec (disch := first | exact hA | exact hB | exact hC)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact hf3
      iexact H3
    iexists _; iexact HS

end Cert.KernelIdeal.Chamfer

end
-- ==== Proof.KI.Chamfer0Mid.lean ====
/-
  Region 0, a point with tile number 1 to 8: the body stores the tile's row minima into the first output's buffer and
  LOWERS the scratch, which holds the running column minimum `xs` the point before left, by the tile's column minima;
  the second output's buffer is not touched.
-/
import proofs.«112199_j59459527246412_1_alg».proof.Proof.KI.Chamfer0Cases

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle tile: as at a first tile, but the scratch comes in at known contents `xs` and its pieces `LS`
    are computed from them. -/
noncomputable def runMid0 (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole)
    (hA : ¬isFirst0 i) (hB : isLater0 i) (hC : ¬isLast0 i)
    (x0 : Vec F S1x1000x3 .f32) (x1 : Vec F S1x156x3 .f32) (xs : Vec F S1x156x1 .f32) :
    Σ' (L2 : List (View.Piece (Elt F) S1x1000x1 .f32)), { LS : List (View.Piece (Elt F) S1x156x1 .f32) //
      ∀ (d3 : Vec F S1x156x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare d3 ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare d3 ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_kernel i arg2 harg2 arg3 harg3 arg4 harg4 arg5 harg5 arg6 harg6) K } := by
  refine ⟨?_, ?_, fun d3 E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, ⟨%fs, %hfs, HS⟩, Hk⟩
    obtain rfl := harg2.eq_unread hf0; obtain rfl := harg3.eq_unread hf1; obtain rfl := harg6.eq_unread hfs
    sl_exec (disch := first | exact hA | exact hB | exact hC)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact hf3
      iexact H3
    iexists _; iexact HS

end Cert.KernelIdeal.Chamfer

end
-- ==== Proof.KI.Chamfer0Last.lean ====
/-
  Region 0, a point with tile number 9: the body stores the tile's row minima, lowers the running column minimum in
  the scratch by the tile's column minima, and COPIES the scratch out into the second output's buffer.
-/
import proofs.«112199_j59459527246412_1_alg».proof.Proof.KI.Chamfer0Cases

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a last tile: the scratch comes in at `xs`; both outputs' buffers and the scratch end with pieces written. -/
noncomputable def runLast0 (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole)
    (hA : ¬isFirst0 i) (hB : isLater0 i) (hC : isLast0 i)
    (x0 : Vec F S1x1000x3 .f32) (x1 : Vec F S1x156x3 .f32) (xs : Vec F S1x156x1 .f32) :
    Σ' (L2 : List (View.Piece (Elt F) S1x1000x1 .f32)) (L3 : List (View.Piece (Elt F) S1x156x1 .f32)), { LS : List (View.Piece (Elt F) S1x156x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_kernel i arg2 harg2 arg3 harg3 arg4 harg4 arg5 harg5 arg6 harg6) K } := by
  refine ⟨?_, ?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, %hf3, H3⟩, ⟨%fs, %hfs, HS⟩, Hk⟩
    obtain rfl := harg2.eq_unread hf0; obtain rfl := harg3.eq_unread hf1; obtain rfl := harg6.eq_unread hfs
    sl_exec (disch := first | exact hA | exact hB | exact hC)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS

end Cert.KernelIdeal.Chamfer

end
-- ==== Proof.KI.Chamfer0Points.lean ====
/-
  Region 0: what every grid point leaves behind. After point t the first output's buffer holds the tile's row minima,
  the scratch holds the running column minimum of the batch's tiles so far (reset at tile 0, lowered at every later
  tile), and at tile 9 the second output's buffer holds a copy of the scratch. These contents are defined by recursion
  on the point, each point's case run on what the point before left in the scratch; the region's invariant carries the
  scratch at those contents from point to point; and the body, at every point, takes the state from one to the next.
-/
import proofs.«112199_j59459527246412_1_alg».proof.Proof.KI.Chamfer0First
import proofs.«112199_j59459527246412_1_alg».proof.Proof.KI.Chamfer0Mid
import proofs.«112199_j59459527246412_1_alg».proof.Proof.KI.Chamfer0Last

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The contents a case leaves, read back through a fixed view of each buffer's shape -/

abbrev VO0_2 : View sig .tc .vmem S1x1000x1 .f32 := (Memref.whole cc0_stg2_0 : Memref sig .tc .vmem S1x1000x1 .f32).view
abbrev VO0_3 : View sig .tc .vmem S1x156x1 .f32 := (Memref.whole cc0_stg3_0 : Memref sig .tc .vmem S1x156x1 .f32).view
abbrev VS0 : View sig .tc .vmem S1x156x1 .f32 := scM0.view

/-- A first tile's row minima. -/
def rowsFirst0 (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : isFirst0 i) (hB : ¬isLater0 i) (hC : ¬isLast0 i)
    (x0 : Vec F S1x1000x3 .f32) (x1 : Vec F S1x156x3 .f32) : Vec F S1x1000x1 .f32 :=
  VO0_2.read (Elt F) (VO0_2.writes (Elt F) VO0_2.junk (runFirst0 c i arg2 harg2 arg3 harg3 arg4 harg4 arg5 harg5 arg6 harg6 hA hB hC x0 x1).1)
theorem rowsFirst0_cover (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : isFirst0 i) (hB : ¬isLater0 i) (hC : ¬isLast0 i)
    (x0 : Vec F S1x1000x3 .f32) (x1 : Vec F S1x156x3 .f32) (y : S1x1000x1.Idx) :
    ∃ pc ∈ (runFirst0 c i arg2 harg2 arg3 harg3 arg4 harg4 arg5 harg5 arg6 harg6 hA hB hC x0 x1).1, y ∈ pc.1.set :=
  View.cover_of_tiledL (runFirst0 c i arg2 harg2 arg3 harg3 arg4 harg4 arg5 harg5 arg6 harg6 hA hB hC x0 x1).1 S1x1000x1.size (by sl_kernel_rfl) y
/-- A first tile's column minima: the scratch after the reset. -/
def accFirst0 (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : isFirst0 i) (hB : ¬isLater0 i) (hC : ¬isLast0 i)
    (x0 : Vec F S1x1000x3 .f32) (x1 : Vec F S1x156x3 .f32) : Vec F S1x156x1 .f32 :=
  VS0.read (Elt F) (VS0.writes (Elt F) VS0.junk (runFirst0 c i arg2 harg2 arg3 harg3 arg4 harg4 arg5 harg5 arg6 harg6 hA hB hC x0 x1).2.1)
theorem accFirst0_cover (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : isFirst0 i) (hB : ¬isLater0 i) (hC : ¬isLast0 i)
    (x0 : Vec F S1x1000x3 .f32) (x1 : Vec F S1x156x3 .f32) (y : S1x156x1.Idx) :
    ∃ pc ∈ (runFirst0 c i arg2 harg2 arg3 harg3 arg4 harg4 arg5 harg5 arg6 harg6 hA hB hC x0 x1).2.1, y ∈ pc.1.set :=
  View.cover_of_tiledL (runFirst0 c i arg2 harg2 arg3 harg3 arg4 harg4 arg5 harg5 arg6 harg6 hA hB hC x0 x1).2.1 S1x156x1.size (by sl_kernel_rfl) y

/-- A middle tile's row minima. -/
def rowsMid0 (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : ¬isFirst0 i) (hB : isLater0 i) (hC : ¬isLast0 i)
    (x0 : Vec F S1x1000x3 .f32) (x1 : Vec F S1x156x3 .f32) (xs : Vec F S1x156x1 .f32) : Vec F S1x1000x1 .f32 :=
  VO0_2.read (Elt F) (VO0_2.writes (Elt F) VO0_2.junk (runMid0 c i arg2 harg2 arg3 harg3 arg4 harg4 arg5 harg5 arg6 harg6 hA hB hC x0 x1 xs).1)
theorem rowsMid0_cover (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : ¬isFirst0 i) (hB : isLater0 i) (hC : ¬isLast0 i)
    (x0 : Vec F S1x1000x3 .f32) (x1 : Vec F S1x156x3 .f32) (xs : Vec F S1x156x1 .f32) (y : S1x1000x1.Idx) :
    ∃ pc ∈ (runMid0 c i arg2 harg2 arg3 harg3 arg4 harg4 arg5 harg5 arg6 harg6 hA hB hC x0 x1 xs).1, y ∈ pc.1.set :=
  View.cover_of_tiledL (runMid0 c i arg2 harg2 arg3 harg3 arg4 harg4 arg5 harg5 arg6 harg6 hA hB hC x0 x1 xs).1 S1x1000x1.size (by sl_kernel_rfl) y
/-- The scratch after a middle tile: the running minimum `xs` lowered by the tile's column minima. -/
def accMid0 (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : ¬isFirst0 i) (hB : isLater0 i) (hC : ¬isLast0 i)
    (x0 : Vec F S1x1000x3 .f32) (x1 : Vec F S1x156x3 .f32) (xs : Vec F S1x156x1 .f32) : Vec F S1x156x1 .f32 :=
  VS0.read (Elt F) (VS0.writes (Elt F) VS0.junk (runMid0 c i arg2 harg2 arg3 harg3 arg4 harg4 arg5 harg5 arg6 harg6 hA hB hC x0 x1 xs).2.1)
theorem accMid0_cover (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : ¬isFirst0 i) (hB : isLater0 i) (hC : ¬isLast0 i)
    (x0 : Vec F S1x1000x3 .f32) (x1 : Vec F S1x156x3 .f32) (xs : Vec F S1x156x1 .f32) (y : S1x156x1.Idx) :
    ∃ pc ∈ (runMid0 c i arg2 harg2 arg3 harg3 arg4 harg4 arg5 harg5 arg6 harg6 hA hB hC x0 x1 xs).2.1, y ∈ pc.1.set :=
  View.cover_of_tiledL (runMid0 c i arg2 harg2 arg3 harg3 arg4 harg4 arg5 harg5 arg6 harg6 hA hB hC x0 x1 xs).2.1 S1x156x1.size (by sl_kernel_rfl) y

/-- A last tile's row minima. -/
def rowsLast0 (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : ¬isFirst0 i) (hB : isLater0 i) (hC : isLast0 i)
    (x0 : Vec F S1x1000x3 .f32) (x1 : Vec F S1x156x3 .f32) (xs : Vec F S1x156x1 .f32) : Vec F S1x1000x1 .f32 :=
  VO0_2.read (Elt F) (VO0_2.writes (Elt F) VO0_2.junk (runLast0 c i arg2 harg2 arg3 harg3 arg4 harg4 arg5 harg5 arg6 harg6 hA hB hC x0 x1 xs).1)
theorem rowsLast0_cover (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : ¬isFirst0 i) (hB : isLater0 i) (hC : isLast0 i)
    (x0 : Vec F S1x1000x3 .f32) (x1 : Vec F S1x156x3 .f32) (xs : Vec F S1x156x1 .f32) (y : S1x1000x1.Idx) :
    ∃ pc ∈ (runLast0 c i arg2 harg2 arg3 harg3 arg4 harg4 arg5 harg5 arg6 harg6 hA hB hC x0 x1 xs).1, y ∈ pc.1.set :=
  View.cover_of_tiledL (runLast0 c i arg2 harg2 arg3 harg3 arg4 harg4 arg5 harg5 arg6 harg6 hA hB hC x0 x1 xs).1 S1x1000x1.size (by sl_kernel_rfl) y
/-- The batch's column minima as the last tile copies them out. -/
def colsLast0 (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : ¬isFirst0 i) (hB : isLater0 i) (hC : isLast0 i)
    (x0 : Vec F S1x1000x3 .f32) (x1 : Vec F S1x156x3 .f32) (xs : Vec F S1x156x1 .f32) : Vec F S1x156x1 .f32 :=
  VO0_3.read (Elt F) (VO0_3.writes (Elt F) VO0_3.junk (runLast0 c i arg2 harg2 arg3 harg3 arg4 harg4 arg5 harg5 arg6 harg6 hA hB hC x0 x1 xs).2.1)
theorem colsLast0_cover (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : ¬isFirst0 i) (hB : isLater0 i) (hC : isLast0 i)
    (x0 : Vec F S1x1000x3 .f32) (x1 : Vec F S1x156x3 .f32) (xs : Vec F S1x156x1 .f32) (y : S1x156x1.Idx) :
    ∃ pc ∈ (runLast0 c i arg2 harg2 arg3 harg3 arg4 harg4 arg5 harg5 arg6 harg6 hA hB hC x0 x1 xs).2.1, y ∈ pc.1.set :=
  View.cover_of_tiledL (runLast0 c i arg2 harg2 arg3 harg3 arg4 harg4 arg5 harg5 arg6 harg6 hA hB hC x0 x1 xs).2.1 S1x156x1.size (by sl_kernel_rfl) y
/-- The scratch after a last tile. -/
def accLast0 (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : ¬isFirst0 i) (hB : isLater0 i) (hC : isLast0 i)
    (x0 : Vec F S1x1000x3 .f32) (x1 : Vec F S1x156x3 .f32) (xs : Vec F S1x156x1 .f32) : Vec F S1x156x1 .f32 :=
  VS0.read (Elt F) (VS0.writes (Elt F) VS0.junk (runLast0 c i arg2 harg2 arg3 harg3 arg4 harg4 arg5 harg5 arg6 harg6 hA hB hC x0 x1 xs).2.2.1)
theorem accLast0_cover (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : ¬isFirst0 i) (hB : isLater0 i) (hC : isLast0 i)
    (x0 : Vec F S1x1000x3 .f32) (x1 : Vec F S1x156x3 .f32) (xs : Vec F S1x156x1 .f32) (y : S1x156x1.Idx) :
    ∃ pc ∈ (runLast0 c i arg2 harg2 arg3 harg3 arg4 harg4 arg5 harg5 arg6 harg6 hA hB hC x0 x1 xs).2.2.1, y ∈ pc.1.set :=
  View.cover_of_tiledL (runLast0 c i arg2 harg2 arg3 harg3 arg4 harg4 arg5 harg5 arg6 harg6 hA hB hC x0 x1 xs).2.2.1 S1x156x1.size (by sl_kernel_rfl) y

/-! ## What the buffers hold after each point -/

section Points
variable (V : (c : Dev nD) → (b : Ref sig .tc) → Buf (Elt F) ((c : Thread nD τ).loc b))

theorem notLater0_of {t : Fin cfg0.N} (h0 : t.val % 10 = 0) : ¬isLater0 (grid0.coords t) := fun h => (isLater0_iff t).mp h h0
theorem notLast0_of {t : Fin cfg0.N} (h9 : ¬t.val % 10 = 9) : ¬isLast0 (grid0.coords t) := fun h => h9 ((isLast0_iff t).mp h)
theorem notFirst0_of {t : Fin cfg0.N} (h0 : ¬t.val % 10 = 0) : ¬isFirst0 (grid0.coords t) := fun h => h0 ((isFirst0_iff t).mp h)
theorem ne9_of_zero0 {n : ℕ} (h0 : n % 10 = 0) : ¬n % 10 = 9 := by omega
theorem ne0_of_nine0 {n : ℕ} (h9 : n % 10 = 9) : ¬n % 10 = 0 := by omega

/-- The row-minimum buffer, the column-minimum buffer and the scratch after the body at position `n`: the case of the
    point's tile number, run on the point's input blocks and, past a batch's first tile, on what the point before left
    in the scratch. Away from a last tile the column-minimum buffer is idle; a placeholder stands for it. -/
def outsAt0 (c : Dev nD) : (n : ℕ) → n < cfg0.N → Vec F S1x1000x1 .f32 × Vec F S1x156x1 .f32 × Vec F S1x156x1 .f32
  | 0, hn =>
    (rowsFirst0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((isFirst0_iff ⟨0, hn⟩).mpr (Nat.zero_mod _)) (notLater0_of (t := ⟨0, hn⟩) (Nat.zero_mod _)) (notLast0_of (t := ⟨0, hn⟩) (ne9_of_zero0 (Nat.zero_mod _))) (iblk0 V c 0 ⟨0, hn⟩) (iblk0 V c 1 ⟨0, hn⟩),
     VO0_3.read (Elt F) VO0_3.junk,
     accFirst0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((isFirst0_iff ⟨0, hn⟩).mpr (Nat.zero_mod _)) (notLater0_of (t := ⟨0, hn⟩) (Nat.zero_mod _)) (notLast0_of (t := ⟨0, hn⟩) (ne9_of_zero0 (Nat.zero_mod _))) (iblk0 V c 0 ⟨0, hn⟩) (iblk0 V c 1 ⟨0, hn⟩))
  | n + 1, hn =>
    if h0 : (n + 1) % 10 = 0 then
      (rowsFirst0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((isFirst0_iff ⟨n + 1, hn⟩).mpr h0) (notLater0_of (t := ⟨n + 1, hn⟩) h0) (notLast0_of (t := ⟨n + 1, hn⟩) (ne9_of_zero0 h0)) (iblk0 V c 0 ⟨n + 1, hn⟩) (iblk0 V c 1 ⟨n + 1, hn⟩),
       VO0_3.read (Elt F) VO0_3.junk,
       accFirst0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((isFirst0_iff ⟨n + 1, hn⟩).mpr h0) (notLater0_of (t := ⟨n + 1, hn⟩) h0) (notLast0_of (t := ⟨n + 1, hn⟩) (ne9_of_zero0 h0)) (iblk0 V c 0 ⟨n + 1, hn⟩) (iblk0 V c 1 ⟨n + 1, hn⟩))
    else if h9 : (n + 1) % 10 = 9 then
      (rowsLast0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (notFirst0_of (t := ⟨n + 1, hn⟩) h0) ((isLater0_iff ⟨n + 1, hn⟩).mpr h0) ((isLast0_iff ⟨n + 1, hn⟩).mpr h9) (iblk0 V c 0 ⟨n + 1, hn⟩) (iblk0 V c 1 ⟨n + 1, hn⟩) (outsAt0 c n (Nat.lt_of_succ_lt hn)).2.2,
       colsLast0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (notFirst0_of (t := ⟨n + 1, hn⟩) h0) ((isLater0_iff ⟨n + 1, hn⟩).mpr h0) ((isLast0_iff ⟨n + 1, hn⟩).mpr h9) (iblk0 V c 0 ⟨n + 1, hn⟩) (iblk0 V c 1 ⟨n + 1, hn⟩) (outsAt0 c n (Nat.lt_of_succ_lt hn)).2.2,
       accLast0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (notFirst0_of (t := ⟨n + 1, hn⟩) h0) ((isLater0_iff ⟨n + 1, hn⟩).mpr h0) ((isLast0_iff ⟨n + 1, hn⟩).mpr h9) (iblk0 V c 0 ⟨n + 1, hn⟩) (iblk0 V c 1 ⟨n + 1, hn⟩) (outsAt0 c n (Nat.lt_of_succ_lt hn)).2.2)
    else
      (rowsMid0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (notFirst0_of (t := ⟨n + 1, hn⟩) h0) ((isLater0_iff ⟨n + 1, hn⟩).mpr h0) (notLast0_of (t := ⟨n + 1, hn⟩) h9) (iblk0 V c 0 ⟨n + 1, hn⟩) (iblk0 V c 1 ⟨n + 1, hn⟩) (outsAt0 c n (Nat.lt_of_succ_lt hn)).2.2,
       VO0_3.read (Elt F) VO0_3.junk,
       accMid0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (notFirst0_of (t := ⟨n + 1, hn⟩) h0) ((isLater0_iff ⟨n + 1, hn⟩).mpr h0) (notLast0_of (t := ⟨n + 1, hn⟩) h9) (iblk0 V c 0 ⟨n + 1, hn⟩) (iblk0 V c 1 ⟨n + 1, hn⟩) (outsAt0 c n (Nat.lt_of_succ_lt hn)).2.2)

/-- At a first tile. -/
theorem outsAt0_first (c : Dev nD) (t : Fin cfg0.N) (h0 : t.val % 10 = 0) :
    outsAt0 V c t.val t.isLt =
      (rowsFirst0 c (grid0.coords t) (ms0_0 t) (hs0_0 t) (ms0_1 t) (hs0_1 t) (ms0_2 t) (hs0_2 t) (ms0_3 t) (hs0_3 t) scM0 (Memref.isWhole_whole _) ((isFirst0_iff t).mpr h0) (notLater0_of h0) (notLast0_of (ne9_of_zero0 h0)) (iblk0 V c 0 t) (iblk0 V c 1 t),
       VO0_3.read (Elt F) VO0_3.junk,
       accFirst0 c (grid0.coords t) (ms0_0 t) (hs0_0 t) (ms0_1 t) (hs0_1 t) (ms0_2 t) (hs0_2 t) (ms0_3 t) (hs0_3 t) scM0 (Memref.isWhole_whole _) ((isFirst0_iff t).mpr h0) (notLater0_of h0) (notLast0_of (ne9_of_zero0 h0)) (iblk0 V c 0 t) (iblk0 V c 1 t)) := by
  obtain ⟨n, hn⟩ := t
  cases n with
  | zero => exact rfl
  | succ n => exact (dif_pos h0).trans rfl

/-- At a middle tile, over what the point before left in the scratch. -/
theorem outsAt0_mid (c : Dev nD) (t : Fin cfg0.N) (h0 : ¬t.val % 10 = 0) (h9 : ¬t.val % 10 = 9) :
    outsAt0 V c t.val t.isLt =
      (rowsMid0 c (grid0.coords t) (ms0_0 t) (hs0_0 t) (ms0_1 t) (hs0_1 t) (ms0_2 t) (hs0_2 t) (ms0_3 t) (hs0_3 t) scM0 (Memref.isWhole_whole _) (notFirst0_of h0) ((isLater0_iff t).mpr h0) (notLast0_of h9) (iblk0 V c 0 t) (iblk0 V c 1 t) (outsAt0 V c (t.val - 1) (Nat.lt_of_le_of_lt (Nat.sub_le _ _) t.isLt)).2.2,
       VO0_3.read (Elt F) VO0_3.junk,
       accMid0 c (grid0.coords t) (ms0_0 t) (hs0_0 t) (ms0_1 t) (hs0_1 t) (ms0_2 t) (hs0_2 t) (ms0_3 t) (hs0_3 t) scM0 (Memref.isWhole_whole _) (notFirst0_of h0) ((isLater0_iff t).mpr h0) (notLast0_of h9) (iblk0 V c 0 t) (iblk0 V c 1 t) (outsAt0 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h9).trans rfl)

/-- At a last tile, over what the point before left in the scratch. -/
theorem outsAt0_last (c : Dev nD) (t : Fin cfg0.N) (h0 : ¬t.val % 10 = 0) (h9 : t.val % 10 = 9) :
    outsAt0 V c t.val t.isLt =
      (rowsLast0 c (grid0.coords t) (ms0_0 t) (hs0_0 t) (ms0_1 t) (hs0_1 t) (ms0_2 t) (hs0_2 t) (ms0_3 t) (hs0_3 t) scM0 (Memref.isWhole_whole _) (notFirst0_of h0) ((isLater0_iff t).mpr h0) ((isLast0_iff t).mpr h9) (iblk0 V c 0 t) (iblk0 V c 1 t) (outsAt0 V c (t.val - 1) (Nat.lt_of_le_of_lt (Nat.sub_le _ _) t.isLt)).2.2,
       colsLast0 c (grid0.coords t) (ms0_0 t) (hs0_0 t) (ms0_1 t) (hs0_1 t) (ms0_2 t) (hs0_2 t) (ms0_3 t) (hs0_3 t) scM0 (Memref.isWhole_whole _) (notFirst0_of h0) ((isLater0_iff t).mpr h0) ((isLast0_iff t).mpr h9) (iblk0 V c 0 t) (iblk0 V c 1 t) (outsAt0 V c (t.val - 1) (Nat.lt_of_le_of_lt (Nat.sub_le _ _) t.isLt)).2.2,
       accLast0 c (grid0.coords t) (ms0_0 t) (hs0_0 t) (ms0_1 t) (hs0_1 t) (ms0_2 t) (hs0_2 t) (ms0_3 t) (hs0_3 t) scM0 (Memref.isWhole_whole _) (notFirst0_of h0) ((isLater0_iff t).mpr h0) ((isLast0_iff t).mpr h9) (iblk0 V c 0 t) (iblk0 V c 1 t) (outsAt0 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h9).trans rfl)

/-! ## The region's invariant -/

/-- Before position `n`: at the very first point the class's invariant (the scratch at anything); afterwards the scratch
    at what the point before left in it, the other scoped buffers unopened, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2.2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2.2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2.2) ∗ others0 c) ∗ (∃ r, prngReg c r)) := by
  cases n with
  | zero => exact absurd rfl hz
  | succ n => rfl

/-! ## The proof data -/

/-- The arrays as the region finds them; after the body at point `t` the inputs' buffers at their blocks, the outputs' at
    `outsAt0`'s components; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Points

end Cert.KernelIdeal.Chamfer

end
-- ==== Proof.KI.Chamfer0Body.lean ====
/-
  Region 0: the body takes the region's state from one grid point to the next. At every point the input windows'
  staging buffers hold their blocks; the tile number selects the case; the invariant hands the body the scratch at what
  the point before left (at anything at the very first point) and takes it back at this point's contents.
-/
import proofs.«112199_j59459527246412_1_alg».proof.Proof.KI.Chamfer0Points

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body
variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  have hN : t.val < 80 := lt_of_lt_of_eq t.isLt (show cfg0.N = 80 from N_0)
  by_cases h0 : t.val % 10 = 0
  · -- a first tile: the scratch is reset
    rw [Dat.leavesExact_idle (dat0 V c) 3 t (idle0_3 t (ne9_of_zero0 h0)) (noFlush0_3 t (ne9_of_zero0 h0))]
    rw [outsAt0_first V c t h0]
    unfold rowsFirst0 accFirst0; (try dsimp only)
    by_cases hz : t.val = 0
    · rw [PhiS0_castSucc V c t, PhiS0_zero V c _ _ hz, PhiA0_eq]
      iintro ⟨⟨⟨HS, Hoth⟩, Hg⟩, Ho, ⟨%d0, H0⟩, ⟨%d1, H1⟩, ⟨%d2, H2⟩, ⟨%d3, H3⟩⟩
      iapply ((runFirst0 c (grid0.coords t) _ _ _ _ _ _ _ _ _ _ ((isFirst0_iff t).mpr h0) (notLater0_of h0) (notLast0_of (ne9_of_zero0 h0)) (iblk0 V c 0 t) (iblk0 V c 1 t)).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, ⟨%es, HS⟩⟩
      isplitl [HS Hoth Hg]
      · isplitl [HS Hoth]
        · isplitl [HS]
          · unfold owns; iexists _; isplitr
            swap; · iexact HS
            ipureintro; exact View.read_writes_of_cover _ _ _ _ _ (accFirst0_cover c _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (rowsFirst0_cover c _ _ _ _ _ _ _ _ _ _ _ _ _ _ _ _)
      iexists _; iexact H3
    · rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩⟩
      iapply ((runFirst0 c (grid0.coords t) _ _ _ _ _ _ _ _ _ _ ((isFirst0_iff t).mpr h0) (notLater0_of h0) (notLast0_of (ne9_of_zero0 h0)) (iblk0 V c 0 t) (iblk0 V c 1 t)).2.2 _ Set.univ _)
      isplitl [H0]; · iexact H0
      isplitl [H1]; · iexact H1
      isplitl [H2]; · iexists _; iexact H2
      isplitl [H3]; · iexact H3
      isplitl [HS]; · iexists _; iexact HS
      iintro ⟨H0, H1, ⟨%e2, H2⟩, H3, ⟨%es, HS⟩⟩
      isplitl [HS Hoth Hg]
      · isplitl [HS Hoth]
        · isplitl [HS]
          · unfold owns; iexists _; isplitr
            swap; · iexact HS
            ipureintro; exact View.read_writes_of_cover _ _ _ _ _ (accFirst0_cover c _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (rowsFirst0_cover c _ _ _ _ _ _ _ _ _ _ _ _ _ _ _ _)
      iexists _; iexact H3
  · have hz : t.val ≠ 0 := fun h => h0 (by rw [h])
    by_cases h9 : t.val % 10 = 9
    · -- a last tile: the scratch is lowered and copied out
      rw [show (dat0 V c).leavesExact 3 t = owns (c : Thread nD τ) (ms0_3 t) fullShare ((dat0 V c).after 3 t) from by
        unfold Dat.leavesExact; rw [live0_3 t h9], after0_3]
      rw [outsAt0_last V c t h0 h9]
      unfold rowsLast0 colsLast0 accLast0; (try dsimp only)
      rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩⟩
      iapply ((runLast0 c (grid0.coords t) _ _ _ _ _ _ _ _ _ _ (notFirst0_of h0) ((isLater0_iff t).mpr h0) ((isLast0_iff t).mpr h9) (iblk0 V c 0 t) (iblk0 V c 1 t) _).2.2.2 Set.univ _)
      isplitl [H0]; · iexact H0
      isplitl [H1]; · iexact H1
      isplitl [H2]; · iexists _; iexact H2
      isplitl [H3]; · iexists _; iexact H3
      isplitl [HS]; · iexact HS
      iintro ⟨H0, H1, ⟨%e2, H2⟩, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (accLast0_cover c _ _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (rowsLast0_cover c _ _ _ _ _ _ _ _ _ _ _ _ _ _ _ _ _)
      unfold owns; iexists _; isplitr
      swap; · iexact H3
      ipureintro; exact View.read_writes_of_cover _ _ _ _ _ (colsLast0_cover c _ _ _ _ _ _ _ _ _ _ _ _ _ _ _ _ _)
    · -- a middle tile: the scratch is lowered
      rw [Dat.leavesExact_idle (dat0 V c) 3 t (idle0_3 t h9) (noFlush0_3 t h9)]
      rw [outsAt0_mid V c t h0 h9]
      unfold rowsMid0 accMid0; (try dsimp only)
      rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩⟩
      iapply ((runMid0 c (grid0.coords t) _ _ _ _ _ _ _ _ _ _ (notFirst0_of h0) ((isLater0_iff t).mpr h0) (notLast0_of h9) (iblk0 V c 0 t) (iblk0 V c 1 t) _).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, ⟨%es, HS⟩⟩
      isplitl [HS Hoth Hg]
      · isplitl [HS Hoth]
        · isplitl [HS]
          · unfold owns; iexists _; isplitr
            swap; · iexact HS
            ipureintro; exact View.read_writes_of_cover _ _ _ _ _ (accMid0_cover c _ _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (rowsMid0_cover c _ _ _ _ _ _ _ _ _ _ _ _ _ _ _ _ _)
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch's named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 80 := N_0; omega), PhiA0_eq]
  iintro ⟨⟨HS, Hoth⟩, Hg⟩
  isplitl [HS Hoth]
  · isplitl [HS]
    · iexists _; iexact HS
    iexact Hoth
  iexact Hg

end Body

end Cert.KernelIdeal.Chamfer

end
-- ==== Proof.KI.Chamfer1Cases.lean ====
/-
  Region 1 of the program (the squared-distance kernel against the 618 rest points): the grid is 8 batches by
  10 tiles of 1000 ground-truth rows, point t = 10 * batch + tile. The body branches three times on the tile
  number n: at n = 0 the running column minimum is reset, at n > 0 it is lowered by the tile's column minimum,
  at n = 9 it is copied out. Here: those three conditions in closed form over the 80 points, where the second
  output window is idle, the staging memrefs the body is called with, and that every input window's staging
  buffer holds the window's block of the array as the region found it.
-/
import proofs.«112199_j59459527246412_1_alg».proof.Proof.Gen.KernelIdeal.Launch
import proofs.«112199_j59459527246412_1_alg».proof.Proof.Gen.KernelIdeal.Skeleton
import proofs.«112199_j59459527246412_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three branch conditions over the grid -/

/-- The tile number is 0 (the reset branch), as the body computes it from the grid coordinates. -/
abbrev isFirst1 (i : grid1.Coords) : Prop :=
  (Scalar.cmpi .ne (Scalar.extui (Scalar.cmpi .eq (BitVec.ofNat 32 (i 1).val) 0#32)) 0#32) = 1#1
/-- The tile number is positive (the lowering branch). -/
abbrev isLater1 (i : grid1.Coords) : Prop :=
  (Scalar.cmpi .ne (Scalar.extui (Scalar.cmpi .sgt (BitVec.ofNat 32 (i 1).val) 0#32)) 0#32) = 1#1
/-- The tile number is 9 (the copy-out branch). -/
abbrev isLast1 (i : grid1.Coords) : Prop := k1_cond3 i = 1#1

theorem isFirst1_iff : ∀ t : Fin cfg1.N, isFirst1 (grid1.coords t) ↔ t.val % 10 = 0 :=
  (by decide +kernel : ∀ t : Fin grid1.N, isFirst1 (grid1.coords t) ↔ t.val % 10 = 0)
theorem isLater1_iff : ∀ t : Fin cfg1.N, isLater1 (grid1.coords t) ↔ ¬ t.val % 10 = 0 :=
  (by decide +kernel : ∀ t : Fin grid1.N, isLater1 (grid1.coords t) ↔ ¬ t.val % 10 = 0)
theorem isLast1_iff : ∀ t : Fin cfg1.N, isLast1 (grid1.coords t) ↔ t.val % 10 = 9 :=
  (by decide +kernel : ∀ t : Fin grid1.N, isLast1 (grid1.coords t) ↔ t.val % 10 = 9)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last tile of a batch the column-minimum output is idle and is not written back. -/
theorem idle1_3 : ∀ t : Fin cfg1.N, ¬ t.val % 10 = 9 → cfg1.idle 3 (grid1.coords t) = true := by decide +kernel
theorem noFlush1_3 : ∀ t : Fin cfg1.N, ¬ t.val % 10 = 9 → (cfg1.win 3).flush t = false := by decide +kernel
theorem live1_3 : ∀ t : Fin cfg1.N, t.val % 10 = 9 → cfg1.idle 3 (grid1.coords t) = false := by decide +kernel

/-! ## The staging memrefs at a point, and the scratch -/

abbrev ms1_0 (t : Fin cfg1.N) : Memref sig .tc .vmem S1x1000x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x618x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x618x1 .f32 := win1_3.stage (cfg1.slots t 3)
abbrev hs1_3 (t : Fin cfg1.N) : (ms1_3 t).IsWhole := hstage1_3 ((cfg1.slots t 3).cast nbuf1_3)
/-- The running column minimum lives in the kernel's one scratch buffer. -/
abbrev scM1 : Memref sig .tc .vmem S1x618x1 .f32 := Memref.whole cc1_scratch0

/-- The other scoped buffers of the core (the other regions' staging buffers and scratch), at some contents each. -/
abbrev others1 (c : Dev nD) : sProp 𝕄 := Pipeline.scopedRestBut (Ix := Unit) (Name := ℕ) (U := UR sig nD τ) (Lvl := ℕ) (Val := Elt F) spec1 c [cc1_scratch0]

/-- The class invariant with the scratch spelt as an owned memref at some contents, the other scoped buffers unopened. -/
theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA
  rw [Pipeline.scopedRest_split_of_list spec1 c [cc1_scratch0] (by decide) (by decide)]
  simp only [Idealize.SL.BI.bigSepL_singleton, scM1, owns_whole]; try rfl

/-! ## The input windows' blocks -/

section Blocks
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The ground-truth window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The rest-point window's staging buffer holds its block at every point (fetched once per batch, the block index
    unchanged in between). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.KernelIdeal.Chamfer

end
-- ==== Proof.KI.Chamfer1First.lean ====
/-
  Region 1, a point with tile number 0: the body loads the tile of ground-truth rows and the rest points, stores the
  row minima of their squared distances into the first output's buffer, and RESETS the scratch to the tile's column
  minima; the second output's buffer is not touched. The run is found by the symbolic executor; the pieces each
  written buffer ends with are the witness it finds.
-/
import proofs.«112199_j59459527246412_1_alg».proof.Proof.KI.Chamfer1Cases

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first tile, on whole staging memrefs: the inputs at their contents, the row-minimum output and the
    scratch at anything, the column-minimum output at some contents `d3`. It runs to the continuation with the inputs as
    they were, the row-minimum output's buffer with its pieces `L2` written, the column-minimum output's buffer untouched,
    and the scratch with its pieces `LS` written. -/
noncomputable def runFirst1 (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole)
    (hA : isFirst1 i) (hB : ¬isLater1 i) (hC : ¬isLast1 i)
    (x0 : Vec F S1x1000x3 .f32) (x1 : Vec F S1x618x3 .f32) :
    Σ' (L2 : List (View.Piece (Elt F) S1x1000x1 .f32)), { LS : List (View.Piece (Elt F) S1x618x1 .f32) //
      ∀ (d3 : Vec F S1x618x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare d3 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare d3 ∗ (∃ f, arg6.view.loc (c : Thread nD τ) ↦[arg6.view.set]{fullShare} arg6.view.writes (Elt F) f LS)) -∗ K ⟨⟩))
          ⊢ wp frame (wpE (defs₀ (F := F)) Variants.none c none) E (cc1__chamfer_kernel i arg2 harg2 arg3 harg3 arg4 harg4 arg5 harg5 arg6 harg6) K } := by
  refine ⟨?_, ?_, fun d3 E K => ?run⟩
  case run =>
    simp only [cc1__chamfer_kernel_eq_skeleton]; unfold cc1__chamfer_kernel_skel
    simp only [k1_part1_eq_skeleton]
    unfold owns
    iintro ⟨⟨%f0, %hf0, H0⟩, ⟨%f1, %hf1, H1⟩, ⟨%d2, %f2, -, H2⟩, ⟨%f3, %hf3, H3⟩, ⟨%ds, %fs, -, HS⟩, Hk⟩
    obtain rfl := harg2.eq_unread hf0; obtain rfl := harg3.eq_unread hf1
    sl_exec (disch := first | exact hA | exact hB | exact hC)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact hf3
      iexact H3
    iexists _; iexact HS

end Cert.KernelIdeal.Chamfer

end
-- ==== Proof.KI.Chamfer1Mid.lean ====
/-
  Region 1, a point with tile number 1 to 8: the body stores the tile's row minima into the first output's buffer and
  LOWERS the scratch, which holds the running column minimum `xs` the point before left, by the tile's column minima;
  the second output's buffer is not touched.
-/
import proofs.«112199_j59459527246412_1_alg».proof.Proof.KI.Chamfer1Cases

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle tile: as at a first tile, but the scratch comes in at known contents `xs` and its pieces `LS`
    are computed from them. -/
noncomputable def runMid1 (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole)
    (hA : ¬isFirst1 i) (hB : isLater1 i) (hC : ¬isLast1 i)
    (x0 : Vec F S1x1000x3 .f32) (x1 : Vec F S1x618x3 .f32) (xs : Vec F S1x618x1 .f32) :
    Σ' (L2 : List (View.Piece (Elt F) S1x1000x1 .f32)), { LS : List (View.Piece (Elt F) S1x618x1 .f32) //
      ∀ (d3 : Vec F S1x618x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare d3 ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare d3 ∗ (∃ f, arg6.view.loc (c : Thread nD τ) ↦[arg6.view.set]{fullShare} arg6.view.writes (Elt F) f LS)) -∗ K ⟨⟩))
          ⊢ wp frame (wpE (defs₀ (F := F)) Variants.none c none) E (cc1__chamfer_kernel i arg2 harg2 arg3 harg3 arg4 harg4 arg5 harg5 arg6 harg6) K } := by
  refine ⟨?_, ?_, fun d3 E K => ?run⟩
  case run =>
    simp only [cc1__chamfer_kernel_eq_skeleton]; unfold cc1__chamfer_kernel_skel
    simp only [k1_part1_eq_skeleton]
    unfold owns
    iintro ⟨⟨%f0, %hf0, H0⟩, ⟨%f1, %hf1, H1⟩, ⟨%d2, %f2, -, H2⟩, ⟨%f3, %hf3, H3⟩, ⟨%fs, %hfs, HS⟩, Hk⟩
    obtain rfl := harg2.eq_unread hf0; obtain rfl := harg3.eq_unread hf1; obtain rfl := harg6.eq_unread hfs
    sl_exec (disch := first | exact hA | exact hB | exact hC)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact hf3
      iexact H3
    iexists _; iexact HS

end Cert.KernelIdeal.Chamfer

end
-- ==== Proof.KI.Chamfer1Last.lean ====
/-
  Region 1, a point with tile number 9: the body stores the tile's row minima, lowers the running column minimum in
  the scratch by the tile's column minima, and COPIES the scratch out into the second output's buffer.
-/
import proofs.«112199_j59459527246412_1_alg».proof.Proof.KI.Chamfer1Cases

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a last tile: the scratch comes in at `xs`; both outputs' buffers and the scratch end with pieces written. -/
noncomputable def runLast1 (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole)
    (hA : ¬isFirst1 i) (hB : isLater1 i) (hC : isLast1 i)
    (x0 : Vec F S1x1000x3 .f32) (x1 : Vec F S1x618x3 .f32) (xs : Vec F S1x618x1 .f32) :
    Σ' (L2 : List (View.Piece (Elt F) S1x1000x1 .f32)) (L3 : List (View.Piece (Elt F) S1x618x1 .f32)), { LS : List (View.Piece (Elt F) S1x618x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__chamfer_kernel i arg2 harg2 arg3 harg3 arg4 harg4 arg5 harg5 arg6 harg6) K } := by
  refine ⟨?_, ?_, ?_, fun E K => ?run⟩
  case run =>
    simp only [cc1__chamfer_kernel_eq_skeleton]; unfold cc1__chamfer_kernel_skel
    simp only [k1_part1_eq_skeleton]
    unfold owns
    iintro ⟨⟨%f0, %hf0, H0⟩, ⟨%f1, %hf1, H1⟩, ⟨%d2, %f2, -, H2⟩, ⟨%d3, %f3, %hf3, H3⟩, ⟨%fs, %hfs, HS⟩, Hk⟩
    obtain rfl := harg2.eq_unread hf0; obtain rfl := harg3.eq_unread hf1; obtain rfl := harg6.eq_unread hfs
    sl_exec (disch := first | exact hA | exact hB | exact hC)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS

end Cert.KernelIdeal.Chamfer

end
-- ==== Proof.KI.Chamfer1Points.lean ====
/-
  Region 1: what every grid point leaves behind. After point t the first output's buffer holds the tile's row minima,
  the scratch holds the running column minimum of the batch's tiles so far (reset at tile 0, lowered at every later
  tile), and at tile 9 the second output's buffer holds a copy of the scratch. These contents are defined by recursion
  on the point, each point's case run on what the point before left in the scratch; the region's invariant carries the
  scratch at those contents from point to point; and the body, at every point, takes the state from one to the next.
-/
import proofs.«112199_j59459527246412_1_alg».proof.Proof.KI.Chamfer1First
import proofs.«112199_j59459527246412_1_alg».proof.Proof.KI.Chamfer1Mid
import proofs.«112199_j59459527246412_1_alg».proof.Proof.KI.Chamfer1Last

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The contents a case leaves, read back through a fixed view of each buffer's shape -/

abbrev VO1_2 : View sig .tc .vmem S1x1000x1 .f32 := (Memref.whole cc1_stg2_0 : Memref sig .tc .vmem S1x1000x1 .f32).view
abbrev VO1_3 : View sig .tc .vmem S1x618x1 .f32 := (Memref.whole cc1_stg3_0 : Memref sig .tc .vmem S1x618x1 .f32).view
abbrev VS1 : View sig .tc .vmem S1x618x1 .f32 := scM1.view

/-- A first tile's row minima. -/
def rowsFirst1 (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : isFirst1 i) (hB : ¬isLater1 i) (hC : ¬isLast1 i)
    (x0 : Vec F S1x1000x3 .f32) (x1 : Vec F S1x618x3 .f32) : Vec F S1x1000x1 .f32 :=
  VO1_2.read (Elt F) (VO1_2.writes (Elt F) VO1_2.junk (runFirst1 c i arg2 harg2 arg3 harg3 arg4 harg4 arg5 harg5 arg6 harg6 hA hB hC x0 x1).1)
theorem rowsFirst1_cover (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : isFirst1 i) (hB : ¬isLater1 i) (hC : ¬isLast1 i)
    (x0 : Vec F S1x1000x3 .f32) (x1 : Vec F S1x618x3 .f32) (y : S1x1000x1.Idx) :
    ∃ pc ∈ (runFirst1 c i arg2 harg2 arg3 harg3 arg4 harg4 arg5 harg5 arg6 harg6 hA hB hC x0 x1).1, y ∈ pc.1.set :=
  View.cover_of_tiledL (runFirst1 c i arg2 harg2 arg3 harg3 arg4 harg4 arg5 harg5 arg6 harg6 hA hB hC x0 x1).1 S1x1000x1.size (by sl_kernel_rfl) y
/-- A first tile's column minima: the scratch after the reset. -/
def accFirst1 (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : isFirst1 i) (hB : ¬isLater1 i) (hC : ¬isLast1 i)
    (x0 : Vec F S1x1000x3 .f32) (x1 : Vec F S1x618x3 .f32) : Vec F S1x618x1 .f32 :=
  VS1.read (Elt F) (VS1.writes (Elt F) VS1.junk (runFirst1 c i arg2 harg2 arg3 harg3 arg4 harg4 arg5 harg5 arg6 harg6 hA hB hC x0 x1).2.1)
theorem accFirst1_cover (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : isFirst1 i) (hB : ¬isLater1 i) (hC : ¬isLast1 i)
    (x0 : Vec F S1x1000x3 .f32) (x1 : Vec F S1x618x3 .f32) (y : S1x618x1.Idx) :
    ∃ pc ∈ (runFirst1 c i arg2 harg2 arg3 harg3 arg4 harg4 arg5 harg5 arg6 harg6 hA hB hC x0 x1).2.1, y ∈ pc.1.set :=
  View.cover_of_tiledL (runFirst1 c i arg2 harg2 arg3 harg3 arg4 harg4 arg5 harg5 arg6 harg6 hA hB hC x0 x1).2.1 S1x618x1.size (by sl_kernel_rfl) y

/-- A middle tile's row minima. -/
def rowsMid1 (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : ¬isFirst1 i) (hB : isLater1 i) (hC : ¬isLast1 i)
    (x0 : Vec F S1x1000x3 .f32) (x1 : Vec F S1x618x3 .f32) (xs : Vec F S1x618x1 .f32) : Vec F S1x1000x1 .f32 :=
  VO1_2.read (Elt F) (VO1_2.writes (Elt F) VO1_2.junk (runMid1 c i arg2 harg2 arg3 harg3 arg4 harg4 arg5 harg5 arg6 harg6 hA hB hC x0 x1 xs).1)
theorem rowsMid1_cover (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : ¬isFirst1 i) (hB : isLater1 i) (hC : ¬isLast1 i)
    (x0 : Vec F S1x1000x3 .f32) (x1 : Vec F S1x618x3 .f32) (xs : Vec F S1x618x1 .f32) (y : S1x1000x1.Idx) :
    ∃ pc ∈ (runMid1 c i arg2 harg2 arg3 harg3 arg4 harg4 arg5 harg5 arg6 harg6 hA hB hC x0 x1 xs).1, y ∈ pc.1.set :=
  View.cover_of_tiledL (runMid1 c i arg2 harg2 arg3 harg3 arg4 harg4 arg5 harg5 arg6 harg6 hA hB hC x0 x1 xs).1 S1x1000x1.size (by sl_kernel_rfl) y
/-- The scratch after a middle tile: the running minimum `xs` lowered by the tile's column minima. -/
def accMid1 (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : ¬isFirst1 i) (hB : isLater1 i) (hC : ¬isLast1 i)
    (x0 : Vec F S1x1000x3 .f32) (x1 : Vec F S1x618x3 .f32) (xs : Vec F S1x618x1 .f32) : Vec F S1x618x1 .f32 :=
  VS1.read (Elt F) (VS1.writes (Elt F) VS1.junk (runMid1 c i arg2 harg2 arg3 harg3 arg4 harg4 arg5 harg5 arg6 harg6 hA hB hC x0 x1 xs).2.1)
theorem accMid1_cover (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : ¬isFirst1 i) (hB : isLater1 i) (hC : ¬isLast1 i)
    (x0 : Vec F S1x1000x3 .f32) (x1 : Vec F S1x618x3 .f32) (xs : Vec F S1x618x1 .f32) (y : S1x618x1.Idx) :
    ∃ pc ∈ (runMid1 c i arg2 harg2 arg3 harg3 arg4 harg4 arg5 harg5 arg6 harg6 hA hB hC x0 x1 xs).2.1, y ∈ pc.1.set :=
  View.cover_of_tiledL (runMid1 c i arg2 harg2 arg3 harg3 arg4 harg4 arg5 harg5 arg6 harg6 hA hB hC x0 x1 xs).2.1 S1x618x1.size (by sl_kernel_rfl) y

/-- A last tile's row minima. -/
def rowsLast1 (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : ¬isFirst1 i) (hB : isLater1 i) (hC : isLast1 i)
    (x0 : Vec F S1x1000x3 .f32) (x1 : Vec F S1x618x3 .f32) (xs : Vec F S1x618x1 .f32) : Vec F S1x1000x1 .f32 :=
  VO1_2.read (Elt F) (VO1_2.writes (Elt F) VO1_2.junk (runLast1 c i arg2 harg2 arg3 harg3 arg4 harg4 arg5 harg5 arg6 harg6 hA hB hC x0 x1 xs).1)
theorem rowsLast1_cover (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : ¬isFirst1 i) (hB : isLater1 i) (hC : isLast1 i)
    (x0 : Vec F S1x1000x3 .f32) (x1 : Vec F S1x618x3 .f32) (xs : Vec F S1x618x1 .f32) (y : S1x1000x1.Idx) :
    ∃ pc ∈ (runLast1 c i arg2 harg2 arg3 harg3 arg4 harg4 arg5 harg5 arg6 harg6 hA hB hC x0 x1 xs).1, y ∈ pc.1.set :=
  View.cover_of_tiledL (runLast1 c i arg2 harg2 arg3 harg3 arg4 harg4 arg5 harg5 arg6 harg6 hA hB hC x0 x1 xs).1 S1x1000x1.size (by sl_kernel_rfl) y
/-- The batch's column minima as the last tile copies them out. -/
def colsLast1 (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : ¬isFirst1 i) (hB : isLater1 i) (hC : isLast1 i)
    (x0 : Vec F S1x1000x3 .f32) (x1 : Vec F S1x618x3 .f32) (xs : Vec F S1x618x1 .f32) : Vec F S1x618x1 .f32 :=
  VO1_3.read (Elt F) (VO1_3.writes (Elt F) VO1_3.junk (runLast1 c i arg2 harg2 arg3 harg3 arg4 harg4 arg5 harg5 arg6 harg6 hA hB hC x0 x1 xs).2.1)
theorem colsLast1_cover (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : ¬isFirst1 i) (hB : isLater1 i) (hC : isLast1 i)
    (x0 : Vec F S1x1000x3 .f32) (x1 : Vec F S1x618x3 .f32) (xs : Vec F S1x618x1 .f32) (y : S1x618x1.Idx) :
    ∃ pc ∈ (runLast1 c i arg2 harg2 arg3 harg3 arg4 harg4 arg5 harg5 arg6 harg6 hA hB hC x0 x1 xs).2.1, y ∈ pc.1.set :=
  View.cover_of_tiledL (runLast1 c i arg2 harg2 arg3 harg3 arg4 harg4 arg5 harg5 arg6 harg6 hA hB hC x0 x1 xs).2.1 S1x618x1.size (by sl_kernel_rfl) y
/-- The scratch after a last tile. -/
def accLast1 (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : ¬isFirst1 i) (hB : isLater1 i) (hC : isLast1 i)
    (x0 : Vec F S1x1000x3 .f32) (x1 : Vec F S1x618x3 .f32) (xs : Vec F S1x618x1 .f32) : Vec F S1x618x1 .f32 :=
  VS1.read (Elt F) (VS1.writes (Elt F) VS1.junk (runLast1 c i arg2 harg2 arg3 harg3 arg4 harg4 arg5 harg5 arg6 harg6 hA hB hC x0 x1 xs).2.2.1)
theorem accLast1_cover (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : ¬isFirst1 i) (hB : isLater1 i) (hC : isLast1 i)
    (x0 : Vec F S1x1000x3 .f32) (x1 : Vec F S1x618x3 .f32) (xs : Vec F S1x618x1 .f32) (y : S1x618x1.Idx) :
    ∃ pc ∈ (runLast1 c i arg2 harg2 arg3 harg3 arg4 harg4 arg5 harg5 arg6 harg6 hA hB hC x0 x1 xs).2.2.1, y ∈ pc.1.set :=
  View.cover_of_tiledL (runLast1 c i arg2 harg2 arg3 harg3 arg4 harg4 arg5 harg5 arg6 harg6 hA hB hC x0 x1 xs).2.2.1 S1x618x1.size (by sl_kernel_rfl) y

/-! ## What the buffers hold after each point -/

section Points
variable (V : (c : Dev nD) → (b : Ref sig .tc) → Buf (Elt F) ((c : Thread nD τ).loc b))

theorem notLater1_of {t : Fin cfg1.N} (h0 : t.val % 10 = 0) : ¬isLater1 (grid1.coords t) := fun h => (isLater1_iff t).mp h h0
theorem notLast1_of {t : Fin cfg1.N} (h9 : ¬t.val % 10 = 9) : ¬isLast1 (grid1.coords t) := fun h => h9 ((isLast1_iff t).mp h)
theorem notFirst1_of {t : Fin cfg1.N} (h0 : ¬t.val % 10 = 0) : ¬isFirst1 (grid1.coords t) := fun h => h0 ((isFirst1_iff t).mp h)
theorem ne9_of_zero1 {n : ℕ} (h0 : n % 10 = 0) : ¬n % 10 = 9 := by omega
theorem ne1_of_nine0 {n : ℕ} (h9 : n % 10 = 9) : ¬n % 10 = 0 := by omega

/-- The row-minimum buffer, the column-minimum buffer and the scratch after the body at position `n`: the case of the
    point's tile number, run on the point's input blocks and, past a batch's first tile, on what the point before left
    in the scratch. Away from a last tile the column-minimum buffer is idle; a placeholder stands for it. -/
def outsAt1 (c : Dev nD) : (n : ℕ) → n < cfg1.N → Vec F S1x1000x1 .f32 × Vec F S1x618x1 .f32 × Vec F S1x618x1 .f32
  | 0, hn =>
    (rowsFirst1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((isFirst1_iff ⟨0, hn⟩).mpr (Nat.zero_mod _)) (notLater1_of (t := ⟨0, hn⟩) (Nat.zero_mod _)) (notLast1_of (t := ⟨0, hn⟩) (ne9_of_zero1 (Nat.zero_mod _))) (iblk1 V c 0 ⟨0, hn⟩) (iblk1 V c 1 ⟨0, hn⟩),
     VO1_3.read (Elt F) VO1_3.junk,
     accFirst1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((isFirst1_iff ⟨0, hn⟩).mpr (Nat.zero_mod _)) (notLater1_of (t := ⟨0, hn⟩) (Nat.zero_mod _)) (notLast1_of (t := ⟨0, hn⟩) (ne9_of_zero1 (Nat.zero_mod _))) (iblk1 V c 0 ⟨0, hn⟩) (iblk1 V c 1 ⟨0, hn⟩))
  | n + 1, hn =>
    if h0 : (n + 1) % 10 = 0 then
      (rowsFirst1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((isFirst1_iff ⟨n + 1, hn⟩).mpr h0) (notLater1_of (t := ⟨n + 1, hn⟩) h0) (notLast1_of (t := ⟨n + 1, hn⟩) (ne9_of_zero1 h0)) (iblk1 V c 0 ⟨n + 1, hn⟩) (iblk1 V c 1 ⟨n + 1, hn⟩),
       VO1_3.read (Elt F) VO1_3.junk,
       accFirst1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((isFirst1_iff ⟨n + 1, hn⟩).mpr h0) (notLater1_of (t := ⟨n + 1, hn⟩) h0) (notLast1_of (t := ⟨n + 1, hn⟩) (ne9_of_zero1 h0)) (iblk1 V c 0 ⟨n + 1, hn⟩) (iblk1 V c 1 ⟨n + 1, hn⟩))
    else if h9 : (n + 1) % 10 = 9 then
      (rowsLast1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (notFirst1_of (t := ⟨n + 1, hn⟩) h0) ((isLater1_iff ⟨n + 1, hn⟩).mpr h0) ((isLast1_iff ⟨n + 1, hn⟩).mpr h9) (iblk1 V c 0 ⟨n + 1, hn⟩) (iblk1 V c 1 ⟨n + 1, hn⟩) (outsAt1 c n (Nat.lt_of_succ_lt hn)).2.2,
       colsLast1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (notFirst1_of (t := ⟨n + 1, hn⟩) h0) ((isLater1_iff ⟨n + 1, hn⟩).mpr h0) ((isLast1_iff ⟨n + 1, hn⟩).mpr h9) (iblk1 V c 0 ⟨n + 1, hn⟩) (iblk1 V c 1 ⟨n + 1, hn⟩) (outsAt1 c n (Nat.lt_of_succ_lt hn)).2.2,
       accLast1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (notFirst1_of (t := ⟨n + 1, hn⟩) h0) ((isLater1_iff ⟨n + 1, hn⟩).mpr h0) ((isLast1_iff ⟨n + 1, hn⟩).mpr h9) (iblk1 V c 0 ⟨n + 1, hn⟩) (iblk1 V c 1 ⟨n + 1, hn⟩) (outsAt1 c n (Nat.lt_of_succ_lt hn)).2.2)
    else
      (rowsMid1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (notFirst1_of (t := ⟨n + 1, hn⟩) h0) ((isLater1_iff ⟨n + 1, hn⟩).mpr h0) (notLast1_of (t := ⟨n + 1, hn⟩) h9) (iblk1 V c 0 ⟨n + 1, hn⟩) (iblk1 V c 1 ⟨n + 1, hn⟩) (outsAt1 c n (Nat.lt_of_succ_lt hn)).2.2,
       VO1_3.read (Elt F) VO1_3.junk,
       accMid1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (notFirst1_of (t := ⟨n + 1, hn⟩) h0) ((isLater1_iff ⟨n + 1, hn⟩).mpr h0) (notLast1_of (t := ⟨n + 1, hn⟩) h9) (iblk1 V c 0 ⟨n + 1, hn⟩) (iblk1 V c 1 ⟨n + 1, hn⟩) (outsAt1 c n (Nat.lt_of_succ_lt hn)).2.2)

/-- At a first tile. -/
theorem outsAt1_first (c : Dev nD) (t : Fin cfg1.N) (h0 : t.val % 10 = 0) :
    outsAt1 V c t.val t.isLt =
      (rowsFirst1 c (grid1.coords t) (ms1_0 t) (hs1_0 t) (ms1_1 t) (hs1_1 t) (ms1_2 t) (hs1_2 t) (ms1_3 t) (hs1_3 t) scM1 (Memref.isWhole_whole _) ((isFirst1_iff t).mpr h0) (notLater1_of h0) (notLast1_of (ne9_of_zero1 h0)) (iblk1 V c 0 t) (iblk1 V c 1 t),
       VO1_3.read (Elt F) VO1_3.junk,
       accFirst1 c (grid1.coords t) (ms1_0 t) (hs1_0 t) (ms1_1 t) (hs1_1 t) (ms1_2 t) (hs1_2 t) (ms1_3 t) (hs1_3 t) scM1 (Memref.isWhole_whole _) ((isFirst1_iff t).mpr h0) (notLater1_of h0) (notLast1_of (ne9_of_zero1 h0)) (iblk1 V c 0 t) (iblk1 V c 1 t)) := by
  obtain ⟨n, hn⟩ := t
  cases n with
  | zero => exact rfl
  | succ n => exact (dif_pos h0).trans rfl

/-- At a middle tile, over what the point before left in the scratch. -/
theorem outsAt1_mid (c : Dev nD) (t : Fin cfg1.N) (h0 : ¬t.val % 10 = 0) (h9 : ¬t.val % 10 = 9) :
    outsAt1 V c t.val t.isLt =
      (rowsMid1 c (grid1.coords t) (ms1_0 t) (hs1_0 t) (ms1_1 t) (hs1_1 t) (ms1_2 t) (hs1_2 t) (ms1_3 t) (hs1_3 t) scM1 (Memref.isWhole_whole _) (notFirst1_of h0) ((isLater1_iff t).mpr h0) (notLast1_of h9) (iblk1 V c 0 t) (iblk1 V c 1 t) (outsAt1 V c (t.val - 1) (Nat.lt_of_le_of_lt (Nat.sub_le _ _) t.isLt)).2.2,
       VO1_3.read (Elt F) VO1_3.junk,
       accMid1 c (grid1.coords t) (ms1_0 t) (hs1_0 t) (ms1_1 t) (hs1_1 t) (ms1_2 t) (hs1_2 t) (ms1_3 t) (hs1_3 t) scM1 (Memref.isWhole_whole _) (notFirst1_of h0) ((isLater1_iff t).mpr h0) (notLast1_of h9) (iblk1 V c 0 t) (iblk1 V c 1 t) (outsAt1 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h9).trans rfl)

/-- At a last tile, over what the point before left in the scratch. -/
theorem outsAt1_last (c : Dev nD) (t : Fin cfg1.N) (h0 : ¬t.val % 10 = 0) (h9 : t.val % 10 = 9) :
    outsAt1 V c t.val t.isLt =
      (rowsLast1 c (grid1.coords t) (ms1_0 t) (hs1_0 t) (ms1_1 t) (hs1_1 t) (ms1_2 t) (hs1_2 t) (ms1_3 t) (hs1_3 t) scM1 (Memref.isWhole_whole _) (notFirst1_of h0) ((isLater1_iff t).mpr h0) ((isLast1_iff t).mpr h9) (iblk1 V c 0 t) (iblk1 V c 1 t) (outsAt1 V c (t.val - 1) (Nat.lt_of_le_of_lt (Nat.sub_le _ _) t.isLt)).2.2,
       colsLast1 c (grid1.coords t) (ms1_0 t) (hs1_0 t) (ms1_1 t) (hs1_1 t) (ms1_2 t) (hs1_2 t) (ms1_3 t) (hs1_3 t) scM1 (Memref.isWhole_whole _) (notFirst1_of h0) ((isLater1_iff t).mpr h0) ((isLast1_iff t).mpr h9) (iblk1 V c 0 t) (iblk1 V c 1 t) (outsAt1 V c (t.val - 1) (Nat.lt_of_le_of_lt (Nat.sub_le _ _) t.isLt)).2.2,
       accLast1 c (grid1.coords t) (ms1_0 t) (hs1_0 t) (ms1_1 t) (hs1_1 t) (ms1_2 t) (hs1_2 t) (ms1_3 t) (hs1_3 t) scM1 (Memref.isWhole_whole _) (notFirst1_of h0) ((isLater1_iff t).mpr h0) ((isLast1_iff t).mpr h9) (iblk1 V c 0 t) (iblk1 V c 1 t) (outsAt1 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h9).trans rfl)

/-! ## The region's invariant -/

/-- Before position `n`: at the very first point the class's invariant (the scratch at anything); afterwards the scratch
    at what the point before left in it, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2.2) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2.2) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2.2) ∗ others1 c) ∗ (∃ r, prngReg c r)) := by
  cases n with
  | zero => exact absurd rfl hz
  | succ n => rfl

/-! ## The proof data -/

/-- The arrays as the region finds them; after the body at point `t` the inputs' buffers at their blocks, the outputs' at
    `outsAt1`'s components; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Points

end Cert.KernelIdeal.Chamfer

end
-- ==== Proof.KI.Chamfer1Body.lean ====
/-
  Region 1: the body takes the region's state from one grid point to the next. At every point the input windows'
  staging buffers hold their blocks; the tile number selects the case; the invariant hands the body the scratch at what
  the point before left (at anything at the very first point) and takes it back at this point's contents.
-/
import proofs.«112199_j59459527246412_1_alg».proof.Proof.KI.Chamfer1Points

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body
variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  have hN : t.val < 80 := lt_of_lt_of_eq t.isLt (show cfg1.N = 80 from N_1)
  by_cases h0 : t.val % 10 = 0
  · -- a first tile: the scratch is reset
    rw [Dat.leavesExact_idle (dat1 V c) 3 t (idle1_3 t (ne9_of_zero1 h0)) (noFlush1_3 t (ne9_of_zero1 h0))]
    rw [outsAt1_first V c t h0]
    unfold rowsFirst1 accFirst1; (try dsimp only)
    by_cases hz : t.val = 0
    · rw [PhiS1_castSucc V c t, PhiS1_zero V c _ _ hz, PhiA1_eq]
      iintro ⟨⟨⟨HS, Hoth⟩, Hg⟩, Ho, ⟨%d0, H0⟩, ⟨%d1, H1⟩, ⟨%d2, H2⟩, ⟨%d3, H3⟩⟩
      iapply ((runFirst1 c (grid1.coords t) _ _ _ _ _ _ _ _ _ _ ((isFirst1_iff t).mpr h0) (notLater1_of h0) (notLast1_of (ne9_of_zero1 h0)) (iblk1 V c 0 t) (iblk1 V c 1 t)).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, ⟨%es, HS⟩⟩
      isplitl [HS Hoth Hg]
      · isplitl [HS Hoth]
        · isplitl [HS]
          · unfold owns; iexists _; isplitr
            swap; · iexact HS
            ipureintro; exact View.read_writes_of_cover _ _ _ _ _ (accFirst1_cover c _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (rowsFirst1_cover c _ _ _ _ _ _ _ _ _ _ _ _ _ _ _ _)
      iexists _; iexact H3
    · rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩⟩
      iapply ((runFirst1 c (grid1.coords t) _ _ _ _ _ _ _ _ _ _ ((isFirst1_iff t).mpr h0) (notLater1_of h0) (notLast1_of (ne9_of_zero1 h0)) (iblk1 V c 0 t) (iblk1 V c 1 t)).2.2 _ Set.univ _)
      isplitl [H0]; · iexact H0
      isplitl [H1]; · iexact H1
      isplitl [H2]; · iexists _; iexact H2
      isplitl [H3]; · iexact H3
      isplitl [HS]; · iexists _; iexact HS
      iintro ⟨H0, H1, ⟨%e2, H2⟩, H3, ⟨%es, HS⟩⟩
      isplitl [HS Hoth Hg]
      · isplitl [HS Hoth]
        · isplitl [HS]
          · unfold owns; iexists _; isplitr
            swap; · iexact HS
            ipureintro; exact View.read_writes_of_cover _ _ _ _ _ (accFirst1_cover c _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (rowsFirst1_cover c _ _ _ _ _ _ _ _ _ _ _ _ _ _ _ _)
      iexists _; iexact H3
  · have hz : t.val ≠ 0 := fun h => h0 (by rw [h])
    by_cases h9 : t.val % 10 = 9
    · -- a last tile: the scratch is lowered and copied out
      rw [show (dat1 V c).leavesExact 3 t = owns (c : Thread nD τ) (ms1_3 t) fullShare ((dat1 V c).after 3 t) from by
        unfold Dat.leavesExact; rw [live1_3 t h9], after1_3]
      rw [outsAt1_last V c t h0 h9]
      unfold rowsLast1 colsLast1 accLast1; (try dsimp only)
      rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩⟩
      iapply ((runLast1 c (grid1.coords t) _ _ _ _ _ _ _ _ _ _ (notFirst1_of h0) ((isLater1_iff t).mpr h0) ((isLast1_iff t).mpr h9) (iblk1 V c 0 t) (iblk1 V c 1 t) _).2.2.2 Set.univ _)
      isplitl [H0]; · iexact H0
      isplitl [H1]; · iexact H1
      isplitl [H2]; · iexists _; iexact H2
      isplitl [H3]; · iexists _; iexact H3
      isplitl [HS]; · iexact HS
      iintro ⟨H0, H1, ⟨%e2, H2⟩, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (accLast1_cover c _ _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (rowsLast1_cover c _ _ _ _ _ _ _ _ _ _ _ _ _ _ _ _ _)
      unfold owns; iexists _; isplitr
      swap; · iexact H3
      ipureintro; exact View.read_writes_of_cover _ _ _ _ _ (colsLast1_cover c _ _ _ _ _ _ _ _ _ _ _ _ _ _ _ _ _)
    · -- a middle tile: the scratch is lowered
      rw [Dat.leavesExact_idle (dat1 V c) 3 t (idle1_3 t h9) (noFlush1_3 t h9)]
      rw [outsAt1_mid V c t h0 h9]
      unfold rowsMid1 accMid1; (try dsimp only)
      rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩⟩
      iapply ((runMid1 c (grid1.coords t) _ _ _ _ _ _ _ _ _ _ (notFirst1_of h0) ((isLater1_iff t).mpr h0) (notLast1_of h9) (iblk1 V c 0 t) (iblk1 V c 1 t) _).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, ⟨%es, HS⟩⟩
      isplitl [HS Hoth Hg]
      · isplitl [HS Hoth]
        · isplitl [HS]
          · unfold owns; iexists _; isplitr
            swap; · iexact HS
            ipureintro; exact View.read_writes_of_cover _ _ _ _ _ (accMid1_cover c _ _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (rowsMid1_cover c _ _ _ _ _ _ _ _ _ _ _ _ _ _ _ _ _)
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 80 := N_1; omega), PhiA1_eq]
  iintro ⟨⟨HS, Hoth⟩, Hg⟩
  isplitl [HS Hoth]
  · isplitl [HS]
    · iexists _; iexact HS
    iexact Hoth
  iexact Hg

end Body

end Cert.KernelIdeal.Chamfer

end
-- ==== Proof.KI.Chamfer2Cases.lean ====
/-
  Region 2 of the program (the squared-distance kernel against the 2466 rest points): the grid is 8 batches by
  10 tiles of 1000 ground-truth rows, point t = 10 * batch + tile. The body branches three times on the tile
  number n: at n = 0 the running column minimum is reset, at n > 0 it is lowered by the tile's column minimum,
  at n = 9 it is copied out. Here: those three conditions in closed form over the 80 points, where the second
  output window is idle, the staging memrefs the body is called with, and that every input window's staging
  buffer holds the window's block of the array as the region found it.
-/
import proofs.«112199_j59459527246412_1_alg».proof.Proof.Gen.KernelIdeal.Launch
import proofs.«112199_j59459527246412_1_alg».proof.Proof.Gen.KernelIdeal.Skeleton
import proofs.«112199_j59459527246412_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three branch conditions over the grid -/

/-- The tile number is 0 (the reset branch), as the body computes it from the grid coordinates. -/
abbrev isFirst2 (i : grid2.Coords) : Prop :=
  (Scalar.cmpi .ne (Scalar.extui (Scalar.cmpi .eq (BitVec.ofNat 32 (i 1).val) 0#32)) 0#32) = 1#1
/-- The tile number is positive (the lowering branch). -/
abbrev isLater2 (i : grid2.Coords) : Prop :=
  (Scalar.cmpi .ne (Scalar.extui (Scalar.cmpi .sgt (BitVec.ofNat 32 (i 1).val) 0#32)) 0#32) = 1#1
/-- The tile number is 9 (the copy-out branch). -/
abbrev isLast2 (i : grid2.Coords) : Prop := k2_cond3 i = 1#1

theorem isFirst2_iff : ∀ t : Fin cfg2.N, isFirst2 (grid2.coords t) ↔ t.val % 10 = 0 :=
  (by decide +kernel : ∀ t : Fin grid2.N, isFirst2 (grid2.coords t) ↔ t.val % 10 = 0)
theorem isLater2_iff : ∀ t : Fin cfg2.N, isLater2 (grid2.coords t) ↔ ¬ t.val % 10 = 0 :=
  (by decide +kernel : ∀ t : Fin grid2.N, isLater2 (grid2.coords t) ↔ ¬ t.val % 10 = 0)
theorem isLast2_iff : ∀ t : Fin cfg2.N, isLast2 (grid2.coords t) ↔ t.val % 10 = 9 :=
  (by decide +kernel : ∀ t : Fin grid2.N, isLast2 (grid2.coords t) ↔ t.val % 10 = 9)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
/-- Away from the last tile of a batch the column-minimum output is idle and is not written back. -/
theorem idle2_3 : ∀ t : Fin cfg2.N, ¬ t.val % 10 = 9 → cfg2.idle 3 (grid2.coords t) = true := by decide +kernel
theorem noFlush2_3 : ∀ t : Fin cfg2.N, ¬ t.val % 10 = 9 → (cfg2.win 3).flush t = false := by decide +kernel
theorem live2_3 : ∀ t : Fin cfg2.N, t.val % 10 = 9 → cfg2.idle 3 (grid2.coords t) = false := by decide +kernel

/-! ## The staging memrefs at a point, and the scratch -/

abbrev ms2_0 (t : Fin cfg2.N) : Memref sig .tc .vmem S1x1000x3 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x2466x3 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1000x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x2466x1 .f32 := win2_3.stage (cfg2.slots t 3)
abbrev hs2_3 (t : Fin cfg2.N) : (ms2_3 t).IsWhole := hstage2_3 ((cfg2.slots t 3).cast nbuf2_3)
/-- The running column minimum lives in the kernel's one scratch buffer. -/
abbrev scM2 : Memref sig .tc .vmem S1x2466x1 .f32 := Memref.whole cc2_scratch0

/-- The other scoped buffers of the core (the other regions' staging buffers and scratch), at some contents each. -/
abbrev others2 (c : Dev nD) : sProp 𝕄 := Pipeline.scopedRestBut (Ix := Unit) (Name := ℕ) (U := UR sig nD τ) (Lvl := ℕ) (Val := Elt F) spec2 c [cc2_scratch0]

/-- The class invariant with the scratch spelt as an owned memref at some contents, the other scoped buffers unopened. -/
theorem PhiA2_eq (c : Dev nD) :
    (Pipeline.ΦA spec2 c : sProp 𝕄)
      = iprop(iprop((∃ d, owns (c : Thread nD τ) scM2 fullShare d) ∗ others2 c) ∗ (∃ r, prngReg c r)) := by
  unfold Pipeline.ΦA
  rw [Pipeline.scopedRest_split_of_list spec2 c [cc2_scratch0] (by decide) (by decide)]
  simp only [Idealize.SL.BI.bigSepL_singleton, scM2, owns_whole]; try rfl

/-! ## The input windows' blocks -/

section Blocks
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The ground-truth window's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The rest-point window's staging buffer holds its block at every point (fetched once per batch, the block index
    unchanged in between). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end Blocks

end Cert.KernelIdeal.Chamfer

end
-- ==== Proof.KI.Chamfer2First.lean ====
/-
  Region 2, a point with tile number 0: the body loads the tile of ground-truth rows and the rest points, stores the
  row minima of their squared distances into the first output's buffer, and RESETS the scratch to the tile's column
  minima; the second output's buffer is not touched. The run is found by the symbolic executor; the pieces each
  written buffer ends with are the witness it finds.
-/
import proofs.«112199_j59459527246412_1_alg».proof.Proof.KI.Chamfer2Cases

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first tile, on whole staging memrefs: the inputs at their contents, the row-minimum output and the
    scratch at anything, the column-minimum output at some contents `d3`. It runs to the continuation with the inputs as
    they were, the row-minimum output's buffer with its pieces `L2` written, the column-minimum output's buffer untouched,
    and the scratch with its pieces `LS` written. -/
noncomputable def runFirst2 (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole)
    (hA : isFirst2 i) (hB : ¬isLater2 i) (hC : ¬isLast2 i)
    (x0 : Vec F S1x1000x3 .f32) (x1 : Vec F S1x2466x3 .f32) :
    Σ' (L2 : List (View.Piece (Elt F) S1x1000x1 .f32)), { LS : List (View.Piece (Elt F) S1x2466x1 .f32) //
      ∀ (d3 : Vec F S1x2466x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare d3 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare d3 ∗ (∃ f, arg6.view.loc (c : Thread nD τ) ↦[arg6.view.set]{fullShare} arg6.view.writes (Elt F) f LS)) -∗ K ⟨⟩))
          ⊢ wp frame (wpE (defs₀ (F := F)) Variants.none c none) E (cc2__chamfer_kernel i arg2 harg2 arg3 harg3 arg4 harg4 arg5 harg5 arg6 harg6) K } := by
  refine ⟨?_, ?_, fun d3 E K => ?run⟩
  case run =>
    simp only [cc2__chamfer_kernel_eq_skeleton]; unfold cc2__chamfer_kernel_skel
    simp only [k2_part1_eq_skeleton]
    unfold owns
    iintro ⟨⟨%f0, %hf0, H0⟩, ⟨%f1, %hf1, H1⟩, ⟨%d2, %f2, -, H2⟩, ⟨%f3, %hf3, H3⟩, ⟨%ds, %fs, -, HS⟩, Hk⟩
    obtain rfl := harg2.eq_unread hf0; obtain rfl := harg3.eq_unread hf1
    sl_exec (disch := first | exact hA | exact hB | exact hC)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact hf3
      iexact H3
    iexists _; iexact HS

end Cert.KernelIdeal.Chamfer

end
-- ==== Proof.KI.Chamfer2Mid.lean ====
/-
  Region 2, a point with tile number 1 to 8: the body stores the tile's row minima into the first output's buffer and
  LOWERS the scratch, which holds the running column minimum `xs` the point before left, by the tile's column minima;
  the second output's buffer is not touched.
-/
import proofs.«112199_j59459527246412_1_alg».proof.Proof.KI.Chamfer2Cases

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle tile: as at a first tile, but the scratch comes in at known contents `xs` and its pieces `LS`
    are computed from them. -/
noncomputable def runMid2 (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole)
    (hA : ¬isFirst2 i) (hB : isLater2 i) (hC : ¬isLast2 i)
    (x0 : Vec F S1x1000x3 .f32) (x1 : Vec F S1x2466x3 .f32) (xs : Vec F S1x2466x1 .f32) :
    Σ' (L2 : List (View.Piece (Elt F) S1x1000x1 .f32)), { LS : List (View.Piece (Elt F) S1x2466x1 .f32) //
      ∀ (d3 : Vec F S1x2466x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare d3 ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare d3 ∗ (∃ f, arg6.view.loc (c : Thread nD τ) ↦[arg6.view.set]{fullShare} arg6.view.writes (Elt F) f LS)) -∗ K ⟨⟩))
          ⊢ wp frame (wpE (defs₀ (F := F)) Variants.none c none) E (cc2__chamfer_kernel i arg2 harg2 arg3 harg3 arg4 harg4 arg5 harg5 arg6 harg6) K } := by
  refine ⟨?_, ?_, fun d3 E K => ?run⟩
  case run =>
    simp only [cc2__chamfer_kernel_eq_skeleton]; unfold cc2__chamfer_kernel_skel
    simp only [k2_part1_eq_skeleton]
    unfold owns
    iintro ⟨⟨%f0, %hf0, H0⟩, ⟨%f1, %hf1, H1⟩, ⟨%d2, %f2, -, H2⟩, ⟨%f3, %hf3, H3⟩, ⟨%fs, %hfs, HS⟩, Hk⟩
    obtain rfl := harg2.eq_unread hf0; obtain rfl := harg3.eq_unread hf1; obtain rfl := harg6.eq_unread hfs
    sl_exec (disch := first | exact hA | exact hB | exact hC)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact hf3
      iexact H3
    iexists _; iexact HS

end Cert.KernelIdeal.Chamfer

end
-- ==== Proof.KI.Chamfer2Last.lean ====
/-
  Region 2, a point with tile number 9: the body stores the tile's row minima, lowers the running column minimum in
  the scratch by the tile's column minima, and COPIES the scratch out into the second output's buffer.
-/
import proofs.«112199_j59459527246412_1_alg».proof.Proof.KI.Chamfer2Cases

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a last tile: the scratch comes in at `xs`; both outputs' buffers and the scratch end with pieces written. -/
noncomputable def runLast2 (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole)
    (hA : ¬isFirst2 i) (hB : isLater2 i) (hC : isLast2 i)
    (x0 : Vec F S1x1000x3 .f32) (x1 : Vec F S1x2466x3 .f32) (xs : Vec F S1x2466x1 .f32) :
    Σ' (L2 : List (View.Piece (Elt F) S1x1000x1 .f32)) (L3 : List (View.Piece (Elt F) S1x2466x1 .f32)), { LS : List (View.Piece (Elt F) S1x2466x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc2__chamfer_kernel i arg2 harg2 arg3 harg3 arg4 harg4 arg5 harg5 arg6 harg6) K } := by
  refine ⟨?_, ?_, ?_, fun E K => ?run⟩
  case run =>
    simp only [cc2__chamfer_kernel_eq_skeleton]; unfold cc2__chamfer_kernel_skel
    simp only [k2_part1_eq_skeleton]
    unfold owns
    iintro ⟨⟨%f0, %hf0, H0⟩, ⟨%f1, %hf1, H1⟩, ⟨%d2, %f2, -, H2⟩, ⟨%d3, %f3, %hf3, H3⟩, ⟨%fs, %hfs, HS⟩, Hk⟩
    obtain rfl := harg2.eq_unread hf0; obtain rfl := harg3.eq_unread hf1; obtain rfl := harg6.eq_unread hfs
    sl_exec (disch := first | exact hA | exact hB | exact hC)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS

end Cert.KernelIdeal.Chamfer

end
-- ==== Proof.KI.Chamfer2Points.lean ====
/-
  Region 2: what every grid point leaves behind. After point t the first output's buffer holds the tile's row minima,
  the scratch holds the running column minimum of the batch's tiles so far (reset at tile 0, lowered at every later
  tile), and at tile 9 the second output's buffer holds a copy of the scratch. These contents are defined by recursion
  on the point, each point's case run on what the point before left in the scratch; the region's invariant carries the
  scratch at those contents from point to point; and the body, at every point, takes the state from one to the next.
-/
import proofs.«112199_j59459527246412_1_alg».proof.Proof.KI.Chamfer2First
import proofs.«112199_j59459527246412_1_alg».proof.Proof.KI.Chamfer2Mid
import proofs.«112199_j59459527246412_1_alg».proof.Proof.KI.Chamfer2Last

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The contents a case leaves, read back through a fixed view of each buffer's shape -/

abbrev VO2_2 : View sig .tc .vmem S1x1000x1 .f32 := (Memref.whole cc2_stg2_0 : Memref sig .tc .vmem S1x1000x1 .f32).view
abbrev VO2_3 : View sig .tc .vmem S1x2466x1 .f32 := (Memref.whole cc2_stg3_0 : Memref sig .tc .vmem S1x2466x1 .f32).view
abbrev VS2 : View sig .tc .vmem S1x2466x1 .f32 := scM2.view

/-- A first tile's row minima. -/
def rowsFirst2 (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : isFirst2 i) (hB : ¬isLater2 i) (hC : ¬isLast2 i)
    (x0 : Vec F S1x1000x3 .f32) (x1 : Vec F S1x2466x3 .f32) : Vec F S1x1000x1 .f32 :=
  VO2_2.read (Elt F) (VO2_2.writes (Elt F) VO2_2.junk (runFirst2 c i arg2 harg2 arg3 harg3 arg4 harg4 arg5 harg5 arg6 harg6 hA hB hC x0 x1).1)
theorem rowsFirst2_cover (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : isFirst2 i) (hB : ¬isLater2 i) (hC : ¬isLast2 i)
    (x0 : Vec F S1x1000x3 .f32) (x1 : Vec F S1x2466x3 .f32) (y : S1x1000x1.Idx) :
    ∃ pc ∈ (runFirst2 c i arg2 harg2 arg3 harg3 arg4 harg4 arg5 harg5 arg6 harg6 hA hB hC x0 x1).1, y ∈ pc.1.set :=
  View.cover_of_tiledL (runFirst2 c i arg2 harg2 arg3 harg3 arg4 harg4 arg5 harg5 arg6 harg6 hA hB hC x0 x1).1 S1x1000x1.size (by sl_kernel_rfl) y
/-- A first tile's column minima: the scratch after the reset. -/
def accFirst2 (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : isFirst2 i) (hB : ¬isLater2 i) (hC : ¬isLast2 i)
    (x0 : Vec F S1x1000x3 .f32) (x1 : Vec F S1x2466x3 .f32) : Vec F S1x2466x1 .f32 :=
  VS2.read (Elt F) (VS2.writes (Elt F) VS2.junk (runFirst2 c i arg2 harg2 arg3 harg3 arg4 harg4 arg5 harg5 arg6 harg6 hA hB hC x0 x1).2.1)
theorem accFirst2_cover (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : isFirst2 i) (hB : ¬isLater2 i) (hC : ¬isLast2 i)
    (x0 : Vec F S1x1000x3 .f32) (x1 : Vec F S1x2466x3 .f32) (y : S1x2466x1.Idx) :
    ∃ pc ∈ (runFirst2 c i arg2 harg2 arg3 harg3 arg4 harg4 arg5 harg5 arg6 harg6 hA hB hC x0 x1).2.1, y ∈ pc.1.set :=
  View.cover_of_tiledL (runFirst2 c i arg2 harg2 arg3 harg3 arg4 harg4 arg5 harg5 arg6 harg6 hA hB hC x0 x1).2.1 S1x2466x1.size (by sl_kernel_rfl) y

/-- A middle tile's row minima. -/
def rowsMid2 (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : ¬isFirst2 i) (hB : isLater2 i) (hC : ¬isLast2 i)
    (x0 : Vec F S1x1000x3 .f32) (x1 : Vec F S1x2466x3 .f32) (xs : Vec F S1x2466x1 .f32) : Vec F S1x1000x1 .f32 :=
  VO2_2.read (Elt F) (VO2_2.writes (Elt F) VO2_2.junk (runMid2 c i arg2 harg2 arg3 harg3 arg4 harg4 arg5 harg5 arg6 harg6 hA hB hC x0 x1 xs).1)
theorem rowsMid2_cover (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : ¬isFirst2 i) (hB : isLater2 i) (hC : ¬isLast2 i)
    (x0 : Vec F S1x1000x3 .f32) (x1 : Vec F S1x2466x3 .f32) (xs : Vec F S1x2466x1 .f32) (y : S1x1000x1.Idx) :
    ∃ pc ∈ (runMid2 c i arg2 harg2 arg3 harg3 arg4 harg4 arg5 harg5 arg6 harg6 hA hB hC x0 x1 xs).1, y ∈ pc.1.set :=
  View.cover_of_tiledL (runMid2 c i arg2 harg2 arg3 harg3 arg4 harg4 arg5 harg5 arg6 harg6 hA hB hC x0 x1 xs).1 S1x1000x1.size (by sl_kernel_rfl) y
/-- The scratch after a middle tile: the running minimum `xs` lowered by the tile's column minima. -/
def accMid2 (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : ¬isFirst2 i) (hB : isLater2 i) (hC : ¬isLast2 i)
    (x0 : Vec F S1x1000x3 .f32) (x1 : Vec F S1x2466x3 .f32) (xs : Vec F S1x2466x1 .f32) : Vec F S1x2466x1 .f32 :=
  VS2.read (Elt F) (VS2.writes (Elt F) VS2.junk (runMid2 c i arg2 harg2 arg3 harg3 arg4 harg4 arg5 harg5 arg6 harg6 hA hB hC x0 x1 xs).2.1)
theorem accMid2_cover (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : ¬isFirst2 i) (hB : isLater2 i) (hC : ¬isLast2 i)
    (x0 : Vec F S1x1000x3 .f32) (x1 : Vec F S1x2466x3 .f32) (xs : Vec F S1x2466x1 .f32) (y : S1x2466x1.Idx) :
    ∃ pc ∈ (runMid2 c i arg2 harg2 arg3 harg3 arg4 harg4 arg5 harg5 arg6 harg6 hA hB hC x0 x1 xs).2.1, y ∈ pc.1.set :=
  View.cover_of_tiledL (runMid2 c i arg2 harg2 arg3 harg3 arg4 harg4 arg5 harg5 arg6 harg6 hA hB hC x0 x1 xs).2.1 S1x2466x1.size (by sl_kernel_rfl) y

/-- A last tile's row minima. -/
def rowsLast2 (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : ¬isFirst2 i) (hB : isLater2 i) (hC : isLast2 i)
    (x0 : Vec F S1x1000x3 .f32) (x1 : Vec F S1x2466x3 .f32) (xs : Vec F S1x2466x1 .f32) : Vec F S1x1000x1 .f32 :=
  VO2_2.read (Elt F) (VO2_2.writes (Elt F) VO2_2.junk (runLast2 c i arg2 harg2 arg3 harg3 arg4 harg4 arg5 harg5 arg6 harg6 hA hB hC x0 x1 xs).1)
theorem rowsLast2_cover (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : ¬isFirst2 i) (hB : isLater2 i) (hC : isLast2 i)
    (x0 : Vec F S1x1000x3 .f32) (x1 : Vec F S1x2466x3 .f32) (xs : Vec F S1x2466x1 .f32) (y : S1x1000x1.Idx) :
    ∃ pc ∈ (runLast2 c i arg2 harg2 arg3 harg3 arg4 harg4 arg5 harg5 arg6 harg6 hA hB hC x0 x1 xs).1, y ∈ pc.1.set :=
  View.cover_of_tiledL (runLast2 c i arg2 harg2 arg3 harg3 arg4 harg4 arg5 harg5 arg6 harg6 hA hB hC x0 x1 xs).1 S1x1000x1.size (by sl_kernel_rfl) y
/-- The batch's column minima as the last tile copies them out. -/
def colsLast2 (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : ¬isFirst2 i) (hB : isLater2 i) (hC : isLast2 i)
    (x0 : Vec F S1x1000x3 .f32) (x1 : Vec F S1x2466x3 .f32) (xs : Vec F S1x2466x1 .f32) : Vec F S1x2466x1 .f32 :=
  VO2_3.read (Elt F) (VO2_3.writes (Elt F) VO2_3.junk (runLast2 c i arg2 harg2 arg3 harg3 arg4 harg4 arg5 harg5 arg6 harg6 hA hB hC x0 x1 xs).2.1)
theorem colsLast2_cover (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : ¬isFirst2 i) (hB : isLater2 i) (hC : isLast2 i)
    (x0 : Vec F S1x1000x3 .f32) (x1 : Vec F S1x2466x3 .f32) (xs : Vec F S1x2466x1 .f32) (y : S1x2466x1.Idx) :
    ∃ pc ∈ (runLast2 c i arg2 harg2 arg3 harg3 arg4 harg4 arg5 harg5 arg6 harg6 hA hB hC x0 x1 xs).2.1, y ∈ pc.1.set :=
  View.cover_of_tiledL (runLast2 c i arg2 harg2 arg3 harg3 arg4 harg4 arg5 harg5 arg6 harg6 hA hB hC x0 x1 xs).2.1 S1x2466x1.size (by sl_kernel_rfl) y
/-- The scratch after a last tile. -/
def accLast2 (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : ¬isFirst2 i) (hB : isLater2 i) (hC : isLast2 i)
    (x0 : Vec F S1x1000x3 .f32) (x1 : Vec F S1x2466x3 .f32) (xs : Vec F S1x2466x1 .f32) : Vec F S1x2466x1 .f32 :=
  VS2.read (Elt F) (VS2.writes (Elt F) VS2.junk (runLast2 c i arg2 harg2 arg3 harg3 arg4 harg4 arg5 harg5 arg6 harg6 hA hB hC x0 x1 xs).2.2.1)
theorem accLast2_cover (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : ¬isFirst2 i) (hB : isLater2 i) (hC : isLast2 i)
    (x0 : Vec F S1x1000x3 .f32) (x1 : Vec F S1x2466x3 .f32) (xs : Vec F S1x2466x1 .f32) (y : S1x2466x1.Idx) :
    ∃ pc ∈ (runLast2 c i arg2 harg2 arg3 harg3 arg4 harg4 arg5 harg5 arg6 harg6 hA hB hC x0 x1 xs).2.2.1, y ∈ pc.1.set :=
  View.cover_of_tiledL (runLast2 c i arg2 harg2 arg3 harg3 arg4 harg4 arg5 harg5 arg6 harg6 hA hB hC x0 x1 xs).2.2.1 S1x2466x1.size (by sl_kernel_rfl) y

/-! ## What the buffers hold after each point -/

section Points
variable (V : (c : Dev nD) → (b : Ref sig .tc) → Buf (Elt F) ((c : Thread nD τ).loc b))

theorem notLater2_of {t : Fin cfg2.N} (h0 : t.val % 10 = 0) : ¬isLater2 (grid2.coords t) := fun h => (isLater2_iff t).mp h h0
theorem notLast2_of {t : Fin cfg2.N} (h9 : ¬t.val % 10 = 9) : ¬isLast2 (grid2.coords t) := fun h => h9 ((isLast2_iff t).mp h)
theorem notFirst2_of {t : Fin cfg2.N} (h0 : ¬t.val % 10 = 0) : ¬isFirst2 (grid2.coords t) := fun h => h0 ((isFirst2_iff t).mp h)
theorem ne9_of_zero2 {n : ℕ} (h0 : n % 10 = 0) : ¬n % 10 = 9 := by omega
theorem ne2_of_nine0 {n : ℕ} (h9 : n % 10 = 9) : ¬n % 10 = 0 := by omega

/-- The row-minimum buffer, the column-minimum buffer and the scratch after the body at position `n`: the case of the
    point's tile number, run on the point's input blocks and, past a batch's first tile, on what the point before left
    in the scratch. Away from a last tile the column-minimum buffer is idle; a placeholder stands for it. -/
def outsAt2 (c : Dev nD) : (n : ℕ) → n < cfg2.N → Vec F S1x1000x1 .f32 × Vec F S1x2466x1 .f32 × Vec F S1x2466x1 .f32
  | 0, hn =>
    (rowsFirst2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((isFirst2_iff ⟨0, hn⟩).mpr (Nat.zero_mod _)) (notLater2_of (t := ⟨0, hn⟩) (Nat.zero_mod _)) (notLast2_of (t := ⟨0, hn⟩) (ne9_of_zero2 (Nat.zero_mod _))) (iblk2 V c 0 ⟨0, hn⟩) (iblk2 V c 1 ⟨0, hn⟩),
     VO2_3.read (Elt F) VO2_3.junk,
     accFirst2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((isFirst2_iff ⟨0, hn⟩).mpr (Nat.zero_mod _)) (notLater2_of (t := ⟨0, hn⟩) (Nat.zero_mod _)) (notLast2_of (t := ⟨0, hn⟩) (ne9_of_zero2 (Nat.zero_mod _))) (iblk2 V c 0 ⟨0, hn⟩) (iblk2 V c 1 ⟨0, hn⟩))
  | n + 1, hn =>
    if h0 : (n + 1) % 10 = 0 then
      (rowsFirst2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((isFirst2_iff ⟨n + 1, hn⟩).mpr h0) (notLater2_of (t := ⟨n + 1, hn⟩) h0) (notLast2_of (t := ⟨n + 1, hn⟩) (ne9_of_zero2 h0)) (iblk2 V c 0 ⟨n + 1, hn⟩) (iblk2 V c 1 ⟨n + 1, hn⟩),
       VO2_3.read (Elt F) VO2_3.junk,
       accFirst2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((isFirst2_iff ⟨n + 1, hn⟩).mpr h0) (notLater2_of (t := ⟨n + 1, hn⟩) h0) (notLast2_of (t := ⟨n + 1, hn⟩) (ne9_of_zero2 h0)) (iblk2 V c 0 ⟨n + 1, hn⟩) (iblk2 V c 1 ⟨n + 1, hn⟩))
    else if h9 : (n + 1) % 10 = 9 then
      (rowsLast2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (notFirst2_of (t := ⟨n + 1, hn⟩) h0) ((isLater2_iff ⟨n + 1, hn⟩).mpr h0) ((isLast2_iff ⟨n + 1, hn⟩).mpr h9) (iblk2 V c 0 ⟨n + 1, hn⟩) (iblk2 V c 1 ⟨n + 1, hn⟩) (outsAt2 c n (Nat.lt_of_succ_lt hn)).2.2,
       colsLast2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (notFirst2_of (t := ⟨n + 1, hn⟩) h0) ((isLater2_iff ⟨n + 1, hn⟩).mpr h0) ((isLast2_iff ⟨n + 1, hn⟩).mpr h9) (iblk2 V c 0 ⟨n + 1, hn⟩) (iblk2 V c 1 ⟨n + 1, hn⟩) (outsAt2 c n (Nat.lt_of_succ_lt hn)).2.2,
       accLast2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (notFirst2_of (t := ⟨n + 1, hn⟩) h0) ((isLater2_iff ⟨n + 1, hn⟩).mpr h0) ((isLast2_iff ⟨n + 1, hn⟩).mpr h9) (iblk2 V c 0 ⟨n + 1, hn⟩) (iblk2 V c 1 ⟨n + 1, hn⟩) (outsAt2 c n (Nat.lt_of_succ_lt hn)).2.2)
    else
      (rowsMid2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (notFirst2_of (t := ⟨n + 1, hn⟩) h0) ((isLater2_iff ⟨n + 1, hn⟩).mpr h0) (notLast2_of (t := ⟨n + 1, hn⟩) h9) (iblk2 V c 0 ⟨n + 1, hn⟩) (iblk2 V c 1 ⟨n + 1, hn⟩) (outsAt2 c n (Nat.lt_of_succ_lt hn)).2.2,
       VO2_3.read (Elt F) VO2_3.junk,
       accMid2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (notFirst2_of (t := ⟨n + 1, hn⟩) h0) ((isLater2_iff ⟨n + 1, hn⟩).mpr h0) (notLast2_of (t := ⟨n + 1, hn⟩) h9) (iblk2 V c 0 ⟨n + 1, hn⟩) (iblk2 V c 1 ⟨n + 1, hn⟩) (outsAt2 c n (Nat.lt_of_succ_lt hn)).2.2)

/-- At a first tile. -/
theorem outsAt2_first (c : Dev nD) (t : Fin cfg2.N) (h0 : t.val % 10 = 0) :
    outsAt2 V c t.val t.isLt =
      (rowsFirst2 c (grid2.coords t) (ms2_0 t) (hs2_0 t) (ms2_1 t) (hs2_1 t) (ms2_2 t) (hs2_2 t) (ms2_3 t) (hs2_3 t) scM2 (Memref.isWhole_whole _) ((isFirst2_iff t).mpr h0) (notLater2_of h0) (notLast2_of (ne9_of_zero2 h0)) (iblk2 V c 0 t) (iblk2 V c 1 t),
       VO2_3.read (Elt F) VO2_3.junk,
       accFirst2 c (grid2.coords t) (ms2_0 t) (hs2_0 t) (ms2_1 t) (hs2_1 t) (ms2_2 t) (hs2_2 t) (ms2_3 t) (hs2_3 t) scM2 (Memref.isWhole_whole _) ((isFirst2_iff t).mpr h0) (notLater2_of h0) (notLast2_of (ne9_of_zero2 h0)) (iblk2 V c 0 t) (iblk2 V c 1 t)) := by
  obtain ⟨n, hn⟩ := t
  cases n with
  | zero => exact rfl
  | succ n => exact (dif_pos h0).trans rfl

/-- At a middle tile, over what the point before left in the scratch. -/
theorem outsAt2_mid (c : Dev nD) (t : Fin cfg2.N) (h0 : ¬t.val % 10 = 0) (h9 : ¬t.val % 10 = 9) :
    outsAt2 V c t.val t.isLt =
      (rowsMid2 c (grid2.coords t) (ms2_0 t) (hs2_0 t) (ms2_1 t) (hs2_1 t) (ms2_2 t) (hs2_2 t) (ms2_3 t) (hs2_3 t) scM2 (Memref.isWhole_whole _) (notFirst2_of h0) ((isLater2_iff t).mpr h0) (notLast2_of h9) (iblk2 V c 0 t) (iblk2 V c 1 t) (outsAt2 V c (t.val - 1) (Nat.lt_of_le_of_lt (Nat.sub_le _ _) t.isLt)).2.2,
       VO2_3.read (Elt F) VO2_3.junk,
       accMid2 c (grid2.coords t) (ms2_0 t) (hs2_0 t) (ms2_1 t) (hs2_1 t) (ms2_2 t) (hs2_2 t) (ms2_3 t) (hs2_3 t) scM2 (Memref.isWhole_whole _) (notFirst2_of h0) ((isLater2_iff t).mpr h0) (notLast2_of h9) (iblk2 V c 0 t) (iblk2 V c 1 t) (outsAt2 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h9).trans rfl)

/-- At a last tile, over what the point before left in the scratch. -/
theorem outsAt2_last (c : Dev nD) (t : Fin cfg2.N) (h0 : ¬t.val % 10 = 0) (h9 : t.val % 10 = 9) :
    outsAt2 V c t.val t.isLt =
      (rowsLast2 c (grid2.coords t) (ms2_0 t) (hs2_0 t) (ms2_1 t) (hs2_1 t) (ms2_2 t) (hs2_2 t) (ms2_3 t) (hs2_3 t) scM2 (Memref.isWhole_whole _) (notFirst2_of h0) ((isLater2_iff t).mpr h0) ((isLast2_iff t).mpr h9) (iblk2 V c 0 t) (iblk2 V c 1 t) (outsAt2 V c (t.val - 1) (Nat.lt_of_le_of_lt (Nat.sub_le _ _) t.isLt)).2.2,
       colsLast2 c (grid2.coords t) (ms2_0 t) (hs2_0 t) (ms2_1 t) (hs2_1 t) (ms2_2 t) (hs2_2 t) (ms2_3 t) (hs2_3 t) scM2 (Memref.isWhole_whole _) (notFirst2_of h0) ((isLater2_iff t).mpr h0) ((isLast2_iff t).mpr h9) (iblk2 V c 0 t) (iblk2 V c 1 t) (outsAt2 V c (t.val - 1) (Nat.lt_of_le_of_lt (Nat.sub_le _ _) t.isLt)).2.2,
       accLast2 c (grid2.coords t) (ms2_0 t) (hs2_0 t) (ms2_1 t) (hs2_1 t) (ms2_2 t) (hs2_2 t) (ms2_3 t) (hs2_3 t) scM2 (Memref.isWhole_whole _) (notFirst2_of h0) ((isLater2_iff t).mpr h0) ((isLast2_iff t).mpr h9) (iblk2 V c 0 t) (iblk2 V c 1 t) (outsAt2 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h9).trans rfl)

/-! ## The region's invariant -/

/-- Before position `n`: at the very first point the class's invariant (the scratch at anything); afterwards the scratch
    at what the point before left in it, the other scoped buffers unopened, the generator register at some state. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2.2) ∗ others2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2.2) ∗ others2 c) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2.2) ∗ others2 c) ∗ (∃ r, prngReg c r)) := by
  cases n with
  | zero => exact absurd rfl hz
  | succ n => rfl

/-! ## The proof data -/

/-- The arrays as the region finds them; after the body at point `t` the inputs' buffers at their blocks, the outputs' at
    `outsAt2`'s components; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
    | ⟨3, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem after2_3 (c : Dev nD) (t : Fin cfg2.N) : (dat2 V c).after 3 t = (outsAt2 V c t.val t.isLt).2.1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

end Points

end Cert.KernelIdeal.Chamfer

end
-- ==== Proof.KI.Chamfer2Body.lean ====
/-
  Region 2: the body takes the region's state from one grid point to the next. At every point the input windows'
  staging buffers hold their blocks; the tile number selects the case; the invariant hands the body the scratch at what
  the point before left (at anything at the very first point) and takes it back at this point's contents.
-/
import proofs.«112199_j59459527246412_1_alg».proof.Proof.KI.Chamfer2Points

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body
variable (V : (c : Dev nD) → (b : Ref sig .tc) → Buf (Elt F) ((c : Thread nD τ).loc b))

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 8000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  rw [show (dat2 V c).leavesExact 2 t = owns (c : Thread nD τ) (ms2_2 t) fullShare ((dat2 V c).after 2 t) from by
    unfold Dat.leavesExact; rw [live2_2 t], after2_2]
  have hN : t.val < 80 := lt_of_lt_of_eq t.isLt (show cfg2.N = 80 from N_2)
  by_cases h0 : t.val % 10 = 0
  · -- a first tile: the scratch is reset
    rw [Dat.leavesExact_idle (dat2 V c) 3 t (idle2_3 t (ne9_of_zero2 h0)) (noFlush2_3 t (ne9_of_zero2 h0))]
    rw [outsAt2_first V c t h0]
    unfold rowsFirst2 accFirst2; (try dsimp only)
    by_cases hz : t.val = 0
    · rw [PhiS2_castSucc V c t, PhiS2_zero V c _ _ hz, PhiA2_eq]
      iintro ⟨⟨⟨HS, Hoth⟩, Hg⟩, Ho, ⟨%d0, H0⟩, ⟨%d1, H1⟩, ⟨%d2, H2⟩, ⟨%d3, H3⟩⟩
      iapply ((runFirst2 c (grid2.coords t) _ _ _ _ _ _ _ _ _ _ ((isFirst2_iff t).mpr h0) (notLater2_of h0) (notLast2_of (ne9_of_zero2 h0)) (iblk2 V c 0 t) (iblk2 V c 1 t)).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, ⟨%es, HS⟩⟩
      isplitl [HS Hoth Hg]
      · isplitl [HS Hoth]
        · isplitl [HS]
          · unfold owns; iexists _; isplitr
            swap; · iexact HS
            ipureintro; exact View.read_writes_of_cover _ _ _ _ _ (accFirst2_cover c _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (rowsFirst2_cover c _ _ _ _ _ _ _ _ _ _ _ _ _ _ _ _)
      iexists _; iexact H3
    · rw [PhiS2_castSucc V c t, PhiS2_pos V c _ _ hz]
      iintro ⟨⟨⟨HS, Hoth⟩, Hg⟩, Ho, ⟨%d0, H0⟩, ⟨%d1, H1⟩, ⟨%d2, H2⟩, ⟨%d3, H3⟩⟩
      iapply ((runFirst2 c (grid2.coords t) _ _ _ _ _ _ _ _ _ _ ((isFirst2_iff t).mpr h0) (notLater2_of h0) (notLast2_of (ne9_of_zero2 h0)) (iblk2 V c 0 t) (iblk2 V c 1 t)).2.2 _ Set.univ _)
      isplitl [H0]; · iexact H0
      isplitl [H1]; · iexact H1
      isplitl [H2]; · iexists _; iexact H2
      isplitl [H3]; · iexact H3
      isplitl [HS]; · iexists _; iexact HS
      iintro ⟨H0, H1, ⟨%e2, H2⟩, H3, ⟨%es, HS⟩⟩
      isplitl [HS Hoth Hg]
      · isplitl [HS Hoth]
        · isplitl [HS]
          · unfold owns; iexists _; isplitr
            swap; · iexact HS
            ipureintro; exact View.read_writes_of_cover _ _ _ _ _ (accFirst2_cover c _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (rowsFirst2_cover c _ _ _ _ _ _ _ _ _ _ _ _ _ _ _ _)
      iexists _; iexact H3
  · have hz : t.val ≠ 0 := fun h => h0 (by rw [h])
    by_cases h9 : t.val % 10 = 9
    · -- a last tile: the scratch is lowered and copied out
      rw [show (dat2 V c).leavesExact 3 t = owns (c : Thread nD τ) (ms2_3 t) fullShare ((dat2 V c).after 3 t) from by
        unfold Dat.leavesExact; rw [live2_3 t h9], after2_3]
      rw [outsAt2_last V c t h0 h9]
      unfold rowsLast2 colsLast2 accLast2; (try dsimp only)
      rw [PhiS2_castSucc V c t, PhiS2_pos V c _ _ hz]
      iintro ⟨⟨⟨HS, Hoth⟩, Hg⟩, Ho, ⟨%d0, H0⟩, ⟨%d1, H1⟩, ⟨%d2, H2⟩, ⟨%d3, H3⟩⟩
      iapply ((runLast2 c (grid2.coords t) _ _ _ _ _ _ _ _ _ _ (notFirst2_of h0) ((isLater2_iff t).mpr h0) ((isLast2_iff t).mpr h9) (iblk2 V c 0 t) (iblk2 V c 1 t) _).2.2.2 Set.univ _)
      isplitl [H0]; · iexact H0
      isplitl [H1]; · iexact H1
      isplitl [H2]; · iexists _; iexact H2
      isplitl [H3]; · iexists _; iexact H3
      isplitl [HS]; · iexact HS
      iintro ⟨H0, H1, ⟨%e2, H2⟩, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (accLast2_cover c _ _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (rowsLast2_cover c _ _ _ _ _ _ _ _ _ _ _ _ _ _ _ _ _)
      unfold owns; iexists _; isplitr
      swap; · iexact H3
      ipureintro; exact View.read_writes_of_cover _ _ _ _ _ (colsLast2_cover c _ _ _ _ _ _ _ _ _ _ _ _ _ _ _ _ _)
    · -- a middle tile: the scratch is lowered
      rw [Dat.leavesExact_idle (dat2 V c) 3 t (idle2_3 t h9) (noFlush2_3 t h9)]
      rw [outsAt2_mid V c t h0 h9]
      unfold rowsMid2 accMid2; (try dsimp only)
      rw [PhiS2_castSucc V c t, PhiS2_pos V c _ _ hz]
      iintro ⟨⟨⟨HS, Hoth⟩, Hg⟩, Ho, ⟨%d0, H0⟩, ⟨%d1, H1⟩, ⟨%d2, H2⟩, ⟨%d3, H3⟩⟩
      iapply ((runMid2 c (grid2.coords t) _ _ _ _ _ _ _ _ _ _ (notFirst2_of h0) ((isLater2_iff t).mpr h0) (notLast2_of h9) (iblk2 V c 0 t) (iblk2 V c 1 t) _).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, ⟨%es, HS⟩⟩
      isplitl [HS Hoth Hg]
      · isplitl [HS Hoth]
        · isplitl [HS]
          · unfold owns; iexists _; isplitr
            swap; · iexact HS
            ipureintro; exact View.read_writes_of_cover _ _ _ _ _ (accMid2_cover c _ _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (rowsMid2_cover c _ _ _ _ _ _ _ _ _ _ _ _ _ _ _ _ _)
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the scratch's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 80 := N_2; omega), PhiA2_eq]
  iintro ⟨⟨HS, Hoth⟩, Hg⟩
  isplitl [HS Hoth]
  · isplitl [HS]
    · iexists _; iexact HS
    iexact Hoth
  iexact Hg

end Body

end Cert.KernelIdeal.Chamfer

end
-- ==== Proof.KI.Program.lean ====
/-
  The whole program: its three distance regions as segments between the host stretches, and its run. The contents
  the regions leave in their output arrays are named first (each region's folded write-backs, at the valuation the
  region is entered from), then each region's record is assembled from its body obligation and invariant, and the
  program's run follows from the conditional run over the three records: every weakly fair execution terminates, the
  four results hold what the last valuation says, and every argument array ends as launched.
-/
import proofs.«112199_j59459527246412_1_alg».proof.Proof.KI.Chamfer0Body
import proofs.«112199_j59459527246412_1_alg».proof.Proof.KI.Chamfer1Body
import proofs.«112199_j59459527246412_1_alg».proof.Proof.KI.Chamfer2Body
import proofs.«112199_j59459527246412_1_alg».proof.Proof.Gen.KernelIdeal.Regions

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents the regions leave -/

/-- A valuation read at the TensorCore's references. -/
abbrev asV (W : Dev nD → Valuation τ sig (Elt F)) : (c : Dev nD) → (b : Ref sig .tc) → Buf (Elt F) ((c : Thread nD τ).loc b) :=
  fun c b => W c b

/-- After region 0: its arrays at what the pipeline leaves, every other buffer as launched. -/
def W1 (c : Dev nD) : Valuation τ sig (Elt F) :=
  Pipeline.withArrays spec0 c (V0 m c) fun w => (dat0 (asV (V0 m)) c).arrAt w cfg0.N
/-- The regions' outputs as far as region 0 decides them. -/
def outsA : Outs (F := F) := fun _ r c => W1 m c r
/-- After region 1, entered from the valuation after the first nine host stretches. -/
def W11 (c : Dev nD) : Valuation τ sig (Elt F) :=
  Pipeline.withArrays spec1 c (V10 m (outsA m) c) fun w => (dat1 (asV (V10 m (outsA m))) c).arrAt w cfg1.N
def outsB : Outs (F := F) := fun j r c => match j with
  | 1 => W1 m c r
  | _ => W11 m c r
/-- After region 2. -/
def W21 (c : Dev nD) : Valuation τ sig (Elt F) :=
  Pipeline.withArrays spec2 c (V20 m (outsB m) c) fun w => (dat2 (asV (V20 m (outsB m))) c).arrAt w cfg2.N
/-- What the three regions leave in their output arrays. -/
def outs : Outs (F := F) := fun j r c => match j with
  | 1 => W1 m c r
  | 11 => W11 m c r
  | _ => W21 m c r

/-- A later region's outputs do not enter an earlier valuation. -/
theorem V10_outs (c : Dev nD) : V10 m (outs m) c = V10 m (outsA m) c := rfl
theorem V20_outs (c : Dev nD) : V20 m (outs m) c = V20 m (outsB m) c := rfl

/-! ## The proof data family and what rides beside the buffers -/

def pdats : (p : Fin 3) → (c : Dev nD) → Dat τ (Elt F) Unit ℕ (UR sig nD τ) ℕ (cfgs p) c
  | ⟨0, _⟩ => fun c => dat0 (asV (V0 m)) c
  | ⟨1, _⟩ => fun c => dat1 (asV (V10 m (outsA m))) c
  | ⟨2, _⟩ => fun c => dat2 (asV (V20 m (outsB m))) c

abbrev 𝒱₀ : Variants := Variants.none
abbrev L : GSem nD τ sig → Finset Unit := fun _ => ∅
abbrev lv : GSem nD τ sig → Unit → ℕ := fun _ _ => 0
/-- The core's generator register at some state and its dues, at nothing. -/
abbrev R (c : Dev nD) : sProp 𝕄 := iprop((∃ r, prngReg c r) ∗ ∃ W, owes (c : Thread nD τ) (0 : CellTallies nD τ sig Unit) W)

/-! ## Region 0 -/

/-- The region's four arrays at its exit are what the exit valuation holds: the inputs as entered, the outputs at the
    folded write-backs. -/
theorem hF0 (c : Dev nD) (w : Fin cfg0.W) : (pdats m 0 c).arrAt w cfg0.N = asV (V1 m (outs m)) c (Pipeline.arrRef spec0 w) := by
  have hin : ∀ w' : Fin cfg0.W, (cfg0.win w').isOut = false → (pdats m 0 c).arrAt w' cfg0.N = asV (V0 m) c (Pipeline.arrRef spec0 w') :=
    fun w' hw' => ((pdats m 0 c).arrAt_in w' hw' _).trans (A_eq0 _ c w')
  have hkeep : ∀ r : Ref sig .tc, r ∉ ([Pipeline.arrRef spec0 2, Pipeline.arrRef spec0 3] : List (Ref sig .tc)) → asV (V1 m (outs m)) c r = asV (V0 m) c r :=
    fun r hr => V1_of m (outs m) c r hr
  have h2 : (pdats m 0 c).arrAt 2 cfg0.N = V1 m (outs m) c main_v0_0 := by
    refine (Pipeline.withArrays_arr spec0 launch0.win.arr_inj c (V0 m c) (fun w => (pdats m 0 c).arrAt w cfg0.N) 2).symm.trans ?_
    show W1 m c (Proc.devRef .tc main_v0_0) = V1 m (outs m) c main_v0_0
    simp only [V1, Function.update_of_ne (StableHlo.devRef_ne_of_ne (by decide : main_v0_0 ≠ main_v0_1) : (Proc.devRef .tc main_v0_0 : DevRef τ sig) ≠ Proc.devRef .tc main_v0_1), Function.update_self]
    try rfl
  have h3 : (pdats m 0 c).arrAt 3 cfg0.N = V1 m (outs m) c main_v0_1 := by
    refine (Pipeline.withArrays_arr spec0 launch0.win.arr_inj c (V0 m c) (fun w => (pdats m 0 c).arrAt w cfg0.N) 3).symm.trans ?_
    show W1 m c (Proc.devRef .tc main_v0_1) = V1 m (outs m) c main_v0_1
    simp only [V1, Function.update_self]
    try rfl
  match w with
  | ⟨0, _⟩ => exact (hin 0 rfl).trans (hkeep _ (by decide)).symm
  | ⟨1, _⟩ => exact (hin 1 rfl).trans (hkeep _ (by decide)).symm
  | ⟨2, _⟩ => exact h2
  | ⟨3, _⟩ => exact h3

/-- Every other unscoped buffer is as the region found it. -/
theorem hrest0 (c : Dev nD) : ∀ b, b ∉ Finset.univ.image (Pipeline.arrRef spec0) → asV (V1 m (outs m)) c b = asV (V0 m) c b :=
  fun b hb => (V1_of m (outs m) c b (by
    intro hmem
    simp only [List.mem_cons, List.mem_nil_iff, or_false] at hmem
    rcases hmem with rfl | rfl
    · exact hb (Finset.mem_image.mpr ⟨2, Finset.mem_univ _, rfl⟩)
    · exact hb (Finset.mem_image.mpr ⟨3, Finset.mem_univ _, rfl⟩)))

set_option backward.isDefEq.respectTransparency.types false in
/-- REGION 0 as a segment of the program: entered from every unscoped buffer at the valuation before it, left at the one
    after it. Its arrays are split out of the unscoped buffers and put back at the exit contents; the generator register
    goes into the region's invariant and comes back; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 _ c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (asV (V0 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (asV (V0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 0).pre c (fun _ => fullShare) (adm 0).1 ∗ Pipeline.scopedRest spec0 c)
        ⊢ (Pipeline.ΦA spec0 c : sProp 𝕄) := by
      unfold Pipeline.ΦA
      iintro ⟨Hp, -, Hr⟩
      isplitl [Hr]; · iexact Hr
      iexact Hp
    exact h.trans (hin0 _ c)
  hout c := by
    rw [Pipeline.ownSems0_none]
    have h : (Pipeline.ΦA spec0 c : sProp 𝕄) ⊢ iprop(iprop(∃ r, prngReg c r) ∗ iprop(emp) ∗ Pipeline.scopedRest spec0 c) := by
      unfold Pipeline.ΦA
      iintro ⟨Hr, Hp⟩
      isplitl [Hp]; · iexact Hp
      isplitr; · iempintro
      iexact Hr
    exact (hout0 _ c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (asV (V0 m) c) (asV (V1 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- The region's four arrays at its exit are what the exit valuation holds: the inputs as entered, the outputs at the
    folded write-backs. -/
theorem hF1 (c : Dev nD) (w : Fin cfg1.W) : (pdats m 1 c).arrAt w cfg1.N = asV (V11 m (outs m)) c (Pipeline.arrRef spec1 w) := by
  have hin : ∀ w' : Fin cfg1.W, (cfg1.win w').isOut = false → (pdats m 1 c).arrAt w' cfg1.N = asV (V10 m (outsA m)) c (Pipeline.arrRef spec1 w') :=
    fun w' hw' => ((pdats m 1 c).arrAt_in w' hw' _).trans (A_eq1 _ c w')
  have hkeep : ∀ r : Ref sig .tc, r ∉ ([Pipeline.arrRef spec1 2, Pipeline.arrRef spec1 3] : List (Ref sig .tc)) → asV (V11 m (outs m)) c r = asV (V10 m (outsA m)) c r :=
    fun r hr => (V11_of m (outs m) c r hr).trans (congrFun (V10_outs m c) _)
  have h2 : (pdats m 1 c).arrAt 2 cfg1.N = V11 m (outs m) c main_v83_0 := by
    refine (Pipeline.withArrays_arr spec1 launch1.win.arr_inj c (V10 m (outsA m) c) (fun w => (pdats m 1 c).arrAt w cfg1.N) 2).symm.trans ?_
    show W11 m c (Proc.devRef .tc main_v83_0) = V11 m (outs m) c main_v83_0
    simp only [V11, Function.update_of_ne (StableHlo.devRef_ne_of_ne (by decide : main_v83_0 ≠ main_v83_1) : (Proc.devRef .tc main_v83_0 : DevRef τ sig) ≠ Proc.devRef .tc main_v83_1), Function.update_self]
    try rfl
  have h3 : (pdats m 1 c).arrAt 3 cfg1.N = V11 m (outs m) c main_v83_1 := by
    refine (Pipeline.withArrays_arr spec1 launch1.win.arr_inj c (V10 m (outsA m) c) (fun w => (pdats m 1 c).arrAt w cfg1.N) 3).symm.trans ?_
    show W11 m c (Proc.devRef .tc main_v83_1) = V11 m (outs m) c main_v83_1
    simp only [V11, Function.update_self]
    try rfl
  match w with
  | ⟨0, _⟩ => exact (hin 0 rfl).trans (hkeep _ (by decide)).symm
  | ⟨1, _⟩ => exact (hin 1 rfl).trans (hkeep _ (by decide)).symm
  | ⟨2, _⟩ => exact h2
  | ⟨3, _⟩ => exact h3

/-- Every other unscoped buffer is as the region found it. -/
theorem hrest1 (c : Dev nD) : ∀ b, b ∉ Finset.univ.image (Pipeline.arrRef spec1) → asV (V11 m (outs m)) c b = asV (V10 m (outsA m)) c b :=
  fun b hb => (V11_of m (outs m) c b (by
    intro hmem
    simp only [List.mem_cons, List.mem_nil_iff, or_false] at hmem
    rcases hmem with rfl | rfl
    · exact hb (Finset.mem_image.mpr ⟨2, Finset.mem_univ _, rfl⟩)
    · exact hb (Finset.mem_image.mpr ⟨3, Finset.mem_univ _, rfl⟩))).trans (congrFun (V10_outs m c) _)

set_option backward.isDefEq.respectTransparency.types false in
/-- REGION 1 as a segment of the program: entered from every unscoped buffer at the valuation before it, left at the one
    after it. Its arrays are split out of the unscoped buffers and put back at the exit contents; the generator register
    goes into the region's invariant and comes back; nothing is owed; the kernel has no semaphore of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 _ c).loose
  hwaits := Pipeline.hwaits_of_owed_zero _ _ _ _ L lv 1 fun _ _ => rfl
  pre c := iprop(StableHlo.held (c : Thread nD τ) (Pipeline.ucRefs τ sig) (V10 m (outs m) c) ∗ R c)
  post c := iprop(StableHlo.held (c : Thread nD τ) (Pipeline.ucRefs τ sig) (V11 m (outs m) c) ∗ R c)
  X c := iprop(∃ r, prngReg c r)
  Y c := iprop(∃ r, prngReg c r)
  Z c := Pipeline.unscopedRest (Ix := Unit) (Name := ℕ) (U := UR sig nD τ) (Lvl := ℕ) spec1 c (asV (V10 m (outsA m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (asV (V10 m (outsA m)) c) fun _ => rfl
    rw [Pipeline.unscopedBufs_held] at hsplit
    have hE : V10 m (outs m) c = V10 m (outsA m) c := V10_outs m c
    rw [hE]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 1).pre c (fun _ => fullShare) (adm 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h.trans (hin1 _ c)
  hout c := by
    rw [Pipeline.ownSems0_none]
    have h : (Pipeline.ΦA spec1 c : sProp 𝕄) ⊢ iprop(iprop(∃ r, prngReg c r) ∗ iprop(emp) ∗ Pipeline.scopedRest spec1 c) := by
      unfold Pipeline.ΦA
      iintro ⟨Hr, Hp⟩
      isplitl [Hp]; · iexact Hp
      isplitr; · iempintro
      iexact Hr
    exact (hout1 _ c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (asV (V10 m (outsA m)) c) (asV (V11 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- The region's four arrays at its exit are what the exit valuation holds: the inputs as entered, the outputs at the
    folded write-backs. -/
theorem hF2 (c : Dev nD) (w : Fin cfg2.W) : (pdats m 2 c).arrAt w cfg2.N = asV (V21 m (outs m)) c (Pipeline.arrRef spec2 w) := by
  have hin : ∀ w' : Fin cfg2.W, (cfg2.win w').isOut = false → (pdats m 2 c).arrAt w' cfg2.N = asV (V20 m (outsB m)) c (Pipeline.arrRef spec2 w') :=
    fun w' hw' => ((pdats m 2 c).arrAt_in w' hw' _).trans (A_eq2 _ c w')
  have hkeep : ∀ r : Ref sig .tc, r ∉ ([Pipeline.arrRef spec2 2, Pipeline.arrRef spec2 3] : List (Ref sig .tc)) → asV (V21 m (outs m)) c r = asV (V20 m (outsB m)) c r :=
    fun r hr => (V21_of m (outs m) c r hr).trans (congrFun (V20_outs m c) _)
  have h2 : (pdats m 2 c).arrAt 2 cfg2.N = V21 m (outs m) c main_v173_0 := by
    refine (Pipeline.withArrays_arr spec2 launch2.win.arr_inj c (V20 m (outsB m) c) (fun w => (pdats m 2 c).arrAt w cfg2.N) 2).symm.trans ?_
    show W21 m c (Proc.devRef .tc main_v173_0) = V21 m (outs m) c main_v173_0
    simp only [V21, Function.update_of_ne (StableHlo.devRef_ne_of_ne (by decide : main_v173_0 ≠ main_v173_1) : (Proc.devRef .tc main_v173_0 : DevRef τ sig) ≠ Proc.devRef .tc main_v173_1), Function.update_self]
    try rfl
  have h3 : (pdats m 2 c).arrAt 3 cfg2.N = V21 m (outs m) c main_v173_1 := by
    refine (Pipeline.withArrays_arr spec2 launch2.win.arr_inj c (V20 m (outsB m) c) (fun w => (pdats m 2 c).arrAt w cfg2.N) 3).symm.trans ?_
    show W21 m c (Proc.devRef .tc main_v173_1) = V21 m (outs m) c main_v173_1
    simp only [V21, Function.update_self]
    try rfl
  match w with
  | ⟨0, _⟩ => exact (hin 0 rfl).trans (hkeep _ (by decide)).symm
  | ⟨1, _⟩ => exact (hin 1 rfl).trans (hkeep _ (by decide)).symm
  | ⟨2, _⟩ => exact h2
  | ⟨3, _⟩ => exact h3

/-- Every other unscoped buffer is as the region found it. -/
theorem hrest2 (c : Dev nD) : ∀ b, b ∉ Finset.univ.image (Pipeline.arrRef spec2) → asV (V21 m (outs m)) c b = asV (V20 m (outsB m)) c b :=
  fun b hb => (V21_of m (outs m) c b (by
    intro hmem
    simp only [List.mem_cons, List.mem_nil_iff, or_false] at hmem
    rcases hmem with rfl | rfl
    · exact hb (Finset.mem_image.mpr ⟨2, Finset.mem_univ _, rfl⟩)
    · exact hb (Finset.mem_image.mpr ⟨3, Finset.mem_univ _, rfl⟩))).trans (congrFun (V20_outs m c) _)

set_option backward.isDefEq.respectTransparency.types false in
/-- REGION 2 as a segment of the program: entered from every unscoped buffer at the valuation before it, left at the one
    after it. Its arrays are split out of the unscoped buffers and put back at the exit contents; the generator register
    goes into the region's invariant and comes back; nothing is owed; the kernel has no semaphore of its own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 _ c).loose
  hwaits := Pipeline.hwaits_of_owed_zero _ _ _ _ L lv 2 fun _ _ => rfl
  pre c := iprop(StableHlo.held (c : Thread nD τ) (Pipeline.ucRefs τ sig) (V20 m (outs m) c) ∗ R c)
  post c := iprop(StableHlo.held (c : Thread nD τ) (Pipeline.ucRefs τ sig) (V21 m (outs m) c) ∗ R c)
  X c := iprop(∃ r, prngReg c r)
  Y c := iprop(∃ r, prngReg c r)
  Z c := Pipeline.unscopedRest (Ix := Unit) (Name := ℕ) (U := UR sig nD τ) (Lvl := ℕ) spec2 c (asV (V20 m (outsB m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (asV (V20 m (outsB m)) c) fun _ => rfl
    rw [Pipeline.unscopedBufs_held] at hsplit
    have hE : V20 m (outs m) c = V20 m (outsB m) c := V20_outs m c
    rw [hE]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 2).pre c (fun _ => fullShare) (adm 2).1 ∗ Pipeline.scopedRest spec2 c)
        ⊢ (Pipeline.ΦA spec2 c : sProp 𝕄) := by
      unfold Pipeline.ΦA
      iintro ⟨Hp, -, Hr⟩
      isplitl [Hr]; · iexact Hr
      iexact Hp
    exact h.trans (hin2 _ c)
  hout c := by
    rw [Pipeline.ownSems0_none]
    have h : (Pipeline.ΦA spec2 c : sProp 𝕄) ⊢ iprop(iprop(∃ r, prngReg c r) ∗ iprop(emp) ∗ Pipeline.scopedRest spec2 c) := by
      unfold Pipeline.ΦA
      iintro ⟨Hr, Hp⟩
      isplitl [Hp]; · iexact Hp
      isplitr; · iempintro
      iexact Hr
    exact (hout2 _ c).trans h
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (asV (V20 m (outsB m)) c) (asV (V21 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Chamfer

end
-- ==== Proof.KI.Run.lean ====
/-
  The run of the idealized program: the conditional run over the three regions' records, at the launch's resources.
  Every weakly fair execution terminates, nothing faulting; the four results end at what the last valuation holds
  (the host stretches applied to the arguments and to what the regions left); every argument array ends as launched.
-/
import proofs.«112199_j59459527246412_1_alg».proof.Proof.KI.Program
import proofs.«112199_j59459527246412_1_alg».proof.Proof.KI.RunCond

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The run -/

variable (ρ : Dev nD → PrngReg)

/-- What the launch deals a core beside its buffers is the register at some state and dues at nothing. -/
theorem launchRest (c : Dev nD) :
    iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp))
      ⊢ (R c : sProp 𝕄) := by
  iintro ⟨-, HO, -, Hp, -⟩
  isplitl [Hp]; · iexists _; iexact Hp
  iexists ∅; iexact HO

set_option backward.isDefEq.respectTransparency.types false in
/-- From any memory with zero counters every weakly fair execution of the program terminates, nothing faulting; the four
    results end at what the last valuation holds (the host stretches applied to the arguments and to what the regions
    left), and every argument array ends as launched. -/
theorem run : θ_run defs (onTc (τ := τ) (main (F := F))) ⟨m, fun _ => 0, ρ⟩ (fun r => ∀ c : Dev nD,
      r.2.mem ((c.tc : Thread nD τ).loc main_v206) = V30 m (outs m) c main_v206
      ∧ r.2.mem ((c.tc : Thread nD τ).loc main_v255) = V30 m (outs m) c main_v255
      ∧ r.2.mem ((c.tc : Thread nD τ).loc main_v262) = V30 m (outs m) c main_v262
      ∧ r.2.mem ((c.tc : Thread nD τ).loc main_v182) = V30 m (outs m) c main_v182
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
          ⊢ (bigSep Finset.univ (fun c : Dev nD => R c) : sProp 𝕄) :=
        bigSep_mono fun c _ => launchRest (F := F) ρ c
      iintro ⟨H, -⟩
      imodintro
      iapply hmono; iexact H)
    (fun c => by
      iintro ⟨-, HO⟩
      iexact HO)
    (reg0 m) (fun c => .rfl) (fun c => .rfl) (reg1 m) (fun c => .rfl) (fun c => .rfl) (reg2 m) (fun c => .rfl) (fun c => .rfl)

end Cert.KernelIdeal.Chamfer

end
-- ==== Proof.KI.Glue.lean ====
/-
  The four scalar results of the program at its last valuation, as closed composed terms.

  Between its items the program's unscoped buffers are a chain of valuations: the launch memory, then after each item
  either two updates (a region: its two output arrays, at unknowns) or the fold of a stretch of host operations. Each
  result is written in a late stretch from values written in earlier ones, back to the argument arrays or to a region's
  outputs. Read from the last valuation backwards, one item at a time, a value a stretch wrote is its operation's
  function of the values before the stretch, and a value the item did not write is the value before it; after the
  first item only the launch memory and the regions' unknowns are read. So
    * the move loss, the edge-length loss and the laplacian loss are functions of the argument arrays alone, and
    * the chamfer loss is a function of the six arrays the three regions leave: each of its six means is taken over a
      region's output reshaped to drop its unit axis.
  The terms are stated as functions of the arrays, generic in the float operations.
-/
import proofs.«112199_j59459527246412_1_alg».proof.Proof.Gen.KernelIdeal.Regions
import Idealize.ShloMosaic.Lib.StableHlo.Run

noncomputable section

namespace Cert.KernelIdeal.Chamfer

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ) (outs : Outs (F := F))

/-! ## Reading through one item

A region's item is two updates of the valuation; a host stretch's item is the fold of its operations. Read at a reference
the item does not write, either is what was there before. -/

/-- A region's update read at a reference it does not write. -/
theorem upd_ne (V : Valuation τ sig (Elt F)) {a r : Ref sig .tc} (v : (Proc.devRef (τ := τ) .tc a).ty.Contents (Elt F)) (h : r ≠ a) :
    Function.update V (no_index (Proc.devRef .tc a)) v (no_index (Proc.devRef .tc r)) = V (Proc.devRef .tc r) :=
  Function.update_of_ne (devRef_ne_of_ne h) _ _

/-- A region's update read at the reference it writes. -/
theorem upd_same (V : Valuation τ sig (Elt F)) {a : Ref sig .tc} (v : (Proc.devRef (τ := τ) .tc a).ty.Contents (Elt F)) :
    Function.update V (no_index (Proc.devRef .tc a)) v (no_index (Proc.devRef .tc a)) = v :=
  Function.update_self _ _ _

/-! A host stretch read at a reference none of its operations writes, from any valuation: one lemma per stretch. -/

theorem skip1 (W : Valuation τ sig (Elt F)) {r : Ref sig .tc} (h : r ∉ hostOps1_W) :
    after (no_index hostOps1) W (no_index (Proc.devRef .tc r)) = W (Proc.devRef .tc r) :=
  after_of_writes_sub hostOps1 W hostOps1_writes h
theorem skip1_1 (W : Valuation τ sig (Elt F)) {r : Ref sig .tc} (h : r ∉ hostOps1_1_W) :
    after (no_index hostOps1_1) W (no_index (Proc.devRef .tc r)) = W (Proc.devRef .tc r) :=
  after_of_writes_sub hostOps1_1 W hostOps1_1_writes h
theorem skip1_2 (W : Valuation τ sig (Elt F)) {r : Ref sig .tc} (h : r ∉ hostOps1_2_W) :
    after (no_index hostOps1_2) W (no_index (Proc.devRef .tc r)) = W (Proc.devRef .tc r) :=
  after_of_writes_sub hostOps1_2 W hostOps1_2_writes h
theorem skip1_3 (W : Valuation τ sig (Elt F)) {r : Ref sig .tc} (h : r ∉ hostOps1_3_W) :
    after (no_index hostOps1_3) W (no_index (Proc.devRef .tc r)) = W (Proc.devRef .tc r) :=
  after_of_writes_sub hostOps1_3 W hostOps1_3_writes h
theorem skip1_4 (W : Valuation τ sig (Elt F)) {r : Ref sig .tc} (h : r ∉ hostOps1_4_W) :
    after (no_index hostOps1_4) W (no_index (Proc.devRef .tc r)) = W (Proc.devRef .tc r) :=
  after_of_writes_sub hostOps1_4 W hostOps1_4_writes h
theorem skip1_5 (W : Valuation τ sig (Elt F)) {r : Ref sig .tc} (h : r ∉ hostOps1_5_W) :
    after (no_index hostOps1_5) W (no_index (Proc.devRef .tc r)) = W (Proc.devRef .tc r) :=
  after_of_writes_sub hostOps1_5 W hostOps1_5_writes h
theorem skip1_6 (W : Valuation τ sig (Elt F)) {r : Ref sig .tc} (h : r ∉ hostOps1_6_W) :
    after (no_index hostOps1_6) W (no_index (Proc.devRef .tc r)) = W (Proc.devRef .tc r) :=
  after_of_writes_sub hostOps1_6 W hostOps1_6_writes h
theorem skip1_7 (W : Valuation τ sig (Elt F)) {r : Ref sig .tc} (h : r ∉ hostOps1_7_W) :
    after (no_index hostOps1_7) W (no_index (Proc.devRef .tc r)) = W (Proc.devRef .tc r) :=
  after_of_writes_sub hostOps1_7 W hostOps1_7_writes h
theorem skip1_8 (W : Valuation τ sig (Elt F)) {r : Ref sig .tc} (h : r ∉ hostOps1_8_W) :
    after (no_index hostOps1_8) W (no_index (Proc.devRef .tc r)) = W (Proc.devRef .tc r) :=
  after_of_writes_sub hostOps1_8 W hostOps1_8_writes h
theorem skip2 (W : Valuation τ sig (Elt F)) {r : Ref sig .tc} (h : r ∉ hostOps2_W) :
    after (no_index hostOps2) W (no_index (Proc.devRef .tc r)) = W (Proc.devRef .tc r) :=
  after_of_writes_sub hostOps2 W hostOps2_writes h
theorem skip2_1 (W : Valuation τ sig (Elt F)) {r : Ref sig .tc} (h : r ∉ hostOps2_1_W) :
    after (no_index hostOps2_1) W (no_index (Proc.devRef .tc r)) = W (Proc.devRef .tc r) :=
  after_of_writes_sub hostOps2_1 W hostOps2_1_writes h
theorem skip2_2 (W : Valuation τ sig (Elt F)) {r : Ref sig .tc} (h : r ∉ hostOps2_2_W) :
    after (no_index hostOps2_2) W (no_index (Proc.devRef .tc r)) = W (Proc.devRef .tc r) :=
  after_of_writes_sub hostOps2_2 W hostOps2_2_writes h
theorem skip2_3 (W : Valuation τ sig (Elt F)) {r : Ref sig .tc} (h : r ∉ hostOps2_3_W) :
    after (no_index hostOps2_3) W (no_index (Proc.devRef .tc r)) = W (Proc.devRef .tc r) :=
  after_of_writes_sub hostOps2_3 W hostOps2_3_writes h
theorem skip2_4 (W : Valuation τ sig (Elt F)) {r : Ref sig .tc} (h : r ∉ hostOps2_4_W) :
    after (no_index hostOps2_4) W (no_index (Proc.devRef .tc r)) = W (Proc.devRef .tc r) :=
  after_of_writes_sub hostOps2_4 W hostOps2_4_writes h
theorem skip2_5 (W : Valuation τ sig (Elt F)) {r : Ref sig .tc} (h : r ∉ hostOps2_5_W) :
    after (no_index hostOps2_5) W (no_index (Proc.devRef .tc r)) = W (Proc.devRef .tc r) :=
  after_of_writes_sub hostOps2_5 W hostOps2_5_writes h
theorem skip2_6 (W : Valuation τ sig (Elt F)) {r : Ref sig .tc} (h : r ∉ hostOps2_6_W) :
    after (no_index hostOps2_6) W (no_index (Proc.devRef .tc r)) = W (Proc.devRef .tc r) :=
  after_of_writes_sub hostOps2_6 W hostOps2_6_writes h
theorem skip2_7 (W : Valuation τ sig (Elt F)) {r : Ref sig .tc} (h : r ∉ hostOps2_7_W) :
    after (no_index hostOps2_7) W (no_index (Proc.devRef .tc r)) = W (Proc.devRef .tc r) :=
  after_of_writes_sub hostOps2_7 W hostOps2_7_writes h
theorem skip2_8 (W : Valuation τ sig (Elt F)) {r : Ref sig .tc} (h : r ∉ hostOps2_8_W) :
    after (no_index hostOps2_8) W (no_index (Proc.devRef .tc r)) = W (Proc.devRef .tc r) :=
  after_of_writes_sub hostOps2_8 W hostOps2_8_writes h
theorem skip3 (W : Valuation τ sig (Elt F)) {r : Ref sig .tc} (h : r ∉ hostOps3_W) :
    after (no_index hostOps3) W (no_index (Proc.devRef .tc r)) = W (Proc.devRef .tc r) :=
  after_of_writes_sub hostOps3 W hostOps3_writes h
theorem skip3_1 (W : Valuation τ sig (Elt F)) {r : Ref sig .tc} (h : r ∉ hostOps3_1_W) :
    after (no_index hostOps3_1) W (no_index (Proc.devRef .tc r)) = W (Proc.devRef .tc r) :=
  after_of_writes_sub hostOps3_1 W hostOps3_1_writes h
theorem skip3_2 (W : Valuation τ sig (Elt F)) {r : Ref sig .tc} (h : r ∉ hostOps3_2_W) :
    after (no_index hostOps3_2) W (no_index (Proc.devRef .tc r)) = W (Proc.devRef .tc r) :=
  after_of_writes_sub hostOps3_2 W hostOps3_2_writes h
theorem skip3_3 (W : Valuation τ sig (Elt F)) {r : Ref sig .tc} (h : r ∉ hostOps3_3_W) :
    after (no_index hostOps3_3) W (no_index (Proc.devRef .tc r)) = W (Proc.devRef .tc r) :=
  after_of_writes_sub hostOps3_3 W hostOps3_3_writes h
theorem skip3_4 (W : Valuation τ sig (Elt F)) {r : Ref sig .tc} (h : r ∉ hostOps3_4_W) :
    after (no_index hostOps3_4) W (no_index (Proc.devRef .tc r)) = W (Proc.devRef .tc r) :=
  after_of_writes_sub hostOps3_4 W hostOps3_4_writes h
theorem skip3_5 (W : Valuation τ sig (Elt F)) {r : Ref sig .tc} (h : r ∉ hostOps3_5_W) :
    after (no_index hostOps3_5) W (no_index (Proc.devRef .tc r)) = W (Proc.devRef .tc r) :=
  after_of_writes_sub hostOps3_5 W hostOps3_5_writes h
theorem skip3_6 (W : Valuation τ sig (Elt F)) {r : Ref sig .tc} (h : r ∉ hostOps3_6_W) :
    after (no_index hostOps3_6) W (no_index (Proc.devRef .tc r)) = W (Proc.devRef .tc r) :=
  after_of_writes_sub hostOps3_6 W hostOps3_6_writes h
theorem skip3_7 (W : Valuation τ sig (Elt F)) {r : Ref sig .tc} (h : r ∉ hostOps3_7_W) :
    after (no_index hostOps3_7) W (no_index (Proc.devRef .tc r)) = W (Proc.devRef .tc r) :=
  after_of_writes_sub hostOps3_7 W hostOps3_7_writes h
theorem skip3_8 (W : Valuation τ sig (Elt F)) {r : Ref sig .tc} (h : r ∉ hostOps3_8_W) :
    after (no_index hostOps3_8) W (no_index (Proc.devRef .tc r)) = W (Proc.devRef .tc r) :=
  after_of_writes_sub hostOps3_8 W hostOps3_8_writes h

/-- One host stretch: open the valuation after it, hide the valuation before it, pass the references the stretch does not
    write, and read every value it wrote as its operation's function of what was there before. -/
macro "peel " Vk:ident " over " W:term " skipping " sk:ident : tactic =>
  `(tactic| (try simp only [$Vk:ident]
             try (generalize hW : $W = W0
                  (try simp (disch := decide) only [$sk:ident])
                  (try after_results_simp)
                  subst hW)))

/-- One region: its two outputs are the unknowns, everything else is what was there before. -/
macro "peelR " Vk:ident : tactic =>
  `(tactic| (try simp (disch := decide) only [$Vk:ident, upd_ne, upd_same]))

/-- All thirty items, last to first: what is left reads the launch memory and the regions' unknowns only. -/
macro "peel_all " m:term:max outs:term:max c:term:max : tactic =>
  `(tactic| (
    peel V30 over (V29 $m $outs $c) skipping skip3_8
    peel V29 over (V28 $m $outs $c) skipping skip3_7
    peel V28 over (V27 $m $outs $c) skipping skip3_6
    peel V27 over (V26 $m $outs $c) skipping skip3_5
    peel V26 over (V25 $m $outs $c) skipping skip3_4
    peel V25 over (V24 $m $outs $c) skipping skip3_3
    peel V24 over (V23 $m $outs $c) skipping skip3_2
    peel V23 over (V22 $m $outs $c) skipping skip3_1
    peel V22 over (V21 $m $outs $c) skipping skip3
    peelR V21
    peel V20 over (V19 $m $outs $c) skipping skip2_8
    peel V19 over (V18 $m $outs $c) skipping skip2_7
    peel V18 over (V17 $m $outs $c) skipping skip2_6
    peel V17 over (V16 $m $outs $c) skipping skip2_5
    peel V16 over (V15 $m $outs $c) skipping skip2_4
    peel V15 over (V14 $m $outs $c) skipping skip2_3
    peel V14 over (V13 $m $outs $c) skipping skip2_2
    peel V13 over (V12 $m $outs $c) skipping skip2_1
    peel V12 over (V11 $m $outs $c) skipping skip2
    peelR V11
    peel V10 over (V9 $m $outs $c) skipping skip1_8
    peel V9 over (V8 $m $outs $c) skipping skip1_7
    peel V8 over (V7 $m $outs $c) skipping skip1_6
    peel V7 over (V6 $m $outs $c) skipping skip1_5
    peel V6 over (V5 $m $outs $c) skipping skip1_4
    peel V5 over (V4 $m $outs $c) skipping skip1_3
    peel V4 over (V3 $m $outs $c) skipping skip1_2
    peel V3 over (V2 $m $outs $c) skipping skip1_1
    peel V2 over (V1 $m $outs $c) skipping skip1
    peelR V1))

/-! ## The four results -/

/-- The move loss of the two finer meshes: each the mean squared displacement of the vertices, weighted. -/
def moveTerm (a5 a2 : Vec F S8x618x3 .f32) (a6 a3 : Vec F S8x2466x3 .f32) : Vec F S_ .f32 :=
  addf (addf (constant S_ .f32 0x00000000#32) (mulf (mulf (constant S_ .f32 0x3F800000#32) (Host.divf (Host.reduceAdd (mulf (subf a5 a2) (subf a5 a2)) (constant S_ .f32 0x00000000#32) reducesTo_S8x618x3_S_d0_1_2 h_S_) (constant S_ .f32 0x4667C000#32))) (constant S_ .f32 0x40400000#32))) (mulf (mulf (constant S_ .f32 0x3F800000#32) (Host.divf (Host.reduceAdd (mulf (subf a6 a3) (subf a6 a3)) (constant S_ .f32 0x00000000#32) reducesTo_S8x2466x3_S_d0_1_2 h_S_) (constant S_ .f32 0x47673000#32))) (constant S_ .f32 0x40400000#32))

set_option maxRecDepth 8192 in
set_option maxHeartbeats 8000000 in
/-- The move loss at the end. -/
theorem v262_eq (c : Dev nD) :
    V30 m outs c main_v262 = moveTerm (m ((c : Thread nD τ).loc main_arg5)) (m ((c : Thread nD τ).loc main_arg2)) (m ((c : Thread nD τ).loc main_arg6)) (m ((c : Thread nD τ).loc main_arg3)) := by
  peel_all m outs c
  unfold moveTerm
  rfl

/-- The chamfer loss over the three passes: for each, the mean of the ground-truth points' least squared distances plus a
    weighted mean of the mesh vertices' — the two reductions of the pass read off the arrays the pass's region leaves
    (each reshaped to drop its unit axis). -/
def chamTerm (o0 : Vec F S8x10000x1 .f32) (o1 : Vec F S8x156x1 .f32) (o2 : Vec F S8x10000x1 .f32) (o3 : Vec F S8x618x1 .f32)
    (o4 : Vec F S8x10000x1 .f32) (o5 : Vec F S8x2466x1 .f32) : Vec F S_ .f32 :=
  addf (addf (addf (addf (addf (addf (constant S_ .f32 0x00000000#32) (Host.divf (Host.reduceAdd (shapeCast _ o0 shapeCasts_S8x10000x1_S8x10000) (constant S_ .f32 0x00000000#32) reducesTo_S8x10000_S_d0_1 h_S_) (constant S_ .f32 0x479C4000#32))) (mulf (constant S_ .f32 0x3F0CCCCD#32) (Host.divf (Host.reduceAdd (shapeCast _ o1 shapeCasts_S8x156x1_S8x156) (constant S_ .f32 0x00000000#32) reducesTo_S8x156_S_d0_1 h_S_) (constant S_ .f32 0x449C0000#32)))) (Host.divf (Host.reduceAdd (shapeCast _ o2 shapeCasts_S8x10000x1_S8x10000) (constant S_ .f32 0x00000000#32) reducesTo_S8x10000_S_d0_1 h_S_) (constant S_ .f32 0x479C4000#32))) (mulf (constant S_ .f32 0x3F0CCCCD#32) (Host.divf (Host.reduceAdd (shapeCast _ o3 shapeCasts_S8x618x1_S8x618) (constant S_ .f32 0x00000000#32) reducesTo_S8x618_S_d0_1 h_S_) (constant S_ .f32 0x459A8000#32)))) (Host.divf (Host.reduceAdd (shapeCast _ o4 shapeCasts_S8x10000x1_S8x10000) (constant S_ .f32 0x00000000#32) reducesTo_S8x10000_S_d0_1 h_S_) (constant S_ .f32 0x479C4000#32))) (mulf (constant S_ .f32 0x3F0CCCCD#32) (Host.divf (Host.reduceAdd (shapeCast _ o5 shapeCasts_S8x2466x1_S8x2466) (constant S_ .f32 0x00000000#32) reducesTo_S8x2466_S_d0_1 h_S_) (constant S_ .f32 0x469A2000#32)))

set_option maxRecDepth 8192 in
set_option maxHeartbeats 8000000 in
/-- The chamfer loss at the end, over what the three regions leave in their six output arrays. -/
theorem v182_eq (c : Dev nD) :
    V30 m outs c main_v182 = chamTerm (outs 1 main_v0_0 c) (outs 1 main_v0_1 c) (outs 11 main_v83_0 c) (outs 11 main_v83_1 c) (outs 21 main_v173_0 c) (outs 21 main_v173_1 c) := by
  peel_all m outs c
  unfold chamTerm
  rfl

set_option maxRecDepth 8192 in
/-- The edge-length loss of the three meshes: for each, the mean over batches, edges and coordinates of the squared
    difference of an edge's two end vertices (gathered by the edge table's two columns, a negative index wrapped), weighted. -/
def edgeTerm (a1 : Vec F S8x156x3 .f32) (a2 : Vec F S8x618x3 .f32) (a3 : Vec F S8x2466x3 .f32)
    (a13 : Vec F S462x2 .i32) (a14 : Vec F S1848x2 .i32) (a15 : Vec F S7392x2 .i32) : Vec F S_ .f32 :=
  addf (addf (addf (constant S_ .f32 0x00000000#32) (mulf (Host.divf (Host.reduceAdd (mulf (subf (Host.gather gather_S8x156x3_S462x1_S8x462x3_02_1_n_n_1_1_813 a1 (broadcastInDim S462x1 ![0] bcast_S462_S462x1_0 (select (cmpi .slt (shapeCast _ (extractStridedSlice S462x1 ![0, 0] a13 slices_S462x2_S462x1_0_0) shapeCasts_S462x1_S462) (broadcastInDim S462 ![] bcast_S_S462 (constantI S_ 32 0#32))) (addi (shapeCast _ (extractStridedSlice S462x1 ![0, 0] a13 slices_S462x2_S462x1_0_0) shapeCasts_S462x1_S462) (broadcastInDim S462 ![] bcast_S_S462 (constantI S_ 32 156#32))) (shapeCast _ (extractStridedSlice S462x1 ![0, 0] a13 slices_S462x2_S462x1_0_0) shapeCasts_S462x1_S462)))) (Host.gather gather_S8x156x3_S462x1_S8x462x3_02_1_n_n_1_1_813 a1 (broadcastInDim S462x1 ![0] bcast_S462_S462x1_0 (select (cmpi .slt (shapeCast _ (extractStridedSlice S462x1 ![0, 1] a13 slices_S462x2_S462x1_0_1) shapeCasts_S462x1_S462) (broadcastInDim S462 ![] bcast_S_S462 (constantI S_ 32 0#32))) (addi (shapeCast _ (extractStridedSlice S462x1 ![0, 1] a13 slices_S462x2_S462x1_0_1) shapeCasts_S462x1_S462) (broadcastInDim S462 ![] bcast_S_S462 (constantI S_ 32 156#32))) (shapeCast _ (extractStridedSlice S462x1 ![0, 1] a13 slices_S462x2_S462x1_0_1) shapeCasts_S462x1_S462))))) (subf (Host.gather gather_S8x156x3_S462x1_S8x462x3_02_1_n_n_1_1_813 a1 (broadcastInDim S462x1 ![0] bcast_S462_S462x1_0 (select (cmpi .slt (shapeCast _ (extractStridedSlice S462x1 ![0, 0] a13 slices_S462x2_S462x1_0_0) shapeCasts_S462x1_S462) (broadcastInDim S462 ![] bcast_S_S462 (constantI S_ 32 0#32))) (addi (shapeCast _ (extractStridedSlice S462x1 ![0, 0] a13 slices_S462x2_S462x1_0_0) shapeCasts_S462x1_S462) (broadcastInDim S462 ![] bcast_S_S462 (constantI S_ 32 156#32))) (shapeCast _ (extractStridedSlice S462x1 ![0, 0] a13 slices_S462x2_S462x1_0_0) shapeCasts_S462x1_S462)))) (Host.gather gather_S8x156x3_S462x1_S8x462x3_02_1_n_n_1_1_813 a1 (broadcastInDim S462x1 ![0] bcast_S462_S462x1_0 (select (cmpi .slt (shapeCast _ (extractStridedSlice S462x1 ![0, 1] a13 slices_S462x2_S462x1_0_1) shapeCasts_S462x1_S462) (broadcastInDim S462 ![] bcast_S_S462 (constantI S_ 32 0#32))) (addi (shapeCast _ (extractStridedSlice S462x1 ![0, 1] a13 slices_S462x2_S462x1_0_1) shapeCasts_S462x1_S462) (broadcastInDim S462 ![] bcast_S_S462 (constantI S_ 32 156#32))) (shapeCast _ (extractStridedSlice S462x1 ![0, 1] a13 slices_S462x2_S462x1_0_1) shapeCasts_S462x1_S462)))))) (constant S_ .f32 0x00000000#32) reducesTo_S8x462x3_S_d0_1_2 h_S_) (constant S_ .f32 0x462D4000#32)) (constant S_ .f32 0x40400000#32))) (mulf (Host.divf (Host.reduceAdd (mulf (subf (Host.gather gather_S8x618x3_S1848x1_S8x1848x3_02_1_n_n_1_1_813 a2 (broadcastInDim S1848x1 ![0] bcast_S1848_S1848x1_0 (select (cmpi .slt (shapeCast _ (extractStridedSlice S1848x1 ![0, 0] a14 slices_S1848x2_S1848x1_0_0) shapeCasts_S1848x1_S1848) (broadcastInDim S1848 ![] bcast_S_S1848 (constantI S_ 32 0#32))) (addi (shapeCast _ (extractStridedSlice S1848x1 ![0, 0] a14 slices_S1848x2_S1848x1_0_0) shapeCasts_S1848x1_S1848) (broadcastInDim S1848 ![] bcast_S_S1848 (constantI S_ 32 618#32))) (shapeCast _ (extractStridedSlice S1848x1 ![0, 0] a14 slices_S1848x2_S1848x1_0_0) shapeCasts_S1848x1_S1848)))) (Host.gather gather_S8x618x3_S1848x1_S8x1848x3_02_1_n_n_1_1_813 a2 (broadcastInDim S1848x1 ![0] bcast_S1848_S1848x1_0 (select (cmpi .slt (shapeCast _ (extractStridedSlice S1848x1 ![0, 1] a14 slices_S1848x2_S1848x1_0_1) shapeCasts_S1848x1_S1848) (broadcastInDim S1848 ![] bcast_S_S1848 (constantI S_ 32 0#32))) (addi (shapeCast _ (extractStridedSlice S1848x1 ![0, 1] a14 slices_S1848x2_S1848x1_0_1) shapeCasts_S1848x1_S1848) (broadcastInDim S1848 ![] bcast_S_S1848 (constantI S_ 32 618#32))) (shapeCast _ (extractStridedSlice S1848x1 ![0, 1] a14 slices_S1848x2_S1848x1_0_1) shapeCasts_S1848x1_S1848))))) (subf (Host.gather gather_S8x618x3_S1848x1_S8x1848x3_02_1_n_n_1_1_813 a2 (broadcastInDim S1848x1 ![0] bcast_S1848_S1848x1_0 (select (cmpi .slt (shapeCast _ (extractStridedSlice S1848x1 ![0, 0] a14 slices_S1848x2_S1848x1_0_0) shapeCasts_S1848x1_S1848) (broadcastInDim S1848 ![] bcast_S_S1848 (constantI S_ 32 0#32))) (addi (shapeCast _ (extractStridedSlice S1848x1 ![0, 0] a14 slices_S1848x2_S1848x1_0_0) shapeCasts_S1848x1_S1848) (broadcastInDim S1848 ![] bcast_S_S1848 (constantI S_ 32 618#32))) (shapeCast _ (extractStridedSlice S1848x1 ![0, 0] a14 slices_S1848x2_S1848x1_0_0) shapeCasts_S1848x1_S1848)))) (Host.gather gather_S8x618x3_S1848x1_S8x1848x3_02_1_n_n_1_1_813 a2 (broadcastInDim S1848x1 ![0] bcast_S1848_S1848x1_0 (select (cmpi .slt (shapeCast _ (extractStridedSlice S1848x1 ![0, 1] a14 slices_S1848x2_S1848x1_0_1) shapeCasts_S1848x1_S1848) (broadcastInDim S1848 ![] bcast_S_S1848 (constantI S_ 32 0#32))) (addi (shapeCast _ (extractStridedSlice S1848x1 ![0, 1] a14 slices_S1848x2_S1848x1_0_1) shapeCasts_S1848x1_S1848) (broadcastInDim S1848 ![] bcast_S_S1848 (constantI S_ 32 618#32))) (shapeCast _ (extractStridedSlice S1848x1 ![0, 1] a14 slices_S1848x2_S1848x1_0_1) shapeCasts_S1848x1_S1848)))))) (constant S_ .f32 0x00000000#32) reducesTo_S8x1848x3_S_d0_1_2 h_S_) (constant S_ .f32 0x472D4000#32)) (constant S_ .f32 0x40400000#32))) (mulf (Host.divf (Host.reduceAdd (mulf (subf (Host.gather gather_S8x2466x3_S7392x1_S8x7392x3_02_1_n_n_1_1_813 a3 (broadcastInDim S7392x1 ![0] bcast_S7392_S7392x1_0 (select (cmpi .slt (shapeCast _ (extractStridedSlice S7392x1 ![0, 0] a15 slices_S7392x2_S7392x1_0_0) shapeCasts_S7392x1_S7392) (broadcastInDim S7392 ![] bcast_S_S7392 (constantI S_ 32 0#32))) (addi (shapeCast _ (extractStridedSlice S7392x1 ![0, 0] a15 slices_S7392x2_S7392x1_0_0) shapeCasts_S7392x1_S7392) (broadcastInDim S7392 ![] bcast_S_S7392 (constantI S_ 32 2466#32))) (shapeCast _ (extractStridedSlice S7392x1 ![0, 0] a15 slices_S7392x2_S7392x1_0_0) shapeCasts_S7392x1_S7392)))) (Host.gather gather_S8x2466x3_S7392x1_S8x7392x3_02_1_n_n_1_1_813 a3 (broadcastInDim S7392x1 ![0] bcast_S7392_S7392x1_0 (select (cmpi .slt (shapeCast _ (extractStridedSlice S7392x1 ![0, 1] a15 slices_S7392x2_S7392x1_0_1) shapeCasts_S7392x1_S7392) (broadcastInDim S7392 ![] bcast_S_S7392 (constantI S_ 32 0#32))) (addi (shapeCast _ (extractStridedSlice S7392x1 ![0, 1] a15 slices_S7392x2_S7392x1_0_1) shapeCasts_S7392x1_S7392) (broadcastInDim S7392 ![] bcast_S_S7392 (constantI S_ 32 2466#32))) (shapeCast _ (extractStridedSlice S7392x1 ![0, 1] a15 slices_S7392x2_S7392x1_0_1) shapeCasts_S7392x1_S7392))))) (subf (Host.gather gather_S8x2466x3_S7392x1_S8x7392x3_02_1_n_n_1_1_813 a3 (broadcastInDim S7392x1 ![0] bcast_S7392_S7392x1_0 (select (cmpi .slt (shapeCast _ (extractStridedSlice S7392x1 ![0, 0] a15 slices_S7392x2_S7392x1_0_0) shapeCasts_S7392x1_S7392) (broadcastInDim S7392 ![] bcast_S_S7392 (constantI S_ 32 0#32))) (addi (shapeCast _ (extractStridedSlice S7392x1 ![0, 0] a15 slices_S7392x2_S7392x1_0_0) shapeCasts_S7392x1_S7392) (broadcastInDim S7392 ![] bcast_S_S7392 (constantI S_ 32 2466#32))) (shapeCast _ (extractStridedSlice S7392x1 ![0, 0] a15 slices_S7392x2_S7392x1_0_0) shapeCasts_S7392x1_S7392)))) (Host.gather gather_S8x2466x3_S7392x1_S8x7392x3_02_1_n_n_1_1_813 a3 (broadcastInDim S7392x1 ![0] bcast_S7392_S7392x1_0 (select (cmpi .slt (shapeCast _ (extractStridedSlice S7392x1 ![0, 1] a15 slices_S7392x2_S7392x1_0_1) shapeCasts_S7392x1_S7392) (broadcastInDim S7392 ![] bcast_S_S7392 (constantI S_ 32 0#32))) (addi (shapeCast _ (extractStridedSlice S7392x1 ![0, 1] a15 slices_S7392x2_S7392x1_0_1) shapeCasts_S7392x1_S7392) (broadcastInDim S7392 ![] bcast_S_S7392 (constantI S_ 32 2466#32))) (shapeCast _ (extractStridedSlice S7392x1 ![0, 1] a15 slices_S7392x2_S7392x1_0_1) shapeCasts_S7392x1_S7392)))))) (constant S_ .f32 0x00000000#32) reducesTo_S8x7392x3_S_d0_1_2 h_S_) (constant S_ .f32 0x482D4000#32)) (constant S_ .f32 0x40400000#32))

set_option maxRecDepth 8192 in
set_option maxHeartbeats 16000000 in
/-- The edge-length loss at the end. -/
theorem v206_eq (c : Dev nD) :
    V30 m outs c main_v206 = edgeTerm (m ((c : Thread nD τ).loc main_arg1)) (m ((c : Thread nD τ).loc main_arg2)) (m ((c : Thread nD τ).loc main_arg3)) (m ((c : Thread nD τ).loc main_arg13)) (m ((c : Thread nD τ).loc main_arg14)) (m ((c : Thread nD τ).loc main_arg15)) := by
  peel_all m outs c
  unfold edgeTerm
  rfl

set_option maxRecDepth 8192 in
/-- The laplacian loss of the three meshes: for each, a vertex's laplacian coordinate is the vertex minus the mean of its
    neighbours (gathered by the first eight columns of the neighbour table, absent neighbours — negative entries — left out,
    the count in the table's last column); the loss is the weighted mean squared difference of the laplacian coordinates
    before and after the deformation. -/
def lapTerm (a1 a4 : Vec F S8x156x3 .f32) (a2 a5 : Vec F S8x618x3 .f32) (a3 a6 : Vec F S8x2466x3 .f32)
    (a10 : Vec F S156x10 .i32) (a11 : Vec F S618x10 .i32) (a12 : Vec F S2466x10 .i32) : Vec F S_ .f32 :=
  addf (addf (addf (constant S_ .f32 0x00000000#32) (mulf (mulf (constant S_ .f32 0x3E4CCCCD#32) (Host.divf (Host.reduceAdd (mulf (subf (subf a4 (Host.divf (Host.reduceAdd (select (broadcastInDim S8x156x8x3 ![0, 1, 2, 3] bcast_S1x156x8x1_S8x156x8x3_0_1_2_3 (broadcastInDim S1x156x8x1 ![1, 2] bcast_S156x8_S1x156x8x1_1_2 (cmpi .sge (extractStridedSlice S156x8 ![0, 0] a10 slices_S156x10_S156x8_0_0) (broadcastInDim S156x8 ![] bcast_S_S156x8 (constantI S_ 32 0#32))))) (Host.gather gather_S8x156x3_S156x8x1_S8x156x8x3_03_1_n_n_1_2_813 a4 (broadcastInDim S156x8x1 ![0, 1] bcast_S156x8_S156x8x1_0_1 (select (cmpi .slt (select (cmpi .sge (extractStridedSlice S156x8 ![0, 0] a10 slices_S156x10_S156x8_0_0) (broadcastInDim S156x8 ![] bcast_S_S156x8 (constantI S_ 32 0#32))) (extractStridedSlice S156x8 ![0, 0] a10 slices_S156x10_S156x8_0_0) (broadcastInDim S156x8 ![] bcast_S_S156x8 (id (constantI S_ 32 0#32)))) (broadcastInDim S156x8 ![] bcast_S_S156x8 (constantI S_ 32 0#32))) (addi (select (cmpi .sge (extractStridedSlice S156x8 ![0, 0] a10 slices_S156x10_S156x8_0_0) (broadcastInDim S156x8 ![] bcast_S_S156x8 (constantI S_ 32 0#32))) (extractStridedSlice S156x8 ![0, 0] a10 slices_S156x10_S156x8_0_0) (broadcastInDim S156x8 ![] bcast_S_S156x8 (id (constantI S_ 32 0#32)))) (broadcastInDim S156x8 ![] bcast_S_S156x8 (constantI S_ 32 156#32))) (select (cmpi .sge (extractStridedSlice S156x8 ![0, 0] a10 slices_S156x10_S156x8_0_0) (broadcastInDim S156x8 ![] bcast_S_S156x8 (constantI S_ 32 0#32))) (extractStridedSlice S156x8 ![0, 0] a10 slices_S156x10_S156x8_0_0) (broadcastInDim S156x8 ![] bcast_S_S156x8 (id (constantI S_ 32 0#32))))))) (broadcastInDim S8x156x8x3 ![] bcast_S_S8x156x8x3 (constant S_ .f32 0x00000000#32))) (constant S_ .f32 0x00000000#32) reducesTo_S8x156x8x3_S8x156x3_d2 h_S_) (broadcastInDim S8x156x3 ![0, 1, 2] bcast_S1x156x1_S8x156x3_0_1_2 (broadcastInDim S1x156x1 ![1] bcast_S156_S1x156x1_1 (sitofp .f32 (shapeCast _ (extractStridedSlice S156x1 ![0, 9] a10 slices_S156x10_S156x1_0_9) shapeCasts_S156x1_S156)))))) (subf a1 (Host.divf (Host.reduceAdd (select (broadcastInDim S8x156x8x3 ![0, 1, 2, 3] bcast_S1x156x8x1_S8x156x8x3_0_1_2_3 (broadcastInDim S1x156x8x1 ![1, 2] bcast_S156x8_S1x156x8x1_1_2 (cmpi .sge (extractStridedSlice S156x8 ![0, 0] a10 slices_S156x10_S156x8_0_0) (broadcastInDim S156x8 ![] bcast_S_S156x8 (constantI S_ 32 0#32))))) (Host.gather gather_S8x156x3_S156x8x1_S8x156x8x3_03_1_n_n_1_2_813 a1 (broadcastInDim S156x8x1 ![0, 1] bcast_S156x8_S156x8x1_0_1 (select (cmpi .slt (select (cmpi .sge (extractStridedSlice S156x8 ![0, 0] a10 slices_S156x10_S156x8_0_0) (broadcastInDim S156x8 ![] bcast_S_S156x8 (constantI S_ 32 0#32))) (extractStridedSlice S156x8 ![0, 0] a10 slices_S156x10_S156x8_0_0) (broadcastInDim S156x8 ![] bcast_S_S156x8 (id (constantI S_ 32 0#32)))) (broadcastInDim S156x8 ![] bcast_S_S156x8 (constantI S_ 32 0#32))) (addi (select (cmpi .sge (extractStridedSlice S156x8 ![0, 0] a10 slices_S156x10_S156x8_0_0) (broadcastInDim S156x8 ![] bcast_S_S156x8 (constantI S_ 32 0#32))) (extractStridedSlice S156x8 ![0, 0] a10 slices_S156x10_S156x8_0_0) (broadcastInDim S156x8 ![] bcast_S_S156x8 (id (constantI S_ 32 0#32)))) (broadcastInDim S156x8 ![] bcast_S_S156x8 (constantI S_ 32 156#32))) (select (cmpi .sge (extractStridedSlice S156x8 ![0, 0] a10 slices_S156x10_S156x8_0_0) (broadcastInDim S156x8 ![] bcast_S_S156x8 (constantI S_ 32 0#32))) (extractStridedSlice S156x8 ![0, 0] a10 slices_S156x10_S156x8_0_0) (broadcastInDim S156x8 ![] bcast_S_S156x8 (id (constantI S_ 32 0#32))))))) (broadcastInDim S8x156x8x3 ![] bcast_S_S8x156x8x3 (constant S_ .f32 0x00000000#32))) (constant S_ .f32 0x00000000#32) reducesTo_S8x156x8x3_S8x156x3_d2 h_S_) (broadcastInDim S8x156x3 ![0, 1, 2] bcast_S1x156x1_S8x156x3_0_1_2 (broadcastInDim S1x156x1 ![1] bcast_S156_S1x156x1_1 (sitofp .f32 (shapeCast _ (extractStridedSlice S156x1 ![0, 9] a10 slices_S156x10_S156x1_0_9) shapeCasts_S156x1_S156))))))) (subf (subf a4 (Host.divf (Host.reduceAdd (select (broadcastInDim S8x156x8x3 ![0, 1, 2, 3] bcast_S1x156x8x1_S8x156x8x3_0_1_2_3 (broadcastInDim S1x156x8x1 ![1, 2] bcast_S156x8_S1x156x8x1_1_2 (cmpi .sge (extractStridedSlice S156x8 ![0, 0] a10 slices_S156x10_S156x8_0_0) (broadcastInDim S156x8 ![] bcast_S_S156x8 (constantI S_ 32 0#32))))) (Host.gather gather_S8x156x3_S156x8x1_S8x156x8x3_03_1_n_n_1_2_813 a4 (broadcastInDim S156x8x1 ![0, 1] bcast_S156x8_S156x8x1_0_1 (select (cmpi .slt (select (cmpi .sge (extractStridedSlice S156x8 ![0, 0] a10 slices_S156x10_S156x8_0_0) (broadcastInDim S156x8 ![] bcast_S_S156x8 (constantI S_ 32 0#32))) (extractStridedSlice S156x8 ![0, 0] a10 slices_S156x10_S156x8_0_0) (broadcastInDim S156x8 ![] bcast_S_S156x8 (id (constantI S_ 32 0#32)))) (broadcastInDim S156x8 ![] bcast_S_S156x8 (constantI S_ 32 0#32))) (addi (select (cmpi .sge (extractStridedSlice S156x8 ![0, 0] a10 slices_S156x10_S156x8_0_0) (broadcastInDim S156x8 ![] bcast_S_S156x8 (constantI S_ 32 0#32))) (extractStridedSlice S156x8 ![0, 0] a10 slices_S156x10_S156x8_0_0) (broadcastInDim S156x8 ![] bcast_S_S156x8 (id (constantI S_ 32 0#32)))) (broadcastInDim S156x8 ![] bcast_S_S156x8 (constantI S_ 32 156#32))) (select (cmpi .sge (extractStridedSlice S156x8 ![0, 0] a10 slices_S156x10_S156x8_0_0) (broadcastInDim S156x8 ![] bcast_S_S156x8 (constantI S_ 32 0#32))) (extractStridedSlice S156x8 ![0, 0] a10 slices_S156x10_S156x8_0_0) (broadcastInDim S156x8 ![] bcast_S_S156x8 (id (constantI S_ 32 0#32))))))) (broadcastInDim S8x156x8x3 ![] bcast_S_S8x156x8x3 (constant S_ .f32 0x00000000#32))) (constant S_ .f32 0x00000000#32) reducesTo_S8x156x8x3_S8x156x3_d2 h_S_) (broadcastInDim S8x156x3 ![0, 1, 2] bcast_S1x156x1_S8x156x3_0_1_2 (broadcastInDim S1x156x1 ![1] bcast_S156_S1x156x1_1 (sitofp .f32 (shapeCast _ (extractStridedSlice S156x1 ![0, 9] a10 slices_S156x10_S156x1_0_9) shapeCasts_S156x1_S156)))))) (subf a1 (Host.divf (Host.reduceAdd (select (broadcastInDim S8x156x8x3 ![0, 1, 2, 3] bcast_S1x156x8x1_S8x156x8x3_0_1_2_3 (broadcastInDim S1x156x8x1 ![1, 2] bcast_S156x8_S1x156x8x1_1_2 (cmpi .sge (extractStridedSlice S156x8 ![0, 0] a10 slices_S156x10_S156x8_0_0) (broadcastInDim S156x8 ![] bcast_S_S156x8 (constantI S_ 32 0#32))))) (Host.gather gather_S8x156x3_S156x8x1_S8x156x8x3_03_1_n_n_1_2_813 a1 (broadcastInDim S156x8x1 ![0, 1] bcast_S156x8_S156x8x1_0_1 (select (cmpi .slt (select (cmpi .sge (extractStridedSlice S156x8 ![0, 0] a10 slices_S156x10_S156x8_0_0) (broadcastInDim S156x8 ![] bcast_S_S156x8 (constantI S_ 32 0#32))) (extractStridedSlice S156x8 ![0, 0] a10 slices_S156x10_S156x8_0_0) (broadcastInDim S156x8 ![] bcast_S_S156x8 (id (constantI S_ 32 0#32)))) (broadcastInDim S156x8 ![] bcast_S_S156x8 (constantI S_ 32 0#32))) (addi (select (cmpi .sge (extractStridedSlice S156x8 ![0, 0] a10 slices_S156x10_S156x8_0_0) (broadcastInDim S156x8 ![] bcast_S_S156x8 (constantI S_ 32 0#32))) (extractStridedSlice S156x8 ![0, 0] a10 slices_S156x10_S156x8_0_0) (broadcastInDim S156x8 ![] bcast_S_S156x8 (id (constantI S_ 32 0#32)))) (broadcastInDim S156x8 ![] bcast_S_S156x8 (constantI S_ 32 156#32))) (select (cmpi .sge (extractStridedSlice S156x8 ![0, 0] a10 slices_S156x10_S156x8_0_0) (broadcastInDim S156x8 ![] bcast_S_S156x8 (constantI S_ 32 0#32))) (extractStridedSlice S156x8 ![0, 0] a10 slices_S156x10_S156x8_0_0) (broadcastInDim S156x8 ![] bcast_S_S156x8 (id (constantI S_ 32 0#32))))))) (broadcastInDim S8x156x8x3 ![] bcast_S_S8x156x8x3 (constant S_ .f32 0x00000000#32))) (constant S_ .f32 0x00000000#32) reducesTo_S8x156x8x3_S8x156x3_d2 h_S_) (broadcastInDim S8x156x3 ![0, 1, 2] bcast_S1x156x1_S8x156x3_0_1_2 (broadcastInDim S1x156x1 ![1] bcast_S156_S1x156x1_1 (sitofp .f32 (shapeCast _ (extractStridedSlice S156x1 ![0, 9] a10 slices_S156x10_S156x1_0_9) shapeCasts_S156x1_S156)))))))) (constant S_ .f32 0x00000000#32) reducesTo_S8x156x3_S_d0_1_2 h_S_) (constant S_ .f32 0x456A0000#32))) (constant S_ .f32 0x40400000#32))) (mulf (mulf (constant S_ .f32 0x3F800000#32) (Host.divf (Host.reduceAdd (mulf (subf (subf a5 (Host.divf (Host.reduceAdd (select (broadcastInDim S8x618x8x3 ![0, 1, 2, 3] bcast_S1x618x8x1_S8x618x8x3_0_1_2_3 (broadcastInDim S1x618x8x1 ![1, 2] bcast_S618x8_S1x618x8x1_1_2 (cmpi .sge (extractStridedSlice S618x8 ![0, 0] a11 slices_S618x10_S618x8_0_0) (broadcastInDim S618x8 ![] bcast_S_S618x8 (constantI S_ 32 0#32))))) (Host.gather gather_S8x618x3_S618x8x1_S8x618x8x3_03_1_n_n_1_2_813 a5 (broadcastInDim S618x8x1 ![0, 1] bcast_S618x8_S618x8x1_0_1 (select (cmpi .slt (select (cmpi .sge (extractStridedSlice S618x8 ![0, 0] a11 slices_S618x10_S618x8_0_0) (broadcastInDim S618x8 ![] bcast_S_S618x8 (constantI S_ 32 0#32))) (extractStridedSlice S618x8 ![0, 0] a11 slices_S618x10_S618x8_0_0) (broadcastInDim S618x8 ![] bcast_S_S618x8 (id (constantI S_ 32 0#32)))) (broadcastInDim S618x8 ![] bcast_S_S618x8 (constantI S_ 32 0#32))) (addi (select (cmpi .sge (extractStridedSlice S618x8 ![0, 0] a11 slices_S618x10_S618x8_0_0) (broadcastInDim S618x8 ![] bcast_S_S618x8 (constantI S_ 32 0#32))) (extractStridedSlice S618x8 ![0, 0] a11 slices_S618x10_S618x8_0_0) (broadcastInDim S618x8 ![] bcast_S_S618x8 (id (constantI S_ 32 0#32)))) (broadcastInDim S618x8 ![] bcast_S_S618x8 (constantI S_ 32 618#32))) (select (cmpi .sge (extractStridedSlice S618x8 ![0, 0] a11 slices_S618x10_S618x8_0_0) (broadcastInDim S618x8 ![] bcast_S_S618x8 (constantI S_ 32 0#32))) (extractStridedSlice S618x8 ![0, 0] a11 slices_S618x10_S618x8_0_0) (broadcastInDim S618x8 ![] bcast_S_S618x8 (id (constantI S_ 32 0#32))))))) (broadcastInDim S8x618x8x3 ![] bcast_S_S8x618x8x3 (constant S_ .f32 0x00000000#32))) (constant S_ .f32 0x00000000#32) reducesTo_S8x618x8x3_S8x618x3_d2 h_S_) (broadcastInDim S8x618x3 ![0, 1, 2] bcast_S1x618x1_S8x618x3_0_1_2 (broadcastInDim S1x618x1 ![1] bcast_S618_S1x618x1_1 (sitofp .f32 (shapeCast _ (extractStridedSlice S618x1 ![0, 9] a11 slices_S618x10_S618x1_0_9) shapeCasts_S618x1_S618)))))) (subf a2 (Host.divf (Host.reduceAdd (select (broadcastInDim S8x618x8x3 ![0, 1, 2, 3] bcast_S1x618x8x1_S8x618x8x3_0_1_2_3 (broadcastInDim S1x618x8x1 ![1, 2] bcast_S618x8_S1x618x8x1_1_2 (cmpi .sge (extractStridedSlice S618x8 ![0, 0] a11 slices_S618x10_S618x8_0_0) (broadcastInDim S618x8 ![] bcast_S_S618x8 (constantI S_ 32 0#32))))) (Host.gather gather_S8x618x3_S618x8x1_S8x618x8x3_03_1_n_n_1_2_813 a2 (broadcastInDim S618x8x1 ![0, 1] bcast_S618x8_S618x8x1_0_1 (select (cmpi .slt (select (cmpi .sge (extractStridedSlice S618x8 ![0, 0] a11 slices_S618x10_S618x8_0_0) (broadcastInDim S618x8 ![] bcast_S_S618x8 (constantI S_ 32 0#32))) (extractStridedSlice S618x8 ![0, 0] a11 slices_S618x10_S618x8_0_0) (broadcastInDim S618x8 ![] bcast_S_S618x8 (id (constantI S_ 32 0#32)))) (broadcastInDim S618x8 ![] bcast_S_S618x8 (constantI S_ 32 0#32))) (addi (select (cmpi .sge (extractStridedSlice S618x8 ![0, 0] a11 slices_S618x10_S618x8_0_0) (broadcastInDim S618x8 ![] bcast_S_S618x8 (constantI S_ 32 0#32))) (extractStridedSlice S618x8 ![0, 0] a11 slices_S618x10_S618x8_0_0) (broadcastInDim S618x8 ![] bcast_S_S618x8 (id (constantI S_ 32 0#32)))) (broadcastInDim S618x8 ![] bcast_S_S618x8 (constantI S_ 32 618#32))) (select (cmpi .sge (extractStridedSlice S618x8 ![0, 0] a11 slices_S618x10_S618x8_0_0) (broadcastInDim S618x8 ![] bcast_S_S618x8 (constantI S_ 32 0#32))) (extractStridedSlice S618x8 ![0, 0] a11 slices_S618x10_S618x8_0_0) (broadcastInDim S618x8 ![] bcast_S_S618x8 (id (constantI S_ 32 0#32))))))) (broadcastInDim S8x618x8x3 ![] bcast_S_S8x618x8x3 (constant S_ .f32 0x00000000#32))) (constant S_ .f32 0x00000000#32) reducesTo_S8x618x8x3_S8x618x3_d2 h_S_) (broadcastInDim S8x618x3 ![0, 1, 2] bcast_S1x618x1_S8x618x3_0_1_2 (broadcastInDim S1x618x1 ![1] bcast_S618_S1x618x1_1 (sitofp .f32 (shapeCast _ (extractStridedSlice S618x1 ![0, 9] a11 slices_S618x10_S618x1_0_9) shapeCasts_S618x1_S618))))))) (subf (subf a5 (Host.divf (Host.reduceAdd (select (broadcastInDim S8x618x8x3 ![0, 1, 2, 3] bcast_S1x618x8x1_S8x618x8x3_0_1_2_3 (broadcastInDim S1x618x8x1 ![1, 2] bcast_S618x8_S1x618x8x1_1_2 (cmpi .sge (extractStridedSlice S618x8 ![0, 0] a11 slices_S618x10_S618x8_0_0) (broadcastInDim S618x8 ![] bcast_S_S618x8 (constantI S_ 32 0#32))))) (Host.gather gather_S8x618x3_S618x8x1_S8x618x8x3_03_1_n_n_1_2_813 a5 (broadcastInDim S618x8x1 ![0, 1] bcast_S618x8_S618x8x1_0_1 (select (cmpi .slt (select (cmpi .sge (extractStridedSlice S618x8 ![0, 0] a11 slices_S618x10_S618x8_0_0) (broadcastInDim S618x8 ![] bcast_S_S618x8 (constantI S_ 32 0#32))) (extractStridedSlice S618x8 ![0, 0] a11 slices_S618x10_S618x8_0_0) (broadcastInDim S618x8 ![] bcast_S_S618x8 (id (constantI S_ 32 0#32)))) (broadcastInDim S618x8 ![] bcast_S_S618x8 (constantI S_ 32 0#32))) (addi (select (cmpi .sge (extractStridedSlice S618x8 ![0, 0] a11 slices_S618x10_S618x8_0_0) (broadcastInDim S618x8 ![] bcast_S_S618x8 (constantI S_ 32 0#32))) (extractStridedSlice S618x8 ![0, 0] a11 slices_S618x10_S618x8_0_0) (broadcastInDim S618x8 ![] bcast_S_S618x8 (id (constantI S_ 32 0#32)))) (broadcastInDim S618x8 ![] bcast_S_S618x8 (constantI S_ 32 618#32))) (select (cmpi .sge (extractStridedSlice S618x8 ![0, 0] a11 slices_S618x10_S618x8_0_0) (broadcastInDim S618x8 ![] bcast_S_S618x8 (constantI S_ 32 0#32))) (extractStridedSlice S618x8 ![0, 0] a11 slices_S618x10_S618x8_0_0) (broadcastInDim S618x8 ![] bcast_S_S618x8 (id (constantI S_ 32 0#32))))))) (broadcastInDim S8x618x8x3 ![] bcast_S_S8x618x8x3 (constant S_ .f32 0x00000000#32))) (constant S_ .f32 0x00000000#32) reducesTo_S8x618x8x3_S8x618x3_d2 h_S_) (broadcastInDim S8x618x3 ![0, 1, 2] bcast_S1x618x1_S8x618x3_0_1_2 (broadcastInDim S1x618x1 ![1] bcast_S618_S1x618x1_1 (sitofp .f32 (shapeCast _ (extractStridedSlice S618x1 ![0, 9] a11 slices_S618x10_S618x1_0_9) shapeCasts_S618x1_S618)))))) (subf a2 (Host.divf (Host.reduceAdd (select (broadcastInDim S8x618x8x3 ![0, 1, 2, 3] bcast_S1x618x8x1_S8x618x8x3_0_1_2_3 (broadcastInDim S1x618x8x1 ![1, 2] bcast_S618x8_S1x618x8x1_1_2 (cmpi .sge (extractStridedSlice S618x8 ![0, 0] a11 slices_S618x10_S618x8_0_0) (broadcastInDim S618x8 ![] bcast_S_S618x8 (constantI S_ 32 0#32))))) (Host.gather gather_S8x618x3_S618x8x1_S8x618x8x3_03_1_n_n_1_2_813 a2 (broadcastInDim S618x8x1 ![0, 1] bcast_S618x8_S618x8x1_0_1 (select (cmpi .slt (select (cmpi .sge (extractStridedSlice S618x8 ![0, 0] a11 slices_S618x10_S618x8_0_0) (broadcastInDim S618x8 ![] bcast_S_S618x8 (constantI S_ 32 0#32))) (extractStridedSlice S618x8 ![0, 0] a11 slices_S618x10_S618x8_0_0) (broadcastInDim S618x8 ![] bcast_S_S618x8 (id (constantI S_ 32 0#32)))) (broadcastInDim S618x8 ![] bcast_S_S618x8 (constantI S_ 32 0#32))) (addi (select (cmpi .sge (extractStridedSlice S618x8 ![0, 0] a11 slices_S618x10_S618x8_0_0) (broadcastInDim S618x8 ![] bcast_S_S618x8 (constantI S_ 32 0#32))) (extractStridedSlice S618x8 ![0, 0] a11 slices_S618x10_S618x8_0_0) (broadcastInDim S618x8 ![] bcast_S_S618x8 (id (constantI S_ 32 0#32)))) (broadcastInDim S618x8 ![] bcast_S_S618x8 (constantI S_ 32 618#32))) (select (cmpi .sge (extractStridedSlice S618x8 ![0, 0] a11 slices_S618x10_S618x8_0_0) (broadcastInDim S618x8 ![] bcast_S_S618x8 (constantI S_ 32 0#32))) (extractStridedSlice S618x8 ![0, 0] a11 slices_S618x10_S618x8_0_0) (broadcastInDim S618x8 ![] bcast_S_S618x8 (id (constantI S_ 32 0#32))))))) (broadcastInDim S8x618x8x3 ![] bcast_S_S8x618x8x3 (constant S_ .f32 0x00000000#32))) (constant S_ .f32 0x00000000#32) reducesTo_S8x618x8x3_S8x618x3_d2 h_S_) (broadcastInDim S8x618x3 ![0, 1, 2] bcast_S1x618x1_S8x618x3_0_1_2 (broadcastInDim S1x618x1 ![1] bcast_S618_S1x618x1_1 (sitofp .f32 (shapeCast _ (extractStridedSlice S618x1 ![0, 9] a11 slices_S618x10_S618x1_0_9) shapeCasts_S618x1_S618)))))))) (constant S_ .f32 0x00000000#32) reducesTo_S8x618x3_S_d0_1_2 h_S_) (constant S_ .f32 0x4667C000#32))) (constant S_ .f32 0x40400000#32))) (mulf (mulf (constant S_ .f32 0x3F800000#32) (Host.divf (Host.reduceAdd (mulf (subf (subf a6 (Host.divf (Host.reduceAdd (select (broadcastInDim S8x2466x8x3 ![0, 1, 2, 3] bcast_S1x2466x8x1_S8x2466x8x3_0_1_2_3 (broadcastInDim S1x2466x8x1 ![1, 2] bcast_S2466x8_S1x2466x8x1_1_2 (cmpi .sge (extractStridedSlice S2466x8 ![0, 0] a12 slices_S2466x10_S2466x8_0_0) (broadcastInDim S2466x8 ![] bcast_S_S2466x8 (constantI S_ 32 0#32))))) (Host.gather gather_S8x2466x3_S2466x8x1_S8x2466x8x3_03_1_n_n_1_2_813 a6 (broadcastInDim S2466x8x1 ![0, 1] bcast_S2466x8_S2466x8x1_0_1 (select (cmpi .slt (select (cmpi .sge (extractStridedSlice S2466x8 ![0, 0] a12 slices_S2466x10_S2466x8_0_0) (broadcastInDim S2466x8 ![] bcast_S_S2466x8 (constantI S_ 32 0#32))) (extractStridedSlice S2466x8 ![0, 0] a12 slices_S2466x10_S2466x8_0_0) (broadcastInDim S2466x8 ![] bcast_S_S2466x8 (id (constantI S_ 32 0#32)))) (broadcastInDim S2466x8 ![] bcast_S_S2466x8 (constantI S_ 32 0#32))) (addi (select (cmpi .sge (extractStridedSlice S2466x8 ![0, 0] a12 slices_S2466x10_S2466x8_0_0) (broadcastInDim S2466x8 ![] bcast_S_S2466x8 (constantI S_ 32 0#32))) (extractStridedSlice S2466x8 ![0, 0] a12 slices_S2466x10_S2466x8_0_0) (broadcastInDim S2466x8 ![] bcast_S_S2466x8 (id (constantI S_ 32 0#32)))) (broadcastInDim S2466x8 ![] bcast_S_S2466x8 (constantI S_ 32 2466#32))) (select (cmpi .sge (extractStridedSlice S2466x8 ![0, 0] a12 slices_S2466x10_S2466x8_0_0) (broadcastInDim S2466x8 ![] bcast_S_S2466x8 (constantI S_ 32 0#32))) (extractStridedSlice S2466x8 ![0, 0] a12 slices_S2466x10_S2466x8_0_0) (broadcastInDim S2466x8 ![] bcast_S_S2466x8 (id (constantI S_ 32 0#32))))))) (broadcastInDim S8x2466x8x3 ![] bcast_S_S8x2466x8x3 (constant S_ .f32 0x00000000#32))) (constant S_ .f32 0x00000000#32) reducesTo_S8x2466x8x3_S8x2466x3_d2 h_S_) (broadcastInDim S8x2466x3 ![0, 1, 2] bcast_S1x2466x1_S8x2466x3_0_1_2 (broadcastInDim S1x2466x1 ![1] bcast_S2466_S1x2466x1_1 (sitofp .f32 (shapeCast _ (extractStridedSlice S2466x1 ![0, 9] a12 slices_S2466x10_S2466x1_0_9) shapeCasts_S2466x1_S2466)))))) (subf a3 (Host.divf (Host.reduceAdd (select (broadcastInDim S8x2466x8x3 ![0, 1, 2, 3] bcast_S1x2466x8x1_S8x2466x8x3_0_1_2_3 (broadcastInDim S1x2466x8x1 ![1, 2] bcast_S2466x8_S1x2466x8x1_1_2 (cmpi .sge (extractStridedSlice S2466x8 ![0, 0] a12 slices_S2466x10_S2466x8_0_0) (broadcastInDim S2466x8 ![] bcast_S_S2466x8 (constantI S_ 32 0#32))))) (Host.gather gather_S8x2466x3_S2466x8x1_S8x2466x8x3_03_1_n_n_1_2_813 a3 (broadcastInDim S2466x8x1 ![0, 1] bcast_S2466x8_S2466x8x1_0_1 (select (cmpi .slt (select (cmpi .sge (extractStridedSlice S2466x8 ![0, 0] a12 slices_S2466x10_S2466x8_0_0) (broadcastInDim S2466x8 ![] bcast_S_S2466x8 (constantI S_ 32 0#32))) (extractStridedSlice S2466x8 ![0, 0] a12 slices_S2466x10_S2466x8_0_0) (broadcastInDim S2466x8 ![] bcast_S_S2466x8 (id (constantI S_ 32 0#32)))) (broadcastInDim S2466x8 ![] bcast_S_S2466x8 (constantI S_ 32 0#32))) (addi (select (cmpi .sge (extractStridedSlice S2466x8 ![0, 0] a12 slices_S2466x10_S2466x8_0_0) (broadcastInDim S2466x8 ![] bcast_S_S2466x8 (constantI S_ 32 0#32))) (extractStridedSlice S2466x8 ![0, 0] a12 slices_S2466x10_S2466x8_0_0) (broadcastInDim S2466x8 ![] bcast_S_S2466x8 (id (constantI S_ 32 0#32)))) (broadcastInDim S2466x8 ![] bcast_S_S2466x8 (constantI S_ 32 2466#32))) (select (cmpi .sge (extractStridedSlice S2466x8 ![0, 0] a12 slices_S2466x10_S2466x8_0_0) (broadcastInDim S2466x8 ![] bcast_S_S2466x8 (constantI S_ 32 0#32))) (extractStridedSlice S2466x8 ![0, 0] a12 slices_S2466x10_S2466x8_0_0) (broadcastInDim S2466x8 ![] bcast_S_S2466x8 (id (constantI S_ 32 0#32))))))) (broadcastInDim S8x2466x8x3 ![] bcast_S_S8x2466x8x3 (constant S_ .f32 0x00000000#32))) (constant S_ .f32 0x00000000#32) reducesTo_S8x2466x8x3_S8x2466x3_d2 h_S_) (broadcastInDim S8x2466x3 ![0, 1, 2] bcast_S1x2466x1_S8x2466x3_0_1_2 (broadcastInDim S1x2466x1 ![1] bcast_S2466_S1x2466x1_1 (sitofp .f32 (shapeCast _ (extractStridedSlice S2466x1 ![0, 9] a12 slices_S2466x10_S2466x1_0_9) shapeCasts_S2466x1_S2466))))))) (subf (subf a6 (Host.divf (Host.reduceAdd (select (broadcastInDim S8x2466x8x3 ![0, 1, 2, 3] bcast_S1x2466x8x1_S8x2466x8x3_0_1_2_3 (broadcastInDim S1x2466x8x1 ![1, 2] bcast_S2466x8_S1x2466x8x1_1_2 (cmpi .sge (extractStridedSlice S2466x8 ![0, 0] a12 slices_S2466x10_S2466x8_0_0) (broadcastInDim S2466x8 ![] bcast_S_S2466x8 (constantI S_ 32 0#32))))) (Host.gather gather_S8x2466x3_S2466x8x1_S8x2466x8x3_03_1_n_n_1_2_813 a6 (broadcastInDim S2466x8x1 ![0, 1] bcast_S2466x8_S2466x8x1_0_1 (select (cmpi .slt (select (cmpi .sge (extractStridedSlice S2466x8 ![0, 0] a12 slices_S2466x10_S2466x8_0_0) (broadcastInDim S2466x8 ![] bcast_S_S2466x8 (constantI S_ 32 0#32))) (extractStridedSlice S2466x8 ![0, 0] a12 slices_S2466x10_S2466x8_0_0) (broadcastInDim S2466x8 ![] bcast_S_S2466x8 (id (constantI S_ 32 0#32)))) (broadcastInDim S2466x8 ![] bcast_S_S2466x8 (constantI S_ 32 0#32))) (addi (select (cmpi .sge (extractStridedSlice S2466x8 ![0, 0] a12 slices_S2466x10_S2466x8_0_0) (broadcastInDim S2466x8 ![] bcast_S_S2466x8 (constantI S_ 32 0#32))) (extractStridedSlice S2466x8 ![0, 0] a12 slices_S2466x10_S2466x8_0_0) (broadcastInDim S2466x8 ![] bcast_S_S2466x8 (id (constantI S_ 32 0#32)))) (broadcastInDim S2466x8 ![] bcast_S_S2466x8 (constantI S_ 32 2466#32))) (select (cmpi .sge (extractStridedSlice S2466x8 ![0, 0] a12 slices_S2466x10_S2466x8_0_0) (broadcastInDim S2466x8 ![] bcast_S_S2466x8 (constantI S_ 32 0#32))) (extractStridedSlice S2466x8 ![0, 0] a12 slices_S2466x10_S2466x8_0_0) (broadcastInDim S2466x8 ![] bcast_S_S2466x8 (id (constantI S_ 32 0#32))))))) (broadcastInDim S8x2466x8x3 ![] bcast_S_S8x2466x8x3 (constant S_ .f32 0x00000000#32))) (constant S_ .f32 0x00000000#32) reducesTo_S8x2466x8x3_S8x2466x3_d2 h_S_) (broadcastInDim S8x2466x3 ![0, 1, 2] bcast_S1x2466x1_S8x2466x3_0_1_2 (broadcastInDim S1x2466x1 ![1] bcast_S2466_S1x2466x1_1 (sitofp .f32 (shapeCast _ (extractStridedSlice S2466x1 ![0, 9] a12 slices_S2466x10_S2466x1_0_9) shapeCasts_S2466x1_S2466)))))) (subf a3 (Host.divf (Host.reduceAdd (select (broadcastInDim S8x2466x8x3 ![0, 1, 2, 3] bcast_S1x2466x8x1_S8x2466x8x3_0_1_2_3 (broadcastInDim S1x2466x8x1 ![1, 2] bcast_S2466x8_S1x2466x8x1_1_2 (cmpi .sge (extractStridedSlice S2466x8 ![0, 0] a12 slices_S2466x10_S2466x8_0_0) (broadcastInDim S2466x8 ![] bcast_S_S2466x8 (constantI S_ 32 0#32))))) (Host.gather gather_S8x2466x3_S2466x8x1_S8x2466x8x3_03_1_n_n_1_2_813 a3 (broadcastInDim S2466x8x1 ![0, 1] bcast_S2466x8_S2466x8x1_0_1 (select (cmpi .slt (select (cmpi .sge (extractStridedSlice S2466x8 ![0, 0] a12 slices_S2466x10_S2466x8_0_0) (broadcastInDim S2466x8 ![] bcast_S_S2466x8 (constantI S_ 32 0#32))) (extractStridedSlice S2466x8 ![0, 0] a12 slices_S2466x10_S2466x8_0_0) (broadcastInDim S2466x8 ![] bcast_S_S2466x8 (id (constantI S_ 32 0#32)))) (broadcastInDim S2466x8 ![] bcast_S_S2466x8 (constantI S_ 32 0#32))) (addi (select (cmpi .sge (extractStridedSlice S2466x8 ![0, 0] a12 slices_S2466x10_S2466x8_0_0) (broadcastInDim S2466x8 ![] bcast_S_S2466x8 (constantI S_ 32 0#32))) (extractStridedSlice S2466x8 ![0, 0] a12 slices_S2466x10_S2466x8_0_0) (broadcastInDim S2466x8 ![] bcast_S_S2466x8 (id (constantI S_ 32 0#32)))) (broadcastInDim S2466x8 ![] bcast_S_S2466x8 (constantI S_ 32 2466#32))) (select (cmpi .sge (extractStridedSlice S2466x8 ![0, 0] a12 slices_S2466x10_S2466x8_0_0) (broadcastInDim S2466x8 ![] bcast_S_S2466x8 (constantI S_ 32 0#32))) (extractStridedSlice S2466x8 ![0, 0] a12 slices_S2466x10_S2466x8_0_0) (broadcastInDim S2466x8 ![] bcast_S_S2466x8 (id (constantI S_ 32 0#32))))))) (broadcastInDim S8x2466x8x3 ![] bcast_S_S8x2466x8x3 (constant S_ .f32 0x00000000#32))) (constant S_ .f32 0x00000000#32) reducesTo_S8x2466x8x3_S8x2466x3_d2 h_S_) (broadcastInDim S8x2466x3 ![0, 1, 2] bcast_S1x2466x1_S8x2466x3_0_1_2 (broadcastInDim S1x2466x1 ![1] bcast_S2466_S1x2466x1_1 (sitofp .f32 (shapeCast _ (extractStridedSlice S2466x1 ![0, 9] a12 slices_S2466x10_S2466x1_0_9) shapeCasts_S2466x1_S2466)))))))) (constant S_ .f32 0x00000000#32) reducesTo_S8x2466x3_S_d0_1_2 h_S_) (constant S_ .f32 0x47673000#32))) (constant S_ .f32 0x40400000#32))

set_option maxRecDepth 8192 in
set_option maxHeartbeats 64000000 in
/-- The laplacian loss at the end. -/
theorem v255_eq (c : Dev nD) :
    V30 m outs c main_v255 = lapTerm (m ((c : Thread nD τ).loc main_arg1)) (m ((c : Thread nD τ).loc main_arg4)) (m ((c : Thread nD τ).loc main_arg2)) (m ((c : Thread nD τ).loc main_arg5)) (m ((c : Thread nD τ).loc main_arg3)) (m ((c : Thread nD τ).loc main_arg6)) (m ((c : Thread nD τ).loc main_arg10)) (m ((c : Thread nD τ).loc main_arg11)) (m ((c : Thread nD τ).loc main_arg12)) := by
  peel_all m outs c
  unfold lapTerm
  rfl

end Cert.KernelIdeal.Chamfer

end
-- ==== Proof.KI.Chamfer0Pieces.lean ====
/-
  Region 0: the pieces each case of the body leaves, opened. Every store of the body covers its whole buffer, so a
  buffer read back after a case is the payload of its last store; a load of a whole input buffer is the buffer's
  contents. Hence the row minima are `k0_pay3` of the two input blocks, the scratch after a first tile is `k0_pay5`
  of them, after a later tile `k0_pay6` of them and the scratch's old contents, and the column minima a last tile
  copies out are `k0_pay1` of the scratch it has just stored.
-/
import Idealize.ShloMosaic.Lib.Pipeline.Value
import proofs.«112199_j59459527246412_1_alg».proof.Proof.KI.Chamfer0Points

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every load and store of the body are zero. -/
theorem hz3_0 : (![0, 0, 0] : Fin 3 → Nat) = fun _ => 0 := funext fun a => by fin_cases a <;> rfl

/-- A first tile's row minima: the one store of the first output's buffer covers it, and its payload is `k0_pay3` of
    the two input buffers read whole. -/
theorem rowsFirst0_eq (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : isFirst0 i) (hB : ¬isLater0 i) (hC : ¬isLast0 i)
    (x0 : Vec F S1x1000x3 .f32) (x1 : Vec F S1x156x3 .f32) :
    rowsFirst0 c i arg2 harg2 arg3 harg3 arg4 harg4 arg5 harg5 arg6 harg6 hA hB hC x0 x1 = k0_pay3 x0 x1 := by
  unfold rowsFirst0
  rw [View.read_writes_eq_canon _ _ _ (rowsFirst0_cover c i arg2 harg2 arg3 harg3 arg4 harg4 arg5 harg5 arg6 harg6 hA hB hC x0 x1)]
  unfold runFirst0
  dsimp only
  sl_unfold_words
  rw [View.canon_unit_zero (S := S1x1000x1) hz3_0]
  simp only [View.readAt_eq_ld, harg2.read_unread, harg3.read_unread, View.ld_unit_zero (S := S1x1000x3) hz3_0, View.ld_unit_zero (S := S1x156x3) hz3_0]

/-- The scratch after a first tile: the reset store covers it, with payload `k0_pay5` of the two input buffers. -/
theorem accFirst0_eq (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : isFirst0 i) (hB : ¬isLater0 i) (hC : ¬isLast0 i)
    (x0 : Vec F S1x1000x3 .f32) (x1 : Vec F S1x156x3 .f32) :
    accFirst0 c i arg2 harg2 arg3 harg3 arg4 harg4 arg5 harg5 arg6 harg6 hA hB hC x0 x1 = k0_pay5 x0 x1 := by
  unfold accFirst0
  rw [View.read_writes_eq_canon _ _ _ (accFirst0_cover c i arg2 harg2 arg3 harg3 arg4 harg4 arg5 harg5 arg6 harg6 hA hB hC x0 x1)]
  unfold runFirst0
  dsimp only
  sl_unfold_words
  rw [View.canon_unit_zero (S := S1x156x1) hz3_0]
  simp only [View.readAt_eq_ld, harg2.read_unread, harg3.read_unread, View.ld_unit_zero (S := S1x1000x3) hz3_0, View.ld_unit_zero (S := S1x156x3) hz3_0]

/-- A middle tile's row minima: as at a first tile. -/
theorem rowsMid0_eq (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : ¬isFirst0 i) (hB : isLater0 i) (hC : ¬isLast0 i)
    (x0 : Vec F S1x1000x3 .f32) (x1 : Vec F S1x156x3 .f32) (xs : Vec F S1x156x1 .f32) :
    rowsMid0 c i arg2 harg2 arg3 harg3 arg4 harg4 arg5 harg5 arg6 harg6 hA hB hC x0 x1 xs = k0_pay3 x0 x1 := by
  unfold rowsMid0
  rw [View.read_writes_eq_canon _ _ _ (rowsMid0_cover c i arg2 harg2 arg3 harg3 arg4 harg4 arg5 harg5 arg6 harg6 hA hB hC x0 x1 xs)]
  unfold runMid0
  dsimp only
  sl_unfold_words
  rw [View.canon_unit_zero (S := S1x1000x1) hz3_0]
  simp only [View.readAt_eq_ld, harg2.read_unread, harg3.read_unread, View.ld_unit_zero (S := S1x1000x3) hz3_0, View.ld_unit_zero (S := S1x156x3) hz3_0]

/-- The scratch after a middle tile: the update store covers it, with payload `k0_pay6` of the two input buffers and
    of the scratch's old contents, loaded whole before the store. -/
theorem accMid0_eq (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : ¬isFirst0 i) (hB : isLater0 i) (hC : ¬isLast0 i)
    (x0 : Vec F S1x1000x3 .f32) (x1 : Vec F S1x156x3 .f32) (xs : Vec F S1x156x1 .f32) :
    accMid0 c i arg2 harg2 arg3 harg3 arg4 harg4 arg5 harg5 arg6 harg6 hA hB hC x0 x1 xs = k0_pay6 x0 x1 xs := by
  unfold accMid0
  rw [View.read_writes_eq_canon _ _ _ (accMid0_cover c i arg2 harg2 arg3 harg3 arg4 harg4 arg5 harg5 arg6 harg6 hA hB hC x0 x1 xs)]
  unfold runMid0
  dsimp only
  sl_unfold_words
  rw [View.canon_unit_zero (S := S1x156x1) hz3_0]
  simp only [View.readAt_eq_ld, harg2.read_unread, harg3.read_unread, View.ld_unit_zero (S := S1x1000x3) hz3_0, View.ld_unit_zero (S := S1x156x3) hz3_0, harg6.read_unread, View.ld_unit_zero (S := S1x156x1) hz3_0]

/-- A last tile's row minima: as at a first tile. -/
theorem rowsLast0_eq (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : ¬isFirst0 i) (hB : isLater0 i) (hC : isLast0 i)
    (x0 : Vec F S1x1000x3 .f32) (x1 : Vec F S1x156x3 .f32) (xs : Vec F S1x156x1 .f32) :
    rowsLast0 c i arg2 harg2 arg3 harg3 arg4 harg4 arg5 harg5 arg6 harg6 hA hB hC x0 x1 xs = k0_pay3 x0 x1 := by
  unfold rowsLast0
  rw [View.read_writes_eq_canon _ _ _ (rowsLast0_cover c i arg2 harg2 arg3 harg3 arg4 harg4 arg5 harg5 arg6 harg6 hA hB hC x0 x1 xs)]
  unfold runLast0
  dsimp only
  sl_unfold_words
  rw [View.canon_unit_zero (S := S1x1000x1) hz3_0]
  simp only [View.readAt_eq_ld, harg2.read_unread, harg3.read_unread, View.ld_unit_zero (S := S1x1000x3) hz3_0, View.ld_unit_zero (S := S1x156x3) hz3_0]

/-- The scratch after a last tile: as after a middle tile. -/
theorem accLast0_eq (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : ¬isFirst0 i) (hB : isLater0 i) (hC : isLast0 i)
    (x0 : Vec F S1x1000x3 .f32) (x1 : Vec F S1x156x3 .f32) (xs : Vec F S1x156x1 .f32) :
    accLast0 c i arg2 harg2 arg3 harg3 arg4 harg4 arg5 harg5 arg6 harg6 hA hB hC x0 x1 xs = k0_pay6 x0 x1 xs := by
  unfold accLast0
  rw [View.read_writes_eq_canon _ _ _ (accLast0_cover c i arg2 harg2 arg3 harg3 arg4 harg4 arg5 harg5 arg6 harg6 hA hB hC x0 x1 xs)]
  unfold runLast0
  dsimp only
  sl_unfold_words
  rw [View.canon_unit_zero (S := S1x156x1) hz3_0]
  simp only [View.readAt_eq_ld, harg2.read_unread, harg3.read_unread, View.ld_unit_zero (S := S1x1000x3) hz3_0, View.ld_unit_zero (S := S1x156x3) hz3_0, harg6.read_unread, View.ld_unit_zero (S := S1x156x1) hz3_0]

/-- The column minima a last tile copies out: the one store of the second output's buffer covers it, and its payload
    is `k0_pay1` of the scratch loaded whole after the update store, which reads that store's payload. -/
theorem colsLast0_eq (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : ¬isFirst0 i) (hB : isLater0 i) (hC : isLast0 i)
    (x0 : Vec F S1x1000x3 .f32) (x1 : Vec F S1x156x3 .f32) (xs : Vec F S1x156x1 .f32) :
    colsLast0 c i arg2 harg2 arg3 harg3 arg4 harg4 arg5 harg5 arg6 harg6 hA hB hC x0 x1 xs = k0_pay1 (k0_pay6 x0 x1 xs) := by
  unfold colsLast0
  rw [View.read_writes_eq_canon _ _ _ (colsLast0_cover c i arg2 harg2 arg3 harg3 arg4 harg4 arg5 harg5 arg6 harg6 hA hB hC x0 x1 xs)]
  unfold runLast0
  dsimp only
  sl_unfold_words
  rw [View.canon_unit_zero (S := S1x156x1) hz3_0]
  simp only [View.readCov_unit_zero (S := S1x156x1) _ hz3_0, View.readAt_eq_ld, harg2.read_unread, harg3.read_unread, View.ld_unit_zero (S := S1x1000x3) hz3_0, View.ld_unit_zero (S := S1x156x3) hz3_0, harg6.read_unread, View.ld_unit_zero (S := S1x156x1) hz3_0]

end Cert.KernelIdeal.Chamfer

end
-- ==== Proof.ChamferSpec.lean ====
/-
  The mathematics both programs compute, on extended reals. For one batch, a set of N ground-truth points
  `a n` and M rest points `b m` in three coordinates, the squared distance is taken in its expanded form
  |a|² + |b|² − 2 (a · b), and each point is given the least such distance to a point of the other set:
  `rowMin` for a ground-truth point (least over the rest points), `colMin` for a rest point (least over the
  ground-truth points). Every minimum is a fold of `min` started at a value `I` (the programs' starting word,
  never evaluated here); `two` is the programs' factor word. `min` on the extended reals is associative,
  commutative and idempotent, so a minimum taken tile by tile, each tile's fold started at `I` again, is the
  minimum over all the rows: `colMin_tiles`.
-/
import Idealize.ShloMosaic.PureOps.Ideal
import Idealize.ShloMosaic.Lib.ValueIdx
import Mathlib.Data.Finset.Fold
import Mathlib.Algebra.BigOperators.Fin

noncomputable section

namespace Cert.ChamferSpec

open Idealize.ShloMosaic

/-- The expanded squared distance between ground-truth point `n` and rest point `m`. -/
def dist (two : EReal) {N M : ℕ} (a : Fin N → Fin 3 → EReal) (b : Fin M → Fin 3 → EReal) (n : Fin N) (m : Fin M) : EReal :=
  ((∑ k : Fin 3, a n k * a n k) + (∑ k : Fin 3, b m k * b m k)) - two * (∑ k : Fin 3, a n k * b m k)

/-- The least squared distance from ground-truth point `n` to a rest point, folded from `I`. -/
def rowMin (I two : EReal) {N M : ℕ} (a : Fin N → Fin 3 → EReal) (b : Fin M → Fin 3 → EReal) (n : Fin N) : EReal :=
  (Finset.univ : Finset (Fin M)).fold min I (fun m => dist two a b n m)

/-- The least squared distance from rest point `m` to a ground-truth point, folded from `I`. -/
def colMin (I two : EReal) {N M : ℕ} (a : Fin N → Fin 3 → EReal) (b : Fin M → Fin 3 → EReal) (m : Fin M) : EReal :=
  (Finset.univ : Finset (Fin N)).fold min I (fun n => dist two a b n m)

/-- An array of shape [B, N, 3] read batch by batch. -/
abbrev cur3 {B N C : ℕ} (A : (⟨3, ![B, N, C]⟩ : Shape).Idx → EReal) (i : Fin B) (n : Fin N) (k : Fin C) : EReal :=
  A (ValueIdx.ix3 i n k)

/-- The row minima of every batch, as an array of shape [B, N]: what the first result of a distance pass holds. -/
def D1 (I two : EReal) {B N M : ℕ} (x : (⟨3, ![B, N, 3]⟩ : Shape).Idx → EReal) (y : (⟨3, ![B, M, 3]⟩ : Shape).Idx → EReal)
    (i : Fin B) (n : Fin N) : EReal := rowMin I two (cur3 x i) (cur3 y i) n

/-- The column minima of every batch, as an array of shape [B, M]: what the second result holds. -/
def D2 (I two : EReal) {B N M : ℕ} (x : (⟨3, ![B, N, 3]⟩ : Shape).Idx → EReal) (y : (⟨3, ![B, M, 3]⟩ : Shape).Idx → EReal)
    (i : Fin B) (m : Fin M) : EReal := colMin I two (cur3 x i) (cur3 y i) m

/-- The rows `T * j + r` (r < T) of tile `j` out of `J` tiles of `T` rows. -/
def tileRow {J T : ℕ} (j : Fin J) (r : Fin T) : Fin (J * T) :=
  ⟨T * j.val + r.val, by
    have h1 := j.isLt; have h2 := r.isLt
    calc T * j.val + r.val < T * j.val + T := by omega
      _ = T * (j.val + 1) := by ring
      _ ≤ T * J := Nat.mul_le_mul_left T h1
      _ = J * T := Nat.mul_comm T J⟩

/-- The column minimum of ONE tile of rows, folded from `I`. -/
def tileColMin (I two : EReal) {J T M : ℕ} (a : Fin (J * T) → Fin 3 → EReal) (b : Fin M → Fin 3 → EReal) (j : Fin J) (m : Fin M) : EReal :=
  (Finset.univ : Finset (Fin T)).fold min I (fun r => dist two a b (tileRow j r) m)

/-- The running column minimum after tiles 0..j: tile 0's minimum, then lowered by each later tile's. -/
def runMin (I two : EReal) {J T M : ℕ} (a : Fin (J * T) → Fin 3 → EReal) (b : Fin M → Fin 3 → EReal) (m : Fin M) : (j : ℕ) → j < J → EReal
  | 0, h => tileColMin I two a b ⟨0, h⟩ m
  | j + 1, h => min (runMin I two a b m j (Nat.lt_of_succ_lt h)) (tileColMin I two a b ⟨j + 1, h⟩ m)

end Cert.ChamferSpec

end
-- ==== Proof.KI.Payload0.lean ====
/-
  The arithmetic of one tile of region 0, read element by element on the extended reals.
  The body forms, for the 1000 rows `a` of a tile of ground-truth points and the 156 rest points `b` of the batch,
  the matrix of expanded squared distances (|a|² + |b|²) − 2 (a · b): |a|² and |b|² are sums over the three
  coordinates taken along the rows of the squared operands, a · b is the product of the tile with the transposed rest
  points, and the three are brought to the matrix's shape by casts and broadcasts that move no value. Read at row
  `r` and column `m` the matrix is `ChamferSpec.dist` of row `r` and rest point `m` (`pay2_apply`). Its minimum
  along a row is the fold of `min` over the rest points, from the starting word: the row minimum the body stores
  (`pay3_apply`). Its minimum along a column is the fold of `min` over the tile's rows: what a first tile stores as the
  running column minimum (`pay5_apply`), and what a later tile takes the lesser of with the minimum so far
  (`pay6_apply`). The copy out at the last tile casts the running minimum to a column and back, which is the identity
  (`pay1_eq`). The two words (the starting word of a minimum, the factor of the product) are never evaluated; only
  the zero word the product accumulates into is, as the extended real 0.
-/
import proofs.«112199_j59459527246412_1_alg».proof.Proof.Gen.KernelIdeal.Skeleton
import proofs.«112199_j59459527246412_1_alg».proof.Proof.ChamferSpec
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.KernelIdeal.Chamfer

open Cert.KernelIdeal Cert.KernelIdeal.Gen Idealize.ShloMosaic Idealize.ShloMosaic.ValueIdx
open scoped BigOperators

/-! ## Layout operations on a column, read at coordinates -/

/-- A vector `[a]` cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Reductions of a matrix along one axis, read at coordinates -/

/-- The sum along the rows of an `[a, b]` matrix, at row `r`, is the sum of that row's entries. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext c
  match c with
  | ⟨0, _⟩ => rfl
  | ⟨1, _⟩ => rfl

/-- The minimum along the rows of an `[a, b]` matrix, at row `r`: the fold of `min` over that row. -/
theorem rowMinimum_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.minimumf.neutral .f32 hφ) (r : Fin a) :
    multiReduction .minimumf [1] ⟨1, ![a]⟩ src acc h hφ hacc (ix1 r)
      = (Finset.univ : Finset (Fin b)).fold min (Ideal.ofBits .f32 acc) (fun m => src (ix2 r m)) := by
  refine (multiReduction_minimumf_eq_fold src acc h hφ hacc (ix1 r)).trans ?_
  refine (h.fold_filter_drop_single _ _ src (ix1 r)).trans ?_
  show (Finset.univ : Finset (Fin b)).fold min (Ideal.ofBits .f32 acc) (src ∘ h.lift (ix1 r)) = _
  refine congrArg (fun f => (Finset.univ : Finset (Fin b)).fold min (Ideal.ofBits .f32 acc) f) (funext fun m => ?_)
  show src (h.lift (ix1 r) m) = src (ix2 r m)
  refine congrArg src ?_
  funext c
  match c with
  | ⟨0, _⟩ => rfl
  | ⟨1, _⟩ => rfl

/-- The minimum along the columns of an `[a, b]` matrix, at column `m`: the fold of `min` over that column. -/
theorem colMinimum_apply {a b : ℕ} (src : FVec Ideal ⟨2, ![a, b]⟩ .f32) (acc : BitVec 32)
    (h : (⟨2, ![a, b]⟩ : Shape).Reduces [0] ⟨1, ![b]⟩) (hφ : FKind.Formats .f32)
    (hacc : acc = FKind.minimumf.neutral .f32 hφ) (m : Fin b) :
    multiReduction .minimumf [0] ⟨1, ![b]⟩ src acc h hφ hacc (ix1 m)
      = (Finset.univ : Finset (Fin a)).fold min (Ideal.ofBits .f32 acc) (fun r => src (ix2 r m)) := by
  refine (multiReduction_minimumf_eq_fold src acc h hφ hacc (ix1 m)).trans ?_
  refine (h.fold_filter_drop_single _ _ src (ix1 m)).trans ?_
  show (Finset.univ : Finset (Fin a)).fold min (Ideal.ofBits .f32 acc) (src ∘ h.lift (ix1 m)) = _
  refine congrArg (fun f => (Finset.univ : Finset (Fin a)).fold min (Ideal.ofBits .f32 acc) f) (funext fun r => ?_)
  show src (h.lift (ix1 m) r) = src (ix2 r m)
  refine congrArg src ?_
  funext c
  match c with
  | ⟨0, _⟩ => rfl
  | ⟨1, _⟩ => rfl

/-! ## The product of the tile with the transposed rest points, read at coordinates -/

theorem lhs_tileDot_0 (i : S1000x156.Idx) (q : dot_S1000x3_S3x156_S1000x156_1_0_0_1_n_n.contr.Idx) :
    (dot_S1000x3_S3x156_S1000x156_1_0_0_1_n_n.lhsIdx i q 0).val = (i 0).val := by
  unfold DotDims.lhsIdx
  rw [dif_neg (show ¬(0 : Fin S1000x3.rank) ∈ dot_S1000x3_S3x156_S1000x156_1_0_0_1_n_n.lhsBatch by decide), dif_pos (show (0 : Fin S1000x3.rank) ∈ dot_S1000x3_S3x156_S1000x156_1_0_0_1_n_n.lhsNonContracting by decide)]
  rfl
theorem lhs_tileDot_1 (i : S1000x156.Idx) (q : dot_S1000x3_S3x156_S1000x156_1_0_0_1_n_n.contr.Idx) :
    (dot_S1000x3_S3x156_S1000x156_1_0_0_1_n_n.lhsIdx i q 1).val = (q ⟨0, by decide⟩).val :=
  dot_S1000x3_S3x156_S1000x156_1_0_0_1_n_n.lhsIdx_val_of_single rfl i q
theorem rhs_tileDot_0 (i : S1000x156.Idx) (q : dot_S1000x3_S3x156_S1000x156_1_0_0_1_n_n.contr.Idx) :
    (dot_S1000x3_S3x156_S1000x156_1_0_0_1_n_n.rhsIdx i q 0).val = (q ⟨0, by decide⟩).val :=
  dot_S1000x3_S3x156_S1000x156_1_0_0_1_n_n.rhsIdx_val_of_single rfl i q
theorem rhs_tileDot_1 (i : S1000x156.Idx) (q : dot_S1000x3_S3x156_S1000x156_1_0_0_1_n_n.contr.Idx) :
    (dot_S1000x3_S3x156_S1000x156_1_0_0_1_n_n.rhsIdx i q 1).val = (i 1).val := by
  unfold DotDims.rhsIdx
  rw [dif_neg (show ¬(1 : Fin S3x156.rank) ∈ dot_S1000x3_S3x156_S1000x156_1_0_0_1_n_n.rhsBatch by decide), dif_pos (show (1 : Fin S3x156.rank) ∈ dot_S1000x3_S3x156_S1000x156_1_0_0_1_n_n.rhsNonContracting by decide)]
  rfl

/-- The product into a zero accumulator, at `(r, m)`: the sum over the three coordinates of the
    left operand's row `r` times the right operand's column `m`. -/
theorem tileDot_apply (u : FVec Ideal S1000x3 .f32) (w : FVec Ideal S3x156 .f32) (r : Fin 1000) (m : Fin 156) :
    matmul dot_S1000x3_S3x156_S1000x156_1_0_0_1_n_n none u w (constant (F := Ideal) S1000x156 .f32 0x00000000#32) (ix2 r m)
      = ∑ k : Fin 3, u (ix2 r k) * w (ix2 k m) := by
  refine (Ideal.matmul_constant_zero_apply dot_S1000x3_S3x156_S1000x156_1_0_0_1_n_n none u w (ix2 r m)).trans ?_
  rw [← Equiv.sum_comp (contrEquiv1 dot_S1000x3_S3x156_S1000x156_1_0_0_1_n_n 3 rfl rfl).symm]
  refine Finset.sum_congr rfl fun k _ => ?_
  have hk := contrEquiv1_symm_val dot_S1000x3_S3x156_S1000x156_1_0_0_1_n_n 3 rfl rfl k
  have el : dot_S1000x3_S3x156_S1000x156_1_0_0_1_n_n.lhsIdx (ix2 r m) ((contrEquiv1 dot_S1000x3_S3x156_S1000x156_1_0_0_1_n_n 3 rfl rfl).symm k) = ix2 r k := funext fun a => Fin.ext (by
    match a with
    | ⟨0, _⟩ => exact lhs_tileDot_0 _ _
    | ⟨1, _⟩ => exact (lhs_tileDot_1 _ _).trans hk)
  have er : dot_S1000x3_S3x156_S1000x156_1_0_0_1_n_n.rhsIdx (ix2 r m) ((contrEquiv1 dot_S1000x3_S3x156_S1000x156_1_0_0_1_n_n 3 rfl rfl).symm k) = ix2 k m := funext fun a => Fin.ext (by
    match a with
    | ⟨0, _⟩ => exact (rhs_tileDot_0 _ _).trans hk
    | ⟨1, _⟩ => exact rhs_tileDot_1 _ _)
  rw [el, er]

/-! ## The payloads of region 0 -/

/-- The tile of ground-truth points the body loads, by row and coordinate. -/
abbrev tileA (x0 : Vec Ideal S1x1000x3 .f32) : Fin 1000 → Fin 3 → EReal := fun r k => x0 (ix3 0 r k)
/-- The batch's rest points, by point and coordinate. -/
abbrev restB (x1 : Vec Ideal S1x156x3 .f32) : Fin 156 → Fin 3 → EReal := fun m k => x1 (ix3 0 m k)

/-- The distance matrix at `(r, m)` is the expanded squared distance between row `r` of the tile and rest point `m`. -/
theorem pay2_apply (x0 : Vec Ideal S1x1000x3 .f32) (x1 : Vec Ideal S1x156x3 .f32) (r : Fin 1000) (m : Fin 156) :
    k0_pay2 x0 x1 (ix2 r m)
      = Cert.ChamferSpec.dist (Ideal.ofBits .f32 0x40000000#32) (tileA x0) (restB x1) r m := by
  unfold k0_pay2 Cert.ChamferSpec.dist
  dsimp only
  rw [subf_apply, addf_apply, mulf_apply, broadcast_apply]
  refine congrArg₂ (· - ·) (congrArg₂ (· + ·) ?_ ?_) (congrArg₂ (· * ·) rfl ?_)
  · -- |a|²: the column of row sums, broadcast along the row
    refine (broadcastTo_a1_ab_apply _ _ r m).trans ?_
    refine (shapeCast_a_a1_apply _ _ r 0).trans ?_
    refine (rowSum_apply _ _ _ _ _ r).trans ?_
    refine Finset.sum_congr rfl fun k _ => ?_
    rw [mulf_apply, shapeCast_1ab_ab_apply]
  · -- |b|²: the row of the rest points' sums, broadcast down the column
    refine (broadcastTo_1b_ab_apply _ _ r m).trans ?_
    refine (shapeCast_a_1a_apply _ _ 0 m).trans ?_
    refine (rowSum_apply _ _ _ _ _ m).trans ?_
    refine Finset.sum_congr rfl fun k _ => ?_
    rw [mulf_apply, shapeCast_1ab_ab_apply]
  · -- a · b: the product with the transposed rest points
    refine (tileDot_apply _ _ r m).trans ?_
    refine Finset.sum_congr rfl fun k _ => ?_
    rw [shapeCast_1ab_ab_apply, transpose_ix2_apply, shapeCast_1ab_ab_apply]

/-- The tile's column minima, as a column: at `(m, u)` the fold of `min` over the tile's rows of the distances to rest point `m`. -/
theorem pay4_apply (x0 : Vec Ideal S1x1000x3 .f32) (x1 : Vec Ideal S1x156x3 .f32) (m : Fin 156) (u : Fin 1) :
    k0_pay4 x0 x1 (ix2 m u)
      = (Finset.univ : Finset (Fin 1000)).fold min (Ideal.ofBits .f32 0x7F800000#32)
          (fun r => Cert.ChamferSpec.dist (Ideal.ofBits .f32 0x40000000#32) (tileA x0) (restB x1) r m) := by
  unfold k0_pay4
  dsimp only
  refine (shapeCast_a_a1_apply _ _ m u).trans ?_
  refine (colMinimum_apply _ _ _ _ _ m).trans ?_
  exact congrArg (fun f => (Finset.univ : Finset (Fin 1000)).fold min (Ideal.ofBits .f32 0x7F800000#32) f)
    (funext fun r => pay2_apply x0 x1 r m)

/-- What the body stores as row minima: at row `r` of the tile, the least distance from that row to a rest point. -/
theorem pay3_apply (x0 : Vec Ideal S1x1000x3 .f32) (x1 : Vec Ideal S1x156x3 .f32) (r : Fin 1000) :
    k0_pay3 x0 x1 (ix3 0 r 0)
      = Cert.ChamferSpec.rowMin (Ideal.ofBits .f32 0x7F800000#32) (Ideal.ofBits .f32 0x40000000#32) (tileA x0) (restB x1) r := by
  unfold k0_pay3 Cert.ChamferSpec.rowMin
  dsimp only
  refine (shapeCast_ab_1ab_apply _ _ 0 r 0).trans ?_
  refine (shapeCast_a_a1_apply _ _ r 0).trans ?_
  refine (rowMinimum_apply _ _ _ _ _ r).trans ?_
  exact congrArg (fun f => (Finset.univ : Finset (Fin 156)).fold min (Ideal.ofBits .f32 0x7F800000#32) f)
    (funext fun m => pay2_apply x0 x1 r m)

/-- What a first tile stores into the running minimum: at rest point `m`, the tile's column minimum. -/
theorem pay5_apply (x0 : Vec Ideal S1x1000x3 .f32) (x1 : Vec Ideal S1x156x3 .f32) (m : Fin 156) :
    k0_pay5 x0 x1 (ix3 0 m 0)
      = (Finset.univ : Finset (Fin 1000)).fold min (Ideal.ofBits .f32 0x7F800000#32)
          (fun r => Cert.ChamferSpec.dist (Ideal.ofBits .f32 0x40000000#32) (tileA x0) (restB x1) r m) := by
  unfold k0_pay5
  refine (shapeCast_ab_1ab_apply _ _ 0 m 0).trans ?_
  exact pay4_apply x0 x1 m 0

/-- What a later tile stores: at rest point `m`, the lesser of the running minimum so far and the tile's column minimum. -/
theorem pay6_apply (x0 : Vec Ideal S1x1000x3 .f32) (x1 : Vec Ideal S1x156x3 .f32) (xs : Vec Ideal S1x156x1 .f32) (m : Fin 156) :
    k0_pay6 x0 x1 xs (ix3 0 m 0)
      = min (xs (ix3 0 m 0))
          ((Finset.univ : Finset (Fin 1000)).fold min (Ideal.ofBits .f32 0x7F800000#32)
            (fun r => Cert.ChamferSpec.dist (Ideal.ofBits .f32 0x40000000#32) (tileA x0) (restB x1) r m)) := by
  unfold k0_pay6
  refine (shapeCast_ab_1ab_apply _ _ 0 m 0).trans ?_
  refine (minimumf_apply _ _ _).trans ?_
  exact congrArg₂ min (shapeCast_1ab_ab_apply _ _ m 0) (pay4_apply x0 x1 m 0)

/-- What the last tile copies out: the running minimum itself (a cast to a column and back). -/
theorem pay1_eq (v : Vec Ideal S1x156x1 .f32) : k0_pay1 v = v := by
  unfold k0_pay1
  dsimp only
  exact shapeCast_shapeCast v _ _

end Cert.KernelIdeal.Chamfer

end
-- ==== Proof.ChamferTiles.lean ====
/-
  A column minimum taken tile by tile is the column minimum over all the rows. The rows of `J` tiles of `T` rows
  are the numbers `T * j + r`; the running minimum after tile `j` is a lower bound of exactly the same things as
  the starting value and every distance of the tiles `0 … j` (the minimum of a fold of `min` is characterised by what
  lies below it), and after the last tile those are all the rows, each row `n` being row `n % T` of tile `n / T`.
  Two extended reals with the same lower bounds are equal.
-/
import proofs.«112199_j59459527246412_1_alg».proof.Proof.ChamferSpec
import Mathlib.Data.Finset.Fold
import Mathlib.Order.Basic

noncomputable section

namespace Cert.ChamferSpec

open Idealize.ShloMosaic

variable (I two : EReal) {J T M : ℕ} (a : Fin (J * T) → Fin 3 → EReal) (b : Fin M → Fin 3 → EReal)

/-- The distance depends only on the two points' coordinates. -/
theorem dist_congr {N M N' M' : ℕ} (a : Fin N → Fin 3 → EReal) (b : Fin M → Fin 3 → EReal) (a' : Fin N' → Fin 3 → EReal)
    (b' : Fin M' → Fin 3 → EReal) (n : Fin N) (m : Fin M) (n' : Fin N') (m' : Fin M')
    (ha : ∀ k, a n k = a' n' k) (hb : ∀ k, b m k = b' m' k) : dist two a b n m = dist two a' b' n' m' := by
  unfold dist
  simp only [ha, hb]

/-- So does the row minimum: on the point's coordinates and on those of all the points of the other set. -/
theorem rowMin_congr {N N' M : ℕ} (a : Fin N → Fin 3 → EReal) (b : Fin M → Fin 3 → EReal) (a' : Fin N' → Fin 3 → EReal)
    (b' : Fin M → Fin 3 → EReal) (n : Fin N) (n' : Fin N')
    (ha : ∀ k, a n k = a' n' k) (hb : ∀ m k, b m k = b' m k) : rowMin I two a b n = rowMin I two a' b' n' := by
  unfold rowMin
  exact congrArg (fun f => (Finset.univ : Finset (Fin M)).fold min I f)
    (funext fun m => dist_congr two a b a' b' n m n' m ha (hb m))

/-- A fold of `min` over the rows of a block that holds tile `j` of the rows `a` is that tile's column minimum. -/
theorem tileColMin_of_block {M' : ℕ} (a₀ : Fin T → Fin 3 → EReal) (b₀ : Fin M' → Fin 3 → EReal) (j : Fin J) (m₀ : Fin M') (m : Fin M)
    (ha : ∀ r k, a₀ r k = a (tileRow j r) k) (hb : ∀ k, b₀ m₀ k = b m k) :
    (Finset.univ : Finset (Fin T)).fold min I (fun r => dist two a₀ b₀ r m₀) = tileColMin I two a b j m := by
  unfold tileColMin
  exact congrArg (fun f => (Finset.univ : Finset (Fin T)).fold min I f)
    (funext fun r => dist_congr two a₀ b₀ a b r m₀ (tileRow j r) m (ha r) hb)

/-- The running minimum after the first tile is that tile's column minimum, -/
theorem runMin_zero (m : Fin M) (h : 0 < J) : runMin I two a b m 0 h = tileColMin I two a b ⟨0, h⟩ m := rfl

/-- and after a later tile the lesser of the running minimum before it and that tile's column minimum. -/
theorem runMin_succ (m : Fin M) (j : ℕ) (h : j + 1 < J) :
    runMin I two a b m (j + 1) h = min (runMin I two a b m j (Nat.lt_of_succ_lt h)) (tileColMin I two a b ⟨j + 1, h⟩ m) := rfl

/-- What lies below one tile's column minimum: what lies below the starting value and below every distance of the tile. -/
theorem le_tileColMin_iff (j : Fin J) (m : Fin M) (x : EReal) :
    x ≤ tileColMin I two a b j m ↔ x ≤ I ∧ ∀ r : Fin T, x ≤ dist two a b (tileRow j r) m := by
  unfold tileColMin
  rw [Finset.le_fold_min]
  exact and_congr Iff.rfl ⟨fun h r => h r (Finset.mem_univ r), fun h r _ => h r⟩

/-- What lies below the running minimum after tile `j`: what lies below the starting value and below every distance of
    the tiles up to `j`. -/
theorem le_runMin_iff (m : Fin M) : ∀ (j : ℕ) (h : j < J) (x : EReal),
    x ≤ runMin I two a b m j h
      ↔ x ≤ I ∧ ∀ (j' : ℕ) (h' : j' < J), j' ≤ j → ∀ r : Fin T, x ≤ dist two a b (tileRow ⟨j', h'⟩ r) m
  | 0, h, x => by
    rw [runMin, le_tileColMin_iff]
    constructor
    · rintro ⟨h1, h2⟩
      refine ⟨h1, fun j' h' hle r => ?_⟩
      obtain rfl : j' = 0 := Nat.le_zero.mp hle
      exact h2 r
    · rintro ⟨h1, h2⟩
      exact ⟨h1, fun r => h2 0 h (Nat.le_refl 0) r⟩
  | j + 1, h, x => by
    rw [runMin, le_min_iff, le_runMin_iff m j (Nat.lt_of_succ_lt h) x, le_tileColMin_iff]
    constructor
    · rintro ⟨⟨h1, h2⟩, _, h3⟩
      refine ⟨h1, fun j' h' hle r => ?_⟩
      rcases Nat.lt_or_ge j' (j + 1) with hlt | hge
      · exact h2 j' h' (Nat.le_of_lt_succ hlt) r
      · obtain rfl : j' = j + 1 := Nat.le_antisymm hle hge
        exact h3 r
    · rintro ⟨h1, h2⟩
      exact ⟨⟨h1, fun j' h' hle r => h2 j' h' (Nat.le_succ_of_le hle) r⟩, h1, fun r => h2 (j + 1) h (Nat.le_refl _) r⟩

/-- After the last tile the running minimum is the column minimum over all the rows. -/
theorem colMin_tiles (m : Fin M) (j : ℕ) (h : j < J) (hj : j + 1 = J) :
    runMin I two a b m j h = colMin I two a b m := by
  refine eq_of_forall_le_iff fun x => ?_
  rw [le_runMin_iff, colMin, Finset.le_fold_min]
  constructor
  · rintro ⟨h1, h2⟩
    refine ⟨h1, fun n _ => ?_⟩
    have hT : 0 < T := by
      rcases Nat.eq_zero_or_pos T with h0 | h0
      · have hpos : 0 < J * T := Nat.lt_of_le_of_lt (Nat.zero_le _) n.isLt
        have hz : J * T = 0 := by rw [h0, Nat.mul_zero]
        exact absurd hpos (by rw [hz]; exact Nat.lt_irrefl 0)
      · exact h0
    have hq : n.val / T < J := Nat.div_lt_of_lt_mul (lt_of_lt_of_eq n.isLt (Nat.mul_comm J T))
    have key := h2 (n.val / T) hq (by omega) ⟨n.val % T, Nat.mod_lt _ hT⟩
    have e : tileRow (⟨n.val / T, hq⟩ : Fin J) (⟨n.val % T, Nat.mod_lt _ hT⟩ : Fin T) = n :=
      Fin.ext (Nat.div_add_mod n.val T)
    rw [e] at key
    exact key
  · rintro ⟨h1, h2⟩
    exact ⟨h1, fun j' h' _ r => h2 _ (Finset.mem_univ _)⟩

end Cert.ChamferSpec

end
-- ==== Proof.KI.Value0.lean ====
/-
  Region 0: what the region leaves in its two output arrays. Point t of the grid works on tile t % 10 (rows
  1000 (t % 10) … 1000 (t % 10) + 999) of batch t / 10: its ground-truth block is those rows of the batch, its
  rest-point block the batch's rest points. After the point the first output's buffer holds the row minima of the
  tile's rows against the batch's rest points, and the scratch holds the running column minimum over the batch's tiles
  0 … t % 10 (by induction on the point: reset at a batch's first tile, lowered at every later one). Every point writes
  its block of row minima back, and the blocks tile the first output array, which therefore ends holding the row minima
  of every batch. The second output array is written back only at a batch's last tile, where its buffer is a copy of
  the scratch: the running minimum over all ten tiles, which is the column minimum over all the batch's rows; those
  eight blocks tile the second output array, which ends holding the column minima of every batch.
-/
import proofs.«112199_j59459527246412_1_alg».proof.Proof.KI.Chamfer0Points
import proofs.«112199_j59459527246412_1_alg».proof.Proof.KI.Chamfer0Pieces
import proofs.«112199_j59459527246412_1_alg».proof.Proof.KI.Payload0
import proofs.«112199_j59459527246412_1_alg».proof.Proof.ChamferSpec
import proofs.«112199_j59459527246412_1_alg».proof.Proof.ChamferTiles
import Idealize.ShloMosaic.Lib.Pipeline.Value
import Idealize.ShloMosaic.Lib.ValueIdx

set_option maxRecDepth 16384

noncomputable section

namespace Cert.KernelIdeal.Chamfer

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-! ## Names for the arrays and the blocks, at their literal types -/

/-- The starting word of every minimum, and the factor word of the product, as extended reals. -/
abbrev wI0 : EReal := Ideal.ofBits .f32 0x7F800000#32
abbrev wTwo0 : EReal := Ideal.ofBits .f32 0x40000000#32

/-- The ground-truth array and the rest-point array as the region finds them. -/
abbrev gtArr0 (c : Dev nD) : Vec Ideal S8x10000x3 .f32 := V c main_arg0
abbrev restArr0 (c : Dev nD) : Vec Ideal S8x156x3 .f32 := V c main_arg7
/-- The two input windows' blocks at a point. -/
abbrev gtBlk0 (c : Dev nD) (t : Fin cfg0.N) : Vec Ideal S1x1000x3 .f32 := iblk0 V c 0 t
abbrev restBlk0 (c : Dev nD) (t : Fin cfg0.N) : Vec Ideal S1x156x3 .f32 := iblk0 V c 1 t

/-! ## The index maps over the grid: point t works on tile t % 10 of batch t / 10 -/

theorem idx0_0 : ∀ t : Fin cfg0.N, win0_0.index t (0 : Fin 3) = t.val / 10 ∧ win0_0.index t (1 : Fin 3) = t.val % 10 ∧ win0_0.index t (2 : Fin 3) = 0 :=
  (by decide +kernel : ∀ t : Fin grid0.N, _)
theorem idx0_1 : ∀ t : Fin cfg0.N, win0_1.index t (0 : Fin 3) = t.val / 10 ∧ win0_1.index t (1 : Fin 3) = 0 ∧ win0_1.index t (2 : Fin 3) = 0 :=
  (by decide +kernel : ∀ t : Fin grid0.N, _)
theorem idx0_2 : ∀ t : Fin cfg0.N, win0_2.index t (0 : Fin 3) = t.val / 10 ∧ win0_2.index t (1 : Fin 3) = t.val % 10 ∧ win0_2.index t (2 : Fin 3) = 0 :=
  (by decide +kernel : ∀ t : Fin grid0.N, _)
theorem idx0_3 : ∀ t : Fin cfg0.N, win0_3.index t (0 : Fin 3) = t.val / 10 ∧ win0_3.index t (1 : Fin 3) = 0 ∧ win0_3.index t (2 : Fin 3) = 0 :=
  (by decide +kernel : ∀ t : Fin grid0.N, _)

/-! ## The input blocks are the arrays read where the blocks' rectangles say -/

/-- Row r, coordinate k of the ground-truth block at point t is row 1000 (t % 10) + r of batch t / 10. -/
theorem gtBlk0_apply (c : Dev nD) (t : Fin cfg0.N) (r : Fin 1000) (k : Fin 3) (i : S8x10000x3.Idx)
    (h0 : (i 0).val = t.val / 10) (h1 : (i 1).val = 1000 * (t.val % 10) + r.val) (h2 : (i 2).val = k.val) :
    gtBlk0 V c t (ix3 0 r k) = gtArr0 V c i := by
  obtain ⟨e0, e1, e2⟩ := idx0_0 t
  unfold gtBlk0 iblk0
  rw [View.read_apply]
  show V c main_arg0 _ = V c main_arg0 i
  congr 1
  funext a
  apply Fin.ext
  match a with
  | ⟨0, _⟩ => show win0_0.index t (0 : Fin 3) * 1 + 1 * 0 = (i 0).val; rw [e0, h0]; omega
  | ⟨1, _⟩ => show win0_0.index t (1 : Fin 3) * 1000 + 1 * r.val = (i 1).val; rw [e1, h1]; omega
  | ⟨2, _⟩ => show win0_0.index t (2 : Fin 3) * 3 + 1 * k.val = (i 2).val; rw [e2, h2]; omega

/-- Rest point m, coordinate k of the rest-point block at point t is rest point m of batch t / 10. -/
theorem restBlk0_apply (c : Dev nD) (t : Fin cfg0.N) (m : Fin 156) (k : Fin 3) (i : S8x156x3.Idx)
    (h0 : (i 0).val = t.val / 10) (h1 : (i 1).val = m.val) (h2 : (i 2).val = k.val) :
    restBlk0 V c t (ix3 0 m k) = restArr0 V c i := by
  obtain ⟨e0, e1, e2⟩ := idx0_1 t
  unfold restBlk0 iblk0
  rw [View.read_apply]
  show V c main_arg7 _ = V c main_arg7 i
  congr 1
  funext a
  apply Fin.ext
  match a with
  | ⟨0, _⟩ => show win0_1.index t (0 : Fin 3) * 1 + 1 * 0 = (i 0).val; rw [e0, h0]; omega
  | ⟨1, _⟩ => show win0_1.index t (1 : Fin 3) * 156 + 1 * m.val = (i 1).val; rw [e1, h1]; omega
  | ⟨2, _⟩ => show win0_1.index t (2 : Fin 3) * 3 + 1 * k.val = (i 2).val; rw [e2, h2]; omega

/-! ## The first output's buffer after a point: the tile's row minima -/

theorem rows0_eq (c : Dev nD) (t : Fin cfg0.N) :
    (outsAt0 V c t.val t.isLt).1 = k0_pay3 (gtBlk0 V c t) (restBlk0 V c t) := by
  by_cases h0 : t.val % 10 = 0
  · rw [outsAt0_first V c t h0]
    dsimp only
    exact rowsFirst0_eq (F := Ideal) c (grid0.coords t) (ms0_0 t) (hs0_0 t) (ms0_1 t) (hs0_1 t) (ms0_2 t) (hs0_2 t) (ms0_3 t) (hs0_3 t) scM0 (Memref.isWhole_whole _) ((isFirst0_iff t).mpr h0) (notLater0_of h0) (notLast0_of (ne9_of_zero0 h0)) (gtBlk0 V c t) (restBlk0 V c t)
  · by_cases h9 : t.val % 10 = 9
    · rw [outsAt0_last V c t h0 h9]
      dsimp only
      exact rowsLast0_eq (F := Ideal) c (grid0.coords t) (ms0_0 t) (hs0_0 t) (ms0_1 t) (hs0_1 t) (ms0_2 t) (hs0_2 t) (ms0_3 t) (hs0_3 t) scM0 (Memref.isWhole_whole _) (notFirst0_of h0) ((isLater0_iff t).mpr h0) ((isLast0_iff t).mpr h9) (gtBlk0 V c t) (restBlk0 V c t) (outsAt0 V c (t.val - 1) (Nat.lt_of_le_of_lt (Nat.sub_le _ _) t.isLt)).2.2
    · rw [outsAt0_mid V c t h0 h9]
      dsimp only
      exact rowsMid0_eq (F := Ideal) c (grid0.coords t) (ms0_0 t) (hs0_0 t) (ms0_1 t) (hs0_1 t) (ms0_2 t) (hs0_2 t) (ms0_3 t) (hs0_3 t) scM0 (Memref.isWhole_whole _) (notFirst0_of h0) ((isLater0_iff t).mpr h0) (notLast0_of h9) (gtBlk0 V c t) (restBlk0 V c t) (outsAt0 V c (t.val - 1) (Nat.lt_of_le_of_lt (Nat.sub_le _ _) t.isLt)).2.2

/-- Row r of them is the row minimum of row 1000 (t % 10) + r of batch t / 10 against the batch's rest points. -/
theorem rowMin0_at (c : Dev nD) (t : Fin cfg0.N) (r : Fin 1000) (b : Fin 8) (n : Fin 10000)
    (hb : b.val = t.val / 10) (hn : n.val = 1000 * (t.val % 10) + r.val) :
    k0_pay3 (gtBlk0 V c t) (restBlk0 V c t) (ix3 0 r 0) = Cert.ChamferSpec.D1 wI0 wTwo0 (gtArr0 V c) (restArr0 V c) b n := by
  refine (pay3_apply _ _ r).trans ?_
  unfold Cert.ChamferSpec.D1
  exact Cert.ChamferSpec.rowMin_congr wI0 wTwo0 _ _ _ _ r n
    (fun k => gtBlk0_apply V c t r k (ix3 b n k) hb hn rfl)
    (fun m k => restBlk0_apply V c t m k (ix3 b m k) hb rfl rfl)

/-! ## The scratch after a point: the running column minimum of the batch's tiles so far -/

/-- The running column minimum of batch b after tile j, over the batch's 10 tiles of 1000 rows. -/
abbrev runAt0 (c : Dev nD) (b : Fin 8) (m : Fin 156) (j : ℕ) (hj : j < 10) : EReal :=
  Cert.ChamferSpec.runMin wI0 wTwo0 (J := 10) (T := 1000) (Cert.ChamferSpec.cur3 (gtArr0 V c) b) (Cert.ChamferSpec.cur3 (restArr0 V c) b) m j hj

/-- The column minimum the body takes over the tile at point t is the column minimum of tile t % 10 of batch t / 10. -/
theorem tile0_eq (c : Dev nD) (t : Fin cfg0.N) (b : Fin 8) (j : ℕ) (hj : j < 10) (hb : b.val = t.val / 10) (hjt : j = t.val % 10) (m : Fin 156) :
    (Finset.univ : Finset (Fin 1000)).fold min wI0 (fun r => Cert.ChamferSpec.dist wTwo0 (tileA (gtBlk0 V c t)) (restB (restBlk0 V c t)) r m)
      = Cert.ChamferSpec.tileColMin wI0 wTwo0 (J := 10) (T := 1000) (Cert.ChamferSpec.cur3 (gtArr0 V c) b) (Cert.ChamferSpec.cur3 (restArr0 V c) b) ⟨j, hj⟩ m :=
  Cert.ChamferSpec.tileColMin_of_block wI0 wTwo0 (J := 10) (T := 1000) (Cert.ChamferSpec.cur3 (gtArr0 V c) b) (Cert.ChamferSpec.cur3 (restArr0 V c) b)
    (tileA (gtBlk0 V c t)) (restB (restBlk0 V c t)) ⟨j, hj⟩ m m
    (fun r k => gtBlk0_apply V c t r k (ix3 b (Cert.ChamferSpec.tileRow (J := 10) (T := 1000) ⟨j, hj⟩ r) k) hb
      (by show 1000 * j + r.val = _; rw [hjt]) rfl)
    (fun k => restBlk0_apply V c t m k (ix3 b m k) hb rfl rfl)

theorem scratch0_eq (c : Dev nD) : ∀ (n : ℕ) (hn : n < cfg0.N) (m : Fin 156) (b : Fin 8) (j : ℕ) (hj : j < 10),
    b.val = n / 10 → j = n % 10 → (outsAt0 V c n hn).2.2 (ix3 0 m 0) = runAt0 V c b m j hj
  | 0, hn, m, b, j, hj, hb, hjn => by
    obtain rfl : j = 0 := hjn
    rw [outsAt0_first V c ⟨0, hn⟩ rfl]
    dsimp only
    refine (congrFun (accFirst0_eq (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((isFirst0_iff ⟨0, hn⟩).mpr rfl) (notLater0_of (t := ⟨0, hn⟩) rfl) (notLast0_of (t := ⟨0, hn⟩) (ne9_of_zero0 rfl)) (gtBlk0 V c ⟨0, hn⟩) (restBlk0 V c ⟨0, hn⟩)) (ix3 0 m 0)).trans ?_
    refine (pay5_apply _ _ m).trans ?_
    exact tile0_eq V c ⟨0, hn⟩ b 0 hj hb rfl m
  | n + 1, hn, m, b, j, hj, hb, hjn => by
    by_cases h0 : (n + 1) % 10 = 0
    · obtain rfl : j = 0 := hjn.trans h0
      rw [outsAt0_first V c ⟨n + 1, hn⟩ h0]
      dsimp only
      refine (congrFun (accFirst0_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((isFirst0_iff ⟨n + 1, hn⟩).mpr h0) (notLater0_of (t := ⟨n + 1, hn⟩) h0) (notLast0_of (t := ⟨n + 1, hn⟩) (ne9_of_zero0 h0)) (gtBlk0 V c ⟨n + 1, hn⟩) (restBlk0 V c ⟨n + 1, hn⟩)) (ix3 0 m 0)).trans ?_
      refine (pay5_apply _ _ m).trans ?_
      exact tile0_eq V c ⟨n + 1, hn⟩ b 0 hj hb h0.symm m
    · obtain ⟨j', rfl⟩ : ∃ j', j = j' + 1 := ⟨j - 1, by omega⟩
      have ih := scratch0_eq c n (Nat.lt_of_succ_lt hn) m b j' (Nat.lt_of_succ_lt hj) (by omega) (by omega)
      by_cases h9 : (n + 1) % 10 = 9
      · rw [outsAt0_last V c ⟨n + 1, hn⟩ h0 h9]
        dsimp only
        refine (congrFun (accLast0_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (notFirst0_of (t := ⟨n + 1, hn⟩) h0) ((isLater0_iff ⟨n + 1, hn⟩).mpr h0) ((isLast0_iff ⟨n + 1, hn⟩).mpr h9) (gtBlk0 V c ⟨n + 1, hn⟩) (restBlk0 V c ⟨n + 1, hn⟩) (outsAt0 V c n (Nat.lt_of_succ_lt hn)).2.2) (ix3 0 m 0)).trans ?_
        refine (pay6_apply _ _ _ m).trans ?_
        exact (congrArg₂ min ih (tile0_eq V c ⟨n + 1, hn⟩ b (j' + 1) hj hb hjn m)).trans
          (Cert.ChamferSpec.runMin_succ wI0 wTwo0 (J := 10) (T := 1000) _ _ m j' hj).symm
      · rw [outsAt0_mid V c ⟨n + 1, hn⟩ h0 h9]
        dsimp only
        refine (congrFun (accMid0_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (notFirst0_of (t := ⟨n + 1, hn⟩) h0) ((isLater0_iff ⟨n + 1, hn⟩).mpr h0) (notLast0_of (t := ⟨n + 1, hn⟩) h9) (gtBlk0 V c ⟨n + 1, hn⟩) (restBlk0 V c ⟨n + 1, hn⟩) (outsAt0 V c n (Nat.lt_of_succ_lt hn)).2.2) (ix3 0 m 0)).trans ?_
        refine (pay6_apply _ _ _ m).trans ?_
        exact (congrArg₂ min ih (tile0_eq V c ⟨n + 1, hn⟩ b (j' + 1) hj hb hjn m)).trans
          (Cert.ChamferSpec.runMin_succ wI0 wTwo0 (J := 10) (T := 1000) _ _ m j' hj).symm

/-! ## From blocks to the arrays -/

/-- The row minima of every batch, as contents of the first output array. -/
abbrev d1Arr0 (c : Dev nD) : Vec Ideal S8x10000x1 .f32 :=
  fun j => Cert.ChamferSpec.D1 wI0 wTwo0 (gtArr0 V c) (restArr0 V c) (j 0) (j 1)
/-- The column minima of every batch, as contents of the second output array. -/
abbrev d2Arr0 (c : Dev nD) : Vec Ideal S8x156x1 .f32 :=
  fun j => Cert.ChamferSpec.D2 wI0 wTwo0 (gtArr0 V c) (restArr0 V c) (j 0) (j 1)

/-- What point t writes back into the first output array is its block of the row minima. -/
theorem flushed0_2_eq (c : Dev nD) (t : Fin cfg0.N) :
    (dat0 V c).flushed 2 t = ((cfg0.win 2).blk t).view.read (Elt Ideal) (d1Arr0 V c) := by
  show (cfg0.win 2).cut (grid0.coords t) ((dat0 V c).after 2 t) = _
  rw [after0_2, rows0_eq]
  obtain ⟨e0, e1, e2⟩ := idx0_2 t
  funext y
  rw [View.read_apply]
  have h0 : (y 0).val < 1 := (y 0).isLt
  have h1 : (y 1).val < 1000 := (y 1).isLt
  have h2 : (y 2).val < 1 := (y 2).isLt
  have hx : (cfg0.win 2).xinj (grid0.coords t) y = ix3 (0 : Fin 1) (⟨(y 1).val, h1⟩ : Fin 1000) (0 : Fin 1) := by
    funext a
    apply Fin.ext
    match a with
    | ⟨0, _⟩ => show (y 0).val = 0; omega
    | ⟨1, _⟩ => rfl
    | ⟨2, _⟩ => show (y 2).val = 0; omega
  show k0_pay3 (gtBlk0 V c t) (restBlk0 V c t) ((cfg0.win 2).xinj (grid0.coords t) y) = d1Arr0 V c (((cfg0.win 2).blk t).view.emb y)
  rw [hx]
  exact rowMin0_at V c t ⟨(y 1).val, h1⟩ _ _
    (by show win0_2.index t (0 : Fin 3) * 1 + 1 * (y 0).val = t.val / 10; rw [e0]; omega)
    (by show win0_2.index t (1 : Fin 3) * 1000 + 1 * (y 1).val = 1000 * (t.val % 10) + (y 1).val; rw [e1]; omega)

/-- An index of the first output array is in point t's block iff each coordinate is in the block's range on its axis. -/
theorem mem_blk0_2 (t : Fin cfg0.N) (i : S8x10000x1.Idx) :
    i ∈ ((cfg0.win 2).blk t).view.set ↔ ∀ a : Fin 3, win0_2.index t a * S1x1000x1.size a ≤ (i a).val ∧ (i a).val < win0_2.index t a * S1x1000x1.size a + S1x1000x1.size a := by
  show i ∈ ((View.whole main_v0_0).slice (win0_2.rect t)).set ↔ _
  rw [View.set_slice_whole, Rect.mem_set_unit]
  exact Iff.rfl

/-- Row n of batch b is covered by the point of tile n / 1000 of that batch. -/
theorem cover0_2 (i : S8x10000x1.Idx) : ∃ t : Fin cfg0.N, (cfg0.win 2).flush t = true ∧ i ∈ ((cfg0.win 2).blk t).view.set := by
  have hN : cfg0.N = 80 := N_0
  have h0 : (i 0).val < 8 := (i 0).isLt
  have h1 : (i 1).val < 10000 := (i 1).isLt
  have h2 : (i 2).val < 1 := (i 2).isLt
  have ht : 10 * (i 0).val + (i 1).val / 1000 < cfg0.N := by rw [hN]; omega
  refine ⟨⟨10 * (i 0).val + (i 1).val / 1000, ht⟩, flush0_2 _, ?_⟩
  obtain ⟨e0, e1, e2⟩ := idx0_2 ⟨10 * (i 0).val + (i 1).val / 1000, ht⟩
  rw [mem_blk0_2]
  intro a
  match a with
  | ⟨0, _⟩ =>
    show win0_2.index _ (0 : Fin 3) * 1 ≤ (i 0).val ∧ (i 0).val < win0_2.index _ (0 : Fin 3) * 1 + 1
    rw [e0]; dsimp only; omega
  | ⟨1, _⟩ =>
    show win0_2.index _ (1 : Fin 3) * 1000 ≤ (i 1).val ∧ (i 1).val < win0_2.index _ (1 : Fin 3) * 1000 + 1000
    rw [e1]; dsimp only; omega
  | ⟨2, _⟩ =>
    show win0_2.index _ (2 : Fin 3) * 1 ≤ (i 2).val ∧ (i 2).val < win0_2.index _ (2 : Fin 3) * 1 + 1
    rw [e2]; omega

/-- The first output array after the region: the row minima of every batch. -/
theorem d1_array0 (c : Dev nD) : (dat0 V c).arrAt 2 cfg0.N = fun j => Cert.ChamferSpec.D1 wI0 wTwo0 (V c main_arg0) (V c main_arg7) (j 0) (j 1) :=
  (dat0 V c).arrAt_eq_of_cover 2 (d1Arr0 V c) (fun t _ => flushed0_2_eq V c t) cover0_2

/-- At a last tile the second output's buffer holds what the scratch holds. -/
theorem cols0_eq (c : Dev nD) (t : Fin cfg0.N) (h9 : t.val % 10 = 9) :
    (outsAt0 V c t.val t.isLt).2.1 = (outsAt0 V c t.val t.isLt).2.2 := by
  have h0 : ¬t.val % 10 = 0 := ne0_of_nine0 h9
  rw [outsAt0_last V c t h0 h9]
  dsimp only
  rw [colsLast0_eq (F := Ideal) c (grid0.coords t) (ms0_0 t) (hs0_0 t) (ms0_1 t) (hs0_1 t) (ms0_2 t) (hs0_2 t) (ms0_3 t) (hs0_3 t) scM0 (Memref.isWhole_whole _) (notFirst0_of h0) ((isLater0_iff t).mpr h0) ((isLast0_iff t).mpr h9) (gtBlk0 V c t) (restBlk0 V c t) (outsAt0 V c (t.val - 1) (Nat.lt_of_le_of_lt (Nat.sub_le _ _) t.isLt)).2.2,
    accLast0_eq (F := Ideal) c (grid0.coords t) (ms0_0 t) (hs0_0 t) (ms0_1 t) (hs0_1 t) (ms0_2 t) (hs0_2 t) (ms0_3 t) (hs0_3 t) scM0 (Memref.isWhole_whole _) (notFirst0_of h0) ((isLater0_iff t).mpr h0) ((isLast0_iff t).mpr h9) (gtBlk0 V c t) (restBlk0 V c t) (outsAt0 V c (t.val - 1) (Nat.lt_of_le_of_lt (Nat.sub_le _ _) t.isLt)).2.2,
    pay1_eq]

/-- What a last tile's point writes back into the second output array is its block of the column minima: the running
    minimum after the batch's last tile is the minimum over all the batch's rows. -/
theorem flushed0_3_eq (c : Dev nD) (t : Fin cfg0.N) (hf : (cfg0.win 3).flush t = true) :
    (dat0 V c).flushed 3 t = ((cfg0.win 3).blk t).view.read (Elt Ideal) (d2Arr0 V c) := by
  have h9 : t.val % 10 = 9 := (flush0_3 t).mp hf
  show (cfg0.win 3).cut (grid0.coords t) ((dat0 V c).after 3 t) = _
  rw [after0_3, cols0_eq V c t h9]
  obtain ⟨e0, e1, e2⟩ := idx0_3 t
  funext y
  rw [View.read_apply]
  have hN : cfg0.N = 80 := N_0
  have h0 : (y 0).val < 1 := (y 0).isLt
  have h1 : (y 1).val < 156 := (y 1).isLt
  have h2 : (y 2).val < 1 := (y 2).isLt
  have hb : t.val / 10 < 8 := by have := t.isLt; omega
  have hx : (cfg0.win 3).xinj (grid0.coords t) y = ix3 (0 : Fin 1) (⟨(y 1).val, h1⟩ : Fin 156) (0 : Fin 1) := by
    funext a
    apply Fin.ext
    match a with
    | ⟨0, _⟩ => show (y 0).val = 0; omega
    | ⟨1, _⟩ => rfl
    | ⟨2, _⟩ => show (y 2).val = 0; omega
  have hi : ((cfg0.win 3).blk t).view.emb y = ix3 (⟨t.val / 10, hb⟩ : Fin 8) (⟨(y 1).val, h1⟩ : Fin 156) (0 : Fin 1) := by
    funext a
    apply Fin.ext
    match a with
    | ⟨0, _⟩ => show win0_3.index t (0 : Fin 3) * 1 + 1 * (y 0).val = t.val / 10; rw [e0]; omega
    | ⟨1, _⟩ => show win0_3.index t (1 : Fin 3) * 156 + 1 * (y 1).val = (y 1).val; rw [e1]; omega
    | ⟨2, _⟩ => show win0_3.index t (2 : Fin 3) * 1 + 1 * (y 2).val = 0; rw [e2]; omega
  show (outsAt0 V c t.val t.isLt).2.2 ((cfg0.win 3).xinj (grid0.coords t) y) = d2Arr0 V c (((cfg0.win 3).blk t).view.emb y)
  rw [hx, hi]
  refine (scratch0_eq V c t.val t.isLt ⟨(y 1).val, h1⟩ ⟨t.val / 10, hb⟩ 9 (by decide) rfl h9.symm).trans ?_
  exact Cert.ChamferSpec.colMin_tiles wI0 wTwo0 (J := 10) (T := 1000) _ _ ⟨(y 1).val, h1⟩ 9 (by decide) rfl

/-- An index of the second output array is in point t's block iff each coordinate is in the block's range on its axis. -/
theorem mem_blk0_3 (t : Fin cfg0.N) (i : S8x156x1.Idx) :
    i ∈ ((cfg0.win 3).blk t).view.set ↔ ∀ a : Fin 3, win0_3.index t a * S1x156x1.size a ≤ (i a).val ∧ (i a).val < win0_3.index t a * S1x156x1.size a + S1x156x1.size a := by
  show i ∈ ((View.whole main_v0_1).slice (win0_3.rect t)).set ↔ _
  rw [View.set_slice_whole, Rect.mem_set_unit]
  exact Iff.rfl

/-- Batch b's column minima are covered by the point of the batch's last tile. -/
theorem cover0_3 (i : S8x156x1.Idx) : ∃ t : Fin cfg0.N, (cfg0.win 3).flush t = true ∧ i ∈ ((cfg0.win 3).blk t).view.set := by
  have hN : cfg0.N = 80 := N_0
  have h0 : (i 0).val < 8 := (i 0).isLt
  have h1 : (i 1).val < 156 := (i 1).isLt
  have h2 : (i 2).val < 1 := (i 2).isLt
  have ht : 10 * (i 0).val + 9 < cfg0.N := by rw [hN]; omega
  refine ⟨⟨10 * (i 0).val + 9, ht⟩, (flush0_3 _).mpr (by show (10 * (i 0).val + 9) % 10 = 9; omega), ?_⟩
  obtain ⟨e0, e1, e2⟩ := idx0_3 ⟨10 * (i 0).val + 9, ht⟩
  rw [mem_blk0_3]
  intro a
  match a with
  | ⟨0, _⟩ =>
    show win0_3.index _ (0 : Fin 3) * 1 ≤ (i 0).val ∧ (i 0).val < win0_3.index _ (0 : Fin 3) * 1 + 1
    rw [e0]; dsimp only; omega
  | ⟨1, _⟩ =>
    show win0_3.index _ (1 : Fin 3) * 156 ≤ (i 1).val ∧ (i 1).val < win0_3.index _ (1 : Fin 3) * 156 + 156
    rw [e1]; omega
  | ⟨2, _⟩ =>
    show win0_3.index _ (2 : Fin 3) * 1 ≤ (i 2).val ∧ (i 2).val < win0_3.index _ (2 : Fin 3) * 1 + 1
    rw [e2]; omega

/-- The second output array after the region: the column minima of every batch. -/
theorem d2_array0 (c : Dev nD) : (dat0 V c).arrAt 3 cfg0.N = fun j => Cert.ChamferSpec.D2 wI0 wTwo0 (V c main_arg0) (V c main_arg7) (j 0) (j 1) :=
  (dat0 V c).arrAt_eq_of_cover 3 (d2Arr0 V c) (flushed0_3_eq V c) cover0_3

end Cert.KernelIdeal.Chamfer

end
-- ==== Proof.KI.Chamfer1Pieces.lean ====
/-
  Region 1: the pieces each case of the body leaves, opened. Every store of the body covers its whole buffer, so a
  buffer read back after a case is the payload of its last store; a load of a whole input buffer is the buffer's
  contents. Hence the row minima are `k1_pay3` of the two input blocks, the scratch after a first tile is `k1_pay5`
  of them, after a later tile `k1_pay6` of them and the scratch's old contents, and the column minima a last tile
  copies out are `k1_pay1` of the scratch it has just stored.
-/
import Idealize.ShloMosaic.Lib.Pipeline.Value
import proofs.«112199_j59459527246412_1_alg».proof.Proof.KI.Chamfer1Points

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every load and store of the body are zero. -/
theorem hz3_1 : (![0, 0, 0] : Fin 3 → Nat) = fun _ => 0 := funext fun a => by fin_cases a <;> rfl

/-- A first tile's row minima: the one store of the first output's buffer covers it, and its payload is `k1_pay3` of
    the two input buffers read whole. -/
theorem rowsFirst1_eq (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : isFirst1 i) (hB : ¬isLater1 i) (hC : ¬isLast1 i)
    (x0 : Vec F S1x1000x3 .f32) (x1 : Vec F S1x618x3 .f32) :
    rowsFirst1 c i arg2 harg2 arg3 harg3 arg4 harg4 arg5 harg5 arg6 harg6 hA hB hC x0 x1 = k1_pay3 x0 x1 := by
  unfold rowsFirst1
  rw [View.read_writes_eq_canon _ _ _ (rowsFirst1_cover c i arg2 harg2 arg3 harg3 arg4 harg4 arg5 harg5 arg6 harg6 hA hB hC x0 x1)]
  unfold runFirst1
  dsimp only
  sl_unfold_words
  rw [View.canon_unit_zero (S := S1x1000x1) hz3_1]
  simp only [View.readAt_eq_ld, harg2.read_unread, harg3.read_unread, View.ld_unit_zero (S := S1x1000x3) hz3_1, View.ld_unit_zero (S := S1x618x3) hz3_1]

/-- The scratch after a first tile: the reset store covers it, with payload `k1_pay5` of the two input buffers. -/
theorem accFirst1_eq (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : isFirst1 i) (hB : ¬isLater1 i) (hC : ¬isLast1 i)
    (x0 : Vec F S1x1000x3 .f32) (x1 : Vec F S1x618x3 .f32) :
    accFirst1 c i arg2 harg2 arg3 harg3 arg4 harg4 arg5 harg5 arg6 harg6 hA hB hC x0 x1 = k1_pay5 x0 x1 := by
  unfold accFirst1
  rw [View.read_writes_eq_canon _ _ _ (accFirst1_cover c i arg2 harg2 arg3 harg3 arg4 harg4 arg5 harg5 arg6 harg6 hA hB hC x0 x1)]
  unfold runFirst1
  dsimp only
  sl_unfold_words
  rw [View.canon_unit_zero (S := S1x618x1) hz3_1]
  simp only [View.readAt_eq_ld, harg2.read_unread, harg3.read_unread, View.ld_unit_zero (S := S1x1000x3) hz3_1, View.ld_unit_zero (S := S1x618x3) hz3_1]

/-- A middle tile's row minima: as at a first tile. -/
theorem rowsMid1_eq (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : ¬isFirst1 i) (hB : isLater1 i) (hC : ¬isLast1 i)
    (x0 : Vec F S1x1000x3 .f32) (x1 : Vec F S1x618x3 .f32) (xs : Vec F S1x618x1 .f32) :
    rowsMid1 c i arg2 harg2 arg3 harg3 arg4 harg4 arg5 harg5 arg6 harg6 hA hB hC x0 x1 xs = k1_pay3 x0 x1 := by
  unfold rowsMid1
  rw [View.read_writes_eq_canon _ _ _ (rowsMid1_cover c i arg2 harg2 arg3 harg3 arg4 harg4 arg5 harg5 arg6 harg6 hA hB hC x0 x1 xs)]
  unfold runMid1
  dsimp only
  sl_unfold_words
  rw [View.canon_unit_zero (S := S1x1000x1) hz3_1]
  simp only [View.readAt_eq_ld, harg2.read_unread, harg3.read_unread, View.ld_unit_zero (S := S1x1000x3) hz3_1, View.ld_unit_zero (S := S1x618x3) hz3_1]

/-- The scratch after a middle tile: the update store covers it, with payload `k1_pay6` of the two input buffers and
    of the scratch's old contents, loaded whole before the store. -/
theorem accMid1_eq (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : ¬isFirst1 i) (hB : isLater1 i) (hC : ¬isLast1 i)
    (x0 : Vec F S1x1000x3 .f32) (x1 : Vec F S1x618x3 .f32) (xs : Vec F S1x618x1 .f32) :
    accMid1 c i arg2 harg2 arg3 harg3 arg4 harg4 arg5 harg5 arg6 harg6 hA hB hC x0 x1 xs = k1_pay6 x0 x1 xs := by
  unfold accMid1
  rw [View.read_writes_eq_canon _ _ _ (accMid1_cover c i arg2 harg2 arg3 harg3 arg4 harg4 arg5 harg5 arg6 harg6 hA hB hC x0 x1 xs)]
  unfold runMid1
  dsimp only
  sl_unfold_words
  rw [View.canon_unit_zero (S := S1x618x1) hz3_1]
  simp only [View.readAt_eq_ld, harg2.read_unread, harg3.read_unread, View.ld_unit_zero (S := S1x1000x3) hz3_1, View.ld_unit_zero (S := S1x618x3) hz3_1, harg6.read_unread, View.ld_unit_zero (S := S1x618x1) hz3_1]

/-- A last tile's row minima: as at a first tile. -/
theorem rowsLast1_eq (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : ¬isFirst1 i) (hB : isLater1 i) (hC : isLast1 i)
    (x0 : Vec F S1x1000x3 .f32) (x1 : Vec F S1x618x3 .f32) (xs : Vec F S1x618x1 .f32) :
    rowsLast1 c i arg2 harg2 arg3 harg3 arg4 harg4 arg5 harg5 arg6 harg6 hA hB hC x0 x1 xs = k1_pay3 x0 x1 := by
  unfold rowsLast1
  rw [View.read_writes_eq_canon _ _ _ (rowsLast1_cover c i arg2 harg2 arg3 harg3 arg4 harg4 arg5 harg5 arg6 harg6 hA hB hC x0 x1 xs)]
  unfold runLast1
  dsimp only
  sl_unfold_words
  rw [View.canon_unit_zero (S := S1x1000x1) hz3_1]
  simp only [View.readAt_eq_ld, harg2.read_unread, harg3.read_unread, View.ld_unit_zero (S := S1x1000x3) hz3_1, View.ld_unit_zero (S := S1x618x3) hz3_1]

/-- The scratch after a last tile: as after a middle tile. -/
theorem accLast1_eq (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : ¬isFirst1 i) (hB : isLater1 i) (hC : isLast1 i)
    (x0 : Vec F S1x1000x3 .f32) (x1 : Vec F S1x618x3 .f32) (xs : Vec F S1x618x1 .f32) :
    accLast1 c i arg2 harg2 arg3 harg3 arg4 harg4 arg5 harg5 arg6 harg6 hA hB hC x0 x1 xs = k1_pay6 x0 x1 xs := by
  unfold accLast1
  rw [View.read_writes_eq_canon _ _ _ (accLast1_cover c i arg2 harg2 arg3 harg3 arg4 harg4 arg5 harg5 arg6 harg6 hA hB hC x0 x1 xs)]
  unfold runLast1
  dsimp only
  sl_unfold_words
  rw [View.canon_unit_zero (S := S1x618x1) hz3_1]
  simp only [View.readAt_eq_ld, harg2.read_unread, harg3.read_unread, View.ld_unit_zero (S := S1x1000x3) hz3_1, View.ld_unit_zero (S := S1x618x3) hz3_1, harg6.read_unread, View.ld_unit_zero (S := S1x618x1) hz3_1]

/-- The column minima a last tile copies out: the one store of the second output's buffer covers it, and its payload
    is `k1_pay1` of the scratch loaded whole after the update store, which reads that store's payload. -/
theorem colsLast1_eq (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : ¬isFirst1 i) (hB : isLater1 i) (hC : isLast1 i)
    (x0 : Vec F S1x1000x3 .f32) (x1 : Vec F S1x618x3 .f32) (xs : Vec F S1x618x1 .f32) :
    colsLast1 c i arg2 harg2 arg3 harg3 arg4 harg4 arg5 harg5 arg6 harg6 hA hB hC x0 x1 xs = k1_pay1 (k1_pay6 x0 x1 xs) := by
  unfold colsLast1
  rw [View.read_writes_eq_canon _ _ _ (colsLast1_cover c i arg2 harg2 arg3 harg3 arg4 harg4 arg5 harg5 arg6 harg6 hA hB hC x0 x1 xs)]
  unfold runLast1
  dsimp only
  sl_unfold_words
  rw [View.canon_unit_zero (S := S1x618x1) hz3_1]
  simp only [View.readCov_unit_zero (S := S1x618x1) _ hz3_1, View.readAt_eq_ld, harg2.read_unread, harg3.read_unread, View.ld_unit_zero (S := S1x1000x3) hz3_1, View.ld_unit_zero (S := S1x618x3) hz3_1, harg6.read_unread, View.ld_unit_zero (S := S1x618x1) hz3_1]

end Cert.KernelIdeal.Chamfer

end
-- ==== Proof.KI.Payload1.lean ====
/-
  The arithmetic of one tile of region 1, read element by element on the extended reals.
  The body forms, for the 1000 rows `a` of a tile of ground-truth points and the 618 rest points `b` of the batch,
  the matrix of expanded squared distances (|a|² + |b|²) − 2 (a · b): |a|² and |b|² are sums over the three
  coordinates taken along the rows of the squared operands, a · b is the product of the tile with the transposed rest
  points, and the three are brought to the matrix's shape by casts and broadcasts that move no value. Read at row
  `r` and column `m` the matrix is `ChamferSpec.dist` of row `r` and rest point `m` (`pay2_apply1`). Its minimum
  along a row is the fold of `min` over the rest points, from the starting word: the row minimum the body stores
  (`pay3_apply1`). Its minimum along a column is the fold of `min` over the tile's rows: what a first tile stores as the
  running column minimum (`pay5_apply1`), and what a later tile takes the lesser of with the minimum so far
  (`pay6_apply1`). The copy out at the last tile casts the running minimum to a column and back, which is the identity
  (`pay1_eq1`). The two words (the starting word of a minimum, the factor of the product) are never evaluated; only
  the zero word the product accumulates into is, as the extended real 0.
-/
import proofs.«112199_j59459527246412_1_alg».proof.Proof.Gen.KernelIdeal.Skeleton
import proofs.«112199_j59459527246412_1_alg».proof.Proof.ChamferSpec
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.KernelIdeal.Chamfer

open Cert.KernelIdeal Cert.KernelIdeal.Gen Idealize.ShloMosaic Idealize.ShloMosaic.ValueIdx
open scoped BigOperators

/-! ## Layout operations on a column, read at coordinates -/

/-- A vector `[a]` cast to the column `[a, 1]` reads, at `(i, u)`, the operand at `i`. -/
theorem shapeCast_a_a1_apply1 {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply1 {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Reductions of a matrix along one axis, read at coordinates -/

/-- The sum along the rows of an `[a, b]` matrix, at row `r`, is the sum of that row's entries. -/
theorem rowSum_apply1 {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext c
  match c with
  | ⟨0, _⟩ => rfl
  | ⟨1, _⟩ => rfl

/-- The minimum along the rows of an `[a, b]` matrix, at row `r`: the fold of `min` over that row. -/
theorem rowMinimum_apply1 {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.minimumf.neutral .f32 hφ) (r : Fin a) :
    multiReduction .minimumf [1] ⟨1, ![a]⟩ src acc h hφ hacc (ix1 r)
      = (Finset.univ : Finset (Fin b)).fold min (Ideal.ofBits .f32 acc) (fun m => src (ix2 r m)) := by
  refine (multiReduction_minimumf_eq_fold src acc h hφ hacc (ix1 r)).trans ?_
  refine (h.fold_filter_drop_single _ _ src (ix1 r)).trans ?_
  show (Finset.univ : Finset (Fin b)).fold min (Ideal.ofBits .f32 acc) (src ∘ h.lift (ix1 r)) = _
  refine congrArg (fun f => (Finset.univ : Finset (Fin b)).fold min (Ideal.ofBits .f32 acc) f) (funext fun m => ?_)
  show src (h.lift (ix1 r) m) = src (ix2 r m)
  refine congrArg src ?_
  funext c
  match c with
  | ⟨0, _⟩ => rfl
  | ⟨1, _⟩ => rfl

/-- The minimum along the columns of an `[a, b]` matrix, at column `m`: the fold of `min` over that column. -/
theorem colMinimum_apply1 {a b : ℕ} (src : FVec Ideal ⟨2, ![a, b]⟩ .f32) (acc : BitVec 32)
    (h : (⟨2, ![a, b]⟩ : Shape).Reduces [0] ⟨1, ![b]⟩) (hφ : FKind.Formats .f32)
    (hacc : acc = FKind.minimumf.neutral .f32 hφ) (m : Fin b) :
    multiReduction .minimumf [0] ⟨1, ![b]⟩ src acc h hφ hacc (ix1 m)
      = (Finset.univ : Finset (Fin a)).fold min (Ideal.ofBits .f32 acc) (fun r => src (ix2 r m)) := by
  refine (multiReduction_minimumf_eq_fold src acc h hφ hacc (ix1 m)).trans ?_
  refine (h.fold_filter_drop_single _ _ src (ix1 m)).trans ?_
  show (Finset.univ : Finset (Fin a)).fold min (Ideal.ofBits .f32 acc) (src ∘ h.lift (ix1 m)) = _
  refine congrArg (fun f => (Finset.univ : Finset (Fin a)).fold min (Ideal.ofBits .f32 acc) f) (funext fun r => ?_)
  show src (h.lift (ix1 m) r) = src (ix2 r m)
  refine congrArg src ?_
  funext c
  match c with
  | ⟨0, _⟩ => rfl
  | ⟨1, _⟩ => rfl

/-! ## The product of the tile with the transposed rest points, read at coordinates -/

theorem lhs_tileDot_01 (i : S1000x618.Idx) (q : dot_S1000x3_S3x618_S1000x618_1_0_0_1_n_n.contr.Idx) :
    (dot_S1000x3_S3x618_S1000x618_1_0_0_1_n_n.lhsIdx i q 0).val = (i 0).val := by
  unfold DotDims.lhsIdx
  rw [dif_neg (show ¬(0 : Fin S1000x3.rank) ∈ dot_S1000x3_S3x618_S1000x618_1_0_0_1_n_n.lhsBatch by decide), dif_pos (show (0 : Fin S1000x3.rank) ∈ dot_S1000x3_S3x618_S1000x618_1_0_0_1_n_n.lhsNonContracting by decide)]
  rfl
theorem lhs_tileDot_11 (i : S1000x618.Idx) (q : dot_S1000x3_S3x618_S1000x618_1_0_0_1_n_n.contr.Idx) :
    (dot_S1000x3_S3x618_S1000x618_1_0_0_1_n_n.lhsIdx i q 1).val = (q ⟨0, by decide⟩).val :=
  dot_S1000x3_S3x618_S1000x618_1_0_0_1_n_n.lhsIdx_val_of_single rfl i q
theorem rhs_tileDot_01 (i : S1000x618.Idx) (q : dot_S1000x3_S3x618_S1000x618_1_0_0_1_n_n.contr.Idx) :
    (dot_S1000x3_S3x618_S1000x618_1_0_0_1_n_n.rhsIdx i q 0).val = (q ⟨0, by decide⟩).val :=
  dot_S1000x3_S3x618_S1000x618_1_0_0_1_n_n.rhsIdx_val_of_single rfl i q
theorem rhs_tileDot_11 (i : S1000x618.Idx) (q : dot_S1000x3_S3x618_S1000x618_1_0_0_1_n_n.contr.Idx) :
    (dot_S1000x3_S3x618_S1000x618_1_0_0_1_n_n.rhsIdx i q 1).val = (i 1).val := by
  unfold DotDims.rhsIdx
  rw [dif_neg (show ¬(1 : Fin S3x618.rank) ∈ dot_S1000x3_S3x618_S1000x618_1_0_0_1_n_n.rhsBatch by decide), dif_pos (show (1 : Fin S3x618.rank) ∈ dot_S1000x3_S3x618_S1000x618_1_0_0_1_n_n.rhsNonContracting by decide)]
  rfl

/-- The product into a zero accumulator, at `(r, m)`: the sum over the three coordinates of the
    left operand's row `r` times the right operand's column `m`. -/
theorem tileDot_apply1 (u : FVec Ideal S1000x3 .f32) (w : FVec Ideal S3x618 .f32) (r : Fin 1000) (m : Fin 618) :
    matmul dot_S1000x3_S3x618_S1000x618_1_0_0_1_n_n none u w (constant (F := Ideal) S1000x618 .f32 0x00000000#32) (ix2 r m)
      = ∑ k : Fin 3, u (ix2 r k) * w (ix2 k m) := by
  refine (Ideal.matmul_constant_zero_apply dot_S1000x3_S3x618_S1000x618_1_0_0_1_n_n none u w (ix2 r m)).trans ?_
  rw [← Equiv.sum_comp (contrEquiv1 dot_S1000x3_S3x618_S1000x618_1_0_0_1_n_n 3 rfl rfl).symm]
  refine Finset.sum_congr rfl fun k _ => ?_
  have hk := contrEquiv1_symm_val dot_S1000x3_S3x618_S1000x618_1_0_0_1_n_n 3 rfl rfl k
  have el : dot_S1000x3_S3x618_S1000x618_1_0_0_1_n_n.lhsIdx (ix2 r m) ((contrEquiv1 dot_S1000x3_S3x618_S1000x618_1_0_0_1_n_n 3 rfl rfl).symm k) = ix2 r k := funext fun a => Fin.ext (by
    match a with
    | ⟨0, _⟩ => exact lhs_tileDot_01 _ _
    | ⟨1, _⟩ => exact (lhs_tileDot_11 _ _).trans hk)
  have er : dot_S1000x3_S3x618_S1000x618_1_0_0_1_n_n.rhsIdx (ix2 r m) ((contrEquiv1 dot_S1000x3_S3x618_S1000x618_1_0_0_1_n_n 3 rfl rfl).symm k) = ix2 k m := funext fun a => Fin.ext (by
    match a with
    | ⟨0, _⟩ => exact (rhs_tileDot_01 _ _).trans hk
    | ⟨1, _⟩ => exact rhs_tileDot_11 _ _)
  rw [el, er]

/-! ## The payloads of region 1 -/

/-- The tile of ground-truth points the body loads, by row and coordinate. -/
abbrev tileA1 (x0 : Vec Ideal S1x1000x3 .f32) : Fin 1000 → Fin 3 → EReal := fun r k => x0 (ix3 0 r k)
/-- The batch's rest points, by point and coordinate. -/
abbrev restB1 (x1 : Vec Ideal S1x618x3 .f32) : Fin 618 → Fin 3 → EReal := fun m k => x1 (ix3 0 m k)

/-- The distance matrix at `(r, m)` is the expanded squared distance between row `r` of the tile and rest point `m`. -/
theorem pay2_apply1 (x0 : Vec Ideal S1x1000x3 .f32) (x1 : Vec Ideal S1x618x3 .f32) (r : Fin 1000) (m : Fin 618) :
    k1_pay2 x0 x1 (ix2 r m)
      = Cert.ChamferSpec.dist (Ideal.ofBits .f32 0x40000000#32) (tileA1 x0) (restB1 x1) r m := by
  unfold k1_pay2 Cert.ChamferSpec.dist
  dsimp only
  rw [subf_apply, addf_apply, mulf_apply, broadcast_apply]
  refine congrArg₂ (· - ·) (congrArg₂ (· + ·) ?_ ?_) (congrArg₂ (· * ·) rfl ?_)
  · -- |a|²: the column of row sums, broadcast along the row
    refine (broadcastTo_a1_ab_apply1 _ _ r m).trans ?_
    refine (shapeCast_a_a1_apply1 _ _ r 0).trans ?_
    refine (rowSum_apply1 _ _ _ _ _ r).trans ?_
    refine Finset.sum_congr rfl fun k _ => ?_
    rw [mulf_apply, shapeCast_1ab_ab_apply]
  · -- |b|²: the row of the rest points' sums, broadcast down the column
    refine (broadcastTo_1b_ab_apply _ _ r m).trans ?_
    refine (shapeCast_a_1a_apply _ _ 0 m).trans ?_
    refine (rowSum_apply1 _ _ _ _ _ m).trans ?_
    refine Finset.sum_congr rfl fun k _ => ?_
    rw [mulf_apply, shapeCast_1ab_ab_apply]
  · -- a · b: the product with the transposed rest points
    refine (tileDot_apply1 _ _ r m).trans ?_
    refine Finset.sum_congr rfl fun k _ => ?_
    rw [shapeCast_1ab_ab_apply, transpose_ix2_apply, shapeCast_1ab_ab_apply]

/-- The tile's column minima, as a column: at `(m, u)` the fold of `min` over the tile's rows of the distances to rest point `m`. -/
theorem pay4_apply1 (x0 : Vec Ideal S1x1000x3 .f32) (x1 : Vec Ideal S1x618x3 .f32) (m : Fin 618) (u : Fin 1) :
    k1_pay4 x0 x1 (ix2 m u)
      = (Finset.univ : Finset (Fin 1000)).fold min (Ideal.ofBits .f32 0x7F800000#32)
          (fun r => Cert.ChamferSpec.dist (Ideal.ofBits .f32 0x40000000#32) (tileA1 x0) (restB1 x1) r m) := by
  unfold k1_pay4
  dsimp only
  refine (shapeCast_a_a1_apply1 _ _ m u).trans ?_
  refine (colMinimum_apply1 _ _ _ _ _ m).trans ?_
  exact congrArg (fun f => (Finset.univ : Finset (Fin 1000)).fold min (Ideal.ofBits .f32 0x7F800000#32) f)
    (funext fun r => pay2_apply1 x0 x1 r m)

/-- What the body stores as row minima: at row `r` of the tile, the least distance from that row to a rest point. -/
theorem pay3_apply1 (x0 : Vec Ideal S1x1000x3 .f32) (x1 : Vec Ideal S1x618x3 .f32) (r : Fin 1000) :
    k1_pay3 x0 x1 (ix3 0 r 0)
      = Cert.ChamferSpec.rowMin (Ideal.ofBits .f32 0x7F800000#32) (Ideal.ofBits .f32 0x40000000#32) (tileA1 x0) (restB1 x1) r := by
  unfold k1_pay3 Cert.ChamferSpec.rowMin
  dsimp only
  refine (shapeCast_ab_1ab_apply _ _ 0 r 0).trans ?_
  refine (shapeCast_a_a1_apply1 _ _ r 0).trans ?_
  refine (rowMinimum_apply1 _ _ _ _ _ r).trans ?_
  exact congrArg (fun f => (Finset.univ : Finset (Fin 618)).fold min (Ideal.ofBits .f32 0x7F800000#32) f)
    (funext fun m => pay2_apply1 x0 x1 r m)

/-- What a first tile stores into the running minimum: at rest point `m`, the tile's column minimum. -/
theorem pay5_apply1 (x0 : Vec Ideal S1x1000x3 .f32) (x1 : Vec Ideal S1x618x3 .f32) (m : Fin 618) :
    k1_pay5 x0 x1 (ix3 0 m 0)
      = (Finset.univ : Finset (Fin 1000)).fold min (Ideal.ofBits .f32 0x7F800000#32)
          (fun r => Cert.ChamferSpec.dist (Ideal.ofBits .f32 0x40000000#32) (tileA1 x0) (restB1 x1) r m) := by
  unfold k1_pay5
  refine (shapeCast_ab_1ab_apply _ _ 0 m 0).trans ?_
  exact pay4_apply1 x0 x1 m 0

/-- What a later tile stores: at rest point `m`, the lesser of the running minimum so far and the tile's column minimum. -/
theorem pay6_apply1 (x0 : Vec Ideal S1x1000x3 .f32) (x1 : Vec Ideal S1x618x3 .f32) (xs : Vec Ideal S1x618x1 .f32) (m : Fin 618) :
    k1_pay6 x0 x1 xs (ix3 0 m 0)
      = min (xs (ix3 0 m 0))
          ((Finset.univ : Finset (Fin 1000)).fold min (Ideal.ofBits .f32 0x7F800000#32)
            (fun r => Cert.ChamferSpec.dist (Ideal.ofBits .f32 0x40000000#32) (tileA1 x0) (restB1 x1) r m)) := by
  unfold k1_pay6
  refine (shapeCast_ab_1ab_apply _ _ 0 m 0).trans ?_
  refine (minimumf_apply _ _ _).trans ?_
  exact congrArg₂ min (shapeCast_1ab_ab_apply _ _ m 0) (pay4_apply1 x0 x1 m 0)

/-- What the last tile copies out: the running minimum itself (a cast to a column and back). -/
theorem pay1_eq1 (v : Vec Ideal S1x618x1 .f32) : k1_pay1 v = v := by
  unfold k1_pay1
  dsimp only
  exact shapeCast_shapeCast v _ _

end Cert.KernelIdeal.Chamfer

end
-- ==== Proof.KI.Value1.lean ====
/-
  Region 1: what the region leaves in its two output arrays. Point t of the grid works on tile t % 10 (rows
  1000 (t % 10) … 1000 (t % 10) + 999) of batch t / 10: its ground-truth block is those rows of the batch, its
  rest-point block the batch's rest points. After the point the first output's buffer holds the row minima of the
  tile's rows against the batch's rest points, and the scratch holds the running column minimum over the batch's tiles
  0 … t % 10 (by induction on the point: reset at a batch's first tile, lowered at every later one). Every point writes
  its block of row minima back, and the blocks tile the first output array, which therefore ends holding the row minima
  of every batch. The second output array is written back only at a batch's last tile, where its buffer is a copy of
  the scratch: the running minimum over all ten tiles, which is the column minimum over all the batch's rows; those
  eight blocks tile the second output array, which ends holding the column minima of every batch.
-/
import proofs.«112199_j59459527246412_1_alg».proof.Proof.KI.Chamfer1Points
import proofs.«112199_j59459527246412_1_alg».proof.Proof.KI.Chamfer1Pieces
import proofs.«112199_j59459527246412_1_alg».proof.Proof.KI.Payload1
import proofs.«112199_j59459527246412_1_alg».proof.Proof.ChamferSpec
import proofs.«112199_j59459527246412_1_alg».proof.Proof.ChamferTiles
import Idealize.ShloMosaic.Lib.Pipeline.Value
import Idealize.ShloMosaic.Lib.ValueIdx

set_option maxRecDepth 16384

noncomputable section

namespace Cert.KernelIdeal.Chamfer

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-! ## Names for the arrays and the blocks, at their literal types -/

/-- The starting word of every minimum, and the factor word of the product, as extended reals. -/
abbrev wI1 : EReal := Ideal.ofBits .f32 0x7F800000#32
abbrev wTwo1 : EReal := Ideal.ofBits .f32 0x40000000#32

/-- The ground-truth array and the rest-point array as the region finds them. -/
abbrev gtArr1 (c : Dev nD) : Vec Ideal S8x10000x3 .f32 := V c main_arg0
abbrev restArr1 (c : Dev nD) : Vec Ideal S8x618x3 .f32 := V c main_arg8
/-- The two input windows' blocks at a point. -/
abbrev gtBlk1 (c : Dev nD) (t : Fin cfg1.N) : Vec Ideal S1x1000x3 .f32 := iblk1 V c 0 t
abbrev restBlk1 (c : Dev nD) (t : Fin cfg1.N) : Vec Ideal S1x618x3 .f32 := iblk1 V c 1 t

/-! ## The index maps over the grid: point t works on tile t % 10 of batch t / 10 -/

theorem idx1_0 : ∀ t : Fin cfg1.N, win1_0.index t (0 : Fin 3) = t.val / 10 ∧ win1_0.index t (1 : Fin 3) = t.val % 10 ∧ win1_0.index t (2 : Fin 3) = 0 :=
  (by decide +kernel : ∀ t : Fin grid1.N, _)
theorem idx1_1 : ∀ t : Fin cfg1.N, win1_1.index t (0 : Fin 3) = t.val / 10 ∧ win1_1.index t (1 : Fin 3) = 0 ∧ win1_1.index t (2 : Fin 3) = 0 :=
  (by decide +kernel : ∀ t : Fin grid1.N, _)
theorem idx1_2 : ∀ t : Fin cfg1.N, win1_2.index t (0 : Fin 3) = t.val / 10 ∧ win1_2.index t (1 : Fin 3) = t.val % 10 ∧ win1_2.index t (2 : Fin 3) = 0 :=
  (by decide +kernel : ∀ t : Fin grid1.N, _)
theorem idx1_3 : ∀ t : Fin cfg1.N, win1_3.index t (0 : Fin 3) = t.val / 10 ∧ win1_3.index t (1 : Fin 3) = 0 ∧ win1_3.index t (2 : Fin 3) = 0 :=
  (by decide +kernel : ∀ t : Fin grid1.N, _)

/-! ## The input blocks are the arrays read where the blocks' rectangles say -/

/-- Row r, coordinate k of the ground-truth block at point t is row 1000 (t % 10) + r of batch t / 10. -/
theorem gtBlk1_apply (c : Dev nD) (t : Fin cfg1.N) (r : Fin 1000) (k : Fin 3) (i : S8x10000x3.Idx)
    (h0 : (i 0).val = t.val / 10) (h1 : (i 1).val = 1000 * (t.val % 10) + r.val) (h2 : (i 2).val = k.val) :
    gtBlk1 V c t (ix3 0 r k) = gtArr1 V c i := by
  obtain ⟨e0, e1, e2⟩ := idx1_0 t
  unfold gtBlk1 iblk1
  rw [View.read_apply]
  show V c main_arg0 _ = V c main_arg0 i
  congr 1
  funext a
  apply Fin.ext
  match a with
  | ⟨0, _⟩ => show win1_0.index t (0 : Fin 3) * 1 + 1 * 0 = (i 0).val; rw [e0, h0]; omega
  | ⟨1, _⟩ => show win1_0.index t (1 : Fin 3) * 1000 + 1 * r.val = (i 1).val; rw [e1, h1]; omega
  | ⟨2, _⟩ => show win1_0.index t (2 : Fin 3) * 3 + 1 * k.val = (i 2).val; rw [e2, h2]; omega

/-- Rest point m, coordinate k of the rest-point block at point t is rest point m of batch t / 10. -/
theorem restBlk1_apply (c : Dev nD) (t : Fin cfg1.N) (m : Fin 618) (k : Fin 3) (i : S8x618x3.Idx)
    (h0 : (i 0).val = t.val / 10) (h1 : (i 1).val = m.val) (h2 : (i 2).val = k.val) :
    restBlk1 V c t (ix3 0 m k) = restArr1 V c i := by
  obtain ⟨e0, e1, e2⟩ := idx1_1 t
  unfold restBlk1 iblk1
  rw [View.read_apply]
  show V c main_arg8 _ = V c main_arg8 i
  congr 1
  funext a
  apply Fin.ext
  match a with
  | ⟨0, _⟩ => show win1_1.index t (0 : Fin 3) * 1 + 1 * 0 = (i 0).val; rw [e0, h0]; omega
  | ⟨1, _⟩ => show win1_1.index t (1 : Fin 3) * 618 + 1 * m.val = (i 1).val; rw [e1, h1]; omega
  | ⟨2, _⟩ => show win1_1.index t (2 : Fin 3) * 3 + 1 * k.val = (i 2).val; rw [e2, h2]; omega

/-! ## The first output's buffer after a point: the tile's row minima -/

theorem rows1_eq (c : Dev nD) (t : Fin cfg1.N) :
    (outsAt1 V c t.val t.isLt).1 = k1_pay3 (gtBlk1 V c t) (restBlk1 V c t) := by
  by_cases h0 : t.val % 10 = 0
  · rw [outsAt1_first V c t h0]
    dsimp only
    exact rowsFirst1_eq (F := Ideal) c (grid1.coords t) (ms1_0 t) (hs1_0 t) (ms1_1 t) (hs1_1 t) (ms1_2 t) (hs1_2 t) (ms1_3 t) (hs1_3 t) scM1 (Memref.isWhole_whole _) ((isFirst1_iff t).mpr h0) (notLater1_of h0) (notLast1_of (ne9_of_zero1 h0)) (gtBlk1 V c t) (restBlk1 V c t)
  · by_cases h9 : t.val % 10 = 9
    · rw [outsAt1_last V c t h0 h9]
      dsimp only
      exact rowsLast1_eq (F := Ideal) c (grid1.coords t) (ms1_0 t) (hs1_0 t) (ms1_1 t) (hs1_1 t) (ms1_2 t) (hs1_2 t) (ms1_3 t) (hs1_3 t) scM1 (Memref.isWhole_whole _) (notFirst1_of h0) ((isLater1_iff t).mpr h0) ((isLast1_iff t).mpr h9) (gtBlk1 V c t) (restBlk1 V c t) (outsAt1 V c (t.val - 1) (Nat.lt_of_le_of_lt (Nat.sub_le _ _) t.isLt)).2.2
    · rw [outsAt1_mid V c t h0 h9]
      dsimp only
      exact rowsMid1_eq (F := Ideal) c (grid1.coords t) (ms1_0 t) (hs1_0 t) (ms1_1 t) (hs1_1 t) (ms1_2 t) (hs1_2 t) (ms1_3 t) (hs1_3 t) scM1 (Memref.isWhole_whole _) (notFirst1_of h0) ((isLater1_iff t).mpr h0) (notLast1_of h9) (gtBlk1 V c t) (restBlk1 V c t) (outsAt1 V c (t.val - 1) (Nat.lt_of_le_of_lt (Nat.sub_le _ _) t.isLt)).2.2

/-- Row r of them is the row minimum of row 1000 (t % 10) + r of batch t / 10 against the batch's rest points. -/
theorem rowMin1_at (c : Dev nD) (t : Fin cfg1.N) (r : Fin 1000) (b : Fin 8) (n : Fin 10000)
    (hb : b.val = t.val / 10) (hn : n.val = 1000 * (t.val % 10) + r.val) :
    k1_pay3 (gtBlk1 V c t) (restBlk1 V c t) (ix3 0 r 0) = Cert.ChamferSpec.D1 wI1 wTwo1 (gtArr1 V c) (restArr1 V c) b n := by
  refine (pay3_apply1 _ _ r).trans ?_
  unfold Cert.ChamferSpec.D1
  exact Cert.ChamferSpec.rowMin_congr wI1 wTwo1 _ _ _ _ r n
    (fun k => gtBlk1_apply V c t r k (ix3 b n k) hb hn rfl)
    (fun m k => restBlk1_apply V c t m k (ix3 b m k) hb rfl rfl)

/-! ## The scratch after a point: the running column minimum of the batch's tiles so far -/

/-- The running column minimum of batch b after tile j, over the batch's 10 tiles of 1000 rows. -/
abbrev runAt1 (c : Dev nD) (b : Fin 8) (m : Fin 618) (j : ℕ) (hj : j < 10) : EReal :=
  Cert.ChamferSpec.runMin wI1 wTwo1 (J := 10) (T := 1000) (Cert.ChamferSpec.cur3 (gtArr1 V c) b) (Cert.ChamferSpec.cur3 (restArr1 V c) b) m j hj

/-- The column minimum the body takes over the tile at point t is the column minimum of tile t % 10 of batch t / 10. -/
theorem tile1_eq (c : Dev nD) (t : Fin cfg1.N) (b : Fin 8) (j : ℕ) (hj : j < 10) (hb : b.val = t.val / 10) (hjt : j = t.val % 10) (m : Fin 618) :
    (Finset.univ : Finset (Fin 1000)).fold min wI1 (fun r => Cert.ChamferSpec.dist wTwo1 (tileA1 (gtBlk1 V c t)) (restB1 (restBlk1 V c t)) r m)
      = Cert.ChamferSpec.tileColMin wI1 wTwo1 (J := 10) (T := 1000) (Cert.ChamferSpec.cur3 (gtArr1 V c) b) (Cert.ChamferSpec.cur3 (restArr1 V c) b) ⟨j, hj⟩ m :=
  Cert.ChamferSpec.tileColMin_of_block wI1 wTwo1 (J := 10) (T := 1000) (Cert.ChamferSpec.cur3 (gtArr1 V c) b) (Cert.ChamferSpec.cur3 (restArr1 V c) b)
    (tileA1 (gtBlk1 V c t)) (restB1 (restBlk1 V c t)) ⟨j, hj⟩ m m
    (fun r k => gtBlk1_apply V c t r k (ix3 b (Cert.ChamferSpec.tileRow (J := 10) (T := 1000) ⟨j, hj⟩ r) k) hb
      (by show 1000 * j + r.val = _; rw [hjt]) rfl)
    (fun k => restBlk1_apply V c t m k (ix3 b m k) hb rfl rfl)

theorem scratch1_eq (c : Dev nD) : ∀ (n : ℕ) (hn : n < cfg1.N) (m : Fin 618) (b : Fin 8) (j : ℕ) (hj : j < 10),
    b.val = n / 10 → j = n % 10 → (outsAt1 V c n hn).2.2 (ix3 0 m 0) = runAt1 V c b m j hj
  | 0, hn, m, b, j, hj, hb, hjn => by
    obtain rfl : j = 0 := hjn
    rw [outsAt1_first V c ⟨0, hn⟩ rfl]
    dsimp only
    refine (congrFun (accFirst1_eq (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((isFirst1_iff ⟨0, hn⟩).mpr rfl) (notLater1_of (t := ⟨0, hn⟩) rfl) (notLast1_of (t := ⟨0, hn⟩) (ne9_of_zero1 rfl)) (gtBlk1 V c ⟨0, hn⟩) (restBlk1 V c ⟨0, hn⟩)) (ix3 0 m 0)).trans ?_
    refine (pay5_apply1 _ _ m).trans ?_
    exact tile1_eq V c ⟨0, hn⟩ b 0 hj hb rfl m
  | n + 1, hn, m, b, j, hj, hb, hjn => by
    by_cases h0 : (n + 1) % 10 = 0
    · obtain rfl : j = 0 := hjn.trans h0
      rw [outsAt1_first V c ⟨n + 1, hn⟩ h0]
      dsimp only
      refine (congrFun (accFirst1_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((isFirst1_iff ⟨n + 1, hn⟩).mpr h0) (notLater1_of (t := ⟨n + 1, hn⟩) h0) (notLast1_of (t := ⟨n + 1, hn⟩) (ne9_of_zero1 h0)) (gtBlk1 V c ⟨n + 1, hn⟩) (restBlk1 V c ⟨n + 1, hn⟩)) (ix3 0 m 0)).trans ?_
      refine (pay5_apply1 _ _ m).trans ?_
      exact tile1_eq V c ⟨n + 1, hn⟩ b 0 hj hb h0.symm m
    · obtain ⟨j', rfl⟩ : ∃ j', j = j' + 1 := ⟨j - 1, by omega⟩
      have ih := scratch1_eq c n (Nat.lt_of_succ_lt hn) m b j' (Nat.lt_of_succ_lt hj) (by omega) (by omega)
      by_cases h9 : (n + 1) % 10 = 9
      · rw [outsAt1_last V c ⟨n + 1, hn⟩ h0 h9]
        dsimp only
        refine (congrFun (accLast1_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (notFirst1_of (t := ⟨n + 1, hn⟩) h0) ((isLater1_iff ⟨n + 1, hn⟩).mpr h0) ((isLast1_iff ⟨n + 1, hn⟩).mpr h9) (gtBlk1 V c ⟨n + 1, hn⟩) (restBlk1 V c ⟨n + 1, hn⟩) (outsAt1 V c n (Nat.lt_of_succ_lt hn)).2.2) (ix3 0 m 0)).trans ?_
        refine (pay6_apply1 _ _ _ m).trans ?_
        exact (congrArg₂ min ih (tile1_eq V c ⟨n + 1, hn⟩ b (j' + 1) hj hb hjn m)).trans
          (Cert.ChamferSpec.runMin_succ wI1 wTwo1 (J := 10) (T := 1000) _ _ m j' hj).symm
      · rw [outsAt1_mid V c ⟨n + 1, hn⟩ h0 h9]
        dsimp only
        refine (congrFun (accMid1_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (notFirst1_of (t := ⟨n + 1, hn⟩) h0) ((isLater1_iff ⟨n + 1, hn⟩).mpr h0) (notLast1_of (t := ⟨n + 1, hn⟩) h9) (gtBlk1 V c ⟨n + 1, hn⟩) (restBlk1 V c ⟨n + 1, hn⟩) (outsAt1 V c n (Nat.lt_of_succ_lt hn)).2.2) (ix3 0 m 0)).trans ?_
        refine (pay6_apply1 _ _ _ m).trans ?_
        exact (congrArg₂ min ih (tile1_eq V c ⟨n + 1, hn⟩ b (j' + 1) hj hb hjn m)).trans
          (Cert.ChamferSpec.runMin_succ wI1 wTwo1 (J := 10) (T := 1000) _ _ m j' hj).symm

/-! ## From blocks to the arrays -/

/-- The row minima of every batch, as contents of the first output array. -/
abbrev d1Arr1 (c : Dev nD) : Vec Ideal S8x10000x1 .f32 :=
  fun j => Cert.ChamferSpec.D1 wI1 wTwo1 (gtArr1 V c) (restArr1 V c) (j 0) (j 1)
/-- The column minima of every batch, as contents of the second output array. -/
abbrev d2Arr1 (c : Dev nD) : Vec Ideal S8x618x1 .f32 :=
  fun j => Cert.ChamferSpec.D2 wI1 wTwo1 (gtArr1 V c) (restArr1 V c) (j 0) (j 1)

/-- What point t writes back into the first output array is its block of the row minima. -/
theorem flushed1_2_eq (c : Dev nD) (t : Fin cfg1.N) :
    (dat1 V c).flushed 2 t = ((cfg1.win 2).blk t).view.read (Elt Ideal) (d1Arr1 V c) := by
  show (cfg1.win 2).cut (grid1.coords t) ((dat1 V c).after 2 t) = _
  rw [after1_2, rows1_eq]
  obtain ⟨e0, e1, e2⟩ := idx1_2 t
  funext y
  rw [View.read_apply]
  have h0 : (y 0).val < 1 := (y 0).isLt
  have h1 : (y 1).val < 1000 := (y 1).isLt
  have h2 : (y 2).val < 1 := (y 2).isLt
  have hx : (cfg1.win 2).xinj (grid1.coords t) y = ix3 (0 : Fin 1) (⟨(y 1).val, h1⟩ : Fin 1000) (0 : Fin 1) := by
    funext a
    apply Fin.ext
    match a with
    | ⟨0, _⟩ => show (y 0).val = 0; omega
    | ⟨1, _⟩ => rfl
    | ⟨2, _⟩ => show (y 2).val = 0; omega
  show k1_pay3 (gtBlk1 V c t) (restBlk1 V c t) ((cfg1.win 2).xinj (grid1.coords t) y) = d1Arr1 V c (((cfg1.win 2).blk t).view.emb y)
  rw [hx]
  exact rowMin1_at V c t ⟨(y 1).val, h1⟩ _ _
    (by show win1_2.index t (0 : Fin 3) * 1 + 1 * (y 0).val = t.val / 10; rw [e0]; omega)
    (by show win1_2.index t (1 : Fin 3) * 1000 + 1 * (y 1).val = 1000 * (t.val % 10) + (y 1).val; rw [e1]; omega)

/-- An index of the first output array is in point t's block iff each coordinate is in the block's range on its axis. -/
theorem mem_blk1_2 (t : Fin cfg1.N) (i : S8x10000x1.Idx) :
    i ∈ ((cfg1.win 2).blk t).view.set ↔ ∀ a : Fin 3, win1_2.index t a * S1x1000x1.size a ≤ (i a).val ∧ (i a).val < win1_2.index t a * S1x1000x1.size a + S1x1000x1.size a := by
  show i ∈ ((View.whole main_v83_0).slice (win1_2.rect t)).set ↔ _
  rw [View.set_slice_whole, Rect.mem_set_unit]
  exact Iff.rfl

/-- Row n of batch b is covered by the point of tile n / 1000 of that batch. -/
theorem cover1_2 (i : S8x10000x1.Idx) : ∃ t : Fin cfg1.N, (cfg1.win 2).flush t = true ∧ i ∈ ((cfg1.win 2).blk t).view.set := by
  have hN : cfg1.N = 80 := N_1
  have h0 : (i 0).val < 8 := (i 0).isLt
  have h1 : (i 1).val < 10000 := (i 1).isLt
  have h2 : (i 2).val < 1 := (i 2).isLt
  have ht : 10 * (i 0).val + (i 1).val / 1000 < cfg1.N := by rw [hN]; omega
  refine ⟨⟨10 * (i 0).val + (i 1).val / 1000, ht⟩, flush1_2 _, ?_⟩
  obtain ⟨e0, e1, e2⟩ := idx1_2 ⟨10 * (i 0).val + (i 1).val / 1000, ht⟩
  rw [mem_blk1_2]
  intro a
  match a with
  | ⟨0, _⟩ =>
    show win1_2.index _ (0 : Fin 3) * 1 ≤ (i 0).val ∧ (i 0).val < win1_2.index _ (0 : Fin 3) * 1 + 1
    rw [e0]; dsimp only; omega
  | ⟨1, _⟩ =>
    show win1_2.index _ (1 : Fin 3) * 1000 ≤ (i 1).val ∧ (i 1).val < win1_2.index _ (1 : Fin 3) * 1000 + 1000
    rw [e1]; dsimp only; omega
  | ⟨2, _⟩ =>
    show win1_2.index _ (2 : Fin 3) * 1 ≤ (i 2).val ∧ (i 2).val < win1_2.index _ (2 : Fin 3) * 1 + 1
    rw [e2]; omega

/-- The first output array after the region: the row minima of every batch. -/
theorem d1_array1 (c : Dev nD) : (dat1 V c).arrAt 2 cfg1.N = fun j => Cert.ChamferSpec.D1 wI1 wTwo1 (V c main_arg0) (V c main_arg8) (j 0) (j 1) :=
  (dat1 V c).arrAt_eq_of_cover 2 (d1Arr1 V c) (fun t _ => flushed1_2_eq V c t) cover1_2

/-- At a last tile the second output's buffer holds what the scratch holds. -/
theorem cols1_eq (c : Dev nD) (t : Fin cfg1.N) (h9 : t.val % 10 = 9) :
    (outsAt1 V c t.val t.isLt).2.1 = (outsAt1 V c t.val t.isLt).2.2 := by
  have h0 : ¬t.val % 10 = 0 := ne1_of_nine0 h9
  rw [outsAt1_last V c t h0 h9]
  dsimp only
  rw [colsLast1_eq (F := Ideal) c (grid1.coords t) (ms1_0 t) (hs1_0 t) (ms1_1 t) (hs1_1 t) (ms1_2 t) (hs1_2 t) (ms1_3 t) (hs1_3 t) scM1 (Memref.isWhole_whole _) (notFirst1_of h0) ((isLater1_iff t).mpr h0) ((isLast1_iff t).mpr h9) (gtBlk1 V c t) (restBlk1 V c t) (outsAt1 V c (t.val - 1) (Nat.lt_of_le_of_lt (Nat.sub_le _ _) t.isLt)).2.2,
    accLast1_eq (F := Ideal) c (grid1.coords t) (ms1_0 t) (hs1_0 t) (ms1_1 t) (hs1_1 t) (ms1_2 t) (hs1_2 t) (ms1_3 t) (hs1_3 t) scM1 (Memref.isWhole_whole _) (notFirst1_of h0) ((isLater1_iff t).mpr h0) ((isLast1_iff t).mpr h9) (gtBlk1 V c t) (restBlk1 V c t) (outsAt1 V c (t.val - 1) (Nat.lt_of_le_of_lt (Nat.sub_le _ _) t.isLt)).2.2,
    pay1_eq1]

/-- What a last tile's point writes back into the second output array is its block of the column minima: the running
    minimum after the batch's last tile is the minimum over all the batch's rows. -/
theorem flushed1_3_eq (c : Dev nD) (t : Fin cfg1.N) (hf : (cfg1.win 3).flush t = true) :
    (dat1 V c).flushed 3 t = ((cfg1.win 3).blk t).view.read (Elt Ideal) (d2Arr1 V c) := by
  have h9 : t.val % 10 = 9 := (flush1_3 t).mp hf
  show (cfg1.win 3).cut (grid1.coords t) ((dat1 V c).after 3 t) = _
  rw [after1_3, cols1_eq V c t h9]
  obtain ⟨e0, e1, e2⟩ := idx1_3 t
  funext y
  rw [View.read_apply]
  have hN : cfg1.N = 80 := N_1
  have h0 : (y 0).val < 1 := (y 0).isLt
  have h1 : (y 1).val < 618 := (y 1).isLt
  have h2 : (y 2).val < 1 := (y 2).isLt
  have hb : t.val / 10 < 8 := by have := t.isLt; omega
  have hx : (cfg1.win 3).xinj (grid1.coords t) y = ix3 (0 : Fin 1) (⟨(y 1).val, h1⟩ : Fin 618) (0 : Fin 1) := by
    funext a
    apply Fin.ext
    match a with
    | ⟨0, _⟩ => show (y 0).val = 0; omega
    | ⟨1, _⟩ => rfl
    | ⟨2, _⟩ => show (y 2).val = 0; omega
  have hi : ((cfg1.win 3).blk t).view.emb y = ix3 (⟨t.val / 10, hb⟩ : Fin 8) (⟨(y 1).val, h1⟩ : Fin 618) (0 : Fin 1) := by
    funext a
    apply Fin.ext
    match a with
    | ⟨0, _⟩ => show win1_3.index t (0 : Fin 3) * 1 + 1 * (y 0).val = t.val / 10; rw [e0]; omega
    | ⟨1, _⟩ => show win1_3.index t (1 : Fin 3) * 618 + 1 * (y 1).val = (y 1).val; rw [e1]; omega
    | ⟨2, _⟩ => show win1_3.index t (2 : Fin 3) * 1 + 1 * (y 2).val = 0; rw [e2]; omega
  show (outsAt1 V c t.val t.isLt).2.2 ((cfg1.win 3).xinj (grid1.coords t) y) = d2Arr1 V c (((cfg1.win 3).blk t).view.emb y)
  rw [hx, hi]
  refine (scratch1_eq V c t.val t.isLt ⟨(y 1).val, h1⟩ ⟨t.val / 10, hb⟩ 9 (by decide) rfl h9.symm).trans ?_
  exact Cert.ChamferSpec.colMin_tiles wI1 wTwo1 (J := 10) (T := 1000) _ _ ⟨(y 1).val, h1⟩ 9 (by decide) rfl

/-- An index of the second output array is in point t's block iff each coordinate is in the block's range on its axis. -/
theorem mem_blk1_3 (t : Fin cfg1.N) (i : S8x618x1.Idx) :
    i ∈ ((cfg1.win 3).blk t).view.set ↔ ∀ a : Fin 3, win1_3.index t a * S1x618x1.size a ≤ (i a).val ∧ (i a).val < win1_3.index t a * S1x618x1.size a + S1x618x1.size a := by
  show i ∈ ((View.whole main_v83_1).slice (win1_3.rect t)).set ↔ _
  rw [View.set_slice_whole, Rect.mem_set_unit]
  exact Iff.rfl

/-- Batch b's column minima are covered by the point of the batch's last tile. -/
theorem cover1_3 (i : S8x618x1.Idx) : ∃ t : Fin cfg1.N, (cfg1.win 3).flush t = true ∧ i ∈ ((cfg1.win 3).blk t).view.set := by
  have hN : cfg1.N = 80 := N_1
  have h0 : (i 0).val < 8 := (i 0).isLt
  have h1 : (i 1).val < 618 := (i 1).isLt
  have h2 : (i 2).val < 1 := (i 2).isLt
  have ht : 10 * (i 0).val + 9 < cfg1.N := by rw [hN]; omega
  refine ⟨⟨10 * (i 0).val + 9, ht⟩, (flush1_3 _).mpr (by show (10 * (i 0).val + 9) % 10 = 9; omega), ?_⟩
  obtain ⟨e0, e1, e2⟩ := idx1_3 ⟨10 * (i 0).val + 9, ht⟩
  rw [mem_blk1_3]
  intro a
  match a with
  | ⟨0, _⟩ =>
    show win1_3.index _ (0 : Fin 3) * 1 ≤ (i 0).val ∧ (i 0).val < win1_3.index _ (0 : Fin 3) * 1 + 1
    rw [e0]; dsimp only; omega
  | ⟨1, _⟩ =>
    show win1_3.index _ (1 : Fin 3) * 618 ≤ (i 1).val ∧ (i 1).val < win1_3.index _ (1 : Fin 3) * 618 + 618
    rw [e1]; omega
  | ⟨2, _⟩ =>
    show win1_3.index _ (2 : Fin 3) * 1 ≤ (i 2).val ∧ (i 2).val < win1_3.index _ (2 : Fin 3) * 1 + 1
    rw [e2]; omega

/-- The second output array after the region: the column minima of every batch. -/
theorem d2_array1 (c : Dev nD) : (dat1 V c).arrAt 3 cfg1.N = fun j => Cert.ChamferSpec.D2 wI1 wTwo1 (V c main_arg0) (V c main_arg8) (j 0) (j 1) :=
  (dat1 V c).arrAt_eq_of_cover 3 (d2Arr1 V c) (flushed1_3_eq V c) cover1_3

end Cert.KernelIdeal.Chamfer

end
-- ==== Proof.KI.Chamfer2Pieces.lean ====
/-
  Region 2: the pieces each case of the body leaves, opened. Every store of the body covers its whole buffer, so a
  buffer read back after a case is the payload of its last store; a load of a whole input buffer is the buffer's
  contents. Hence the row minima are `k2_pay3` of the two input blocks, the scratch after a first tile is `k2_pay5`
  of them, after a later tile `k2_pay6` of them and the scratch's old contents, and the column minima a last tile
  copies out are `k2_pay1` of the scratch it has just stored.
-/
import Idealize.ShloMosaic.Lib.Pipeline.Value
import proofs.«112199_j59459527246412_1_alg».proof.Proof.KI.Chamfer2Points

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every load and store of the body are zero. -/
theorem hz3_2 : (![0, 0, 0] : Fin 3 → Nat) = fun _ => 0 := funext fun a => by fin_cases a <;> rfl

/-- A first tile's row minima: the one store of the first output's buffer covers it, and its payload is `k2_pay3` of
    the two input buffers read whole. -/
theorem rowsFirst2_eq (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : isFirst2 i) (hB : ¬isLater2 i) (hC : ¬isLast2 i)
    (x0 : Vec F S1x1000x3 .f32) (x1 : Vec F S1x2466x3 .f32) :
    rowsFirst2 c i arg2 harg2 arg3 harg3 arg4 harg4 arg5 harg5 arg6 harg6 hA hB hC x0 x1 = k2_pay3 x0 x1 := by
  unfold rowsFirst2
  rw [View.read_writes_eq_canon _ _ _ (rowsFirst2_cover c i arg2 harg2 arg3 harg3 arg4 harg4 arg5 harg5 arg6 harg6 hA hB hC x0 x1)]
  unfold runFirst2
  dsimp only
  sl_unfold_words
  rw [View.canon_unit_zero (S := S1x1000x1) hz3_2]
  simp only [View.readAt_eq_ld, harg2.read_unread, harg3.read_unread, View.ld_unit_zero (S := S1x1000x3) hz3_2, View.ld_unit_zero (S := S1x2466x3) hz3_2]

/-- The scratch after a first tile: the reset store covers it, with payload `k2_pay5` of the two input buffers. -/
theorem accFirst2_eq (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : isFirst2 i) (hB : ¬isLater2 i) (hC : ¬isLast2 i)
    (x0 : Vec F S1x1000x3 .f32) (x1 : Vec F S1x2466x3 .f32) :
    accFirst2 c i arg2 harg2 arg3 harg3 arg4 harg4 arg5 harg5 arg6 harg6 hA hB hC x0 x1 = k2_pay5 x0 x1 := by
  unfold accFirst2
  rw [View.read_writes_eq_canon _ _ _ (accFirst2_cover c i arg2 harg2 arg3 harg3 arg4 harg4 arg5 harg5 arg6 harg6 hA hB hC x0 x1)]
  unfold runFirst2
  dsimp only
  sl_unfold_words
  rw [View.canon_unit_zero (S := S1x2466x1) hz3_2]
  simp only [View.readAt_eq_ld, harg2.read_unread, harg3.read_unread, View.ld_unit_zero (S := S1x1000x3) hz3_2, View.ld_unit_zero (S := S1x2466x3) hz3_2]

/-- A middle tile's row minima: as at a first tile. -/
theorem rowsMid2_eq (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : ¬isFirst2 i) (hB : isLater2 i) (hC : ¬isLast2 i)
    (x0 : Vec F S1x1000x3 .f32) (x1 : Vec F S1x2466x3 .f32) (xs : Vec F S1x2466x1 .f32) :
    rowsMid2 c i arg2 harg2 arg3 harg3 arg4 harg4 arg5 harg5 arg6 harg6 hA hB hC x0 x1 xs = k2_pay3 x0 x1 := by
  unfold rowsMid2
  rw [View.read_writes_eq_canon _ _ _ (rowsMid2_cover c i arg2 harg2 arg3 harg3 arg4 harg4 arg5 harg5 arg6 harg6 hA hB hC x0 x1 xs)]
  unfold runMid2
  dsimp only
  sl_unfold_words
  rw [View.canon_unit_zero (S := S1x1000x1) hz3_2]
  simp only [View.readAt_eq_ld, harg2.read_unread, harg3.read_unread, View.ld_unit_zero (S := S1x1000x3) hz3_2, View.ld_unit_zero (S := S1x2466x3) hz3_2]

/-- The scratch after a middle tile: the update store covers it, with payload `k2_pay6` of the two input buffers and
    of the scratch's old contents, loaded whole before the store. -/
theorem accMid2_eq (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : ¬isFirst2 i) (hB : isLater2 i) (hC : ¬isLast2 i)
    (x0 : Vec F S1x1000x3 .f32) (x1 : Vec F S1x2466x3 .f32) (xs : Vec F S1x2466x1 .f32) :
    accMid2 c i arg2 harg2 arg3 harg3 arg4 harg4 arg5 harg5 arg6 harg6 hA hB hC x0 x1 xs = k2_pay6 x0 x1 xs := by
  unfold accMid2
  rw [View.read_writes_eq_canon _ _ _ (accMid2_cover c i arg2 harg2 arg3 harg3 arg4 harg4 arg5 harg5 arg6 harg6 hA hB hC x0 x1 xs)]
  unfold runMid2
  dsimp only
  sl_unfold_words
  rw [View.canon_unit_zero (S := S1x2466x1) hz3_2]
  simp only [View.readAt_eq_ld, harg2.read_unread, harg3.read_unread, View.ld_unit_zero (S := S1x1000x3) hz3_2, View.ld_unit_zero (S := S1x2466x3) hz3_2, harg6.read_unread, View.ld_unit_zero (S := S1x2466x1) hz3_2]

/-- A last tile's row minima: as at a first tile. -/
theorem rowsLast2_eq (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : ¬isFirst2 i) (hB : isLater2 i) (hC : isLast2 i)
    (x0 : Vec F S1x1000x3 .f32) (x1 : Vec F S1x2466x3 .f32) (xs : Vec F S1x2466x1 .f32) :
    rowsLast2 c i arg2 harg2 arg3 harg3 arg4 harg4 arg5 harg5 arg6 harg6 hA hB hC x0 x1 xs = k2_pay3 x0 x1 := by
  unfold rowsLast2
  rw [View.read_writes_eq_canon _ _ _ (rowsLast2_cover c i arg2 harg2 arg3 harg3 arg4 harg4 arg5 harg5 arg6 harg6 hA hB hC x0 x1 xs)]
  unfold runLast2
  dsimp only
  sl_unfold_words
  rw [View.canon_unit_zero (S := S1x1000x1) hz3_2]
  simp only [View.readAt_eq_ld, harg2.read_unread, harg3.read_unread, View.ld_unit_zero (S := S1x1000x3) hz3_2, View.ld_unit_zero (S := S1x2466x3) hz3_2]

/-- The scratch after a last tile: as after a middle tile. -/
theorem accLast2_eq (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : ¬isFirst2 i) (hB : isLater2 i) (hC : isLast2 i)
    (x0 : Vec F S1x1000x3 .f32) (x1 : Vec F S1x2466x3 .f32) (xs : Vec F S1x2466x1 .f32) :
    accLast2 c i arg2 harg2 arg3 harg3 arg4 harg4 arg5 harg5 arg6 harg6 hA hB hC x0 x1 xs = k2_pay6 x0 x1 xs := by
  unfold accLast2
  rw [View.read_writes_eq_canon _ _ _ (accLast2_cover c i arg2 harg2 arg3 harg3 arg4 harg4 arg5 harg5 arg6 harg6 hA hB hC x0 x1 xs)]
  unfold runLast2
  dsimp only
  sl_unfold_words
  rw [View.canon_unit_zero (S := S1x2466x1) hz3_2]
  simp only [View.readAt_eq_ld, harg2.read_unread, harg3.read_unread, View.ld_unit_zero (S := S1x1000x3) hz3_2, View.ld_unit_zero (S := S1x2466x3) hz3_2, harg6.read_unread, View.ld_unit_zero (S := S1x2466x1) hz3_2]

/-- The column minima a last tile copies out: the one store of the second output's buffer covers it, and its payload
    is `k2_pay1` of the scratch loaded whole after the update store, which reads that store's payload. -/
theorem colsLast2_eq (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : ¬isFirst2 i) (hB : isLater2 i) (hC : isLast2 i)
    (x0 : Vec F S1x1000x3 .f32) (x1 : Vec F S1x2466x3 .f32) (xs : Vec F S1x2466x1 .f32) :
    colsLast2 c i arg2 harg2 arg3 harg3 arg4 harg4 arg5 harg5 arg6 harg6 hA hB hC x0 x1 xs = k2_pay1 (k2_pay6 x0 x1 xs) := by
  unfold colsLast2
  rw [View.read_writes_eq_canon _ _ _ (colsLast2_cover c i arg2 harg2 arg3 harg3 arg4 harg4 arg5 harg5 arg6 harg6 hA hB hC x0 x1 xs)]
  unfold runLast2
  dsimp only
  sl_unfold_words
  rw [View.canon_unit_zero (S := S1x2466x1) hz3_2]
  simp only [View.readCov_unit_zero (S := S1x2466x1) _ hz3_2, View.readAt_eq_ld, harg2.read_unread, harg3.read_unread, View.ld_unit_zero (S := S1x1000x3) hz3_2, View.ld_unit_zero (S := S1x2466x3) hz3_2, harg6.read_unread, View.ld_unit_zero (S := S1x2466x1) hz3_2]

end Cert.KernelIdeal.Chamfer

end
-- ==== Proof.KI.Payload2.lean ====
/-
  The arithmetic of one tile of region 2, read element by element on the extended reals.
  The body forms, for the 1000 rows `a` of a tile of ground-truth points and the 2466 rest points `b` of the batch,
  the matrix of expanded squared distances (|a|² + |b|²) − 2 (a · b): |a|² and |b|² are sums over the three
  coordinates taken along the rows of the squared operands, a · b is the product of the tile with the transposed rest
  points, and the three are brought to the matrix's shape by casts and broadcasts that move no value. Read at row
  `r` and column `m` the matrix is `ChamferSpec.dist` of row `r` and rest point `m` (`pay2_apply2`). Its minimum
  along a row is the fold of `min` over the rest points, from the starting word: the row minimum the body stores
  (`pay3_apply2`). Its minimum along a column is the fold of `min` over the tile's rows: what a first tile stores as the
  running column minimum (`pay5_apply2`), and what a later tile takes the lesser of with the minimum so far
  (`pay6_apply2`). The copy out at the last tile casts the running minimum to a column and back, which is the identity
  (`pay1_eq2`). The two words (the starting word of a minimum, the factor of the product) are never evaluated; only
  the zero word the product accumulates into is, as the extended real 0.
-/
import proofs.«112199_j59459527246412_1_alg».proof.Proof.Gen.KernelIdeal.Skeleton
import proofs.«112199_j59459527246412_1_alg».proof.Proof.ChamferSpec
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.KernelIdeal.Chamfer

open Cert.KernelIdeal Cert.KernelIdeal.Gen Idealize.ShloMosaic Idealize.ShloMosaic.ValueIdx
open scoped BigOperators

/-! ## Layout operations on a column, read at coordinates -/

/-- A vector `[a]` cast to the column `[a, 1]` reads, at `(i, u)`, the operand at `i`. -/
theorem shapeCast_a_a1_apply2 {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply2 {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Reductions of a matrix along one axis, read at coordinates -/

/-- The sum along the rows of an `[a, b]` matrix, at row `r`, is the sum of that row's entries. -/
theorem rowSum_apply2 {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext c
  match c with
  | ⟨0, _⟩ => rfl
  | ⟨1, _⟩ => rfl

/-- The minimum along the rows of an `[a, b]` matrix, at row `r`: the fold of `min` over that row. -/
theorem rowMinimum_apply2 {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.minimumf.neutral .f32 hφ) (r : Fin a) :
    multiReduction .minimumf [1] ⟨1, ![a]⟩ src acc h hφ hacc (ix1 r)
      = (Finset.univ : Finset (Fin b)).fold min (Ideal.ofBits .f32 acc) (fun m => src (ix2 r m)) := by
  refine (multiReduction_minimumf_eq_fold src acc h hφ hacc (ix1 r)).trans ?_
  refine (h.fold_filter_drop_single _ _ src (ix1 r)).trans ?_
  show (Finset.univ : Finset (Fin b)).fold min (Ideal.ofBits .f32 acc) (src ∘ h.lift (ix1 r)) = _
  refine congrArg (fun f => (Finset.univ : Finset (Fin b)).fold min (Ideal.ofBits .f32 acc) f) (funext fun m => ?_)
  show src (h.lift (ix1 r) m) = src (ix2 r m)
  refine congrArg src ?_
  funext c
  match c with
  | ⟨0, _⟩ => rfl
  | ⟨1, _⟩ => rfl

/-- The minimum along the columns of an `[a, b]` matrix, at column `m`: the fold of `min` over that column. -/
theorem colMinimum_apply2 {a b : ℕ} (src : FVec Ideal ⟨2, ![a, b]⟩ .f32) (acc : BitVec 32)
    (h : (⟨2, ![a, b]⟩ : Shape).Reduces [0] ⟨1, ![b]⟩) (hφ : FKind.Formats .f32)
    (hacc : acc = FKind.minimumf.neutral .f32 hφ) (m : Fin b) :
    multiReduction .minimumf [0] ⟨1, ![b]⟩ src acc h hφ hacc (ix1 m)
      = (Finset.univ : Finset (Fin a)).fold min (Ideal.ofBits .f32 acc) (fun r => src (ix2 r m)) := by
  refine (multiReduction_minimumf_eq_fold src acc h hφ hacc (ix1 m)).trans ?_
  refine (h.fold_filter_drop_single _ _ src (ix1 m)).trans ?_
  show (Finset.univ : Finset (Fin a)).fold min (Ideal.ofBits .f32 acc) (src ∘ h.lift (ix1 m)) = _
  refine congrArg (fun f => (Finset.univ : Finset (Fin a)).fold min (Ideal.ofBits .f32 acc) f) (funext fun r => ?_)
  show src (h.lift (ix1 m) r) = src (ix2 r m)
  refine congrArg src ?_
  funext c
  match c with
  | ⟨0, _⟩ => rfl
  | ⟨1, _⟩ => rfl

/-! ## The product of the tile with the transposed rest points, read at coordinates -/

theorem lhs_tileDot_02 (i : S1000x2466.Idx) (q : dot_S1000x3_S3x2466_S1000x2466_1_0_0_1_n_n.contr.Idx) :
    (dot_S1000x3_S3x2466_S1000x2466_1_0_0_1_n_n.lhsIdx i q 0).val = (i 0).val := by
  unfold DotDims.lhsIdx
  rw [dif_neg (show ¬(0 : Fin S1000x3.rank) ∈ dot_S1000x3_S3x2466_S1000x2466_1_0_0_1_n_n.lhsBatch by decide), dif_pos (show (0 : Fin S1000x3.rank) ∈ dot_S1000x3_S3x2466_S1000x2466_1_0_0_1_n_n.lhsNonContracting by decide)]
  rfl
theorem lhs_tileDot_12 (i : S1000x2466.Idx) (q : dot_S1000x3_S3x2466_S1000x2466_1_0_0_1_n_n.contr.Idx) :
    (dot_S1000x3_S3x2466_S1000x2466_1_0_0_1_n_n.lhsIdx i q 1).val = (q ⟨0, by decide⟩).val :=
  dot_S1000x3_S3x2466_S1000x2466_1_0_0_1_n_n.lhsIdx_val_of_single rfl i q
theorem rhs_tileDot_02 (i : S1000x2466.Idx) (q : dot_S1000x3_S3x2466_S1000x2466_1_0_0_1_n_n.contr.Idx) :
    (dot_S1000x3_S3x2466_S1000x2466_1_0_0_1_n_n.rhsIdx i q 0).val = (q ⟨0, by decide⟩).val :=
  dot_S1000x3_S3x2466_S1000x2466_1_0_0_1_n_n.rhsIdx_val_of_single rfl i q
theorem rhs_tileDot_12 (i : S1000x2466.Idx) (q : dot_S1000x3_S3x2466_S1000x2466_1_0_0_1_n_n.contr.Idx) :
    (dot_S1000x3_S3x2466_S1000x2466_1_0_0_1_n_n.rhsIdx i q 1).val = (i 1).val := by
  unfold DotDims.rhsIdx
  rw [dif_neg (show ¬(1 : Fin S3x2466.rank) ∈ dot_S1000x3_S3x2466_S1000x2466_1_0_0_1_n_n.rhsBatch by decide), dif_pos (show (1 : Fin S3x2466.rank) ∈ dot_S1000x3_S3x2466_S1000x2466_1_0_0_1_n_n.rhsNonContracting by decide)]
  rfl

/-- The product into a zero accumulator, at `(r, m)`: the sum over the three coordinates of the
    left operand's row `r` times the right operand's column `m`. -/
theorem tileDot_apply2 (u : FVec Ideal S1000x3 .f32) (w : FVec Ideal S3x2466 .f32) (r : Fin 1000) (m : Fin 2466) :
    matmul dot_S1000x3_S3x2466_S1000x2466_1_0_0_1_n_n none u w (constant (F := Ideal) S1000x2466 .f32 0x00000000#32) (ix2 r m)
      = ∑ k : Fin 3, u (ix2 r k) * w (ix2 k m) := by
  refine (Ideal.matmul_constant_zero_apply dot_S1000x3_S3x2466_S1000x2466_1_0_0_1_n_n none u w (ix2 r m)).trans ?_
  rw [← Equiv.sum_comp (contrEquiv1 dot_S1000x3_S3x2466_S1000x2466_1_0_0_1_n_n 3 rfl rfl).symm]
  refine Finset.sum_congr rfl fun k _ => ?_
  have hk := contrEquiv1_symm_val dot_S1000x3_S3x2466_S1000x2466_1_0_0_1_n_n 3 rfl rfl k
  have el : dot_S1000x3_S3x2466_S1000x2466_1_0_0_1_n_n.lhsIdx (ix2 r m) ((contrEquiv1 dot_S1000x3_S3x2466_S1000x2466_1_0_0_1_n_n 3 rfl rfl).symm k) = ix2 r k := funext fun a => Fin.ext (by
    match a with
    | ⟨0, _⟩ => exact lhs_tileDot_02 _ _
    | ⟨1, _⟩ => exact (lhs_tileDot_12 _ _).trans hk)
  have er : dot_S1000x3_S3x2466_S1000x2466_1_0_0_1_n_n.rhsIdx (ix2 r m) ((contrEquiv1 dot_S1000x3_S3x2466_S1000x2466_1_0_0_1_n_n 3 rfl rfl).symm k) = ix2 k m := funext fun a => Fin.ext (by
    match a with
    | ⟨0, _⟩ => exact (rhs_tileDot_02 _ _).trans hk
    | ⟨1, _⟩ => exact rhs_tileDot_12 _ _)
  rw [el, er]

/-! ## The payloads of region 2 -/

/-- The tile of ground-truth points the body loads, by row and coordinate. -/
abbrev tileA2 (x0 : Vec Ideal S1x1000x3 .f32) : Fin 1000 → Fin 3 → EReal := fun r k => x0 (ix3 0 r k)
/-- The batch's rest points, by point and coordinate. -/
abbrev restB2 (x1 : Vec Ideal S1x2466x3 .f32) : Fin 2466 → Fin 3 → EReal := fun m k => x1 (ix3 0 m k)

/-- The distance matrix at `(r, m)` is the expanded squared distance between row `r` of the tile and rest point `m`. -/
theorem pay2_apply2 (x0 : Vec Ideal S1x1000x3 .f32) (x1 : Vec Ideal S1x2466x3 .f32) (r : Fin 1000) (m : Fin 2466) :
    k2_pay2 x0 x1 (ix2 r m)
      = Cert.ChamferSpec.dist (Ideal.ofBits .f32 0x40000000#32) (tileA2 x0) (restB2 x1) r m := by
  unfold k2_pay2 Cert.ChamferSpec.dist
  dsimp only
  rw [subf_apply, addf_apply, mulf_apply, broadcast_apply]
  refine congrArg₂ (· - ·) (congrArg₂ (· + ·) ?_ ?_) (congrArg₂ (· * ·) rfl ?_)
  · -- |a|²: the column of row sums, broadcast along the row
    refine (broadcastTo_a1_ab_apply2 _ _ r m).trans ?_
    refine (shapeCast_a_a1_apply2 _ _ r 0).trans ?_
    refine (rowSum_apply2 _ _ _ _ _ r).trans ?_
    refine Finset.sum_congr rfl fun k _ => ?_
    rw [mulf_apply, shapeCast_1ab_ab_apply]
  · -- |b|²: the row of the rest points' sums, broadcast down the column
    refine (broadcastTo_1b_ab_apply _ _ r m).trans ?_
    refine (shapeCast_a_1a_apply _ _ 0 m).trans ?_
    refine (rowSum_apply2 _ _ _ _ _ m).trans ?_
    refine Finset.sum_congr rfl fun k _ => ?_
    rw [mulf_apply, shapeCast_1ab_ab_apply]
  · -- a · b: the product with the transposed rest points
    refine (tileDot_apply2 _ _ r m).trans ?_
    refine Finset.sum_congr rfl fun k _ => ?_
    rw [shapeCast_1ab_ab_apply, transpose_ix2_apply, shapeCast_1ab_ab_apply]

/-- The tile's column minima, as a column: at `(m, u)` the fold of `min` over the tile's rows of the distances to rest point `m`. -/
theorem pay4_apply2 (x0 : Vec Ideal S1x1000x3 .f32) (x1 : Vec Ideal S1x2466x3 .f32) (m : Fin 2466) (u : Fin 1) :
    k2_pay4 x0 x1 (ix2 m u)
      = (Finset.univ : Finset (Fin 1000)).fold min (Ideal.ofBits .f32 0x7F800000#32)
          (fun r => Cert.ChamferSpec.dist (Ideal.ofBits .f32 0x40000000#32) (tileA2 x0) (restB2 x1) r m) := by
  unfold k2_pay4
  dsimp only
  refine (shapeCast_a_a1_apply2 _ _ m u).trans ?_
  refine (colMinimum_apply2 _ _ _ _ _ m).trans ?_
  exact congrArg (fun f => (Finset.univ : Finset (Fin 1000)).fold min (Ideal.ofBits .f32 0x7F800000#32) f)
    (funext fun r => pay2_apply2 x0 x1 r m)

/-- What the body stores as row minima: at row `r` of the tile, the least distance from that row to a rest point. -/
theorem pay3_apply2 (x0 : Vec Ideal S1x1000x3 .f32) (x1 : Vec Ideal S1x2466x3 .f32) (r : Fin 1000) :
    k2_pay3 x0 x1 (ix3 0 r 0)
      = Cert.ChamferSpec.rowMin (Ideal.ofBits .f32 0x7F800000#32) (Ideal.ofBits .f32 0x40000000#32) (tileA2 x0) (restB2 x1) r := by
  unfold k2_pay3 Cert.ChamferSpec.rowMin
  dsimp only
  refine (shapeCast_ab_1ab_apply _ _ 0 r 0).trans ?_
  refine (shapeCast_a_a1_apply2 _ _ r 0).trans ?_
  refine (rowMinimum_apply2 _ _ _ _ _ r).trans ?_
  exact congrArg (fun f => (Finset.univ : Finset (Fin 2466)).fold min (Ideal.ofBits .f32 0x7F800000#32) f)
    (funext fun m => pay2_apply2 x0 x1 r m)

/-- What a first tile stores into the running minimum: at rest point `m`, the tile's column minimum. -/
theorem pay5_apply2 (x0 : Vec Ideal S1x1000x3 .f32) (x1 : Vec Ideal S1x2466x3 .f32) (m : Fin 2466) :
    k2_pay5 x0 x1 (ix3 0 m 0)
      = (Finset.univ : Finset (Fin 1000)).fold min (Ideal.ofBits .f32 0x7F800000#32)
          (fun r => Cert.ChamferSpec.dist (Ideal.ofBits .f32 0x40000000#32) (tileA2 x0) (restB2 x1) r m) := by
  unfold k2_pay5
  refine (shapeCast_ab_1ab_apply _ _ 0 m 0).trans ?_
  exact pay4_apply2 x0 x1 m 0

/-- What a later tile stores: at rest point `m`, the lesser of the running minimum so far and the tile's column minimum. -/
theorem pay6_apply2 (x0 : Vec Ideal S1x1000x3 .f32) (x1 : Vec Ideal S1x2466x3 .f32) (xs : Vec Ideal S1x2466x1 .f32) (m : Fin 2466) :
    k2_pay6 x0 x1 xs (ix3 0 m 0)
      = min (xs (ix3 0 m 0))
          ((Finset.univ : Finset (Fin 1000)).fold min (Ideal.ofBits .f32 0x7F800000#32)
            (fun r => Cert.ChamferSpec.dist (Ideal.ofBits .f32 0x40000000#32) (tileA2 x0) (restB2 x1) r m)) := by
  unfold k2_pay6
  refine (shapeCast_ab_1ab_apply _ _ 0 m 0).trans ?_
  refine (minimumf_apply _ _ _).trans ?_
  exact congrArg₂ min (shapeCast_1ab_ab_apply _ _ m 0) (pay4_apply2 x0 x1 m 0)

/-- What the last tile copies out: the running minimum itself (a cast to a column and back). -/
theorem pay1_eq2 (v : Vec Ideal S1x2466x1 .f32) : k2_pay1 v = v := by
  unfold k2_pay1
  dsimp only
  exact shapeCast_shapeCast v _ _

end Cert.KernelIdeal.Chamfer

end
-- ==== Proof.KI.Value2.lean ====
/-
  Region 2: what the region leaves in its two output arrays. Point t of the grid works on tile t % 10 (rows
  1000 (t % 10) … 1000 (t % 10) + 999) of batch t / 10: its ground-truth block is those rows of the batch, its
  rest-point block the batch's rest points. After the point the first output's buffer holds the row minima of the
  tile's rows against the batch's rest points, and the scratch holds the running column minimum over the batch's tiles
  0 … t % 10 (by induction on the point: reset at a batch's first tile, lowered at every later one). Every point writes
  its block of row minima back, and the blocks tile the first output array, which therefore ends holding the row minima
  of every batch. The second output array is written back only at a batch's last tile, where its buffer is a copy of
  the scratch: the running minimum over all ten tiles, which is the column minimum over all the batch's rows; those
  eight blocks tile the second output array, which ends holding the column minima of every batch.
-/
import proofs.«112199_j59459527246412_1_alg».proof.Proof.KI.Chamfer2Points
import proofs.«112199_j59459527246412_1_alg».proof.Proof.KI.Chamfer2Pieces
import proofs.«112199_j59459527246412_1_alg».proof.Proof.KI.Payload2
import proofs.«112199_j59459527246412_1_alg».proof.Proof.ChamferSpec
import proofs.«112199_j59459527246412_1_alg».proof.Proof.ChamferTiles
import Idealize.ShloMosaic.Lib.Pipeline.Value
import Idealize.ShloMosaic.Lib.ValueIdx

set_option maxRecDepth 16384

noncomputable section

namespace Cert.KernelIdeal.Chamfer

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-! ## Names for the arrays and the blocks, at their literal types -/

/-- The starting word of every minimum, and the factor word of the product, as extended reals. -/
abbrev wI2 : EReal := Ideal.ofBits .f32 0x7F800000#32
abbrev wTwo2 : EReal := Ideal.ofBits .f32 0x40000000#32

/-- The ground-truth array and the rest-point array as the region finds them. -/
abbrev gtArr2 (c : Dev nD) : Vec Ideal S8x10000x3 .f32 := V c main_arg0
abbrev restArr2 (c : Dev nD) : Vec Ideal S8x2466x3 .f32 := V c main_arg9
/-- The two input windows' blocks at a point. -/
abbrev gtBlk2 (c : Dev nD) (t : Fin cfg2.N) : Vec Ideal S1x1000x3 .f32 := iblk2 V c 0 t
abbrev restBlk2 (c : Dev nD) (t : Fin cfg2.N) : Vec Ideal S1x2466x3 .f32 := iblk2 V c 1 t

/-! ## The index maps over the grid: point t works on tile t % 10 of batch t / 10 -/

theorem idx2_0 : ∀ t : Fin cfg2.N, win2_0.index t (0 : Fin 3) = t.val / 10 ∧ win2_0.index t (1 : Fin 3) = t.val % 10 ∧ win2_0.index t (2 : Fin 3) = 0 :=
  (by decide +kernel : ∀ t : Fin grid2.N, _)
theorem idx2_1 : ∀ t : Fin cfg2.N, win2_1.index t (0 : Fin 3) = t.val / 10 ∧ win2_1.index t (1 : Fin 3) = 0 ∧ win2_1.index t (2 : Fin 3) = 0 :=
  (by decide +kernel : ∀ t : Fin grid2.N, _)
theorem idx2_2 : ∀ t : Fin cfg2.N, win2_2.index t (0 : Fin 3) = t.val / 10 ∧ win2_2.index t (1 : Fin 3) = t.val % 10 ∧ win2_2.index t (2 : Fin 3) = 0 :=
  (by decide +kernel : ∀ t : Fin grid2.N, _)
theorem idx2_3 : ∀ t : Fin cfg2.N, win2_3.index t (0 : Fin 3) = t.val / 10 ∧ win2_3.index t (1 : Fin 3) = 0 ∧ win2_3.index t (2 : Fin 3) = 0 :=
  (by decide +kernel : ∀ t : Fin grid2.N, _)

/-! ## The input blocks are the arrays read where the blocks' rectangles say -/

/-- Row r, coordinate k of the ground-truth block at point t is row 1000 (t % 10) + r of batch t / 10. -/
theorem gtBlk2_apply (c : Dev nD) (t : Fin cfg2.N) (r : Fin 1000) (k : Fin 3) (i : S8x10000x3.Idx)
    (h0 : (i 0).val = t.val / 10) (h1 : (i 1).val = 1000 * (t.val % 10) + r.val) (h2 : (i 2).val = k.val) :
    gtBlk2 V c t (ix3 0 r k) = gtArr2 V c i := by
  obtain ⟨e0, e1, e2⟩ := idx2_0 t
  unfold gtBlk2 iblk2
  rw [View.read_apply]
  show V c main_arg0 _ = V c main_arg0 i
  congr 1
  funext a
  apply Fin.ext
  match a with
  | ⟨0, _⟩ => show win2_0.index t (0 : Fin 3) * 1 + 1 * 0 = (i 0).val; rw [e0, h0]; omega
  | ⟨1, _⟩ => show win2_0.index t (1 : Fin 3) * 1000 + 1 * r.val = (i 1).val; rw [e1, h1]; omega
  | ⟨2, _⟩ => show win2_0.index t (2 : Fin 3) * 3 + 1 * k.val = (i 2).val; rw [e2, h2]; omega

/-- Rest point m, coordinate k of the rest-point block at point t is rest point m of batch t / 10. -/
theorem restBlk2_apply (c : Dev nD) (t : Fin cfg2.N) (m : Fin 2466) (k : Fin 3) (i : S8x2466x3.Idx)
    (h0 : (i 0).val = t.val / 10) (h1 : (i 1).val = m.val) (h2 : (i 2).val = k.val) :
    restBlk2 V c t (ix3 0 m k) = restArr2 V c i := by
  obtain ⟨e0, e1, e2⟩ := idx2_1 t
  unfold restBlk2 iblk2
  rw [View.read_apply]
  show V c main_arg9 _ = V c main_arg9 i
  congr 1
  funext a
  apply Fin.ext
  match a with
  | ⟨0, _⟩ => show win2_1.index t (0 : Fin 3) * 1 + 1 * 0 = (i 0).val; rw [e0, h0]; omega
  | ⟨1, _⟩ => show win2_1.index t (1 : Fin 3) * 2466 + 1 * m.val = (i 1).val; rw [e1, h1]; omega
  | ⟨2, _⟩ => show win2_1.index t (2 : Fin 3) * 3 + 1 * k.val = (i 2).val; rw [e2, h2]; omega

/-! ## The first output's buffer after a point: the tile's row minima -/

theorem rows2_eq (c : Dev nD) (t : Fin cfg2.N) :
    (outsAt2 V c t.val t.isLt).1 = k2_pay3 (gtBlk2 V c t) (restBlk2 V c t) := by
  by_cases h0 : t.val % 10 = 0
  · rw [outsAt2_first V c t h0]
    dsimp only
    exact rowsFirst2_eq (F := Ideal) c (grid2.coords t) (ms2_0 t) (hs2_0 t) (ms2_1 t) (hs2_1 t) (ms2_2 t) (hs2_2 t) (ms2_3 t) (hs2_3 t) scM2 (Memref.isWhole_whole _) ((isFirst2_iff t).mpr h0) (notLater2_of h0) (notLast2_of (ne9_of_zero2 h0)) (gtBlk2 V c t) (restBlk2 V c t)
  · by_cases h9 : t.val % 10 = 9
    · rw [outsAt2_last V c t h0 h9]
      dsimp only
      exact rowsLast2_eq (F := Ideal) c (grid2.coords t) (ms2_0 t) (hs2_0 t) (ms2_1 t) (hs2_1 t) (ms2_2 t) (hs2_2 t) (ms2_3 t) (hs2_3 t) scM2 (Memref.isWhole_whole _) (notFirst2_of h0) ((isLater2_iff t).mpr h0) ((isLast2_iff t).mpr h9) (gtBlk2 V c t) (restBlk2 V c t) (outsAt2 V c (t.val - 1) (Nat.lt_of_le_of_lt (Nat.sub_le _ _) t.isLt)).2.2
    · rw [outsAt2_mid V c t h0 h9]
      dsimp only
      exact rowsMid2_eq (F := Ideal) c (grid2.coords t) (ms2_0 t) (hs2_0 t) (ms2_1 t) (hs2_1 t) (ms2_2 t) (hs2_2 t) (ms2_3 t) (hs2_3 t) scM2 (Memref.isWhole_whole _) (notFirst2_of h0) ((isLater2_iff t).mpr h0) (notLast2_of h9) (gtBlk2 V c t) (restBlk2 V c t) (outsAt2 V c (t.val - 1) (Nat.lt_of_le_of_lt (Nat.sub_le _ _) t.isLt)).2.2

/-- Row r of them is the row minimum of row 1000 (t % 10) + r of batch t / 10 against the batch's rest points. -/
theorem rowMin2_at (c : Dev nD) (t : Fin cfg2.N) (r : Fin 1000) (b : Fin 8) (n : Fin 10000)
    (hb : b.val = t.val / 10) (hn : n.val = 1000 * (t.val % 10) + r.val) :
    k2_pay3 (gtBlk2 V c t) (restBlk2 V c t) (ix3 0 r 0) = Cert.ChamferSpec.D1 wI2 wTwo2 (gtArr2 V c) (restArr2 V c) b n := by
  refine (pay3_apply2 _ _ r).trans ?_
  unfold Cert.ChamferSpec.D1
  exact Cert.ChamferSpec.rowMin_congr wI2 wTwo2 _ _ _ _ r n
    (fun k => gtBlk2_apply V c t r k (ix3 b n k) hb hn rfl)
    (fun m k => restBlk2_apply V c t m k (ix3 b m k) hb rfl rfl)

/-! ## The scratch after a point: the running column minimum of the batch's tiles so far -/

/-- The running column minimum of batch b after tile j, over the batch's 10 tiles of 1000 rows. -/
abbrev runAt2 (c : Dev nD) (b : Fin 8) (m : Fin 2466) (j : ℕ) (hj : j < 10) : EReal :=
  Cert.ChamferSpec.runMin wI2 wTwo2 (J := 10) (T := 1000) (Cert.ChamferSpec.cur3 (gtArr2 V c) b) (Cert.ChamferSpec.cur3 (restArr2 V c) b) m j hj

/-- The column minimum the body takes over the tile at point t is the column minimum of tile t % 10 of batch t / 10. -/
theorem tile2_eq (c : Dev nD) (t : Fin cfg2.N) (b : Fin 8) (j : ℕ) (hj : j < 10) (hb : b.val = t.val / 10) (hjt : j = t.val % 10) (m : Fin 2466) :
    (Finset.univ : Finset (Fin 1000)).fold min wI2 (fun r => Cert.ChamferSpec.dist wTwo2 (tileA2 (gtBlk2 V c t)) (restB2 (restBlk2 V c t)) r m)
      = Cert.ChamferSpec.tileColMin wI2 wTwo2 (J := 10) (T := 1000) (Cert.ChamferSpec.cur3 (gtArr2 V c) b) (Cert.ChamferSpec.cur3 (restArr2 V c) b) ⟨j, hj⟩ m :=
  Cert.ChamferSpec.tileColMin_of_block wI2 wTwo2 (J := 10) (T := 1000) (Cert.ChamferSpec.cur3 (gtArr2 V c) b) (Cert.ChamferSpec.cur3 (restArr2 V c) b)
    (tileA2 (gtBlk2 V c t)) (restB2 (restBlk2 V c t)) ⟨j, hj⟩ m m
    (fun r k => gtBlk2_apply V c t r k (ix3 b (Cert.ChamferSpec.tileRow (J := 10) (T := 1000) ⟨j, hj⟩ r) k) hb
      (by show 1000 * j + r.val = _; rw [hjt]) rfl)
    (fun k => restBlk2_apply V c t m k (ix3 b m k) hb rfl rfl)

theorem scratch2_eq (c : Dev nD) : ∀ (n : ℕ) (hn : n < cfg2.N) (m : Fin 2466) (b : Fin 8) (j : ℕ) (hj : j < 10),
    b.val = n / 10 → j = n % 10 → (outsAt2 V c n hn).2.2 (ix3 0 m 0) = runAt2 V c b m j hj
  | 0, hn, m, b, j, hj, hb, hjn => by
    obtain rfl : j = 0 := hjn
    rw [outsAt2_first V c ⟨0, hn⟩ rfl]
    dsimp only
    refine (congrFun (accFirst2_eq (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((isFirst2_iff ⟨0, hn⟩).mpr rfl) (notLater2_of (t := ⟨0, hn⟩) rfl) (notLast2_of (t := ⟨0, hn⟩) (ne9_of_zero2 rfl)) (gtBlk2 V c ⟨0, hn⟩) (restBlk2 V c ⟨0, hn⟩)) (ix3 0 m 0)).trans ?_
    refine (pay5_apply2 _ _ m).trans ?_
    exact tile2_eq V c ⟨0, hn⟩ b 0 hj hb rfl m
  | n + 1, hn, m, b, j, hj, hb, hjn => by
    by_cases h0 : (n + 1) % 10 = 0
    · obtain rfl : j = 0 := hjn.trans h0
      rw [outsAt2_first V c ⟨n + 1, hn⟩ h0]
      dsimp only
      refine (congrFun (accFirst2_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((isFirst2_iff ⟨n + 1, hn⟩).mpr h0) (notLater2_of (t := ⟨n + 1, hn⟩) h0) (notLast2_of (t := ⟨n + 1, hn⟩) (ne9_of_zero2 h0)) (gtBlk2 V c ⟨n + 1, hn⟩) (restBlk2 V c ⟨n + 1, hn⟩)) (ix3 0 m 0)).trans ?_
      refine (pay5_apply2 _ _ m).trans ?_
      exact tile2_eq V c ⟨n + 1, hn⟩ b 0 hj hb h0.symm m
    · obtain ⟨j', rfl⟩ : ∃ j', j = j' + 1 := ⟨j - 1, by omega⟩
      have ih := scratch2_eq c n (Nat.lt_of_succ_lt hn) m b j' (Nat.lt_of_succ_lt hj) (by omega) (by omega)
      by_cases h9 : (n + 1) % 10 = 9
      · rw [outsAt2_last V c ⟨n + 1, hn⟩ h0 h9]
        dsimp only
        refine (congrFun (accLast2_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (notFirst2_of (t := ⟨n + 1, hn⟩) h0) ((isLater2_iff ⟨n + 1, hn⟩).mpr h0) ((isLast2_iff ⟨n + 1, hn⟩).mpr h9) (gtBlk2 V c ⟨n + 1, hn⟩) (restBlk2 V c ⟨n + 1, hn⟩) (outsAt2 V c n (Nat.lt_of_succ_lt hn)).2.2) (ix3 0 m 0)).trans ?_
        refine (pay6_apply2 _ _ _ m).trans ?_
        exact (congrArg₂ min ih (tile2_eq V c ⟨n + 1, hn⟩ b (j' + 1) hj hb hjn m)).trans
          (Cert.ChamferSpec.runMin_succ wI2 wTwo2 (J := 10) (T := 1000) _ _ m j' hj).symm
      · rw [outsAt2_mid V c ⟨n + 1, hn⟩ h0 h9]
        dsimp only
        refine (congrFun (accMid2_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (notFirst2_of (t := ⟨n + 1, hn⟩) h0) ((isLater2_iff ⟨n + 1, hn⟩).mpr h0) (notLast2_of (t := ⟨n + 1, hn⟩) h9) (gtBlk2 V c ⟨n + 1, hn⟩) (restBlk2 V c ⟨n + 1, hn⟩) (outsAt2 V c n (Nat.lt_of_succ_lt hn)).2.2) (ix3 0 m 0)).trans ?_
        refine (pay6_apply2 _ _ _ m).trans ?_
        exact (congrArg₂ min ih (tile2_eq V c ⟨n + 1, hn⟩ b (j' + 1) hj hb hjn m)).trans
          (Cert.ChamferSpec.runMin_succ wI2 wTwo2 (J := 10) (T := 1000) _ _ m j' hj).symm

/-! ## From blocks to the arrays -/

/-- The row minima of every batch, as contents of the first output array. -/
abbrev d1Arr2 (c : Dev nD) : Vec Ideal S8x10000x1 .f32 :=
  fun j => Cert.ChamferSpec.D1 wI2 wTwo2 (gtArr2 V c) (restArr2 V c) (j 0) (j 1)
/-- The column minima of every batch, as contents of the second output array. -/
abbrev d2Arr2 (c : Dev nD) : Vec Ideal S8x2466x1 .f32 :=
  fun j => Cert.ChamferSpec.D2 wI2 wTwo2 (gtArr2 V c) (restArr2 V c) (j 0) (j 1)

/-- What point t writes back into the first output array is its block of the row minima. -/
theorem flushed2_2_eq (c : Dev nD) (t : Fin cfg2.N) :
    (dat2 V c).flushed 2 t = ((cfg2.win 2).blk t).view.read (Elt Ideal) (d1Arr2 V c) := by
  show (cfg2.win 2).cut (grid2.coords t) ((dat2 V c).after 2 t) = _
  rw [after2_2, rows2_eq]
  obtain ⟨e0, e1, e2⟩ := idx2_2 t
  funext y
  rw [View.read_apply]
  have h0 : (y 0).val < 1 := (y 0).isLt
  have h1 : (y 1).val < 1000 := (y 1).isLt
  have h2 : (y 2).val < 1 := (y 2).isLt
  have hx : (cfg2.win 2).xinj (grid2.coords t) y = ix3 (0 : Fin 1) (⟨(y 1).val, h1⟩ : Fin 1000) (0 : Fin 1) := by
    funext a
    apply Fin.ext
    match a with
    | ⟨0, _⟩ => show (y 0).val = 0; omega
    | ⟨1, _⟩ => rfl
    | ⟨2, _⟩ => show (y 2).val = 0; omega
  show k2_pay3 (gtBlk2 V c t) (restBlk2 V c t) ((cfg2.win 2).xinj (grid2.coords t) y) = d1Arr2 V c (((cfg2.win 2).blk t).view.emb y)
  rw [hx]
  exact rowMin2_at V c t ⟨(y 1).val, h1⟩ _ _
    (by show win2_2.index t (0 : Fin 3) * 1 + 1 * (y 0).val = t.val / 10; rw [e0]; omega)
    (by show win2_2.index t (1 : Fin 3) * 1000 + 1 * (y 1).val = 1000 * (t.val % 10) + (y 1).val; rw [e1]; omega)

/-- An index of the first output array is in point t's block iff each coordinate is in the block's range on its axis. -/
theorem mem_blk2_2 (t : Fin cfg2.N) (i : S8x10000x1.Idx) :
    i ∈ ((cfg2.win 2).blk t).view.set ↔ ∀ a : Fin 3, win2_2.index t a * S1x1000x1.size a ≤ (i a).val ∧ (i a).val < win2_2.index t a * S1x1000x1.size a + S1x1000x1.size a := by
  show i ∈ ((View.whole main_v173_0).slice (win2_2.rect t)).set ↔ _
  rw [View.set_slice_whole, Rect.mem_set_unit]
  exact Iff.rfl

/-- Row n of batch b is covered by the point of tile n / 1000 of that batch. -/
theorem cover2_2 (i : S8x10000x1.Idx) : ∃ t : Fin cfg2.N, (cfg2.win 2).flush t = true ∧ i ∈ ((cfg2.win 2).blk t).view.set := by
  have hN : cfg2.N = 80 := N_2
  have h0 : (i 0).val < 8 := (i 0).isLt
  have h1 : (i 1).val < 10000 := (i 1).isLt
  have h2 : (i 2).val < 1 := (i 2).isLt
  have ht : 10 * (i 0).val + (i 1).val / 1000 < cfg2.N := by rw [hN]; omega
  refine ⟨⟨10 * (i 0).val + (i 1).val / 1000, ht⟩, flush2_2 _, ?_⟩
  obtain ⟨e0, e1, e2⟩ := idx2_2 ⟨10 * (i 0).val + (i 1).val / 1000, ht⟩
  rw [mem_blk2_2]
  intro a
  match a with
  | ⟨0, _⟩ =>
    show win2_2.index _ (0 : Fin 3) * 1 ≤ (i 0).val ∧ (i 0).val < win2_2.index _ (0 : Fin 3) * 1 + 1
    rw [e0]; dsimp only; omega
  | ⟨1, _⟩ =>
    show win2_2.index _ (1 : Fin 3) * 1000 ≤ (i 1).val ∧ (i 1).val < win2_2.index _ (1 : Fin 3) * 1000 + 1000
    rw [e1]; dsimp only; omega
  | ⟨2, _⟩ =>
    show win2_2.index _ (2 : Fin 3) * 1 ≤ (i 2).val ∧ (i 2).val < win2_2.index _ (2 : Fin 3) * 1 + 1
    rw [e2]; omega

/-- The first output array after the region: the row minima of every batch. -/
theorem d1_array2 (c : Dev nD) : (dat2 V c).arrAt 2 cfg2.N = fun j => Cert.ChamferSpec.D1 wI2 wTwo2 (V c main_arg0) (V c main_arg9) (j 0) (j 1) :=
  (dat2 V c).arrAt_eq_of_cover 2 (d1Arr2 V c) (fun t _ => flushed2_2_eq V c t) cover2_2

/-- At a last tile the second output's buffer holds what the scratch holds. -/
theorem cols2_eq (c : Dev nD) (t : Fin cfg2.N) (h9 : t.val % 10 = 9) :
    (outsAt2 V c t.val t.isLt).2.1 = (outsAt2 V c t.val t.isLt).2.2 := by
  have h0 : ¬t.val % 10 = 0 := ne2_of_nine0 h9
  rw [outsAt2_last V c t h0 h9]
  dsimp only
  rw [colsLast2_eq (F := Ideal) c (grid2.coords t) (ms2_0 t) (hs2_0 t) (ms2_1 t) (hs2_1 t) (ms2_2 t) (hs2_2 t) (ms2_3 t) (hs2_3 t) scM2 (Memref.isWhole_whole _) (notFirst2_of h0) ((isLater2_iff t).mpr h0) ((isLast2_iff t).mpr h9) (gtBlk2 V c t) (restBlk2 V c t) (outsAt2 V c (t.val - 1) (Nat.lt_of_le_of_lt (Nat.sub_le _ _) t.isLt)).2.2,
    accLast2_eq (F := Ideal) c (grid2.coords t) (ms2_0 t) (hs2_0 t) (ms2_1 t) (hs2_1 t) (ms2_2 t) (hs2_2 t) (ms2_3 t) (hs2_3 t) scM2 (Memref.isWhole_whole _) (notFirst2_of h0) ((isLater2_iff t).mpr h0) ((isLast2_iff t).mpr h9) (gtBlk2 V c t) (restBlk2 V c t) (outsAt2 V c (t.val - 1) (Nat.lt_of_le_of_lt (Nat.sub_le _ _) t.isLt)).2.2,
    pay1_eq2]

/-- What a last tile's point writes back into the second output array is its block of the column minima: the running
    minimum after the batch's last tile is the minimum over all the batch's rows. -/
theorem flushed2_3_eq (c : Dev nD) (t : Fin cfg2.N) (hf : (cfg2.win 3).flush t = true) :
    (dat2 V c).flushed 3 t = ((cfg2.win 3).blk t).view.read (Elt Ideal) (d2Arr2 V c) := by
  have h9 : t.val % 10 = 9 := (flush2_3 t).mp hf
  show (cfg2.win 3).cut (grid2.coords t) ((dat2 V c).after 3 t) = _
  rw [after2_3, cols2_eq V c t h9]
  obtain ⟨e0, e1, e2⟩ := idx2_3 t
  funext y
  rw [View.read_apply]
  have hN : cfg2.N = 80 := N_2
  have h0 : (y 0).val < 1 := (y 0).isLt
  have h1 : (y 1).val < 2466 := (y 1).isLt
  have h2 : (y 2).val < 1 := (y 2).isLt
  have hb : t.val / 10 < 8 := by have := t.isLt; omega
  have hx : (cfg2.win 3).xinj (grid2.coords t) y = ix3 (0 : Fin 1) (⟨(y 1).val, h1⟩ : Fin 2466) (0 : Fin 1) := by
    funext a
    apply Fin.ext
    match a with
    | ⟨0, _⟩ => show (y 0).val = 0; omega
    | ⟨1, _⟩ => rfl
    | ⟨2, _⟩ => show (y 2).val = 0; omega
  have hi : ((cfg2.win 3).blk t).view.emb y = ix3 (⟨t.val / 10, hb⟩ : Fin 8) (⟨(y 1).val, h1⟩ : Fin 2466) (0 : Fin 1) := by
    funext a
    apply Fin.ext
    match a with
    | ⟨0, _⟩ => show win2_3.index t (0 : Fin 3) * 1 + 1 * (y 0).val = t.val / 10; rw [e0]; omega
    | ⟨1, _⟩ => show win2_3.index t (1 : Fin 3) * 2466 + 1 * (y 1).val = (y 1).val; rw [e1]; omega
    | ⟨2, _⟩ => show win2_3.index t (2 : Fin 3) * 1 + 1 * (y 2).val = 0; rw [e2]; omega
  show (outsAt2 V c t.val t.isLt).2.2 ((cfg2.win 3).xinj (grid2.coords t) y) = d2Arr2 V c (((cfg2.win 3).blk t).view.emb y)
  rw [hx, hi]
  refine (scratch2_eq V c t.val t.isLt ⟨(y 1).val, h1⟩ ⟨t.val / 10, hb⟩ 9 (by decide) rfl h9.symm).trans ?_
  exact Cert.ChamferSpec.colMin_tiles wI2 wTwo2 (J := 10) (T := 1000) _ _ ⟨(y 1).val, h1⟩ 9 (by decide) rfl

/-- An index of the second output array is in point t's block iff each coordinate is in the block's range on its axis. -/
theorem mem_blk2_3 (t : Fin cfg2.N) (i : S8x2466x1.Idx) :
    i ∈ ((cfg2.win 3).blk t).view.set ↔ ∀ a : Fin 3, win2_3.index t a * S1x2466x1.size a ≤ (i a).val ∧ (i a).val < win2_3.index t a * S1x2466x1.size a + S1x2466x1.size a := by
  show i ∈ ((View.whole main_v173_1).slice (win2_3.rect t)).set ↔ _
  rw [View.set_slice_whole, Rect.mem_set_unit]
  exact Iff.rfl

/-- Batch b's column minima are covered by the point of the batch's last tile. -/
theorem cover2_3 (i : S8x2466x1.Idx) : ∃ t : Fin cfg2.N, (cfg2.win 3).flush t = true ∧ i ∈ ((cfg2.win 3).blk t).view.set := by
  have hN : cfg2.N = 80 := N_2
  have h0 : (i 0).val < 8 := (i 0).isLt
  have h1 : (i 1).val < 2466 := (i 1).isLt
  have h2 : (i 2).val < 1 := (i 2).isLt
  have ht : 10 * (i 0).val + 9 < cfg2.N := by rw [hN]; omega
  refine ⟨⟨10 * (i 0).val + 9, ht⟩, (flush2_3 _).mpr (by show (10 * (i 0).val + 9) % 10 = 9; omega), ?_⟩
  obtain ⟨e0, e1, e2⟩ := idx2_3 ⟨10 * (i 0).val + 9, ht⟩
  rw [mem_blk2_3]
  intro a
  match a with
  | ⟨0, _⟩ =>
    show win2_3.index _ (0 : Fin 3) * 1 ≤ (i 0).val ∧ (i 0).val < win2_3.index _ (0 : Fin 3) * 1 + 1
    rw [e0]; dsimp only; omega
  | ⟨1, _⟩ =>
    show win2_3.index _ (1 : Fin 3) * 2466 ≤ (i 1).val ∧ (i 1).val < win2_3.index _ (1 : Fin 3) * 2466 + 2466
    rw [e1]; omega
  | ⟨2, _⟩ =>
    show win2_3.index _ (2 : Fin 3) * 1 ≤ (i 2).val ∧ (i 2).val < win2_3.index _ (2 : Fin 3) * 1 + 1
    rw [e2]; omega

/-- The second output array after the region: the column minima of every batch. -/
theorem d2_array2 (c : Dev nD) : (dat2 V c).arrAt 3 cfg2.N = fun j => Cert.ChamferSpec.D2 wI2 wTwo2 (V c main_arg0) (V c main_arg9) (j 0) (j 1) :=
  (dat2 V c).arrAt_eq_of_cover 3 (d2Arr2 V c) (flushed2_3_eq V c) cover2_3

end Cert.KernelIdeal.Chamfer

end
-- ==== Proof.Ref.RunStages.lean ====
/- The contents of a device's buffers after each of the ten chunks of the reference program's operations.

   `W0 m c` is what device `c`'s buffers hold at launch; `Wk m c` is what they hold once the operations of chunk `k`
   have run, in order, from `W(k-1) m c`. A buffer that no operation of chunk `k` writes holds after the chunk what it
   held before it (`Wk_of`), so a buffer written by no chunk at all, an argument, ends at its launch contents
   (`W10_arg`). The ten chunks in a row are the whole operation list `opsAll`, and running it from the launch contents
   ends at `W10 m c` (`after_all`). -/
import proofs.«112199_j59459527246412_1_alg».proof.Proof.Ref.RunOps1
import proofs.«112199_j59459527246412_1_alg».proof.Proof.Ref.RunOps2
import proofs.«112199_j59459527246412_1_alg».proof.Proof.Ref.RunOps3
import proofs.«112199_j59459527246412_1_alg».proof.Proof.Ref.RunOps4
import proofs.«112199_j59459527246412_1_alg».proof.Proof.Ref.RunOps5
import proofs.«112199_j59459527246412_1_alg».proof.Proof.Ref.RunOps6
import proofs.«112199_j59459527246412_1_alg».proof.Proof.Ref.RunOps7
import proofs.«112199_j59459527246412_1_alg».proof.Proof.Ref.RunOps8
import proofs.«112199_j59459527246412_1_alg».proof.Proof.Ref.RunOps9
import proofs.«112199_j59459527246412_1_alg».proof.Proof.Ref.RunOps10
import Idealize.ShloMosaic.Lib.Pipeline.Frame
import Mathlib.Data.List.Basic

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- @main's 434 operations, in order: the ten chunks one after the other. -/
abbrev opsAll : List (HloOp τ sig (Elt F)) := ops1 ++ (ops2 ++ (ops3 ++ (ops4 ++ (ops5 ++ (ops6 ++ (ops7 ++ (ops8 ++ (ops9 ++ (ops10)))))))))

theorem opsAll_sub : (opsAll : List (HloOp τ sig (Elt F))).Forall fun op => op.bufs ⊆ tcRefs τ sig := by
  simp only [opsAll, List.forall_append]
  exact ⟨ops1_sub, ops2_sub, ops3_sub, ops4_sub, ops5_sub, ops6_sub, ops7_sub, ops8_sub, ops9_sub, ops10_sub⟩

theorem opsAll_fresh : ∀ op ∈ (opsAll : List (HloOp τ sig (Elt F))), op.fresh = ∅ := by
  refine List.forall_iff_forall_mem.1 ?_
  simp only [opsAll, List.forall_append]
  exact ⟨ops1_fresh, ops2_fresh, ops3_fresh, ops4_fresh, ops5_fresh, ops6_fresh, ops7_fresh, ops8_fresh, ops9_fresh, ops10_fresh⟩

variable (m : (ℓ : Loc nD τ sig) → Buf (Elt F) ℓ) (c : Dev nD)

/-- Device `c`'s buffers at launch. -/
def W0 : Valuation τ sig (Elt F) := launchContents m c
/-- Device `c`'s buffers after chunk 1. -/
def W1 : Valuation τ sig (Elt F) := after ops1 (W0 m c)
/-- Device `c`'s buffers after chunk 2. -/
def W2 : Valuation τ sig (Elt F) := after ops2 (W1 m c)
/-- Device `c`'s buffers after chunk 3. -/
def W3 : Valuation τ sig (Elt F) := after ops3 (W2 m c)
/-- Device `c`'s buffers after chunk 4. -/
def W4 : Valuation τ sig (Elt F) := after ops4 (W3 m c)
/-- Device `c`'s buffers after chunk 5. -/
def W5 : Valuation τ sig (Elt F) := after ops5 (W4 m c)
/-- Device `c`'s buffers after chunk 6. -/
def W6 : Valuation τ sig (Elt F) := after ops6 (W5 m c)
/-- Device `c`'s buffers after chunk 7. -/
def W7 : Valuation τ sig (Elt F) := after ops7 (W6 m c)
/-- Device `c`'s buffers after chunk 8. -/
def W8 : Valuation τ sig (Elt F) := after ops8 (W7 m c)
/-- Device `c`'s buffers after chunk 9. -/
def W9 : Valuation τ sig (Elt F) := after ops9 (W8 m c)
/-- Device `c`'s buffers after chunk 10. -/
def W10 : Valuation τ sig (Elt F) := after ops10 (W9 m c)

/-- A buffer at launch holds what the launch memory gives it. -/
theorem W0_eq (r : Ref sig .tc) : W0 m c (no_index (Proc.devRef .tc r)) = m ((c.tc : Thread nD τ).loc r) := rfl
theorem W1_eq (b : DevRef τ sig) : W1 m c b = after ops1 (W0 m c) b := rfl
theorem W2_eq (b : DevRef τ sig) : W2 m c b = after ops2 (W1 m c) b := rfl
theorem W3_eq (b : DevRef τ sig) : W3 m c b = after ops3 (W2 m c) b := rfl
theorem W4_eq (b : DevRef τ sig) : W4 m c b = after ops4 (W3 m c) b := rfl
theorem W5_eq (b : DevRef τ sig) : W5 m c b = after ops5 (W4 m c) b := rfl
theorem W6_eq (b : DevRef τ sig) : W6 m c b = after ops6 (W5 m c) b := rfl
theorem W7_eq (b : DevRef τ sig) : W7 m c b = after ops7 (W6 m c) b := rfl
theorem W8_eq (b : DevRef τ sig) : W8 m c b = after ops8 (W7 m c) b := rfl
theorem W9_eq (b : DevRef τ sig) : W9 m c b = after ops9 (W8 m c) b := rfl
theorem W10_eq (b : DevRef τ sig) : W10 m c b = after ops10 (W9 m c) b := rfl

/-! A buffer not among the references a chunk writes keeps its contents over the chunk. The primed forms are the same
    facts with the buffer left out of the rewriting pattern, for use as rewrite rules over a whole goal. -/
theorem W1_of {r : Ref sig .tc} (h : r ∉ ops1_W) : W1 m c (Proc.devRef .tc r) = W0 m c (Proc.devRef .tc r) :=
  after_of_writes_sub ops1 _ ops1_writes h
theorem W1_of' {r : Ref sig .tc} (h : r ∉ ops1_W) : W1 m c (no_index (Proc.devRef .tc r)) = W0 m c (Proc.devRef .tc r) :=
  W1_of m c h
theorem W2_of {r : Ref sig .tc} (h : r ∉ ops2_W) : W2 m c (Proc.devRef .tc r) = W1 m c (Proc.devRef .tc r) :=
  after_of_writes_sub ops2 _ ops2_writes h
theorem W2_of' {r : Ref sig .tc} (h : r ∉ ops2_W) : W2 m c (no_index (Proc.devRef .tc r)) = W1 m c (Proc.devRef .tc r) :=
  W2_of m c h
theorem W3_of {r : Ref sig .tc} (h : r ∉ ops3_W) : W3 m c (Proc.devRef .tc r) = W2 m c (Proc.devRef .tc r) :=
  after_of_writes_sub ops3 _ ops3_writes h
theorem W3_of' {r : Ref sig .tc} (h : r ∉ ops3_W) : W3 m c (no_index (Proc.devRef .tc r)) = W2 m c (Proc.devRef .tc r) :=
  W3_of m c h
theorem W4_of {r : Ref sig .tc} (h : r ∉ ops4_W) : W4 m c (Proc.devRef .tc r) = W3 m c (Proc.devRef .tc r) :=
  after_of_writes_sub ops4 _ ops4_writes h
theorem W4_of' {r : Ref sig .tc} (h : r ∉ ops4_W) : W4 m c (no_index (Proc.devRef .tc r)) = W3 m c (Proc.devRef .tc r) :=
  W4_of m c h
theorem W5_of {r : Ref sig .tc} (h : r ∉ ops5_W) : W5 m c (Proc.devRef .tc r) = W4 m c (Proc.devRef .tc r) :=
  after_of_writes_sub ops5 _ ops5_writes h
theorem W5_of' {r : Ref sig .tc} (h : r ∉ ops5_W) : W5 m c (no_index (Proc.devRef .tc r)) = W4 m c (Proc.devRef .tc r) :=
  W5_of m c h
theorem W6_of {r : Ref sig .tc} (h : r ∉ ops6_W) : W6 m c (Proc.devRef .tc r) = W5 m c (Proc.devRef .tc r) :=
  after_of_writes_sub ops6 _ ops6_writes h
theorem W6_of' {r : Ref sig .tc} (h : r ∉ ops6_W) : W6 m c (no_index (Proc.devRef .tc r)) = W5 m c (Proc.devRef .tc r) :=
  W6_of m c h
theorem W7_of {r : Ref sig .tc} (h : r ∉ ops7_W) : W7 m c (Proc.devRef .tc r) = W6 m c (Proc.devRef .tc r) :=
  after_of_writes_sub ops7 _ ops7_writes h
theorem W7_of' {r : Ref sig .tc} (h : r ∉ ops7_W) : W7 m c (no_index (Proc.devRef .tc r)) = W6 m c (Proc.devRef .tc r) :=
  W7_of m c h
theorem W8_of {r : Ref sig .tc} (h : r ∉ ops8_W) : W8 m c (Proc.devRef .tc r) = W7 m c (Proc.devRef .tc r) :=
  after_of_writes_sub ops8 _ ops8_writes h
theorem W8_of' {r : Ref sig .tc} (h : r ∉ ops8_W) : W8 m c (no_index (Proc.devRef .tc r)) = W7 m c (Proc.devRef .tc r) :=
  W8_of m c h
theorem W9_of {r : Ref sig .tc} (h : r ∉ ops9_W) : W9 m c (Proc.devRef .tc r) = W8 m c (Proc.devRef .tc r) :=
  after_of_writes_sub ops9 _ ops9_writes h
theorem W9_of' {r : Ref sig .tc} (h : r ∉ ops9_W) : W9 m c (no_index (Proc.devRef .tc r)) = W8 m c (Proc.devRef .tc r) :=
  W9_of m c h
theorem W10_of {r : Ref sig .tc} (h : r ∉ ops10_W) : W10 m c (Proc.devRef .tc r) = W9 m c (Proc.devRef .tc r) :=
  after_of_writes_sub ops10 _ ops10_writes h
theorem W10_of' {r : Ref sig .tc} (h : r ∉ ops10_W) : W10 m c (no_index (Proc.devRef .tc r)) = W9 m c (Proc.devRef .tc r) :=
  W10_of m c h

/-- A reference no chunk writes ends at its launch contents. -/
theorem W10_arg {r : Ref sig .tc} (h1 : r ∉ ops1_W) (h2 : r ∉ ops2_W) (h3 : r ∉ ops3_W) (h4 : r ∉ ops4_W) (h5 : r ∉ ops5_W) (h6 : r ∉ ops6_W) (h7 : r ∉ ops7_W) (h8 : r ∉ ops8_W) (h9 : r ∉ ops9_W) (h10 : r ∉ ops10_W) :
    W10 m c (Proc.devRef .tc r) = m ((c.tc : Thread nD τ).loc r) := by
  rw [W10_of m c h10, W9_of m c h9, W8_of m c h8, W7_of m c h7, W6_of m c h6, W5_of m c h5, W4_of m c h4, W3_of m c h3, W2_of m c h2, W1_of m c h1]; rfl

/-- Running all the operations from the launch contents ends at the last stage. -/
theorem after_all : after opsAll (launchContents m c) = W10 m c := by
  simp only [opsAll, after_append]; rfl

end Cert.ReferenceIdeal.RunH

end
-- ==== Proof.Ref.RunMain.lean ====
/- The reference program's @main is the straight line of its 434 operations: the ten chunks' lines run one after the
   other. Each chunk's line followed by the rest is the line of the concatenated list (`seq_append`), and @main, its
   seven windows unfolded, is that sequence of operation steps, step for step. -/
import proofs.«112199_j59459527246412_1_alg».proof.Proof.Ref.RunStages
import Idealize.ShloMosaic.Lib.Pipeline.Regions

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_eq (c : Dev nD) : main (F := F) c = seq opsAll := by
  simp only [opsAll, seq_append]
  chain_rfl

end Cert.ReferenceIdeal.RunH

end
-- ==== Proof.Ref.RunV242.lean ====
/- The result buffer `main_v242` of the reference program, read back through the ten chunks.

   After the last chunk the buffer holds, chunk by chunk from the last to the first, either what it held before the chunk
   (no operation of the chunk writes it) or the writing operation's function of its operands' contents, which are read
   back the same way; at the launch contents every operand left is an argument of the program. The term so composed is
   `res_main_v242`, operation for operation. -/
import proofs.«112199_j59459527246412_1_alg».proof.Proof.Ref.RunStages
import proofs.«112199_j59459527246412_1_alg».proof.Proof.Ref.RunRes

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ) (c : Dev nD)

set_option maxRecDepth 8192 in
set_option maxHeartbeats 4000000 in
theorem W10_main_v242 : W10 m c (Proc.devRef .tc main_v242) = res_main_v242 m c := by
  -- chunk 10: the buffers it does not write are as they were before it; the others are its operations' results
  try simp (disch := decide) only [W10_of']
  try (simp only [W10_eq]; after_results_simp)
  -- chunk 9: the buffers it does not write are as they were before it; the others are its operations' results
  try simp (disch := decide) only [W9_of']
  try (simp only [W9_eq]; after_results_simp)
  -- chunk 8: the buffers it does not write are as they were before it; the others are its operations' results
  try simp (disch := decide) only [W8_of']
  try (simp only [W8_eq]; after_results_simp)
  -- chunk 7: the buffers it does not write are as they were before it; the others are its operations' results
  try simp (disch := decide) only [W7_of']
  try (simp only [W7_eq]; after_results_simp)
  -- chunk 6: the buffers it does not write are as they were before it; the others are its operations' results
  try simp (disch := decide) only [W6_of']
  try (simp only [W6_eq]; after_results_simp)
  -- chunk 5: the buffers it does not write are as they were before it; the others are its operations' results
  try simp (disch := decide) only [W5_of']
  try (simp only [W5_eq]; after_results_simp)
  -- chunk 4: the buffers it does not write are as they were before it; the others are its operations' results
  try simp (disch := decide) only [W4_of']
  try (simp only [W4_eq]; after_results_simp)
  -- chunk 3: the buffers it does not write are as they were before it; the others are its operations' results
  try simp (disch := decide) only [W3_of']
  try (simp only [W3_eq]; after_results_simp)
  -- chunk 2: the buffers it does not write are as they were before it; the others are its operations' results
  try simp (disch := decide) only [W2_of']
  try (simp only [W2_eq]; after_results_simp)
  -- chunk 1: the buffers it does not write are as they were before it; the others are its operations' results
  try simp (disch := decide) only [W1_of']
  try (simp only [W1_eq]; after_results_simp)
  -- the launch contents
  simp only [W0_eq]
  first | rfl | (unfold res_main_v242; rfl)

/-- After all 434 operations, from the launch contents. -/
theorem after_main_v242 : after opsAll (launchContents m c) (Proc.devRef .tc main_v242) = res_main_v242 m c := by
  rw [after_all]; exact W10_main_v242 m c

end Cert.ReferenceIdeal.RunH

end
-- ==== Proof.Ref.RunV291.lean ====
/- The result buffer `main_v291` of the reference program, read back through the ten chunks.

   After the last chunk the buffer holds, chunk by chunk from the last to the first, either what it held before the chunk
   (no operation of the chunk writes it) or the writing operation's function of its operands' contents, which are read
   back the same way; at the launch contents every operand left is an argument of the program. The term so composed is
   `res_main_v291`, operation for operation. -/
import proofs.«112199_j59459527246412_1_alg».proof.Proof.Ref.RunStages
import proofs.«112199_j59459527246412_1_alg».proof.Proof.Ref.RunRes

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ) (c : Dev nD)

set_option maxRecDepth 8192 in
set_option maxHeartbeats 4000000 in
theorem W10_main_v291 : W10 m c (Proc.devRef .tc main_v291) = res_main_v291 m c := by
  -- chunk 10: the buffers it does not write are as they were before it; the others are its operations' results
  try simp (disch := decide) only [W10_of']
  try (simp only [W10_eq]; after_results_simp)
  -- chunk 9: the buffers it does not write are as they were before it; the others are its operations' results
  try simp (disch := decide) only [W9_of']
  try (simp only [W9_eq]; after_results_simp)
  -- chunk 8: the buffers it does not write are as they were before it; the others are its operations' results
  try simp (disch := decide) only [W8_of']
  try (simp only [W8_eq]; after_results_simp)
  -- chunk 7: the buffers it does not write are as they were before it; the others are its operations' results
  try simp (disch := decide) only [W7_of']
  try (simp only [W7_eq]; after_results_simp)
  -- chunk 6: the buffers it does not write are as they were before it; the others are its operations' results
  try simp (disch := decide) only [W6_of']
  try (simp only [W6_eq]; after_results_simp)
  -- chunk 5: the buffers it does not write are as they were before it; the others are its operations' results
  try simp (disch := decide) only [W5_of']
  try (simp only [W5_eq]; after_results_simp)
  -- chunk 4: the buffers it does not write are as they were before it; the others are its operations' results
  try simp (disch := decide) only [W4_of']
  try (simp only [W4_eq]; after_results_simp)
  -- chunk 3: the buffers it does not write are as they were before it; the others are its operations' results
  try simp (disch := decide) only [W3_of']
  try (simp only [W3_eq]; after_results_simp)
  -- chunk 2: the buffers it does not write are as they were before it; the others are its operations' results
  try simp (disch := decide) only [W2_of']
  try (simp only [W2_eq]; after_results_simp)
  -- chunk 1: the buffers it does not write are as they were before it; the others are its operations' results
  try simp (disch := decide) only [W1_of']
  try (simp only [W1_eq]; after_results_simp)
  -- the launch contents
  simp only [W0_eq]
  first | rfl | (unfold res_main_v291; rfl)

/-- After all 434 operations, from the launch contents. -/
theorem after_main_v291 : after opsAll (launchContents m c) (Proc.devRef .tc main_v291) = res_main_v291 m c := by
  rw [after_all]; exact W10_main_v291 m c

end Cert.ReferenceIdeal.RunH

end
-- ==== Proof.Ref.RunV298.lean ====
/- The result buffer `main_v298` of the reference program, read back through the ten chunks.

   After the last chunk the buffer holds, chunk by chunk from the last to the first, either what it held before the chunk
   (no operation of the chunk writes it) or the writing operation's function of its operands' contents, which are read
   back the same way; at the launch contents every operand left is an argument of the program. The term so composed is
   `res_main_v298`, operation for operation. -/
import proofs.«112199_j59459527246412_1_alg».proof.Proof.Ref.RunStages
import proofs.«112199_j59459527246412_1_alg».proof.Proof.Ref.RunRes

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ) (c : Dev nD)

set_option maxRecDepth 8192 in
set_option maxHeartbeats 4000000 in
theorem W10_main_v298 : W10 m c (Proc.devRef .tc main_v298) = res_main_v298 m c := by
  -- chunk 10: the buffers it does not write are as they were before it; the others are its operations' results
  try simp (disch := decide) only [W10_of']
  try (simp only [W10_eq]; after_results_simp)
  -- chunk 9: the buffers it does not write are as they were before it; the others are its operations' results
  try simp (disch := decide) only [W9_of']
  try (simp only [W9_eq]; after_results_simp)
  -- chunk 8: the buffers it does not write are as they were before it; the others are its operations' results
  try simp (disch := decide) only [W8_of']
  try (simp only [W8_eq]; after_results_simp)
  -- chunk 7: the buffers it does not write are as they were before it; the others are its operations' results
  try simp (disch := decide) only [W7_of']
  try (simp only [W7_eq]; after_results_simp)
  -- chunk 6: the buffers it does not write are as they were before it; the others are its operations' results
  try simp (disch := decide) only [W6_of']
  try (simp only [W6_eq]; after_results_simp)
  -- chunk 5: the buffers it does not write are as they were before it; the others are its operations' results
  try simp (disch := decide) only [W5_of']
  try (simp only [W5_eq]; after_results_simp)
  -- chunk 4: the buffers it does not write are as they were before it; the others are its operations' results
  try simp (disch := decide) only [W4_of']
  try (simp only [W4_eq]; after_results_simp)
  -- chunk 3: the buffers it does not write are as they were before it; the others are its operations' results
  try simp (disch := decide) only [W3_of']
  try (simp only [W3_eq]; after_results_simp)
  -- chunk 2: the buffers it does not write are as they were before it; the others are its operations' results
  try simp (disch := decide) only [W2_of']
  try (simp only [W2_eq]; after_results_simp)
  -- chunk 1: the buffers it does not write are as they were before it; the others are its operations' results
  try simp (disch := decide) only [W1_of']
  try (simp only [W1_eq]; after_results_simp)
  -- the launch contents
  simp only [W0_eq]
  first | rfl | (unfold res_main_v298; rfl)

/-- After all 434 operations, from the launch contents. -/
theorem after_main_v298 : after opsAll (launchContents m c) (Proc.devRef .tc main_v298) = res_main_v298 m c := by
  rw [after_all]; exact W10_main_v298 m c

end Cert.ReferenceIdeal.RunH

end
-- ==== Proof.Ref.RunV218.lean ====
/- The result buffer `main_v218` of the reference program, read back through the ten chunks.

   After the last chunk the buffer holds, chunk by chunk from the last to the first, either what it held before the chunk
   (no operation of the chunk writes it) or the writing operation's function of its operands' contents, which are read
   back the same way; at the launch contents every operand left is an argument of the program. The term so composed is
   `res_main_v218`, operation for operation. -/
import proofs.«112199_j59459527246412_1_alg».proof.Proof.Ref.RunStages
import proofs.«112199_j59459527246412_1_alg».proof.Proof.Ref.RunRes

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ) (c : Dev nD)

set_option maxRecDepth 8192 in
set_option maxHeartbeats 4000000 in
theorem W10_main_v218 : W10 m c (Proc.devRef .tc main_v218) = res_main_v218 m c := by
  -- chunk 10: the buffers it does not write are as they were before it; the others are its operations' results
  try simp (disch := decide) only [W10_of']
  try (simp only [W10_eq]; after_results_simp)
  -- chunk 9: the buffers it does not write are as they were before it; the others are its operations' results
  try simp (disch := decide) only [W9_of']
  try (simp only [W9_eq]; after_results_simp)
  -- chunk 8: the buffers it does not write are as they were before it; the others are its operations' results
  try simp (disch := decide) only [W8_of']
  try (simp only [W8_eq]; after_results_simp)
  -- chunk 7: the buffers it does not write are as they were before it; the others are its operations' results
  try simp (disch := decide) only [W7_of']
  try (simp only [W7_eq]; after_results_simp)
  -- chunk 6: the buffers it does not write are as they were before it; the others are its operations' results
  try simp (disch := decide) only [W6_of']
  try (simp only [W6_eq]; after_results_simp)
  -- chunk 5: the buffers it does not write are as they were before it; the others are its operations' results
  try simp (disch := decide) only [W5_of']
  try (simp only [W5_eq]; after_results_simp)
  -- chunk 4: the buffers it does not write are as they were before it; the others are its operations' results
  try simp (disch := decide) only [W4_of']
  try (simp only [W4_eq]; after_results_simp)
  -- chunk 3: the buffers it does not write are as they were before it; the others are its operations' results
  try simp (disch := decide) only [W3_of']
  try (simp only [W3_eq]; after_results_simp)
  -- chunk 2: the buffers it does not write are as they were before it; the others are its operations' results
  try simp (disch := decide) only [W2_of']
  try (simp only [W2_eq]; after_results_simp)
  -- chunk 1: the buffers it does not write are as they were before it; the others are its operations' results
  try simp (disch := decide) only [W1_of']
  try (simp only [W1_eq]; after_results_simp)
  -- the launch contents
  simp only [W0_eq]
  first | rfl | (unfold res_main_v218; rfl)

/-- After all 434 operations, from the launch contents. -/
theorem after_main_v218 : after opsAll (launchContents m c) (Proc.devRef .tc main_v218) = res_main_v218 m c := by
  rw [after_all]; exact W10_main_v218 m c

end Cert.ReferenceIdeal.RunH

end
-- ==== Proof.Bridge.Terms.lean ====
/-
  The reference's four results against the kernel program's terms.

  Each program states its results as composed terms of its own argument arrays. For the edge-length, laplacian and move
  losses the two terms are the same nesting of the same operations over the same-numbered arguments. For the chamfer
  loss the kernel program's term reads the six arrays its regions leave, reshaped; the reference's reads, in the same
  places, its six minimum reductions of the pairwise squared distances: both are one function `chamTerm'` of six arrays.
-/
import proofs.«112199_j59459527246412_1_alg».proof.Proof.KI.Glue
import proofs.«112199_j59459527246412_1_alg».proof.Proof.Ref.Run

noncomputable section

namespace Cert.KernelIdeal.Chamfer

open Cert.KernelIdeal Cert.KernelIdeal.Gen
open Idealize.ShloMosaic

variable {F : FTy → Type} [FloatOps F]

/-- The chamfer loss as a function of the six minimum arrays themselves (each pass's row minima and column minima):
    for each pass the mean of the first plus a weighted mean of the second. -/
def chamTerm' (d0 : Vec F S8x10000 .f32) (d1 : Vec F S8x156 .f32) (d2 : Vec F S8x10000 .f32) (d3 : Vec F S8x618 .f32)
    (d4 : Vec F S8x10000 .f32) (d5 : Vec F S8x2466 .f32) : Vec F S_ .f32 :=
  addf (addf (addf (addf (addf (addf (constant S_ .f32 0x00000000#32) (Host.divf (Host.reduceAdd d0 (constant S_ .f32 0x00000000#32) reducesTo_S8x10000_S_d0_1 h_S_) (constant S_ .f32 0x479C4000#32))) (mulf (constant S_ .f32 0x3F0CCCCD#32) (Host.divf (Host.reduceAdd d1 (constant S_ .f32 0x00000000#32) reducesTo_S8x156_S_d0_1 h_S_) (constant S_ .f32 0x449C0000#32)))) (Host.divf (Host.reduceAdd d2 (constant S_ .f32 0x00000000#32) reducesTo_S8x10000_S_d0_1 h_S_) (constant S_ .f32 0x479C4000#32))) (mulf (constant S_ .f32 0x3F0CCCCD#32) (Host.divf (Host.reduceAdd d3 (constant S_ .f32 0x00000000#32) reducesTo_S8x618_S_d0_1 h_S_) (constant S_ .f32 0x459A8000#32)))) (Host.divf (Host.reduceAdd d4 (constant S_ .f32 0x00000000#32) reducesTo_S8x10000_S_d0_1 h_S_) (constant S_ .f32 0x479C4000#32))) (mulf (constant S_ .f32 0x3F0CCCCD#32) (Host.divf (Host.reduceAdd d5 (constant S_ .f32 0x00000000#32) reducesTo_S8x2466_S_d0_1 h_S_) (constant S_ .f32 0x469A2000#32)))

/-- The chamfer loss over the regions' output arrays is that function of the arrays reshaped to drop the unit axis. -/
theorem chamTerm_eq (o0 : Vec F S8x10000x1 .f32) (o1 : Vec F S8x156x1 .f32) (o2 : Vec F S8x10000x1 .f32) (o3 : Vec F S8x618x1 .f32)
    (o4 : Vec F S8x10000x1 .f32) (o5 : Vec F S8x2466x1 .f32) :
    chamTerm o0 o1 o2 o3 o4 o5
      = chamTerm' (shapeCast _ o0 shapeCasts_S8x10000x1_S8x10000) (shapeCast _ o1 shapeCasts_S8x156x1_S8x156)
          (shapeCast _ o2 shapeCasts_S8x10000x1_S8x10000) (shapeCast _ o3 shapeCasts_S8x618x1_S8x618)
          (shapeCast _ o4 shapeCasts_S8x10000x1_S8x10000) (shapeCast _ o5 shapeCasts_S8x2466x1_S8x2466) := by
  unfold chamTerm chamTerm'
  rfl

end Cert.KernelIdeal.Chamfer

namespace Cert.Bridge

open Idealize.ShloMosaic Idealize.ShloMosaic.TcCoe Idealize.SL.Sem
open Cert.KernelIdeal.Chamfer Cert.ReferenceIdeal.RunH

variable {F : FTy → Type} [FloatOps F]
variable (m' : (ℓ : Loc Cert.ReferenceIdeal.nD Cert.ReferenceIdeal.τ Cert.ReferenceIdeal.sig) → Buf (Elt F) ℓ)

/-! ## The three losses of the argument arrays alone

The reference's composed term and the kernel program's are the same nesting of the same operations; the shapes and
the shape facts they cite are each program's own copies of the same definitions, so the two sides agree by unfolding. -/

set_option maxRecDepth 8192 in
/-- The move loss. -/
theorem ref_move (c : Dev Cert.ReferenceIdeal.nD) :
    res_main_v298 m' c = moveTerm (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg3)) := by
  unfold res_main_v298 moveTerm
  rfl

set_option maxRecDepth 8192 in
set_option maxHeartbeats 4000000 in
/-- The edge-length loss. -/
theorem ref_edge (c : Dev Cert.ReferenceIdeal.nD) :
    res_main_v242 m' c = edgeTerm (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) := by
  unfold res_main_v242 edgeTerm
  rfl

set_option maxRecDepth 8192 in
set_option maxHeartbeats 16000000 in
/-- The laplacian loss. -/
theorem ref_lap (c : Dev Cert.ReferenceIdeal.nD) :
    res_main_v291 m' c = lapTerm (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) := by
  unfold res_main_v291 lapTerm
  rfl

/-! ## The chamfer loss

The reference takes each pass's two minimum reductions of the full distance array; the loss is the same function of
those six minimum arrays as the kernel program's is of its regions' reshaped outputs. -/

section Cham

open Cert.ReferenceIdeal Cert.ReferenceIdeal.Gen

set_option maxRecDepth 8192 in
set_option maxHeartbeats 4000000 in
/-- The chamfer loss over the reference's six minimum reductions. -/
theorem ref_cham (c : Dev nD) :
    res_main_v218 m' c
      = chamTerm'
          (Host.reduce FloatOps.minimumf (subf (addf (broadcastInDim S8x10000x156 ![0, 1, 2] bcast_S8x10000x1_S8x10000x156_0_1_2 (broadcastInDim S8x10000x1 ![0, 1] bcast_S8x10000_S8x10000x1_0_1 (Host.reduceAdd (mulf (m' ((c.tc : Thread nD τ).loc main_arg0)) (m' ((c.tc : Thread nD τ).loc main_arg0))) (constant S_ .f32 0x00000000#32) reducesTo_S8x10000x3_S8x10000_d2 h_S_))) (broadcastInDim S8x10000x156 ![0, 1, 2] bcast_S8x1x156_S8x10000x156_0_1_2 (broadcastInDim S8x1x156 ![0, 2] bcast_S8x156_S8x1x156_0_2 (Host.reduceAdd (mulf (m' ((c.tc : Thread nD τ).loc main_arg7)) (m' ((c.tc : Thread nD τ).loc main_arg7))) (constant S_ .f32 0x00000000#32) reducesTo_S8x156x3_S8x156_d2 h_S_)))) (mulf (broadcastInDim S8x10000x156 ![] bcast_S_S8x10000x156 (constant S_ .f32 0x40000000#32)) (Host.dotGeneral dot_S8x10000x3_S8x156x3_S8x10000x156_2_2_1_1_0_0 none (m' ((c.tc : Thread nD τ).loc main_arg0)) (m' ((c.tc : Thread nD τ).loc main_arg7))))) (constant S_ .f32 0x7F800000#32) reducesTo_S8x10000x156_S8x10000_d2 h_S_)
          (Host.reduce FloatOps.minimumf (subf (addf (broadcastInDim S8x10000x156 ![0, 1, 2] bcast_S8x10000x1_S8x10000x156_0_1_2 (broadcastInDim S8x10000x1 ![0, 1] bcast_S8x10000_S8x10000x1_0_1 (Host.reduceAdd (mulf (m' ((c.tc : Thread nD τ).loc main_arg0)) (m' ((c.tc : Thread nD τ).loc main_arg0))) (constant S_ .f32 0x00000000#32) reducesTo_S8x10000x3_S8x10000_d2 h_S_))) (broadcastInDim S8x10000x156 ![0, 1, 2] bcast_S8x1x156_S8x10000x156_0_1_2 (broadcastInDim S8x1x156 ![0, 2] bcast_S8x156_S8x1x156_0_2 (Host.reduceAdd (mulf (m' ((c.tc : Thread nD τ).loc main_arg7)) (m' ((c.tc : Thread nD τ).loc main_arg7))) (constant S_ .f32 0x00000000#32) reducesTo_S8x156x3_S8x156_d2 h_S_)))) (mulf (broadcastInDim S8x10000x156 ![] bcast_S_S8x10000x156 (constant S_ .f32 0x40000000#32)) (Host.dotGeneral dot_S8x10000x3_S8x156x3_S8x10000x156_2_2_1_1_0_0 none (m' ((c.tc : Thread nD τ).loc main_arg0)) (m' ((c.tc : Thread nD τ).loc main_arg7))))) (constant S_ .f32 0x7F800000#32) reducesTo_S8x10000x156_S8x156_d1 h_S_)
          (Host.reduce FloatOps.minimumf (subf (addf (broadcastInDim S8x10000x618 ![0, 1, 2] bcast_S8x10000x1_S8x10000x618_0_1_2 (broadcastInDim S8x10000x1 ![0, 1] bcast_S8x10000_S8x10000x1_0_1 (Host.reduceAdd (mulf (m' ((c.tc : Thread nD τ).loc main_arg0)) (m' ((c.tc : Thread nD τ).loc main_arg0))) (constant S_ .f32 0x00000000#32) reducesTo_S8x10000x3_S8x10000_d2 h_S_))) (broadcastInDim S8x10000x618 ![0, 1, 2] bcast_S8x1x618_S8x10000x618_0_1_2 (broadcastInDim S8x1x618 ![0, 2] bcast_S8x618_S8x1x618_0_2 (Host.reduceAdd (mulf (m' ((c.tc : Thread nD τ).loc main_arg8)) (m' ((c.tc : Thread nD τ).loc main_arg8))) (constant S_ .f32 0x00000000#32) reducesTo_S8x618x3_S8x618_d2 h_S_)))) (mulf (broadcastInDim S8x10000x618 ![] bcast_S_S8x10000x618 (constant S_ .f32 0x40000000#32)) (Host.dotGeneral dot_S8x10000x3_S8x618x3_S8x10000x618_2_2_1_1_0_0 none (m' ((c.tc : Thread nD τ).loc main_arg0)) (m' ((c.tc : Thread nD τ).loc main_arg8))))) (constant S_ .f32 0x7F800000#32) reducesTo_S8x10000x618_S8x10000_d2 h_S_)
          (Host.reduce FloatOps.minimumf (subf (addf (broadcastInDim S8x10000x618 ![0, 1, 2] bcast_S8x10000x1_S8x10000x618_0_1_2 (broadcastInDim S8x10000x1 ![0, 1] bcast_S8x10000_S8x10000x1_0_1 (Host.reduceAdd (mulf (m' ((c.tc : Thread nD τ).loc main_arg0)) (m' ((c.tc : Thread nD τ).loc main_arg0))) (constant S_ .f32 0x00000000#32) reducesTo_S8x10000x3_S8x10000_d2 h_S_))) (broadcastInDim S8x10000x618 ![0, 1, 2] bcast_S8x1x618_S8x10000x618_0_1_2 (broadcastInDim S8x1x618 ![0, 2] bcast_S8x618_S8x1x618_0_2 (Host.reduceAdd (mulf (m' ((c.tc : Thread nD τ).loc main_arg8)) (m' ((c.tc : Thread nD τ).loc main_arg8))) (constant S_ .f32 0x00000000#32) reducesTo_S8x618x3_S8x618_d2 h_S_)))) (mulf (broadcastInDim S8x10000x618 ![] bcast_S_S8x10000x618 (constant S_ .f32 0x40000000#32)) (Host.dotGeneral dot_S8x10000x3_S8x618x3_S8x10000x618_2_2_1_1_0_0 none (m' ((c.tc : Thread nD τ).loc main_arg0)) (m' ((c.tc : Thread nD τ).loc main_arg8))))) (constant S_ .f32 0x7F800000#32) reducesTo_S8x10000x618_S8x618_d1 h_S_)
          (Host.reduce FloatOps.minimumf (subf (addf (broadcastInDim S8x10000x2466 ![0, 1, 2] bcast_S8x10000x1_S8x10000x2466_0_1_2 (broadcastInDim S8x10000x1 ![0, 1] bcast_S8x10000_S8x10000x1_0_1 (Host.reduceAdd (mulf (m' ((c.tc : Thread nD τ).loc main_arg0)) (m' ((c.tc : Thread nD τ).loc main_arg0))) (constant S_ .f32 0x00000000#32) reducesTo_S8x10000x3_S8x10000_d2 h_S_))) (broadcastInDim S8x10000x2466 ![0, 1, 2] bcast_S8x1x2466_S8x10000x2466_0_1_2 (broadcastInDim S8x1x2466 ![0, 2] bcast_S8x2466_S8x1x2466_0_2 (Host.reduceAdd (mulf (m' ((c.tc : Thread nD τ).loc main_arg9)) (m' ((c.tc : Thread nD τ).loc main_arg9))) (constant S_ .f32 0x00000000#32) reducesTo_S8x2466x3_S8x2466_d2 h_S_)))) (mulf (broadcastInDim S8x10000x2466 ![] bcast_S_S8x10000x2466 (constant S_ .f32 0x40000000#32)) (Host.dotGeneral dot_S8x10000x3_S8x2466x3_S8x10000x2466_2_2_1_1_0_0 none (m' ((c.tc : Thread nD τ).loc main_arg0)) (m' ((c.tc : Thread nD τ).loc main_arg9))))) (constant S_ .f32 0x7F800000#32) reducesTo_S8x10000x2466_S8x10000_d2 h_S_)
          (Host.reduce FloatOps.minimumf (subf (addf (broadcastInDim S8x10000x2466 ![0, 1, 2] bcast_S8x10000x1_S8x10000x2466_0_1_2 (broadcastInDim S8x10000x1 ![0, 1] bcast_S8x10000_S8x10000x1_0_1 (Host.reduceAdd (mulf (m' ((c.tc : Thread nD τ).loc main_arg0)) (m' ((c.tc : Thread nD τ).loc main_arg0))) (constant S_ .f32 0x00000000#32) reducesTo_S8x10000x3_S8x10000_d2 h_S_))) (broadcastInDim S8x10000x2466 ![0, 1, 2] bcast_S8x1x2466_S8x10000x2466_0_1_2 (broadcastInDim S8x1x2466 ![0, 2] bcast_S8x2466_S8x1x2466_0_2 (Host.reduceAdd (mulf (m' ((c.tc : Thread nD τ).loc main_arg9)) (m' ((c.tc : Thread nD τ).loc main_arg9))) (constant S_ .f32 0x00000000#32) reducesTo_S8x2466x3_S8x2466_d2 h_S_)))) (mulf (broadcastInDim S8x10000x2466 ![] bcast_S_S8x10000x2466 (constant S_ .f32 0x40000000#32)) (Host.dotGeneral dot_S8x10000x3_S8x2466x3_S8x10000x2466_2_2_1_1_0_0 none (m' ((c.tc : Thread nD τ).loc main_arg0)) (m' ((c.tc : Thread nD τ).loc main_arg9))))) (constant S_ .f32 0x7F800000#32) reducesTo_S8x10000x2466_S8x2466_d1 h_S_) := by
  unfold res_main_v218 chamTerm'
  rfl

end Cham

end Cert.Bridge

end
-- ==== Proof.Bridge.Kernel.lean ====
/-
  The two idealized programs compute the same four losses. Three of them (edge length, laplacian, move) are the
  same host operations on the same arguments in both programs. The fourth adds, for each of the three point sets,
  the mean of the row minima and 0.55 times the mean of the column minima of the expanded squared distances: the
  kernel program takes the minima tile by tile in its three regions, the reference by two minimum-reductions of
  the whole distance tensor; both are the specification's `D1` and `D2` of the argument arrays, and what is done to them
  afterwards is again the same host operations.
-/
import proofs.«112199_j59459527246412_1_alg».proof.Proof.KI.Run
import proofs.«112199_j59459527246412_1_alg».proof.Proof.KI.Glue
import proofs.«112199_j59459527246412_1_alg».proof.Proof.KI.Value0
import proofs.«112199_j59459527246412_1_alg».proof.Proof.KI.Value1
import proofs.«112199_j59459527246412_1_alg».proof.Proof.KI.Value2
import proofs.«112199_j59459527246412_1_alg».proof.Proof.Bridge.Terms
import proofs.«112199_j59459527246412_1_alg».proof.Proof.ChamferSpec
import Idealize.ShloMosaic.Lib.Pipeline.Value
import Idealize.ShloMosaic.Lib.ValueIdx

set_option maxRecDepth 16384

noncomputable section

namespace Cert.Bridge

open Idealize.ShloMosaic Idealize.ShloMosaic.TcCoe Idealize.SL.Sem
open Cert.KernelIdeal Cert.KernelIdeal.Gen Cert.KernelIdeal.Chamfer
open Cert.ChamferSpec

/-- The starting word of every minimum and the factor word, read at the ideal values. -/
abbrev wI : EReal := Ideal.ofBits .f32 0x7F800000#32
abbrev wTwo : EReal := Ideal.ofBits .f32 0x40000000#32

/-! ## Dropping a trailing unit axis -/

/-- An `[a, b, 1]` array cast to `[a, b]` reads, at `(i, j)`, the operand at `(i, j, 0)`: the two row-major positions agree. -/
theorem shapeCast_ab1_ab_apply {a b : ℕ} {α : Type} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ValueIdx.ix2 i j) = x (ValueIdx.ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- So an array of shape `[a, b, 1]` given by its first two coordinates is, cast to `[a, b]`, the same function. -/
theorem reshape_rows {a b : ℕ} (g : Fin a → Fin b → EReal) (h : (⟨3, ![a, b, 1]⟩ : Shape).ShapeCasts ⟨2, ![a, b]⟩) :
    shapeCast ⟨2, ![a, b]⟩ (fun j : (⟨3, ![a, b, 1]⟩ : Shape).Idx => g (j 0) (j 1)) h = fun j => g (j 0) (j 1) := by
  funext j
  obtain ⟨p, q, rfl⟩ : ∃ (p : Fin a) (q : Fin b), j = ValueIdx.ix2 p q := ⟨j 0, j 1, ValueIdx.eq_ix2 j⟩
  rw [shapeCast_ab1_ab_apply]
  rfl

/-- The row minima of every batch, stored with a trailing unit axis, are the same array without it. -/
theorem reshape_D1 {B N M : ℕ} (x : (⟨3, ![B, N, 3]⟩ : Shape).Idx → EReal) (y : (⟨3, ![B, M, 3]⟩ : Shape).Idx → EReal)
    (h : (⟨3, ![B, N, 1]⟩ : Shape).ShapeCasts ⟨2, ![B, N]⟩) :
    shapeCast ⟨2, ![B, N]⟩ (fun j : (⟨3, ![B, N, 1]⟩ : Shape).Idx => D1 wI wTwo x y (j 0) (j 1)) h = fun j => D1 wI wTwo x y (j 0) (j 1) :=
  reshape_rows (fun i n => D1 wI wTwo x y i n) h
/-- The same for the column minima. -/
theorem reshape_D2 {B N M : ℕ} (x : (⟨3, ![B, N, 3]⟩ : Shape).Idx → EReal) (y : (⟨3, ![B, M, 3]⟩ : Shape).Idx → EReal)
    (h : (⟨3, ![B, M, 1]⟩ : Shape).ShapeCasts ⟨2, ![B, M]⟩) :
    shapeCast ⟨2, ![B, M]⟩ (fun j : (⟨3, ![B, M, 1]⟩ : Shape).Idx => D2 wI wTwo x y (j 0) (j 1)) h = fun j => D2 wI wTwo x y (j 0) (j 1) :=
  reshape_rows (fun i n => D2 wI wTwo x y i n) h

/-! ## What the kernel program's regions leave -/

section Kernel
variable (m : (ℓ : Loc nD τ sig) → Buf (Elt Ideal) ℓ)

set_option maxHeartbeats 8000000 in
/-- No host stretch before region 1 writes an argument, and region 0 may not change one. -/
theorem V10_arg0 (c : Dev nD) : V10 m (outsA m) c main_arg0 = m ((c : Thread nD τ).loc main_arg0) :=
  (V10_of m (outsA m) c main_arg0 (by decide)).trans <| (V9_of m (outsA m) c main_arg0 (by decide)).trans <| (V8_of m (outsA m) c main_arg0 (by decide)).trans <| (V7_of m (outsA m) c main_arg0 (by decide)).trans <| (V6_of m (outsA m) c main_arg0 (by decide)).trans <| (V5_of m (outsA m) c main_arg0 (by decide)).trans <| (V4_of m (outsA m) c main_arg0 (by decide)).trans <| (V3_of m (outsA m) c main_arg0 (by decide)).trans <| (V2_of m (outsA m) c main_arg0 (by decide)).trans <| (V1_of m (outsA m) c main_arg0 (by decide)).trans <| rfl
set_option maxHeartbeats 8000000 in
theorem V10_arg8 (c : Dev nD) : V10 m (outsA m) c main_arg8 = m ((c : Thread nD τ).loc main_arg8) :=
  (V10_of m (outsA m) c main_arg8 (by decide)).trans <| (V9_of m (outsA m) c main_arg8 (by decide)).trans <| (V8_of m (outsA m) c main_arg8 (by decide)).trans <| (V7_of m (outsA m) c main_arg8 (by decide)).trans <| (V6_of m (outsA m) c main_arg8 (by decide)).trans <| (V5_of m (outsA m) c main_arg8 (by decide)).trans <| (V4_of m (outsA m) c main_arg8 (by decide)).trans <| (V3_of m (outsA m) c main_arg8 (by decide)).trans <| (V2_of m (outsA m) c main_arg8 (by decide)).trans <| (V1_of m (outsA m) c main_arg8 (by decide)).trans <| rfl
set_option maxHeartbeats 8000000 in
/-- The same before region 2. -/
theorem V20_arg0 (c : Dev nD) : V20 m (outsB m) c main_arg0 = m ((c : Thread nD τ).loc main_arg0) :=
  (V20_of m (outsB m) c main_arg0 (by decide)).trans <| (V19_of m (outsB m) c main_arg0 (by decide)).trans <| (V18_of m (outsB m) c main_arg0 (by decide)).trans <| (V17_of m (outsB m) c main_arg0 (by decide)).trans <| (V16_of m (outsB m) c main_arg0 (by decide)).trans <| (V15_of m (outsB m) c main_arg0 (by decide)).trans <| (V14_of m (outsB m) c main_arg0 (by decide)).trans <| (V13_of m (outsB m) c main_arg0 (by decide)).trans <| (V12_of m (outsB m) c main_arg0 (by decide)).trans <| (V11_of m (outsB m) c main_arg0 (by decide)).trans <| (V10_of m (outsB m) c main_arg0 (by decide)).trans <| (V9_of m (outsB m) c main_arg0 (by decide)).trans <| (V8_of m (outsB m) c main_arg0 (by decide)).trans <| (V7_of m (outsB m) c main_arg0 (by decide)).trans <| (V6_of m (outsB m) c main_arg0 (by decide)).trans <| (V5_of m (outsB m) c main_arg0 (by decide)).trans <| (V4_of m (outsB m) c main_arg0 (by decide)).trans <| (V3_of m (outsB m) c main_arg0 (by decide)).trans <| (V2_of m (outsB m) c main_arg0 (by decide)).trans <| (V1_of m (outsB m) c main_arg0 (by decide)).trans <| rfl
set_option maxHeartbeats 8000000 in
theorem V20_arg9 (c : Dev nD) : V20 m (outsB m) c main_arg9 = m ((c : Thread nD τ).loc main_arg9) :=
  (V20_of m (outsB m) c main_arg9 (by decide)).trans <| (V19_of m (outsB m) c main_arg9 (by decide)).trans <| (V18_of m (outsB m) c main_arg9 (by decide)).trans <| (V17_of m (outsB m) c main_arg9 (by decide)).trans <| (V16_of m (outsB m) c main_arg9 (by decide)).trans <| (V15_of m (outsB m) c main_arg9 (by decide)).trans <| (V14_of m (outsB m) c main_arg9 (by decide)).trans <| (V13_of m (outsB m) c main_arg9 (by decide)).trans <| (V12_of m (outsB m) c main_arg9 (by decide)).trans <| (V11_of m (outsB m) c main_arg9 (by decide)).trans <| (V10_of m (outsB m) c main_arg9 (by decide)).trans <| (V9_of m (outsB m) c main_arg9 (by decide)).trans <| (V8_of m (outsB m) c main_arg9 (by decide)).trans <| (V7_of m (outsB m) c main_arg9 (by decide)).trans <| (V6_of m (outsB m) c main_arg9 (by decide)).trans <| (V5_of m (outsB m) c main_arg9 (by decide)).trans <| (V4_of m (outsB m) c main_arg9 (by decide)).trans <| (V3_of m (outsB m) c main_arg9 (by decide)).trans <| (V2_of m (outsB m) c main_arg9 (by decide)).trans <| (V1_of m (outsB m) c main_arg9 (by decide)).trans <| rfl

/-- Region 0 leaves the row minima and the column minima of the ground-truth points against the first rest points. -/
theorem out_d1_0 (c : Dev nD) : outs m 1 main_v0_0 c = fun j => D1 wI wTwo (m ((c : Thread nD τ).loc main_arg0)) (m ((c : Thread nD τ).loc main_arg7)) (j 0) (j 1) :=
  (Pipeline.withArrays_arr spec0 launch0.win.arr_inj c (V0 m c) (fun w => (dat0 (asV (V0 m)) c).arrAt w cfg0.N) 2).trans
    (d1_array0 (asV (V0 m)) c)
theorem out_d2_0 (c : Dev nD) : outs m 1 main_v0_1 c = fun j => D2 wI wTwo (m ((c : Thread nD τ).loc main_arg0)) (m ((c : Thread nD τ).loc main_arg7)) (j 0) (j 1) :=
  (Pipeline.withArrays_arr spec0 launch0.win.arr_inj c (V0 m c) (fun w => (dat0 (asV (V0 m)) c).arrAt w cfg0.N) 3).trans
    (d2_array0 (asV (V0 m)) c)
/-- Region 1, against the second rest points. -/
theorem out_d1_1 (c : Dev nD) : outs m 11 main_v83_0 c = fun j => D1 wI wTwo (m ((c : Thread nD τ).loc main_arg0)) (m ((c : Thread nD τ).loc main_arg8)) (j 0) (j 1) := by
  refine (Pipeline.withArrays_arr spec1 launch1.win.arr_inj c (V10 m (outsA m) c) (fun w => (dat1 (asV (V10 m (outsA m))) c).arrAt w cfg1.N) 2).trans ?_
  refine (d1_array1 (asV (V10 m (outsA m))) c).trans ?_
  have hx : asV (V10 m (outsA m)) c main_arg0 = m ((c : Thread nD τ).loc main_arg0) := V10_arg0 m c
  have hy : asV (V10 m (outsA m)) c main_arg8 = m ((c : Thread nD τ).loc main_arg8) := V10_arg8 m c
  rw [hx, hy]
theorem out_d2_1 (c : Dev nD) : outs m 11 main_v83_1 c = fun j => D2 wI wTwo (m ((c : Thread nD τ).loc main_arg0)) (m ((c : Thread nD τ).loc main_arg8)) (j 0) (j 1) := by
  refine (Pipeline.withArrays_arr spec1 launch1.win.arr_inj c (V10 m (outsA m) c) (fun w => (dat1 (asV (V10 m (outsA m))) c).arrAt w cfg1.N) 3).trans ?_
  refine (d2_array1 (asV (V10 m (outsA m))) c).trans ?_
  have hx : asV (V10 m (outsA m)) c main_arg0 = m ((c : Thread nD τ).loc main_arg0) := V10_arg0 m c
  have hy : asV (V10 m (outsA m)) c main_arg8 = m ((c : Thread nD τ).loc main_arg8) := V10_arg8 m c
  rw [hx, hy]
/-- Region 2, against the third rest points. -/
theorem out_d1_2 (c : Dev nD) : outs m 21 main_v173_0 c = fun j => D1 wI wTwo (m ((c : Thread nD τ).loc main_arg0)) (m ((c : Thread nD τ).loc main_arg9)) (j 0) (j 1) := by
  refine (Pipeline.withArrays_arr spec2 launch2.win.arr_inj c (V20 m (outsB m) c) (fun w => (dat2 (asV (V20 m (outsB m))) c).arrAt w cfg2.N) 2).trans ?_
  refine (d1_array2 (asV (V20 m (outsB m))) c).trans ?_
  have hx : asV (V20 m (outsB m)) c main_arg0 = m ((c : Thread nD τ).loc main_arg0) := V20_arg0 m c
  have hy : asV (V20 m (outsB m)) c main_arg9 = m ((c : Thread nD τ).loc main_arg9) := V20_arg9 m c
  rw [hx, hy]
theorem out_d2_2 (c : Dev nD) : outs m 21 main_v173_1 c = fun j => D2 wI wTwo (m ((c : Thread nD τ).loc main_arg0)) (m ((c : Thread nD τ).loc main_arg9)) (j 0) (j 1) := by
  refine (Pipeline.withArrays_arr spec2 launch2.win.arr_inj c (V20 m (outsB m) c) (fun w => (dat2 (asV (V20 m (outsB m))) c).arrAt w cfg2.N) 3).trans ?_
  refine (d2_array2 (asV (V20 m (outsB m))) c).trans ?_
  have hx : asV (V20 m (outsB m)) c main_arg0 = m ((c : Thread nD τ).loc main_arg0) := V20_arg0 m c
  have hy : asV (V20 m (outsB m)) c main_arg9 = m ((c : Thread nD τ).loc main_arg9) := V20_arg9 m c
  rw [hx, hy]

set_option maxHeartbeats 8000000 in
/-- The kernel program's chamfer loss: the shared host operations applied to the specification's six arrays. -/
theorem kernel_cham (c : Dev nD) :
    V30 m (outs m) c main_v182 = chamTerm'
      (fun j => D1 wI wTwo (m ((c : Thread nD τ).loc main_arg0)) (m ((c : Thread nD τ).loc main_arg7)) (j 0) (j 1)) (fun j => D2 wI wTwo (m ((c : Thread nD τ).loc main_arg0)) (m ((c : Thread nD τ).loc main_arg7)) (j 0) (j 1))
      (fun j => D1 wI wTwo (m ((c : Thread nD τ).loc main_arg0)) (m ((c : Thread nD τ).loc main_arg8)) (j 0) (j 1)) (fun j => D2 wI wTwo (m ((c : Thread nD τ).loc main_arg0)) (m ((c : Thread nD τ).loc main_arg8)) (j 0) (j 1))
      (fun j => D1 wI wTwo (m ((c : Thread nD τ).loc main_arg0)) (m ((c : Thread nD τ).loc main_arg9)) (j 0) (j 1)) (fun j => D2 wI wTwo (m ((c : Thread nD τ).loc main_arg0)) (m ((c : Thread nD τ).loc main_arg9)) (j 0) (j 1)) := by
  have e0 : shapeCast S8x10000 (outs m 1 main_v0_0 c) shapeCasts_S8x10000x1_S8x10000 = (fun j : S8x10000.Idx => D1 wI wTwo (m ((c : Thread nD τ).loc main_arg0)) (m ((c : Thread nD τ).loc main_arg7)) (j 0) (j 1)) :=
    (congrArg (fun o : Vec Ideal S8x10000x1 .f32 => shapeCast S8x10000 o shapeCasts_S8x10000x1_S8x10000) (out_d1_0 m c)).trans (reshape_D1 _ _ _)
  have e1 : shapeCast S8x156 (outs m 1 main_v0_1 c) shapeCasts_S8x156x1_S8x156 = (fun j : S8x156.Idx => D2 wI wTwo (m ((c : Thread nD τ).loc main_arg0)) (m ((c : Thread nD τ).loc main_arg7)) (j 0) (j 1)) :=
    (congrArg (fun o : Vec Ideal S8x156x1 .f32 => shapeCast S8x156 o shapeCasts_S8x156x1_S8x156) (out_d2_0 m c)).trans (reshape_D2 _ _ _)
  have e2 : shapeCast S8x10000 (outs m 11 main_v83_0 c) shapeCasts_S8x10000x1_S8x10000 = (fun j : S8x10000.Idx => D1 wI wTwo (m ((c : Thread nD τ).loc main_arg0)) (m ((c : Thread nD τ).loc main_arg8)) (j 0) (j 1)) :=
    (congrArg (fun o : Vec Ideal S8x10000x1 .f32 => shapeCast S8x10000 o shapeCasts_S8x10000x1_S8x10000) (out_d1_1 m c)).trans (reshape_D1 _ _ _)
  have e3 : shapeCast S8x618 (outs m 11 main_v83_1 c) shapeCasts_S8x618x1_S8x618 = (fun j : S8x618.Idx => D2 wI wTwo (m ((c : Thread nD τ).loc main_arg0)) (m ((c : Thread nD τ).loc main_arg8)) (j 0) (j 1)) :=
    (congrArg (fun o : Vec Ideal S8x618x1 .f32 => shapeCast S8x618 o shapeCasts_S8x618x1_S8x618) (out_d2_1 m c)).trans (reshape_D2 _ _ _)
  have e4 : shapeCast S8x10000 (outs m 21 main_v173_0 c) shapeCasts_S8x10000x1_S8x10000 = (fun j : S8x10000.Idx => D1 wI wTwo (m ((c : Thread nD τ).loc main_arg0)) (m ((c : Thread nD τ).loc main_arg9)) (j 0) (j 1)) :=
    (congrArg (fun o : Vec Ideal S8x10000x1 .f32 => shapeCast S8x10000 o shapeCasts_S8x10000x1_S8x10000) (out_d1_2 m c)).trans (reshape_D1 _ _ _)
  have e5 : shapeCast S8x2466 (outs m 21 main_v173_1 c) shapeCasts_S8x2466x1_S8x2466 = (fun j : S8x2466.Idx => D2 wI wTwo (m ((c : Thread nD τ).loc main_arg0)) (m ((c : Thread nD τ).loc main_arg9)) (j 0) (j 1)) :=
    (congrArg (fun o : Vec Ideal S8x2466x1 .f32 => shapeCast S8x2466 o shapeCasts_S8x2466x1_S8x2466) (out_d2_2 m c)).trans (reshape_D2 _ _ _)
  rw [v182_eq m (outs m) c, chamTerm_eq, e0, e1, e2, e3, e4, e5]

end Kernel

end Cert.Bridge

end
-- ==== Proof.KB.Chamfer0Cases.lean ====
/-
  Region 0 of the program (the squared-distance kernel against the 156 rest points): the grid is 8 batches by
  10 tiles of 1000 ground-truth rows, point t = 10 * batch + tile. The body branches three times on the tile
  number n: at n = 0 the running column minimum is reset, at n > 0 it is lowered by the tile's column minimum,
  at n = 9 it is copied out. Here: those three conditions in closed form over the 80 points, where the second
  output window is idle, the staging memrefs the body is called with, and that every input window's staging
  buffer holds the window's block of the array as the region found it.
-/
import proofs.«112199_j59459527246412_1_alg».proof.Proof.Gen.Kernel.Launch
import proofs.«112199_j59459527246412_1_alg».proof.Proof.Gen.Kernel.Skeleton
import proofs.«112199_j59459527246412_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Chamfer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three branch conditions over the grid -/

/-- The tile number is 0 (the reset branch), as the body computes it from the grid coordinates. -/
abbrev isFirst0 (i : grid0.Coords) : Prop :=
  (Scalar.cmpi .ne (Scalar.extui (Scalar.cmpi .eq (BitVec.ofNat 32 (i 1).val) 0#32)) 0#32) = 1#1
/-- The tile number is positive (the lowering branch). -/
abbrev isLater0 (i : grid0.Coords) : Prop :=
  (Scalar.cmpi .ne (Scalar.extui (Scalar.cmpi .sgt (BitVec.ofNat 32 (i 1).val) 0#32)) 0#32) = 1#1
/-- The tile number is 9 (the copy-out branch). -/
abbrev isLast0 (i : grid0.Coords) : Prop := k0_cond3 i = 1#1

theorem isFirst0_iff : ∀ t : Fin cfg0.N, isFirst0 (grid0.coords t) ↔ t.val % 10 = 0 :=
  (by decide +kernel : ∀ t : Fin grid0.N, isFirst0 (grid0.coords t) ↔ t.val % 10 = 0)
theorem isLater0_iff : ∀ t : Fin cfg0.N, isLater0 (grid0.coords t) ↔ ¬ t.val % 10 = 0 :=
  (by decide +kernel : ∀ t : Fin grid0.N, isLater0 (grid0.coords t) ↔ ¬ t.val % 10 = 0)
theorem isLast0_iff : ∀ t : Fin cfg0.N, isLast0 (grid0.coords t) ↔ t.val % 10 = 9 :=
  (by decide +kernel : ∀ t : Fin grid0.N, isLast0 (grid0.coords t) ↔ t.val % 10 = 9)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last tile of a batch the column-minimum output is idle and is not written back. -/
theorem idle0_3 : ∀ t : Fin cfg0.N, ¬ t.val % 10 = 9 → cfg0.idle 3 (grid0.coords t) = true := by decide +kernel
theorem noFlush0_3 : ∀ t : Fin cfg0.N, ¬ t.val % 10 = 9 → (cfg0.win 3).flush t = false := by decide +kernel
theorem live0_3 : ∀ t : Fin cfg0.N, t.val % 10 = 9 → cfg0.idle 3 (grid0.coords t) = false := by decide +kernel

/-! ## The staging memrefs at a point, and the scratch -/

abbrev ms0_0 (t : Fin cfg0.N) : Memref sig .tc .vmem S1x1000x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x156x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1000x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x156x1 .f32 := win0_3.stage (cfg0.slots t 3)
abbrev hs0_3 (t : Fin cfg0.N) : (ms0_3 t).IsWhole := hstage0_3 ((cfg0.slots t 3).cast nbuf0_3)
/-- The running column minimum lives in the kernel's one scratch buffer. -/
abbrev scM0 : Memref sig .tc .vmem S1x156x1 .f32 := Memref.whole cc0_scratch0

/-- The other scoped buffers of the core (the other regions' staging buffers and scratch), at some contents each. -/
abbrev others0 (c : Dev nD) : sProp 𝕄 := Pipeline.scopedRestBut (Ix := Unit) (Name := ℕ) (U := UR sig nD τ) (Lvl := ℕ) (Val := Elt F) spec0 c [cc0_scratch0]

/-- The class invariant with the scratch spelt as an owned memref at some contents, the other scoped buffers unopened. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA
  rw [Pipeline.scopedRest_split_of_list spec0 c [cc0_scratch0] (by decide) (by decide)]
  simp only [Idealize.SL.BI.bigSepL_singleton, scM0, owns_whole]; try rfl

/-! ## The input windows' blocks -/

section Blocks
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The ground-truth window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The rest-point window's staging buffer holds its block at every point (fetched once per batch, the block index
    unchanged in between). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Blocks

end Cert.Kernel.Chamfer

end
-- ==== Proof.KB.Chamfer0First.lean ====
/-
  Region 0, a point with tile number 0: the body loads the tile of ground-truth rows and the rest points, stores the
  row minima of their squared distances into the first output's buffer, and RESETS the scratch to the tile's column
  minima; the second output's buffer is not touched. The run is found by the symbolic executor; the pieces each
  written buffer ends with are the witness it finds.
-/
import proofs.«112199_j59459527246412_1_alg».proof.Proof.KB.Chamfer0Cases

set_option maxRecDepth 16384

noncomputable section

namespace Cert.Kernel.Chamfer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first tile, on whole staging memrefs: the inputs at their contents, the row-minimum output and the
    scratch at anything, the column-minimum output at some contents `d3`. It runs to the continuation with the inputs as
    they were, the row-minimum output's buffer with its pieces `L2` written, the column-minimum output's buffer untouched,
    and the scratch with its pieces `LS` written. -/
noncomputable def runFirst0 (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole)
    (hA : isFirst0 i) (hB : ¬isLater0 i) (hC : ¬isLast0 i)
    (x0 : Vec F S1x1000x3 .f32) (x1 : Vec F S1x156x3 .f32) :
    Σ' (L2 : List (View.Piece (Elt F) S1x1000x1 .f32)), { LS : List (View.Piece (Elt F) S1x156x1 .f32) //
      ∀ (d3 : Vec F S1x156x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare d3 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare d3 ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_kernel i arg2 harg2 arg3 harg3 arg4 harg4 arg5 harg5 arg6 harg6) K } := by
  refine ⟨?_, ?_, fun d3 E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, ⟨%ds, %fs, -, HS⟩, Hk⟩
    obtain rfl := harg2.eq_unread hf0; obtain rfl := harg3.eq_unread hf1
    sl_exec (disch := first | exact hA | exact hB | exact hC)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact hf3
      iexact H3
    iexists _; iexact HS

end Cert.Kernel.Chamfer

end
-- ==== Proof.KB.Chamfer0Mid.lean ====
/-
  Region 0, a point with tile number 1 to 8: the body stores the tile's row minima into the first output's buffer and
  LOWERS the scratch, which holds the running column minimum `xs` the point before left, by the tile's column minima;
  the second output's buffer is not touched.
-/
import proofs.«112199_j59459527246412_1_alg».proof.Proof.KB.Chamfer0Cases

set_option maxRecDepth 16384

noncomputable section

namespace Cert.Kernel.Chamfer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle tile: as at a first tile, but the scratch comes in at known contents `xs` and its pieces `LS`
    are computed from them. -/
noncomputable def runMid0 (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole)
    (hA : ¬isFirst0 i) (hB : isLater0 i) (hC : ¬isLast0 i)
    (x0 : Vec F S1x1000x3 .f32) (x1 : Vec F S1x156x3 .f32) (xs : Vec F S1x156x1 .f32) :
    Σ' (L2 : List (View.Piece (Elt F) S1x1000x1 .f32)), { LS : List (View.Piece (Elt F) S1x156x1 .f32) //
      ∀ (d3 : Vec F S1x156x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare d3 ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare d3 ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_kernel i arg2 harg2 arg3 harg3 arg4 harg4 arg5 harg5 arg6 harg6) K } := by
  refine ⟨?_, ?_, fun d3 E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, ⟨%fs, %hfs, HS⟩, Hk⟩
    obtain rfl := harg2.eq_unread hf0; obtain rfl := harg3.eq_unread hf1; obtain rfl := harg6.eq_unread hfs
    sl_exec (disch := first | exact hA | exact hB | exact hC)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact hf3
      iexact H3
    iexists _; iexact HS

end Cert.Kernel.Chamfer

end
-- ==== Proof.KB.Chamfer0Last.lean ====
/-
  Region 0, a point with tile number 9: the body stores the tile's row minima, lowers the running column minimum in
  the scratch by the tile's column minima, and COPIES the scratch out into the second output's buffer.
-/
import proofs.«112199_j59459527246412_1_alg».proof.Proof.KB.Chamfer0Cases

set_option maxRecDepth 16384

noncomputable section

namespace Cert.Kernel.Chamfer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a last tile: the scratch comes in at `xs`; both outputs' buffers and the scratch end with pieces written. -/
noncomputable def runLast0 (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole)
    (hA : ¬isFirst0 i) (hB : isLater0 i) (hC : isLast0 i)
    (x0 : Vec F S1x1000x3 .f32) (x1 : Vec F S1x156x3 .f32) (xs : Vec F S1x156x1 .f32) :
    Σ' (L2 : List (View.Piece (Elt F) S1x1000x1 .f32)) (L3 : List (View.Piece (Elt F) S1x156x1 .f32)), { LS : List (View.Piece (Elt F) S1x156x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_kernel i arg2 harg2 arg3 harg3 arg4 harg4 arg5 harg5 arg6 harg6) K } := by
  refine ⟨?_, ?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, %hf3, H3⟩, ⟨%fs, %hfs, HS⟩, Hk⟩
    obtain rfl := harg2.eq_unread hf0; obtain rfl := harg3.eq_unread hf1; obtain rfl := harg6.eq_unread hfs
    sl_exec (disch := first | exact hA | exact hB | exact hC)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS

end Cert.Kernel.Chamfer

end
-- ==== Proof.KB.Chamfer0Points.lean ====
/-
  Region 0: what every grid point leaves behind. After point t the first output's buffer holds the tile's row minima,
  the scratch holds the running column minimum of the batch's tiles so far (reset at tile 0, lowered at every later
  tile), and at tile 9 the second output's buffer holds a copy of the scratch. These contents are defined by recursion
  on the point, each point's case run on what the point before left in the scratch; the region's invariant carries the
  scratch at those contents from point to point; and the body, at every point, takes the state from one to the next.
-/
import proofs.«112199_j59459527246412_1_alg».proof.Proof.KB.Chamfer0First
import proofs.«112199_j59459527246412_1_alg».proof.Proof.KB.Chamfer0Mid
import proofs.«112199_j59459527246412_1_alg».proof.Proof.KB.Chamfer0Last

set_option maxRecDepth 16384

noncomputable section

namespace Cert.Kernel.Chamfer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The contents a case leaves, read back through a fixed view of each buffer's shape -/

abbrev VO0_2 : View sig .tc .vmem S1x1000x1 .f32 := (Memref.whole cc0_stg2_0 : Memref sig .tc .vmem S1x1000x1 .f32).view
abbrev VO0_3 : View sig .tc .vmem S1x156x1 .f32 := (Memref.whole cc0_stg3_0 : Memref sig .tc .vmem S1x156x1 .f32).view
abbrev VS0 : View sig .tc .vmem S1x156x1 .f32 := scM0.view

/-- A first tile's row minima. -/
def rowsFirst0 (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : isFirst0 i) (hB : ¬isLater0 i) (hC : ¬isLast0 i)
    (x0 : Vec F S1x1000x3 .f32) (x1 : Vec F S1x156x3 .f32) : Vec F S1x1000x1 .f32 :=
  VO0_2.read (Elt F) (VO0_2.writes (Elt F) VO0_2.junk (runFirst0 c i arg2 harg2 arg3 harg3 arg4 harg4 arg5 harg5 arg6 harg6 hA hB hC x0 x1).1)
theorem rowsFirst0_cover (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : isFirst0 i) (hB : ¬isLater0 i) (hC : ¬isLast0 i)
    (x0 : Vec F S1x1000x3 .f32) (x1 : Vec F S1x156x3 .f32) (y : S1x1000x1.Idx) :
    ∃ pc ∈ (runFirst0 c i arg2 harg2 arg3 harg3 arg4 harg4 arg5 harg5 arg6 harg6 hA hB hC x0 x1).1, y ∈ pc.1.set :=
  View.cover_of_tiledL (runFirst0 c i arg2 harg2 arg3 harg3 arg4 harg4 arg5 harg5 arg6 harg6 hA hB hC x0 x1).1 S1x1000x1.size (by sl_kernel_rfl) y
/-- A first tile's column minima: the scratch after the reset. -/
def accFirst0 (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : isFirst0 i) (hB : ¬isLater0 i) (hC : ¬isLast0 i)
    (x0 : Vec F S1x1000x3 .f32) (x1 : Vec F S1x156x3 .f32) : Vec F S1x156x1 .f32 :=
  VS0.read (Elt F) (VS0.writes (Elt F) VS0.junk (runFirst0 c i arg2 harg2 arg3 harg3 arg4 harg4 arg5 harg5 arg6 harg6 hA hB hC x0 x1).2.1)
theorem accFirst0_cover (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : isFirst0 i) (hB : ¬isLater0 i) (hC : ¬isLast0 i)
    (x0 : Vec F S1x1000x3 .f32) (x1 : Vec F S1x156x3 .f32) (y : S1x156x1.Idx) :
    ∃ pc ∈ (runFirst0 c i arg2 harg2 arg3 harg3 arg4 harg4 arg5 harg5 arg6 harg6 hA hB hC x0 x1).2.1, y ∈ pc.1.set :=
  View.cover_of_tiledL (runFirst0 c i arg2 harg2 arg3 harg3 arg4 harg4 arg5 harg5 arg6 harg6 hA hB hC x0 x1).2.1 S1x156x1.size (by sl_kernel_rfl) y

/-- A middle tile's row minima. -/
def rowsMid0 (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : ¬isFirst0 i) (hB : isLater0 i) (hC : ¬isLast0 i)
    (x0 : Vec F S1x1000x3 .f32) (x1 : Vec F S1x156x3 .f32) (xs : Vec F S1x156x1 .f32) : Vec F S1x1000x1 .f32 :=
  VO0_2.read (Elt F) (VO0_2.writes (Elt F) VO0_2.junk (runMid0 c i arg2 harg2 arg3 harg3 arg4 harg4 arg5 harg5 arg6 harg6 hA hB hC x0 x1 xs).1)
theorem rowsMid0_cover (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : ¬isFirst0 i) (hB : isLater0 i) (hC : ¬isLast0 i)
    (x0 : Vec F S1x1000x3 .f32) (x1 : Vec F S1x156x3 .f32) (xs : Vec F S1x156x1 .f32) (y : S1x1000x1.Idx) :
    ∃ pc ∈ (runMid0 c i arg2 harg2 arg3 harg3 arg4 harg4 arg5 harg5 arg6 harg6 hA hB hC x0 x1 xs).1, y ∈ pc.1.set :=
  View.cover_of_tiledL (runMid0 c i arg2 harg2 arg3 harg3 arg4 harg4 arg5 harg5 arg6 harg6 hA hB hC x0 x1 xs).1 S1x1000x1.size (by sl_kernel_rfl) y
/-- The scratch after a middle tile: the running minimum `xs` lowered by the tile's column minima. -/
def accMid0 (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : ¬isFirst0 i) (hB : isLater0 i) (hC : ¬isLast0 i)
    (x0 : Vec F S1x1000x3 .f32) (x1 : Vec F S1x156x3 .f32) (xs : Vec F S1x156x1 .f32) : Vec F S1x156x1 .f32 :=
  VS0.read (Elt F) (VS0.writes (Elt F) VS0.junk (runMid0 c i arg2 harg2 arg3 harg3 arg4 harg4 arg5 harg5 arg6 harg6 hA hB hC x0 x1 xs).2.1)
theorem accMid0_cover (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : ¬isFirst0 i) (hB : isLater0 i) (hC : ¬isLast0 i)
    (x0 : Vec F S1x1000x3 .f32) (x1 : Vec F S1x156x3 .f32) (xs : Vec F S1x156x1 .f32) (y : S1x156x1.Idx) :
    ∃ pc ∈ (runMid0 c i arg2 harg2 arg3 harg3 arg4 harg4 arg5 harg5 arg6 harg6 hA hB hC x0 x1 xs).2.1, y ∈ pc.1.set :=
  View.cover_of_tiledL (runMid0 c i arg2 harg2 arg3 harg3 arg4 harg4 arg5 harg5 arg6 harg6 hA hB hC x0 x1 xs).2.1 S1x156x1.size (by sl_kernel_rfl) y

/-- A last tile's row minima. -/
def rowsLast0 (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : ¬isFirst0 i) (hB : isLater0 i) (hC : isLast0 i)
    (x0 : Vec F S1x1000x3 .f32) (x1 : Vec F S1x156x3 .f32) (xs : Vec F S1x156x1 .f32) : Vec F S1x1000x1 .f32 :=
  VO0_2.read (Elt F) (VO0_2.writes (Elt F) VO0_2.junk (runLast0 c i arg2 harg2 arg3 harg3 arg4 harg4 arg5 harg5 arg6 harg6 hA hB hC x0 x1 xs).1)
theorem rowsLast0_cover (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : ¬isFirst0 i) (hB : isLater0 i) (hC : isLast0 i)
    (x0 : Vec F S1x1000x3 .f32) (x1 : Vec F S1x156x3 .f32) (xs : Vec F S1x156x1 .f32) (y : S1x1000x1.Idx) :
    ∃ pc ∈ (runLast0 c i arg2 harg2 arg3 harg3 arg4 harg4 arg5 harg5 arg6 harg6 hA hB hC x0 x1 xs).1, y ∈ pc.1.set :=
  View.cover_of_tiledL (runLast0 c i arg2 harg2 arg3 harg3 arg4 harg4 arg5 harg5 arg6 harg6 hA hB hC x0 x1 xs).1 S1x1000x1.size (by sl_kernel_rfl) y
/-- The batch's column minima as the last tile copies them out. -/
def colsLast0 (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : ¬isFirst0 i) (hB : isLater0 i) (hC : isLast0 i)
    (x0 : Vec F S1x1000x3 .f32) (x1 : Vec F S1x156x3 .f32) (xs : Vec F S1x156x1 .f32) : Vec F S1x156x1 .f32 :=
  VO0_3.read (Elt F) (VO0_3.writes (Elt F) VO0_3.junk (runLast0 c i arg2 harg2 arg3 harg3 arg4 harg4 arg5 harg5 arg6 harg6 hA hB hC x0 x1 xs).2.1)
theorem colsLast0_cover (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : ¬isFirst0 i) (hB : isLater0 i) (hC : isLast0 i)
    (x0 : Vec F S1x1000x3 .f32) (x1 : Vec F S1x156x3 .f32) (xs : Vec F S1x156x1 .f32) (y : S1x156x1.Idx) :
    ∃ pc ∈ (runLast0 c i arg2 harg2 arg3 harg3 arg4 harg4 arg5 harg5 arg6 harg6 hA hB hC x0 x1 xs).2.1, y ∈ pc.1.set :=
  View.cover_of_tiledL (runLast0 c i arg2 harg2 arg3 harg3 arg4 harg4 arg5 harg5 arg6 harg6 hA hB hC x0 x1 xs).2.1 S1x156x1.size (by sl_kernel_rfl) y
/-- The scratch after a last tile. -/
def accLast0 (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : ¬isFirst0 i) (hB : isLater0 i) (hC : isLast0 i)
    (x0 : Vec F S1x1000x3 .f32) (x1 : Vec F S1x156x3 .f32) (xs : Vec F S1x156x1 .f32) : Vec F S1x156x1 .f32 :=
  VS0.read (Elt F) (VS0.writes (Elt F) VS0.junk (runLast0 c i arg2 harg2 arg3 harg3 arg4 harg4 arg5 harg5 arg6 harg6 hA hB hC x0 x1 xs).2.2.1)
theorem accLast0_cover (c : Dev nD) (i : grid0.Coords) (arg2 : Memref sig .tc .vmem S1x1000x3 .f32) (harg2 : arg2.IsWhole) (arg3 : Memref sig .tc .vmem S1x156x3 .f32) (harg3 : arg3.IsWhole) (arg4 : Memref sig .tc .vmem S1x1000x1 .f32) (harg4 : arg4.IsWhole) (arg5 : Memref sig .tc .vmem S1x156x1 .f32) (harg5 : arg5.IsWhole) (arg6 : Memref sig .tc .vmem S1x156x1 .f32) (harg6 : arg6.IsWhole) (hA : ¬isFirst0 i) (hB : isLater0 i) (hC : isLast0 i)
    (x0 : Vec F S1x1000x3 .f32) (x1 : Vec F S1x156x3 .f32) (xs : Vec F S1x156x1 .f32) (y : S1x156x1.Idx) :
    ∃ pc ∈ (runLast0 c i arg2 harg2 arg3 harg3 arg4 harg4 arg5 harg5 arg6 harg6 hA hB hC x0 x1 xs).2.2.1, y ∈ pc.1.set :=
  View.cover_of_tiledL (runLast0 c i arg2 harg2 arg3 harg3 arg4 harg4 arg5 harg5 arg6 harg6 hA hB hC x0 x1 xs).2.2.1 S1x156x1.size (by sl_kernel_rfl) y

/-! ## What the buffers hold after each point -/

section Points
variable (V : (c : Dev nD) → (b : Ref sig .tc) → Buf (Elt F) ((c : Thread nD τ).loc b))

theorem notLater0_of {t : Fin cfg0.N} (h0 : t.val % 10 = 0) : ¬isLater0 (grid0.coords t) := fun h => (isLater0_iff t).mp h h0
theorem notLast0_of {t : Fin cfg0.N} (h9 : ¬t.val % 10 = 9) : ¬isLast0 (grid0.coords t) := fun h => h9 ((isLast0_iff t).mp h)
theorem notFirst0_of {t : Fin cfg0.N} (h0 : ¬t.val % 10 = 0) : ¬isFirst0 (grid0.coords t) := fun h => h0 ((isFirst0_iff t).mp h)
theorem ne9_of_zero0 {n : ℕ} (h0 : n % 10 = 0) : ¬n % 10 = 9 := by omega
theorem ne0_of_nine0 {n : ℕ} (h9 : n % 10 = 9) : ¬n % 10 = 0 := by omega

/-- The row-minimum buffer, the column-minimum buffer and the scratch after the body at position `n`: the case of the
    point's tile number, run on the point's input blocks and, past a batch's first tile, on what the point before left
    in the scratch. Away from a last tile the column-minimum buffer is idle; a placeholder stands for it. -/
def outsAt0 (c : Dev nD) : (n : ℕ) → n < cfg0.N → Vec F S1x1000x1 .f32 × Vec F S1x156x1 .f32 × Vec F S1x156x1 .f32
  | 0, hn =>
    (rowsFirst0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((isFirst0_iff ⟨0, hn⟩).mpr (Nat.zero_mod _)) (notLater0_of (t := ⟨0, hn⟩) (Nat.zero_mod _)) (notLast0_of (t := ⟨0, hn⟩) (ne9_of_zero0 (Nat.zero_mod _))) (iblk0 V c 0 ⟨0, hn⟩) (iblk0 V c 1 ⟨0, hn⟩),
     VO0_3.read (Elt F) VO0_3.junk,
     accFirst0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((isFirst0_iff ⟨0, hn⟩).mpr (Nat.zero_mod _)) (notLater0_of (t := ⟨0, hn⟩) (Nat.zero_mod _)) (notLast0_of (t := ⟨0, hn⟩) (ne9_of_zero0 (Nat.zero_mod _))) (iblk0 V c 0 ⟨0, hn⟩) (iblk0 V c 1 ⟨0, hn⟩))
  | n + 1, hn =>
    if h0 : (n + 1) % 10 = 0 then
      (rowsFirst0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((isFirst0_iff ⟨n + 1, hn⟩).mpr h0) (notLater0_of (t := ⟨n + 1, hn⟩) h0) (notLast0_of (t := ⟨n + 1, hn⟩) (ne9_of_zero0 h0)) (iblk0 V c 0 ⟨n + 1, hn⟩) (iblk0 V c 1 ⟨n + 1, hn⟩),
       VO0_3.read (Elt F) VO0_3.junk,
       accFirst0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((isFirst0_iff ⟨n + 1, hn⟩).mpr h0) (notLater0_of (t := ⟨n + 1, hn⟩) h0) (notLast0_of (t := ⟨n + 1, hn⟩) (ne9_of_zero0 h0)) (iblk0 V c 0 ⟨n + 1, hn⟩) (iblk0 V c 1 ⟨n + 1, hn⟩))
    else if h9 : (n + 1) % 10 = 9 then
      (rowsLast0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (notFirst0_of (t := ⟨n + 1, hn⟩) h0) ((isLater0_iff ⟨n + 1, hn⟩).mpr h0) ((isLast0_iff ⟨n + 1, hn⟩).mpr h9) (iblk0 V c 0 ⟨n + 1, hn⟩) (iblk0 V c 1 ⟨n + 1, hn⟩) (outsAt0 c n (Nat.lt_of_succ_lt hn)).2.2,
       colsLast0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (notFirst0_of (t := ⟨n + 1, hn⟩) h0) ((isLater0_iff ⟨n + 1, hn⟩).mpr h0) ((isLast0_iff ⟨n + 1, hn⟩).mpr h9) (iblk0 V c 0 ⟨n + 1, hn⟩) (iblk0 V c 1 ⟨n + 1, hn⟩) (outsAt0 c n (Nat.lt_of_succ_lt hn)).2.2,
       accLast0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (notFirst0_of (t := ⟨n + 1, hn⟩) h0) ((isLater0_iff ⟨n + 1, hn⟩).mpr h0) ((isLast0_iff ⟨n + 1, hn⟩).mpr h9) (iblk0 V c 0 ⟨n + 1, hn⟩) (iblk0 V c 1 ⟨n + 1, hn⟩) (outsAt0 c n (Nat.lt_of_succ_lt hn)).2.2)
    else
      (rowsMid0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (notFirst0_of (t := ⟨n + 1, hn⟩) h0) ((isLater0_iff ⟨n + 1, hn⟩).mpr h0) (notLast0_of (t := ⟨n + 1, hn⟩) h9) (iblk0 V c 0 ⟨n + 1, hn⟩) (iblk0 V c 1 ⟨n + 1, hn⟩) (outsAt0 c n (Nat.lt_of_succ_lt hn)).2.2,
       VO0_3.read (Elt F) VO0_3.junk,
       accMid0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (notFirst0_of (t := ⟨n + 1, hn⟩) h0) ((isLater0_iff ⟨n + 1, hn⟩).mpr h0) (notLast0_of (t := ⟨n + 1, hn⟩) h9) (iblk0 V c 0 ⟨n + 1, hn⟩) (iblk0 V c 1 ⟨n + 1, hn⟩) (outsAt0 c n (Nat.lt_of_succ_lt hn)).2.2)

/-- At a first tile. -/
theorem outsAt0_first (c : Dev nD) (t : Fin cfg0.N) (h0 : t.val % 10 = 0) :
    outsAt0 V c t.val t.isLt =
      (rowsFirst0 c (grid0.coords t) (ms0_0 t) (hs0_0 t) (ms0_1 t) (hs0_1 t) (ms0_2 t) (hs0_2 t) (ms0_3 t) (hs0_3 t) scM0 (Memref.isWhole_whole _) ((isFirst0_iff t).mpr h0) (notLater0_of h0) (notLast0_of (ne9_of_zero0 h0)) (iblk0 V c 0 t) (iblk0 V c 1 t),
       VO0_3.read (Elt F) VO0_3.junk,
       accFirst0 c (grid0.coords t) (ms0_0 t) (hs0_0 t) (ms0_1 t) (hs0_1 t) (ms0_2 t) (hs0_2 t) (ms0_3 t) (hs0_3 t) scM0 (Memref.isWhole_whole _) ((isFirst0_iff t).mpr h0) (notLater0_of h0) (notLast0_of (ne9_of_zero0 h0)) (iblk0 V c 0 t) (iblk0 V c 1 t)) := by
  obtain ⟨n, hn⟩ := t
  cases n with
  | zero => exact rfl
  | succ n => exact (dif_pos h0).trans rfl

/-- At a middle tile, over what the point before left in the scratch. -/
theorem outsAt0_mid (c : Dev nD) (t : Fin cfg0.N) (h0 : ¬t.val % 10 = 0) (h9 : ¬t.val % 10 = 9) :
    outsAt0 V c t.val t.isLt =
      (rowsMid0 c (grid0.coords t) (ms0_0 t) (hs0_0 t) (ms0_1 t) (hs0_1 t) (ms0_2 t) (hs0_2 t) (ms0_3 t) (hs0_3 t) scM0 (Memref.isWhole_whole _) (notFirst0_of h0) ((isLater0_iff t).mpr h0) (notLast0_of h9) (iblk0 V c 0 t) (iblk0 V c 1 t) (outsAt0 V c (t.val - 1) (Nat.lt_of_le_of_lt (Nat.sub_le _ _) t.isLt)).2.2,
       VO0_3.read (Elt F) VO0_3.junk,
       accMid0 c (grid0.coords t) (ms0_0 t) (hs0_0 t) (ms0_1 t) (hs0_1 t) (ms0_2 t) (hs0_2 t) (ms0_3 t) (hs0_3 t) scM0 (Memref.isWhole_whole _) (notFirst0_of h0) ((isLater0_iff t).mpr h0) (notLast0_of h9) (iblk0 V c 0 t) (iblk0 V c 1 t) (outsAt0 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h9).trans rfl)

/-- At a last tile, over what the point before left in the scratch. -/
theorem outsAt0_last (c : Dev nD) (t : Fin cfg0.N) (h0 : ¬t.val % 10 = 0) (h9 : t.val % 10 = 9) :
    outsAt0 V c t.val t.isLt =
      (rowsLast0 c (grid0.coords t) (ms0_0 t) (hs0_0 t) (ms0_1 t) (hs0_1 t) (ms0_2 t) (hs0_2 t) (ms0_3 t) (hs0_3 t) scM0 (Memref.isWhole_whole _) (notFirst0_of h0) ((isLater0_iff t).mpr h0) ((isLast0_iff t).mpr h9) (iblk0 V c 0 t) (iblk0 V c 1 t) (outsAt0 V c (t.val - 1) (Nat.lt_of_le_of_lt (Nat.sub_le _ _) t.isLt)).2.2,
       colsLast0 c (grid0.coords t) (ms0_0 t) (hs0_0 t) (ms0_1 t) (hs0_1 t) (ms0_2 t) (hs0_2 t) (ms0_3 t) (hs0_3 t) scM0 (Memref.isWhole_whole _) (notFirst0_of h0) ((isLater0_iff t).mpr h0) ((isLast0_iff t).mpr h9) (iblk0 V c 0 t) (iblk0 V c 1 t) (outsAt0 V c (t.val - 1) (Nat.lt_of_le_of_lt (Nat.sub_le _ _) t.isLt)).2.2,
       accLast0 c (grid0.coords t) (ms0_0 t) (hs0_0 t) (ms0_1 t) (hs0_1 t) (ms0_2 t) (hs0_2 t) (ms0_3 t) (hs0_3 t) scM0 (Memref.isWhole_whole _) (notFirst0_of h0) ((isLater0_iff t).mpr h0) ((isLast0_iff t).mpr h9) (iblk0 V c 0 t) (iblk0 V c 1 t) (outsAt0 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h9).trans rfl)

/-! ## The region's invariant -/

/-- Before position `n`: at the very first point the class's invariant (the scratch at anything); afterwards the scratch
    at what the point before left in it, the other scoped buffers unopened, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2.2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2.2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2.2) ∗ others0 c) ∗ (∃ r, prngReg c r)) := by
  cases n with
  | zero => exact absurd rfl hz
  | succ n => rfl

/-! ## The proof data -/

/-- The arrays as the region finds them; after the body at point `t` the inputs' buffers at their blocks, the outputs' at
    `outsAt0`'s components; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Points

end Cert.Kernel.Chamfer

end
-- ==== Proof.KB.Chamfer0Body.lean ====
/-
  Region 0: the body takes the region's state from one grid point to the next. At every point the input windows'
  staging buffers hold their blocks; the tile number selects the case; the invariant hands the body the scratch at what
  the point before left (at anything at the very first point) and takes it back at this point's contents.
-/
import proofs.«112199_j59459527246412_1_alg».proof.Proof.KB.Chamfer0Points

set_option maxRecDepth 16384

noncomputable section

namespace Cert.Kernel.Chamfer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body
variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  have hN : t.val < 80 := lt_of_lt_of_eq t.isLt (show cfg0.N = 80 from N_0)
  by_cases h0 : t.val % 10 = 0
  · -- a first tile: the scratch is reset
    rw [Dat.leavesExact_idle (dat0 V c) 3 t (idle0_3 t (ne9_of_zero0 h0)) (noFlush0_3 t (ne9_of_zero0 h0))]
    rw [outsAt0_first V c t h0]
    unfold rowsFirst0 accFirst0; (try dsimp only)
    by_cases hz : t.val = 0
    · rw [PhiS0_castSucc V c t, PhiS0_zero V c _ _ hz, PhiA0_eq]
      iintro ⟨⟨⟨HS, Hoth⟩, Hg⟩, Ho, ⟨%d0, H0⟩, ⟨%d1, H1⟩, ⟨%d2, H2⟩, ⟨%d3, H3⟩⟩
      iapply ((runFirst0 c (grid0.coords t) _ _ _ _ _ _ _ _ _ _ ((isFirst0_iff t).mpr h0) (notLater0_of h0) (notLast0_of (ne9_of_zero0 h0)) (iblk0 V c 0 t) (iblk0 V c 1 t)).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, ⟨%es, HS⟩⟩
      isplitl [HS Hoth Hg]
      · isplitl [HS Hoth]
        · isplitl [HS]
          · unfold owns; iexists _; isplitr
            swap; · iexact HS
            ipureintro; exact View.read_writes_of_cover _ _ _ _ _ (accFirst0_cover c _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (rowsFirst0_cover c _ _ _ _ _ _ _ _ _ _ _ _ _ _ _ _)
      iexists _; iexact H3
    · rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩⟩
      iapply ((runFirst0 c (grid0.coords t) _ _ _ _ _ _ _ _ _ _ ((isFirst0_iff t).mpr h0) (notLater0_of h0) (notLast0_of (ne9_of_zero0 h0)) (iblk0 V c 0 t) (iblk0 V c 1 t)).2.2 _ Set.univ _)
      isplitl [H0]; · iexact H0
      isplitl [H1]; · iexact H1
      isplitl [H2]; · iexists _; iexact H2
      isplitl [H3]; · iexact H3
      isplitl [HS]; · iexists _; iexact HS
      iintro ⟨H0, H1, ⟨%e2, H2⟩, H3, ⟨%es, HS⟩⟩
      isplitl [HS Hoth Hg]
      · isplitl [HS Hoth]
        · isplitl [HS]
          · unfold owns; iexists _; isplitr
            swap; · iexact HS
            ipureintro; exact View.read_writes_of_cover _ _ _ _ _ (accFirst0_cover c _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (rowsFirst0_cover c _ _ _ _ _ _ _ _ _ _ _ _ _ _ _ _)
      iexists _; iexact H3
  · have hz : t.val ≠ 0 := fun h => h0 (by rw [h])
    by_cases h9 : t.val % 10 = 9
    · -- a last tile: the scratch is lowered and copied out
      rw [show (dat0 V c).leavesExact 3 t = owns (c : Thread nD τ) (ms0_3 t) fullShare ((dat0 V c).after 3 t) from by
        unfold Dat.leavesExact; rw [live0_3 t h9], after0_3]
      rw [outsAt0_last V c t h0 h9]
      unfold rowsLast0 colsLast0 accLast0; (try dsimp only)
      rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩⟩
      iapply ((runLast0 c (grid0.coords t) _ _ _ _ _ _ _ _ _ _ (notFirst0_of h0) ((isLater0_iff t).mpr h0) ((isLast0_iff t).mpr h9) (iblk0 V c 0 t) (iblk0 V c 1 t) _).2.2.2 Set.univ _)
      isplitl [H0]; · iexact H0
      isplitl [H1]; · iexact H1
      isplitl [H2]; · iexists _; iexact H2
      isplitl [H3]; · iexists _; iexact H3
      isplitl [HS]; · iexact HS
      iintro ⟨H0, H1, ⟨%e2, H2⟩, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (accLast0_cover c _ _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (rowsLast0_cover c _ _ _ _ _ _ _ _ _ _ _ _ _ _ _ _ _)
      unfold owns; iexists _; isplitr
      swap; · iexact H3
      ipureintro; exact View.read_writes_of_cover _ _ _ _ _ (colsLast0_cover c _ _ _ _ _ _ _ _ _ _ _ _ _ _ _ _ _)
    · -- a middle tile: the scratch is lowered
      rw [Dat.leavesExact_idle (dat0 V c) 3 t (idle0_3 t h9) (noFlush0_3 t h9)]
      rw [outsAt0_mid V c t h0 h9]
      unfold rowsMid0 accMid0; (try dsimp only)
      rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩⟩
      iapply ((runMid0 c (grid0.coords t) _ _ _ _ _ _ _ _ _ _ (notFirst0_of h0) ((isLater0_iff t).mpr h0) (notLast0_of h9) (iblk0 V c 0 t) (iblk0 V c 1 t) _).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, ⟨%es, HS⟩⟩
      isplitl [HS Hoth Hg]
      · isplitl [HS Hoth]
        · isplitl [HS]
          · unfold owns; iexists _; isplitr
            swap; · iexact HS
            ipureintro; exact View.read_writes_of_cover _ _ _ _ _ (accMid0_cover c _ _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (rowsMid0_cover c _ _ _ _ _ _ _ _ _ _ _ _ _ _ _ _ _)
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch's named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 80 := N_0; omega), PhiA0_eq]
  iintro ⟨⟨HS, Hoth⟩, Hg⟩
  isplitl [HS Hoth]
  · isplitl [HS]
    · iexists _; iexact HS
    iexact Hoth
  iexact Hg

end Body

end Cert.Kernel.Chamfer

end
-- ==== Proof.KB.Chamfer1Cases.lean ====
/-
  Region 1 of the program (the squared-distance kernel against the 618 rest points): the grid is 8 batches by
  10 tiles of 1000 ground-truth rows, point t = 10 * batch + tile. The body branches three times on the tile
  number n: at n = 0 the running column minimum is reset, at n > 0 it is lowered by the tile's column minimum,
  at n = 9 it is copied out. Here: those three conditions in closed form over the 80 points, where the second
  output window is idle, the staging memrefs the body is called with, and that every input window's staging
  buffer holds the window's block of the array as the region found it.
-/
import proofs.«112199_j59459527246412_1_alg».proof.Proof.Gen.Kernel.Launch
import proofs.«112199_j59459527246412_1_alg».proof.Proof.Gen.Kernel.Skeleton
import proofs.«112199_j59459527246412_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Chamfer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three branch conditions over the grid -/

/-- The tile number is 0 (the reset branch), as the body computes it from the grid coordinates. -/
abbrev isFirst1 (i : grid1.Coords) : Prop :=
  (Scalar.cmpi .ne (Scalar.extui (Scalar.cmpi .eq (BitVec.ofNat 32 (i 1).val) 0#32)) 0#32) = 1#1
/-- The tile number is positive (the lowering branch). -/
abbrev isLater1 (i : grid1.Coords) : Prop :=
  (Scalar.cmpi .ne (Scalar.extui (Scalar.cmpi .sgt (BitVec.ofNat 32 (i 1).val) 0#32)) 0#32) = 1#1
/-- The tile number is 9 (the copy-out branch). -/
abbrev isLast1 (i : grid1.Coords) : Prop := k1_cond3 i = 1#1

theorem isFirst1_iff : ∀ t : Fin cfg1.N, isFirst1 (grid1.coords t) ↔ t.val % 10 = 0 :=
  (by decide +kernel : ∀ t : Fin grid1.N, isFirst1 (grid1.coords t) ↔ t.val % 10 = 0)
theorem isLater1_iff : ∀ t : Fin cfg1.N, isLater1 (grid1.coords t) ↔ ¬ t.val % 10 = 0 :=
  (by decide +kernel : ∀ t : Fin grid1.N, isLater1 (grid1.coords t) ↔ ¬ t.val % 10 = 0)
theorem isLast1_iff : ∀ t : Fin cfg1.N, isLast1 (grid1.coords t) ↔ t.val % 10 = 9 :=
  (by decide +kernel : ∀ t : Fin grid1.N, isLast1 (grid1.coords t) ↔ t.val % 10 = 9)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last tile of a batch the column-minimum output is idle and is not written back. -/
theorem idle1_3 : ∀ t : Fin cfg1.N, ¬ t.val % 10 = 9 → cfg1.idle 3 (grid1.coords t) = true := by decide +kernel
theorem noFlush1_3 : ∀ t : Fin cfg1.N, ¬ t.val % 10 = 9 → (cfg1.win 3).flush t = false := by decide +kernel
theorem live1_3 : ∀ t : Fin cfg1.N, t.val % 10 = 9 → cfg1.idle 3 (grid1.coords t) = false := by decide +kernel

/-! ## The staging memrefs at a point, and the scratch -/

abbrev ms1_0 (t : Fin cfg1.N) : Memref sig .tc .vmem S1x1000x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x618x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x618x1 .f32 := win1_3.stage (cfg1.slots t 3)
abbrev hs1_3 (t : Fin cfg1.N) : (ms1_3 t).IsWhole := hstage1_3 ((cfg1.slots t 3).cast nbuf1_3)
/-- The running column minimum lives in the kernel's one scratch buffer. -/
abbrev scM1 : Memref sig .tc .vmem S1x618x1 .f32 := Memref.whole cc1_scratch0

/-- The other scoped buffers of the core (the other regions' staging buffers and scratch), at some contents each. -/
abbrev others1 (c : Dev nD) : sProp 𝕄 := Pipeline.scopedRestBut (Ix := Unit) (Name := ℕ) (U := UR sig nD τ) (Lvl := ℕ) (Val := Elt F) spec1 c [cc1_scratch0]

/-- The class invariant with the scratch spelt as an owned memref at some contents, the other scoped buffers unopened. -/
theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA
  rw [Pipeline.scopedRest_split_of_list spec1 c [cc1_scratch0] (by decide) (by decide)]
  simp only [Idealize.SL.BI.bigSepL_singleton, scM1, owns_whole]; try rfl

/-! ## The input windows' blocks -/

section Blocks
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The ground-truth window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The rest-point window's staging buffer holds its block at every point (fetched once per batch, the block index
    unchanged in between). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.Kernel.Chamfer

end
-- ==== Proof.KB.Chamfer1First.lean ====
/-
  Region 1, a point with tile number 0: the body loads the tile of ground-truth rows and the rest points, stores the
  row minima of their squared distances into the first output's buffer, and RESETS the scratch to the tile's column
  minima; the second output's buffer is not touched. The run is found by the symbolic executor; the pieces each
  written buffer ends with are the witness it finds.
-/
import proofs.«112199_j59459527246412_1_alg».proof.Proof.KB.Chamfer1Cases

set_option maxRecDepth 16384

noncomputable section

namespace Cert.Kernel.Chamfer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first tile, on whole staging memrefs: the inputs at their contents, the row-minimum output and the
    scratch at anything, the column-minimum output at some contents `d3`. It runs to the continuation with the inputs as
    they were, the row-minimum output's buffer with its pieces `L2` written, the column-minimum output's buffer untouched,
    and the scratch with its pieces `LS` written. -/
noncomputable def runFirst1 (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole)
    (hA : isFirst1 i) (hB : ¬isLater1 i) (hC : ¬isLast1 i)
    (x0 : Vec F S1x1000x3 .f32) (x1 : Vec F S1x618x3 .f32) :
    Σ' (L2 : List (View.Piece (Elt F) S1x1000x1 .f32)), { LS : List (View.Piece (Elt F) S1x618x1 .f32) //
      ∀ (d3 : Vec F S1x618x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare d3 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare d3 ∗ (∃ f, arg6.view.loc (c : Thread nD τ) ↦[arg6.view.set]{fullShare} arg6.view.writes (Elt F) f LS)) -∗ K ⟨⟩))
          ⊢ wp frame (wpE (defs₀ (F := F)) Variants.none c none) E (cc1__chamfer_kernel i arg2 harg2 arg3 harg3 arg4 harg4 arg5 harg5 arg6 harg6) K } := by
  refine ⟨?_, ?_, fun d3 E K => ?run⟩
  case run =>
    simp only [cc1__chamfer_kernel_eq_skeleton]; unfold cc1__chamfer_kernel_skel
    simp only [k1_part1_eq_skeleton]
    unfold owns
    iintro ⟨⟨%f0, %hf0, H0⟩, ⟨%f1, %hf1, H1⟩, ⟨%d2, %f2, -, H2⟩, ⟨%f3, %hf3, H3⟩, ⟨%ds, %fs, -, HS⟩, Hk⟩
    obtain rfl := harg2.eq_unread hf0; obtain rfl := harg3.eq_unread hf1
    sl_exec (disch := first | exact hA | exact hB | exact hC)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact hf3
      iexact H3
    iexists _; iexact HS

end Cert.Kernel.Chamfer

end
-- ==== Proof.KB.Chamfer1Mid.lean ====
/-
  Region 1, a point with tile number 1 to 8: the body stores the tile's row minima into the first output's buffer and
  LOWERS the scratch, which holds the running column minimum `xs` the point before left, by the tile's column minima;
  the second output's buffer is not touched.
-/
import proofs.«112199_j59459527246412_1_alg».proof.Proof.KB.Chamfer1Cases

set_option maxRecDepth 16384

noncomputable section

namespace Cert.Kernel.Chamfer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle tile: as at a first tile, but the scratch comes in at known contents `xs` and its pieces `LS`
    are computed from them. -/
noncomputable def runMid1 (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole)
    (hA : ¬isFirst1 i) (hB : isLater1 i) (hC : ¬isLast1 i)
    (x0 : Vec F S1x1000x3 .f32) (x1 : Vec F S1x618x3 .f32) (xs : Vec F S1x618x1 .f32) :
    Σ' (L2 : List (View.Piece (Elt F) S1x1000x1 .f32)), { LS : List (View.Piece (Elt F) S1x618x1 .f32) //
      ∀ (d3 : Vec F S1x618x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare d3 ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare d3 ∗ (∃ f, arg6.view.loc (c : Thread nD τ) ↦[arg6.view.set]{fullShare} arg6.view.writes (Elt F) f LS)) -∗ K ⟨⟩))
          ⊢ wp frame (wpE (defs₀ (F := F)) Variants.none c none) E (cc1__chamfer_kernel i arg2 harg2 arg3 harg3 arg4 harg4 arg5 harg5 arg6 harg6) K } := by
  refine ⟨?_, ?_, fun d3 E K => ?run⟩
  case run =>
    simp only [cc1__chamfer_kernel_eq_skeleton]; unfold cc1__chamfer_kernel_skel
    simp only [k1_part1_eq_skeleton]
    unfold owns
    iintro ⟨⟨%f0, %hf0, H0⟩, ⟨%f1, %hf1, H1⟩, ⟨%d2, %f2, -, H2⟩, ⟨%f3, %hf3, H3⟩, ⟨%fs, %hfs, HS⟩, Hk⟩
    obtain rfl := harg2.eq_unread hf0; obtain rfl := harg3.eq_unread hf1; obtain rfl := harg6.eq_unread hfs
    sl_exec (disch := first | exact hA | exact hB | exact hC)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact hf3
      iexact H3
    iexists _; iexact HS

end Cert.Kernel.Chamfer

end
-- ==== Proof.KB.Chamfer1Last.lean ====
/-
  Region 1, a point with tile number 9: the body stores the tile's row minima, lowers the running column minimum in
  the scratch by the tile's column minima, and COPIES the scratch out into the second output's buffer.
-/
import proofs.«112199_j59459527246412_1_alg».proof.Proof.KB.Chamfer1Cases

set_option maxRecDepth 16384

noncomputable section

namespace Cert.Kernel.Chamfer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a last tile: the scratch comes in at `xs`; both outputs' buffers and the scratch end with pieces written. -/
noncomputable def runLast1 (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole)
    (hA : ¬isFirst1 i) (hB : isLater1 i) (hC : isLast1 i)
    (x0 : Vec F S1x1000x3 .f32) (x1 : Vec F S1x618x3 .f32) (xs : Vec F S1x618x1 .f32) :
    Σ' (L2 : List (View.Piece (Elt F) S1x1000x1 .f32)) (L3 : List (View.Piece (Elt F) S1x618x1 .f32)), { LS : List (View.Piece (Elt F) S1x618x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__chamfer_kernel i arg2 harg2 arg3 harg3 arg4 harg4 arg5 harg5 arg6 harg6) K } := by
  refine ⟨?_, ?_, ?_, fun E K => ?run⟩
  case run =>
    simp only [cc1__chamfer_kernel_eq_skeleton]; unfold cc1__chamfer_kernel_skel
    simp only [k1_part1_eq_skeleton]
    unfold owns
    iintro ⟨⟨%f0, %hf0, H0⟩, ⟨%f1, %hf1, H1⟩, ⟨%d2, %f2, -, H2⟩, ⟨%d3, %f3, %hf3, H3⟩, ⟨%fs, %hfs, HS⟩, Hk⟩
    obtain rfl := harg2.eq_unread hf0; obtain rfl := harg3.eq_unread hf1; obtain rfl := harg6.eq_unread hfs
    sl_exec (disch := first | exact hA | exact hB | exact hC)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS

end Cert.Kernel.Chamfer

end
-- ==== Proof.KB.Chamfer1Points.lean ====
/-
  Region 1: what every grid point leaves behind. After point t the first output's buffer holds the tile's row minima,
  the scratch holds the running column minimum of the batch's tiles so far (reset at tile 0, lowered at every later
  tile), and at tile 9 the second output's buffer holds a copy of the scratch. These contents are defined by recursion
  on the point, each point's case run on what the point before left in the scratch; the region's invariant carries the
  scratch at those contents from point to point; and the body, at every point, takes the state from one to the next.
-/
import proofs.«112199_j59459527246412_1_alg».proof.Proof.KB.Chamfer1First
import proofs.«112199_j59459527246412_1_alg».proof.Proof.KB.Chamfer1Mid
import proofs.«112199_j59459527246412_1_alg».proof.Proof.KB.Chamfer1Last

set_option maxRecDepth 16384

noncomputable section

namespace Cert.Kernel.Chamfer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The contents a case leaves, read back through a fixed view of each buffer's shape -/

abbrev VO1_2 : View sig .tc .vmem S1x1000x1 .f32 := (Memref.whole cc1_stg2_0 : Memref sig .tc .vmem S1x1000x1 .f32).view
abbrev VO1_3 : View sig .tc .vmem S1x618x1 .f32 := (Memref.whole cc1_stg3_0 : Memref sig .tc .vmem S1x618x1 .f32).view
abbrev VS1 : View sig .tc .vmem S1x618x1 .f32 := scM1.view

/-- A first tile's row minima. -/
def rowsFirst1 (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : isFirst1 i) (hB : ¬isLater1 i) (hC : ¬isLast1 i)
    (x0 : Vec F S1x1000x3 .f32) (x1 : Vec F S1x618x3 .f32) : Vec F S1x1000x1 .f32 :=
  VO1_2.read (Elt F) (VO1_2.writes (Elt F) VO1_2.junk (runFirst1 c i arg2 harg2 arg3 harg3 arg4 harg4 arg5 harg5 arg6 harg6 hA hB hC x0 x1).1)
theorem rowsFirst1_cover (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : isFirst1 i) (hB : ¬isLater1 i) (hC : ¬isLast1 i)
    (x0 : Vec F S1x1000x3 .f32) (x1 : Vec F S1x618x3 .f32) (y : S1x1000x1.Idx) :
    ∃ pc ∈ (runFirst1 c i arg2 harg2 arg3 harg3 arg4 harg4 arg5 harg5 arg6 harg6 hA hB hC x0 x1).1, y ∈ pc.1.set :=
  View.cover_of_tiledL (runFirst1 c i arg2 harg2 arg3 harg3 arg4 harg4 arg5 harg5 arg6 harg6 hA hB hC x0 x1).1 S1x1000x1.size (by sl_kernel_rfl) y
/-- A first tile's column minima: the scratch after the reset. -/
def accFirst1 (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : isFirst1 i) (hB : ¬isLater1 i) (hC : ¬isLast1 i)
    (x0 : Vec F S1x1000x3 .f32) (x1 : Vec F S1x618x3 .f32) : Vec F S1x618x1 .f32 :=
  VS1.read (Elt F) (VS1.writes (Elt F) VS1.junk (runFirst1 c i arg2 harg2 arg3 harg3 arg4 harg4 arg5 harg5 arg6 harg6 hA hB hC x0 x1).2.1)
theorem accFirst1_cover (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : isFirst1 i) (hB : ¬isLater1 i) (hC : ¬isLast1 i)
    (x0 : Vec F S1x1000x3 .f32) (x1 : Vec F S1x618x3 .f32) (y : S1x618x1.Idx) :
    ∃ pc ∈ (runFirst1 c i arg2 harg2 arg3 harg3 arg4 harg4 arg5 harg5 arg6 harg6 hA hB hC x0 x1).2.1, y ∈ pc.1.set :=
  View.cover_of_tiledL (runFirst1 c i arg2 harg2 arg3 harg3 arg4 harg4 arg5 harg5 arg6 harg6 hA hB hC x0 x1).2.1 S1x618x1.size (by sl_kernel_rfl) y

/-- A middle tile's row minima. -/
def rowsMid1 (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : ¬isFirst1 i) (hB : isLater1 i) (hC : ¬isLast1 i)
    (x0 : Vec F S1x1000x3 .f32) (x1 : Vec F S1x618x3 .f32) (xs : Vec F S1x618x1 .f32) : Vec F S1x1000x1 .f32 :=
  VO1_2.read (Elt F) (VO1_2.writes (Elt F) VO1_2.junk (runMid1 c i arg2 harg2 arg3 harg3 arg4 harg4 arg5 harg5 arg6 harg6 hA hB hC x0 x1 xs).1)
theorem rowsMid1_cover (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : ¬isFirst1 i) (hB : isLater1 i) (hC : ¬isLast1 i)
    (x0 : Vec F S1x1000x3 .f32) (x1 : Vec F S1x618x3 .f32) (xs : Vec F S1x618x1 .f32) (y : S1x1000x1.Idx) :
    ∃ pc ∈ (runMid1 c i arg2 harg2 arg3 harg3 arg4 harg4 arg5 harg5 arg6 harg6 hA hB hC x0 x1 xs).1, y ∈ pc.1.set :=
  View.cover_of_tiledL (runMid1 c i arg2 harg2 arg3 harg3 arg4 harg4 arg5 harg5 arg6 harg6 hA hB hC x0 x1 xs).1 S1x1000x1.size (by sl_kernel_rfl) y
/-- The scratch after a middle tile: the running minimum `xs` lowered by the tile's column minima. -/
def accMid1 (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : ¬isFirst1 i) (hB : isLater1 i) (hC : ¬isLast1 i)
    (x0 : Vec F S1x1000x3 .f32) (x1 : Vec F S1x618x3 .f32) (xs : Vec F S1x618x1 .f32) : Vec F S1x618x1 .f32 :=
  VS1.read (Elt F) (VS1.writes (Elt F) VS1.junk (runMid1 c i arg2 harg2 arg3 harg3 arg4 harg4 arg5 harg5 arg6 harg6 hA hB hC x0 x1 xs).2.1)
theorem accMid1_cover (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : ¬isFirst1 i) (hB : isLater1 i) (hC : ¬isLast1 i)
    (x0 : Vec F S1x1000x3 .f32) (x1 : Vec F S1x618x3 .f32) (xs : Vec F S1x618x1 .f32) (y : S1x618x1.Idx) :
    ∃ pc ∈ (runMid1 c i arg2 harg2 arg3 harg3 arg4 harg4 arg5 harg5 arg6 harg6 hA hB hC x0 x1 xs).2.1, y ∈ pc.1.set :=
  View.cover_of_tiledL (runMid1 c i arg2 harg2 arg3 harg3 arg4 harg4 arg5 harg5 arg6 harg6 hA hB hC x0 x1 xs).2.1 S1x618x1.size (by sl_kernel_rfl) y

/-- A last tile's row minima. -/
def rowsLast1 (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : ¬isFirst1 i) (hB : isLater1 i) (hC : isLast1 i)
    (x0 : Vec F S1x1000x3 .f32) (x1 : Vec F S1x618x3 .f32) (xs : Vec F S1x618x1 .f32) : Vec F S1x1000x1 .f32 :=
  VO1_2.read (Elt F) (VO1_2.writes (Elt F) VO1_2.junk (runLast1 c i arg2 harg2 arg3 harg3 arg4 harg4 arg5 harg5 arg6 harg6 hA hB hC x0 x1 xs).1)
theorem rowsLast1_cover (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : ¬isFirst1 i) (hB : isLater1 i) (hC : isLast1 i)
    (x0 : Vec F S1x1000x3 .f32) (x1 : Vec F S1x618x3 .f32) (xs : Vec F S1x618x1 .f32) (y : S1x1000x1.Idx) :
    ∃ pc ∈ (runLast1 c i arg2 harg2 arg3 harg3 arg4 harg4 arg5 harg5 arg6 harg6 hA hB hC x0 x1 xs).1, y ∈ pc.1.set :=
  View.cover_of_tiledL (runLast1 c i arg2 harg2 arg3 harg3 arg4 harg4 arg5 harg5 arg6 harg6 hA hB hC x0 x1 xs).1 S1x1000x1.size (by sl_kernel_rfl) y
/-- The batch's column minima as the last tile copies them out. -/
def colsLast1 (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : ¬isFirst1 i) (hB : isLater1 i) (hC : isLast1 i)
    (x0 : Vec F S1x1000x3 .f32) (x1 : Vec F S1x618x3 .f32) (xs : Vec F S1x618x1 .f32) : Vec F S1x618x1 .f32 :=
  VO1_3.read (Elt F) (VO1_3.writes (Elt F) VO1_3.junk (runLast1 c i arg2 harg2 arg3 harg3 arg4 harg4 arg5 harg5 arg6 harg6 hA hB hC x0 x1 xs).2.1)
theorem colsLast1_cover (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : ¬isFirst1 i) (hB : isLater1 i) (hC : isLast1 i)
    (x0 : Vec F S1x1000x3 .f32) (x1 : Vec F S1x618x3 .f32) (xs : Vec F S1x618x1 .f32) (y : S1x618x1.Idx) :
    ∃ pc ∈ (runLast1 c i arg2 harg2 arg3 harg3 arg4 harg4 arg5 harg5 arg6 harg6 hA hB hC x0 x1 xs).2.1, y ∈ pc.1.set :=
  View.cover_of_tiledL (runLast1 c i arg2 harg2 arg3 harg3 arg4 harg4 arg5 harg5 arg6 harg6 hA hB hC x0 x1 xs).2.1 S1x618x1.size (by sl_kernel_rfl) y
/-- The scratch after a last tile. -/
def accLast1 (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : ¬isFirst1 i) (hB : isLater1 i) (hC : isLast1 i)
    (x0 : Vec F S1x1000x3 .f32) (x1 : Vec F S1x618x3 .f32) (xs : Vec F S1x618x1 .f32) : Vec F S1x618x1 .f32 :=
  VS1.read (Elt F) (VS1.writes (Elt F) VS1.junk (runLast1 c i arg2 harg2 arg3 harg3 arg4 harg4 arg5 harg5 arg6 harg6 hA hB hC x0 x1 xs).2.2.1)
theorem accLast1_cover (c : Dev nD) (i : grid1.Coords) (arg2 : Memref sig .tc .vmem S1x1000x3 .f32) (harg2 : arg2.IsWhole) (arg3 : Memref sig .tc .vmem S1x618x3 .f32) (harg3 : arg3.IsWhole) (arg4 : Memref sig .tc .vmem S1x1000x1 .f32) (harg4 : arg4.IsWhole) (arg5 : Memref sig .tc .vmem S1x618x1 .f32) (harg5 : arg5.IsWhole) (arg6 : Memref sig .tc .vmem S1x618x1 .f32) (harg6 : arg6.IsWhole) (hA : ¬isFirst1 i) (hB : isLater1 i) (hC : isLast1 i)
    (x0 : Vec F S1x1000x3 .f32) (x1 : Vec F S1x618x3 .f32) (xs : Vec F S1x618x1 .f32) (y : S1x618x1.Idx) :
    ∃ pc ∈ (runLast1 c i arg2 harg2 arg3 harg3 arg4 harg4 arg5 harg5 arg6 harg6 hA hB hC x0 x1 xs).2.2.1, y ∈ pc.1.set :=
  View.cover_of_tiledL (runLast1 c i arg2 harg2 arg3 harg3 arg4 harg4 arg5 harg5 arg6 harg6 hA hB hC x0 x1 xs).2.2.1 S1x618x1.size (by sl_kernel_rfl) y

/-! ## What the buffers hold after each point -/

section Points
variable (V : (c : Dev nD) → (b : Ref sig .tc) → Buf (Elt F) ((c : Thread nD τ).loc b))

theorem notLater1_of {t : Fin cfg1.N} (h0 : t.val % 10 = 0) : ¬isLater1 (grid1.coords t) := fun h => (isLater1_iff t).mp h h0
theorem notLast1_of {t : Fin cfg1.N} (h9 : ¬t.val % 10 = 9) : ¬isLast1 (grid1.coords t) := fun h => h9 ((isLast1_iff t).mp h)
theorem notFirst1_of {t : Fin cfg1.N} (h0 : ¬t.val % 10 = 0) : ¬isFirst1 (grid1.coords t) := fun h => h0 ((isFirst1_iff t).mp h)
theorem ne9_of_zero1 {n : ℕ} (h0 : n % 10 = 0) : ¬n % 10 = 9 := by omega
theorem ne1_of_nine0 {n : ℕ} (h9 : n % 10 = 9) : ¬n % 10 = 0 := by omega

/-- The row-minimum buffer, the column-minimum buffer and the scratch after the body at position `n`: the case of the
    point's tile number, run on the point's input blocks and, past a batch's first tile, on what the point before left
    in the scratch. Away from a last tile the column-minimum buffer is idle; a placeholder stands for it. -/
def outsAt1 (c : Dev nD) : (n : ℕ) → n < cfg1.N → Vec F S1x1000x1 .f32 × Vec F S1x618x1 .f32 × Vec F S1x618x1 .f32
  | 0, hn =>
    (rowsFirst1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((isFirst1_iff ⟨0, hn⟩).mpr (Nat.zero_mod _)) (notLater1_of (t := ⟨0, hn⟩) (Nat.zero_mod _)) (notLast1_of (t := ⟨0, hn⟩) (ne9_of_zero1 (Nat.zero_mod _))) (iblk1 V c 0 ⟨0, hn⟩) (iblk1 V c 1 ⟨0, hn⟩),
     VO1_3.read (Elt F) VO1_3.junk,
     accFirst1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((isFirst1_iff ⟨0, hn⟩).mpr (Nat.zero_mod _)) (notLater1_of (t := ⟨0, hn⟩) (Nat.zero_mod _)) (notLast1_of (t := ⟨0, hn⟩) (ne9_of_zero1 (Nat.zero_mod _))) (iblk1 V c 0 ⟨0, hn⟩) (iblk1 V c 1 ⟨0, hn⟩))
  | n + 1, hn =>
    if h0 : (n + 1) % 10 = 0 then
      (rowsFirst1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((isFirst1_iff ⟨n + 1, hn⟩).mpr h0) (notLater1_of (t := ⟨n + 1, hn⟩) h0) (notLast1_of (t := ⟨n + 1, hn⟩) (ne9_of_zero1 h0)) (iblk1 V c 0 ⟨n + 1, hn⟩) (iblk1 V c 1 ⟨n + 1, hn⟩),
       VO1_3.read (Elt F) VO1_3.junk,
       accFirst1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((isFirst1_iff ⟨n + 1, hn⟩).mpr h0) (notLater1_of (t := ⟨n + 1, hn⟩) h0) (notLast1_of (t := ⟨n + 1, hn⟩) (ne9_of_zero1 h0)) (iblk1 V c 0 ⟨n + 1, hn⟩) (iblk1 V c 1 ⟨n + 1, hn⟩))
    else if h9 : (n + 1) % 10 = 9 then
      (rowsLast1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (notFirst1_of (t := ⟨n + 1, hn⟩) h0) ((isLater1_iff ⟨n + 1, hn⟩).mpr h0) ((isLast1_iff ⟨n + 1, hn⟩).mpr h9) (iblk1 V c 0 ⟨n + 1, hn⟩) (iblk1 V c 1 ⟨n + 1, hn⟩) (outsAt1 c n (Nat.lt_of_succ_lt hn)).2.2,
       colsLast1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (notFirst1_of (t := ⟨n + 1, hn⟩) h0) ((isLater1_iff ⟨n + 1, hn⟩).mpr h0) ((isLast1_iff ⟨n + 1, hn⟩).mpr h9) (iblk1 V c 0 ⟨n + 1, hn⟩) (iblk1 V c 1 ⟨n + 1, hn⟩) (outsAt1 c n (Nat.lt_of_succ_lt hn)).2.2,
       accLast1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (notFirst1_of (t := ⟨n + 1, hn⟩) h0) ((isLater1_iff ⟨n + 1, hn⟩).mpr h0) ((isLast1_iff ⟨n + 1, hn⟩).mpr h9) (iblk1 V c 0 ⟨n + 1, hn⟩) (iblk1 V c 1 ⟨n + 1, hn⟩) (outsAt1 c n (Nat.lt_of_succ_lt hn)).2.2)
    else
      (rowsMid1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (notFirst1_of (t := ⟨n + 1, hn⟩) h0) ((isLater1_iff ⟨n + 1, hn⟩).mpr h0) (notLast1_of (t := ⟨n + 1, hn⟩) h9) (iblk1 V c 0 ⟨n + 1, hn⟩) (iblk1 V c 1 ⟨n + 1, hn⟩) (outsAt1 c n (Nat.lt_of_succ_lt hn)).2.2,
       VO1_3.read (Elt F) VO1_3.junk,
       accMid1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (notFirst1_of (t := ⟨n + 1, hn⟩) h0) ((isLater1_iff ⟨n + 1, hn⟩).mpr h0) (notLast1_of (t := ⟨n + 1, hn⟩) h9) (iblk1 V c 0 ⟨n + 1, hn⟩) (iblk1 V c 1 ⟨n + 1, hn⟩) (outsAt1 c n (Nat.lt_of_succ_lt hn)).2.2)

/-- At a first tile. -/
theorem outsAt1_first (c : Dev nD) (t : Fin cfg1.N) (h0 : t.val % 10 = 0) :
    outsAt1 V c t.val t.isLt =
      (rowsFirst1 c (grid1.coords t) (ms1_0 t) (hs1_0 t) (ms1_1 t) (hs1_1 t) (ms1_2 t) (hs1_2 t) (ms1_3 t) (hs1_3 t) scM1 (Memref.isWhole_whole _) ((isFirst1_iff t).mpr h0) (notLater1_of h0) (notLast1_of (ne9_of_zero1 h0)) (iblk1 V c 0 t) (iblk1 V c 1 t),
       VO1_3.read (Elt F) VO1_3.junk,
       accFirst1 c (grid1.coords t) (ms1_0 t) (hs1_0 t) (ms1_1 t) (hs1_1 t) (ms1_2 t) (hs1_2 t) (ms1_3 t) (hs1_3 t) scM1 (Memref.isWhole_whole _) ((isFirst1_iff t).mpr h0) (notLater1_of h0) (notLast1_of (ne9_of_zero1 h0)) (iblk1 V c 0 t) (iblk1 V c 1 t)) := by
  obtain ⟨n, hn⟩ := t
  cases n with
  | zero => exact rfl
  | succ n => exact (dif_pos h0).trans rfl

/-- At a middle tile, over what the point before left in the scratch. -/
theorem outsAt1_mid (c : Dev nD) (t : Fin cfg1.N) (h0 : ¬t.val % 10 = 0) (h9 : ¬t.val % 10 = 9) :
    outsAt1 V c t.val t.isLt =
      (rowsMid1 c (grid1.coords t) (ms1_0 t) (hs1_0 t) (ms1_1 t) (hs1_1 t) (ms1_2 t) (hs1_2 t) (ms1_3 t) (hs1_3 t) scM1 (Memref.isWhole_whole _) (notFirst1_of h0) ((isLater1_iff t).mpr h0) (notLast1_of h9) (iblk1 V c 0 t) (iblk1 V c 1 t) (outsAt1 V c (t.val - 1) (Nat.lt_of_le_of_lt (Nat.sub_le _ _) t.isLt)).2.2,
       VO1_3.read (Elt F) VO1_3.junk,
       accMid1 c (grid1.coords t) (ms1_0 t) (hs1_0 t) (ms1_1 t) (hs1_1 t) (ms1_2 t) (hs1_2 t) (ms1_3 t) (hs1_3 t) scM1 (Memref.isWhole_whole _) (notFirst1_of h0) ((isLater1_iff t).mpr h0) (notLast1_of h9) (iblk1 V c 0 t) (iblk1 V c 1 t) (outsAt1 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h9).trans rfl)

/-- At a last tile, over what the point before left in the scratch. -/
theorem outsAt1_last (c : Dev nD) (t : Fin cfg1.N) (h0 : ¬t.val % 10 = 0) (h9 : t.val % 10 = 9) :
    outsAt1 V c t.val t.isLt =
      (rowsLast1 c (grid1.coords t) (ms1_0 t) (hs1_0 t) (ms1_1 t) (hs1_1 t) (ms1_2 t) (hs1_2 t) (ms1_3 t) (hs1_3 t) scM1 (Memref.isWhole_whole _) (notFirst1_of h0) ((isLater1_iff t).mpr h0) ((isLast1_iff t).mpr h9) (iblk1 V c 0 t) (iblk1 V c 1 t) (outsAt1 V c (t.val - 1) (Nat.lt_of_le_of_lt (Nat.sub_le _ _) t.isLt)).2.2,
       colsLast1 c (grid1.coords t) (ms1_0 t) (hs1_0 t) (ms1_1 t) (hs1_1 t) (ms1_2 t) (hs1_2 t) (ms1_3 t) (hs1_3 t) scM1 (Memref.isWhole_whole _) (notFirst1_of h0) ((isLater1_iff t).mpr h0) ((isLast1_iff t).mpr h9) (iblk1 V c 0 t) (iblk1 V c 1 t) (outsAt1 V c (t.val - 1) (Nat.lt_of_le_of_lt (Nat.sub_le _ _) t.isLt)).2.2,
       accLast1 c (grid1.coords t) (ms1_0 t) (hs1_0 t) (ms1_1 t) (hs1_1 t) (ms1_2 t) (hs1_2 t) (ms1_3 t) (hs1_3 t) scM1 (Memref.isWhole_whole _) (notFirst1_of h0) ((isLater1_iff t).mpr h0) ((isLast1_iff t).mpr h9) (iblk1 V c 0 t) (iblk1 V c 1 t) (outsAt1 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h9).trans rfl)

/-! ## The region's invariant -/

/-- Before position `n`: at the very first point the class's invariant (the scratch at anything); afterwards the scratch
    at what the point before left in it, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2.2) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2.2) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2.2) ∗ others1 c) ∗ (∃ r, prngReg c r)) := by
  cases n with
  | zero => exact absurd rfl hz
  | succ n => rfl

/-! ## The proof data -/

/-- The arrays as the region finds them; after the body at point `t` the inputs' buffers at their blocks, the outputs' at
    `outsAt1`'s components; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Points

end Cert.Kernel.Chamfer

end
-- ==== Proof.KB.Chamfer1Body.lean ====
/-
  Region 1: the body takes the region's state from one grid point to the next. At every point the input windows'
  staging buffers hold their blocks; the tile number selects the case; the invariant hands the body the scratch at what
  the point before left (at anything at the very first point) and takes it back at this point's contents.
-/
import proofs.«112199_j59459527246412_1_alg».proof.Proof.KB.Chamfer1Points

set_option maxRecDepth 16384

noncomputable section

namespace Cert.Kernel.Chamfer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body
variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  have hN : t.val < 80 := lt_of_lt_of_eq t.isLt (show cfg1.N = 80 from N_1)
  by_cases h0 : t.val % 10 = 0
  · -- a first tile: the scratch is reset
    rw [Dat.leavesExact_idle (dat1 V c) 3 t (idle1_3 t (ne9_of_zero1 h0)) (noFlush1_3 t (ne9_of_zero1 h0))]
    rw [outsAt1_first V c t h0]
    unfold rowsFirst1 accFirst1; (try dsimp only)
    by_cases hz : t.val = 0
    · rw [PhiS1_castSucc V c t, PhiS1_zero V c _ _ hz, PhiA1_eq]
      iintro ⟨⟨⟨HS, Hoth⟩, Hg⟩, Ho, ⟨%d0, H0⟩, ⟨%d1, H1⟩, ⟨%d2, H2⟩, ⟨%d3, H3⟩⟩
      iapply ((runFirst1 c (grid1.coords t) _ _ _ _ _ _ _ _ _ _ ((isFirst1_iff t).mpr h0) (notLater1_of h0) (notLast1_of (ne9_of_zero1 h0)) (iblk1 V c 0 t) (iblk1 V c 1 t)).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, ⟨%es, HS⟩⟩
      isplitl [HS Hoth Hg]
      · isplitl [HS Hoth]
        · isplitl [HS]
          · unfold owns; iexists _; isplitr
            swap; · iexact HS
            ipureintro; exact View.read_writes_of_cover _ _ _ _ _ (accFirst1_cover c _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (rowsFirst1_cover c _ _ _ _ _ _ _ _ _ _ _ _ _ _ _ _)
      iexists _; iexact H3
    · rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩⟩
      iapply ((runFirst1 c (grid1.coords t) _ _ _ _ _ _ _ _ _ _ ((isFirst1_iff t).mpr h0) (notLater1_of h0) (notLast1_of (ne9_of_zero1 h0)) (iblk1 V c 0 t) (iblk1 V c 1 t)).2.2 _ Set.univ _)
      isplitl [H0]; · iexact H0
      isplitl [H1]; · iexact H1
      isplitl [H2]; · iexists _; iexact H2
      isplitl [H3]; · iexact H3
      isplitl [HS]; · iexists _; iexact HS
      iintro ⟨H0, H1, ⟨%e2, H2⟩, H3, ⟨%es, HS⟩⟩
      isplitl [HS Hoth Hg]
      · isplitl [HS Hoth]
        · isplitl [HS]
          · unfold owns; iexists _; isplitr
            swap; · iexact HS
            ipureintro; exact View.read_writes_of_cover _ _ _ _ _ (accFirst1_cover c _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (rowsFirst1_cover c _ _ _ _ _ _ _ _ _ _ _ _ _ _ _ _)
      iexists _; iexact H3
  · have hz : t.val ≠ 0 := fun h => h0 (by rw [h])
    by_cases h9 : t.val % 10 = 9
    · -- a last tile: the scratch is lowered and copied out
      rw [show (dat1 V c).leavesExact 3 t = owns (c : Thread nD τ) (ms1_3 t) fullShare ((dat1 V c).after 3 t) from by
        unfold Dat.leavesExact; rw [live1_3 t h9], after1_3]
      rw [outsAt1_last V c t h0 h9]
      unfold rowsLast1 colsLast1 accLast1; (try dsimp only)
      rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩⟩
      iapply ((runLast1 c (grid1.coords t) _ _ _ _ _ _ _ _ _ _ (notFirst1_of h0) ((isLater1_iff t).mpr h0) ((isLast1_iff t).mpr h9) (iblk1 V c 0 t) (iblk1 V c 1 t) _).2.2.2 Set.univ _)
      isplitl [H0]; · iexact H0
      isplitl [H1]; · iexact H1
      isplitl [H2]; · iexists _; iexact H2
      isplitl [H3]; · iexists _; iexact H3
      isplitl [HS]; · iexact HS
      iintro ⟨H0, H1, ⟨%e2, H2⟩, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (accLast1_cover c _ _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (rowsLast1_cover c _ _ _ _ _ _ _ _ _ _ _ _ _ _ _ _ _)
      unfold owns; iexists _; isplitr
      swap; · iexact H3
      ipureintro; exact View.read_writes_of_cover _ _ _ _ _ (colsLast1_cover c _ _ _ _ _ _ _ _ _ _ _ _ _ _ _ _ _)
    · -- a middle tile: the scratch is lowered
      rw [Dat.leavesExact_idle (dat1 V c) 3 t (idle1_3 t h9) (noFlush1_3 t h9)]
      rw [outsAt1_mid V c t h0 h9]
      unfold rowsMid1 accMid1; (try dsimp only)
      rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩⟩
      iapply ((runMid1 c (grid1.coords t) _ _ _ _ _ _ _ _ _ _ (notFirst1_of h0) ((isLater1_iff t).mpr h0) (notLast1_of h9) (iblk1 V c 0 t) (iblk1 V c 1 t) _).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, ⟨%es, HS⟩⟩
      isplitl [HS Hoth Hg]
      · isplitl [HS Hoth]
        · isplitl [HS]
          · unfold owns; iexists _; isplitr
            swap; · iexact HS
            ipureintro; exact View.read_writes_of_cover _ _ _ _ _ (accMid1_cover c _ _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (rowsMid1_cover c _ _ _ _ _ _ _ _ _ _ _ _ _ _ _ _ _)
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 80 := N_1; omega), PhiA1_eq]
  iintro ⟨⟨HS, Hoth⟩, Hg⟩
  isplitl [HS Hoth]
  · isplitl [HS]
    · iexists _; iexact HS
    iexact Hoth
  iexact Hg

end Body

end Cert.Kernel.Chamfer

end
-- ==== Proof.KB.Chamfer2Cases.lean ====
/-
  Region 2 of the program (the squared-distance kernel against the 2466 rest points): the grid is 8 batches by
  10 tiles of 1000 ground-truth rows, point t = 10 * batch + tile. The body branches three times on the tile
  number n: at n = 0 the running column minimum is reset, at n > 0 it is lowered by the tile's column minimum,
  at n = 9 it is copied out. Here: those three conditions in closed form over the 80 points, where the second
  output window is idle, the staging memrefs the body is called with, and that every input window's staging
  buffer holds the window's block of the array as the region found it.
-/
import proofs.«112199_j59459527246412_1_alg».proof.Proof.Gen.Kernel.Launch
import proofs.«112199_j59459527246412_1_alg».proof.Proof.Gen.Kernel.Skeleton
import proofs.«112199_j59459527246412_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Chamfer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three branch conditions over the grid -/

/-- The tile number is 0 (the reset branch), as the body computes it from the grid coordinates. -/
abbrev isFirst2 (i : grid2.Coords) : Prop :=
  (Scalar.cmpi .ne (Scalar.extui (Scalar.cmpi .eq (BitVec.ofNat 32 (i 1).val) 0#32)) 0#32) = 1#1
/-- The tile number is positive (the lowering branch). -/
abbrev isLater2 (i : grid2.Coords) : Prop :=
  (Scalar.cmpi .ne (Scalar.extui (Scalar.cmpi .sgt (BitVec.ofNat 32 (i 1).val) 0#32)) 0#32) = 1#1
/-- The tile number is 9 (the copy-out branch). -/
abbrev isLast2 (i : grid2.Coords) : Prop := k2_cond3 i = 1#1

theorem isFirst2_iff : ∀ t : Fin cfg2.N, isFirst2 (grid2.coords t) ↔ t.val % 10 = 0 :=
  (by decide +kernel : ∀ t : Fin grid2.N, isFirst2 (grid2.coords t) ↔ t.val % 10 = 0)
theorem isLater2_iff : ∀ t : Fin cfg2.N, isLater2 (grid2.coords t) ↔ ¬ t.val % 10 = 0 :=
  (by decide +kernel : ∀ t : Fin grid2.N, isLater2 (grid2.coords t) ↔ ¬ t.val % 10 = 0)
theorem isLast2_iff : ∀ t : Fin cfg2.N, isLast2 (grid2.coords t) ↔ t.val % 10 = 9 :=
  (by decide +kernel : ∀ t : Fin grid2.N, isLast2 (grid2.coords t) ↔ t.val % 10 = 9)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
/-- Away from the last tile of a batch the column-minimum output is idle and is not written back. -/
theorem idle2_3 : ∀ t : Fin cfg2.N, ¬ t.val % 10 = 9 → cfg2.idle 3 (grid2.coords t) = true := by decide +kernel
theorem noFlush2_3 : ∀ t : Fin cfg2.N, ¬ t.val % 10 = 9 → (cfg2.win 3).flush t = false := by decide +kernel
theorem live2_3 : ∀ t : Fin cfg2.N, t.val % 10 = 9 → cfg2.idle 3 (grid2.coords t) = false := by decide +kernel

/-! ## The staging memrefs at a point, and the scratch -/

abbrev ms2_0 (t : Fin cfg2.N) : Memref sig .tc .vmem S1x1000x3 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x2466x3 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1000x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x2466x1 .f32 := win2_3.stage (cfg2.slots t 3)
abbrev hs2_3 (t : Fin cfg2.N) : (ms2_3 t).IsWhole := hstage2_3 ((cfg2.slots t 3).cast nbuf2_3)
/-- The running column minimum lives in the kernel's one scratch buffer. -/
abbrev scM2 : Memref sig .tc .vmem S1x2466x1 .f32 := Memref.whole cc2_scratch0

/-- The other scoped buffers of the core (the other regions' staging buffers and scratch), at some contents each. -/
abbrev others2 (c : Dev nD) : sProp 𝕄 := Pipeline.scopedRestBut (Ix := Unit) (Name := ℕ) (U := UR sig nD τ) (Lvl := ℕ) (Val := Elt F) spec2 c [cc2_scratch0]

/-- The class invariant with the scratch spelt as an owned memref at some contents, the other scoped buffers unopened. -/
theorem PhiA2_eq (c : Dev nD) :
    (Pipeline.ΦA spec2 c : sProp 𝕄)
      = iprop(iprop((∃ d, owns (c : Thread nD τ) scM2 fullShare d) ∗ others2 c) ∗ (∃ r, prngReg c r)) := by
  unfold Pipeline.ΦA
  rw [Pipeline.scopedRest_split_of_list spec2 c [cc2_scratch0] (by decide) (by decide)]
  simp only [Idealize.SL.BI.bigSepL_singleton, scM2, owns_whole]; try rfl

/-! ## The input windows' blocks -/

section Blocks
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The ground-truth window's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The rest-point window's staging buffer holds its block at every point (fetched once per batch, the block index
    unchanged in between). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end Blocks

end Cert.Kernel.Chamfer

end
-- ==== Proof.KB.Chamfer2First.lean ====
/-
  Region 2, a point with tile number 0: the body loads the tile of ground-truth rows and the rest points, stores the
  row minima of their squared distances into the first output's buffer, and RESETS the scratch to the tile's column
  minima; the second output's buffer is not touched. The run is found by the symbolic executor; the pieces each
  written buffer ends with are the witness it finds.
-/
import proofs.«112199_j59459527246412_1_alg».proof.Proof.KB.Chamfer2Cases

set_option maxRecDepth 16384

noncomputable section

namespace Cert.Kernel.Chamfer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first tile, on whole staging memrefs: the inputs at their contents, the row-minimum output and the
    scratch at anything, the column-minimum output at some contents `d3`. It runs to the continuation with the inputs as
    they were, the row-minimum output's buffer with its pieces `L2` written, the column-minimum output's buffer untouched,
    and the scratch with its pieces `LS` written. -/
noncomputable def runFirst2 (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole)
    (hA : isFirst2 i) (hB : ¬isLater2 i) (hC : ¬isLast2 i)
    (x0 : Vec F S1x1000x3 .f32) (x1 : Vec F S1x2466x3 .f32) :
    Σ' (L2 : List (View.Piece (Elt F) S1x1000x1 .f32)), { LS : List (View.Piece (Elt F) S1x2466x1 .f32) //
      ∀ (d3 : Vec F S1x2466x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare d3 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare d3 ∗ (∃ f, arg6.view.loc (c : Thread nD τ) ↦[arg6.view.set]{fullShare} arg6.view.writes (Elt F) f LS)) -∗ K ⟨⟩))
          ⊢ wp frame (wpE (defs₀ (F := F)) Variants.none c none) E (cc2__chamfer_kernel i arg2 harg2 arg3 harg3 arg4 harg4 arg5 harg5 arg6 harg6) K } := by
  refine ⟨?_, ?_, fun d3 E K => ?run⟩
  case run =>
    simp only [cc2__chamfer_kernel_eq_skeleton]; unfold cc2__chamfer_kernel_skel
    simp only [k2_part1_eq_skeleton]
    unfold owns
    iintro ⟨⟨%f0, %hf0, H0⟩, ⟨%f1, %hf1, H1⟩, ⟨%d2, %f2, -, H2⟩, ⟨%f3, %hf3, H3⟩, ⟨%ds, %fs, -, HS⟩, Hk⟩
    obtain rfl := harg2.eq_unread hf0; obtain rfl := harg3.eq_unread hf1
    sl_exec (disch := first | exact hA | exact hB | exact hC)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact hf3
      iexact H3
    iexists _; iexact HS

end Cert.Kernel.Chamfer

end
-- ==== Proof.KB.Chamfer2Mid.lean ====
/-
  Region 2, a point with tile number 1 to 8: the body stores the tile's row minima into the first output's buffer and
  LOWERS the scratch, which holds the running column minimum `xs` the point before left, by the tile's column minima;
  the second output's buffer is not touched.
-/
import proofs.«112199_j59459527246412_1_alg».proof.Proof.KB.Chamfer2Cases

set_option maxRecDepth 16384

noncomputable section

namespace Cert.Kernel.Chamfer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle tile: as at a first tile, but the scratch comes in at known contents `xs` and its pieces `LS`
    are computed from them. -/
noncomputable def runMid2 (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole)
    (hA : ¬isFirst2 i) (hB : isLater2 i) (hC : ¬isLast2 i)
    (x0 : Vec F S1x1000x3 .f32) (x1 : Vec F S1x2466x3 .f32) (xs : Vec F S1x2466x1 .f32) :
    Σ' (L2 : List (View.Piece (Elt F) S1x1000x1 .f32)), { LS : List (View.Piece (Elt F) S1x2466x1 .f32) //
      ∀ (d3 : Vec F S1x2466x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare d3 ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare d3 ∗ (∃ f, arg6.view.loc (c : Thread nD τ) ↦[arg6.view.set]{fullShare} arg6.view.writes (Elt F) f LS)) -∗ K ⟨⟩))
          ⊢ wp frame (wpE (defs₀ (F := F)) Variants.none c none) E (cc2__chamfer_kernel i arg2 harg2 arg3 harg3 arg4 harg4 arg5 harg5 arg6 harg6) K } := by
  refine ⟨?_, ?_, fun d3 E K => ?run⟩
  case run =>
    simp only [cc2__chamfer_kernel_eq_skeleton]; unfold cc2__chamfer_kernel_skel
    simp only [k2_part1_eq_skeleton]
    unfold owns
    iintro ⟨⟨%f0, %hf0, H0⟩, ⟨%f1, %hf1, H1⟩, ⟨%d2, %f2, -, H2⟩, ⟨%f3, %hf3, H3⟩, ⟨%fs, %hfs, HS⟩, Hk⟩
    obtain rfl := harg2.eq_unread hf0; obtain rfl := harg3.eq_unread hf1; obtain rfl := harg6.eq_unread hfs
    sl_exec (disch := first | exact hA | exact hB | exact hC)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact hf3
      iexact H3
    iexists _; iexact HS

end Cert.Kernel.Chamfer

end
-- ==== Proof.KB.Chamfer2Last.lean ====
/-
  Region 2, a point with tile number 9: the body stores the tile's row minima, lowers the running column minimum in
  the scratch by the tile's column minima, and COPIES the scratch out into the second output's buffer.
-/
import proofs.«112199_j59459527246412_1_alg».proof.Proof.KB.Chamfer2Cases

set_option maxRecDepth 16384

noncomputable section

namespace Cert.Kernel.Chamfer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a last tile: the scratch comes in at `xs`; both outputs' buffers and the scratch end with pieces written. -/
noncomputable def runLast2 (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole)
    (hA : ¬isFirst2 i) (hB : isLater2 i) (hC : isLast2 i)
    (x0 : Vec F S1x1000x3 .f32) (x1 : Vec F S1x2466x3 .f32) (xs : Vec F S1x2466x1 .f32) :
    Σ' (L2 : List (View.Piece (Elt F) S1x1000x1 .f32)) (L3 : List (View.Piece (Elt F) S1x2466x1 .f32)), { LS : List (View.Piece (Elt F) S1x2466x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc2__chamfer_kernel i arg2 harg2 arg3 harg3 arg4 harg4 arg5 harg5 arg6 harg6) K } := by
  refine ⟨?_, ?_, ?_, fun E K => ?run⟩
  case run =>
    simp only [cc2__chamfer_kernel_eq_skeleton]; unfold cc2__chamfer_kernel_skel
    simp only [k2_part1_eq_skeleton]
    unfold owns
    iintro ⟨⟨%f0, %hf0, H0⟩, ⟨%f1, %hf1, H1⟩, ⟨%d2, %f2, -, H2⟩, ⟨%d3, %f3, %hf3, H3⟩, ⟨%fs, %hfs, HS⟩, Hk⟩
    obtain rfl := harg2.eq_unread hf0; obtain rfl := harg3.eq_unread hf1; obtain rfl := harg6.eq_unread hfs
    sl_exec (disch := first | exact hA | exact hB | exact hC)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS

end Cert.Kernel.Chamfer

end
-- ==== Proof.KB.Chamfer2Points.lean ====
/-
  Region 2: what every grid point leaves behind. After point t the first output's buffer holds the tile's row minima,
  the scratch holds the running column minimum of the batch's tiles so far (reset at tile 0, lowered at every later
  tile), and at tile 9 the second output's buffer holds a copy of the scratch. These contents are defined by recursion
  on the point, each point's case run on what the point before left in the scratch; the region's invariant carries the
  scratch at those contents from point to point; and the body, at every point, takes the state from one to the next.
-/
import proofs.«112199_j59459527246412_1_alg».proof.Proof.KB.Chamfer2First
import proofs.«112199_j59459527246412_1_alg».proof.Proof.KB.Chamfer2Mid
import proofs.«112199_j59459527246412_1_alg».proof.Proof.KB.Chamfer2Last

set_option maxRecDepth 16384

noncomputable section

namespace Cert.Kernel.Chamfer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The contents a case leaves, read back through a fixed view of each buffer's shape -/

abbrev VO2_2 : View sig .tc .vmem S1x1000x1 .f32 := (Memref.whole cc2_stg2_0 : Memref sig .tc .vmem S1x1000x1 .f32).view
abbrev VO2_3 : View sig .tc .vmem S1x2466x1 .f32 := (Memref.whole cc2_stg3_0 : Memref sig .tc .vmem S1x2466x1 .f32).view
abbrev VS2 : View sig .tc .vmem S1x2466x1 .f32 := scM2.view

/-- A first tile's row minima. -/
def rowsFirst2 (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : isFirst2 i) (hB : ¬isLater2 i) (hC : ¬isLast2 i)
    (x0 : Vec F S1x1000x3 .f32) (x1 : Vec F S1x2466x3 .f32) : Vec F S1x1000x1 .f32 :=
  VO2_2.read (Elt F) (VO2_2.writes (Elt F) VO2_2.junk (runFirst2 c i arg2 harg2 arg3 harg3 arg4 harg4 arg5 harg5 arg6 harg6 hA hB hC x0 x1).1)
theorem rowsFirst2_cover (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : isFirst2 i) (hB : ¬isLater2 i) (hC : ¬isLast2 i)
    (x0 : Vec F S1x1000x3 .f32) (x1 : Vec F S1x2466x3 .f32) (y : S1x1000x1.Idx) :
    ∃ pc ∈ (runFirst2 c i arg2 harg2 arg3 harg3 arg4 harg4 arg5 harg5 arg6 harg6 hA hB hC x0 x1).1, y ∈ pc.1.set :=
  View.cover_of_tiledL (runFirst2 c i arg2 harg2 arg3 harg3 arg4 harg4 arg5 harg5 arg6 harg6 hA hB hC x0 x1).1 S1x1000x1.size (by sl_kernel_rfl) y
/-- A first tile's column minima: the scratch after the reset. -/
def accFirst2 (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : isFirst2 i) (hB : ¬isLater2 i) (hC : ¬isLast2 i)
    (x0 : Vec F S1x1000x3 .f32) (x1 : Vec F S1x2466x3 .f32) : Vec F S1x2466x1 .f32 :=
  VS2.read (Elt F) (VS2.writes (Elt F) VS2.junk (runFirst2 c i arg2 harg2 arg3 harg3 arg4 harg4 arg5 harg5 arg6 harg6 hA hB hC x0 x1).2.1)
theorem accFirst2_cover (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : isFirst2 i) (hB : ¬isLater2 i) (hC : ¬isLast2 i)
    (x0 : Vec F S1x1000x3 .f32) (x1 : Vec F S1x2466x3 .f32) (y : S1x2466x1.Idx) :
    ∃ pc ∈ (runFirst2 c i arg2 harg2 arg3 harg3 arg4 harg4 arg5 harg5 arg6 harg6 hA hB hC x0 x1).2.1, y ∈ pc.1.set :=
  View.cover_of_tiledL (runFirst2 c i arg2 harg2 arg3 harg3 arg4 harg4 arg5 harg5 arg6 harg6 hA hB hC x0 x1).2.1 S1x2466x1.size (by sl_kernel_rfl) y

/-- A middle tile's row minima. -/
def rowsMid2 (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : ¬isFirst2 i) (hB : isLater2 i) (hC : ¬isLast2 i)
    (x0 : Vec F S1x1000x3 .f32) (x1 : Vec F S1x2466x3 .f32) (xs : Vec F S1x2466x1 .f32) : Vec F S1x1000x1 .f32 :=
  VO2_2.read (Elt F) (VO2_2.writes (Elt F) VO2_2.junk (runMid2 c i arg2 harg2 arg3 harg3 arg4 harg4 arg5 harg5 arg6 harg6 hA hB hC x0 x1 xs).1)
theorem rowsMid2_cover (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : ¬isFirst2 i) (hB : isLater2 i) (hC : ¬isLast2 i)
    (x0 : Vec F S1x1000x3 .f32) (x1 : Vec F S1x2466x3 .f32) (xs : Vec F S1x2466x1 .f32) (y : S1x1000x1.Idx) :
    ∃ pc ∈ (runMid2 c i arg2 harg2 arg3 harg3 arg4 harg4 arg5 harg5 arg6 harg6 hA hB hC x0 x1 xs).1, y ∈ pc.1.set :=
  View.cover_of_tiledL (runMid2 c i arg2 harg2 arg3 harg3 arg4 harg4 arg5 harg5 arg6 harg6 hA hB hC x0 x1 xs).1 S1x1000x1.size (by sl_kernel_rfl) y
/-- The scratch after a middle tile: the running minimum `xs` lowered by the tile's column minima. -/
def accMid2 (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : ¬isFirst2 i) (hB : isLater2 i) (hC : ¬isLast2 i)
    (x0 : Vec F S1x1000x3 .f32) (x1 : Vec F S1x2466x3 .f32) (xs : Vec F S1x2466x1 .f32) : Vec F S1x2466x1 .f32 :=
  VS2.read (Elt F) (VS2.writes (Elt F) VS2.junk (runMid2 c i arg2 harg2 arg3 harg3 arg4 harg4 arg5 harg5 arg6 harg6 hA hB hC x0 x1 xs).2.1)
theorem accMid2_cover (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : ¬isFirst2 i) (hB : isLater2 i) (hC : ¬isLast2 i)
    (x0 : Vec F S1x1000x3 .f32) (x1 : Vec F S1x2466x3 .f32) (xs : Vec F S1x2466x1 .f32) (y : S1x2466x1.Idx) :
    ∃ pc ∈ (runMid2 c i arg2 harg2 arg3 harg3 arg4 harg4 arg5 harg5 arg6 harg6 hA hB hC x0 x1 xs).2.1, y ∈ pc.1.set :=
  View.cover_of_tiledL (runMid2 c i arg2 harg2 arg3 harg3 arg4 harg4 arg5 harg5 arg6 harg6 hA hB hC x0 x1 xs).2.1 S1x2466x1.size (by sl_kernel_rfl) y

/-- A last tile's row minima. -/
def rowsLast2 (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : ¬isFirst2 i) (hB : isLater2 i) (hC : isLast2 i)
    (x0 : Vec F S1x1000x3 .f32) (x1 : Vec F S1x2466x3 .f32) (xs : Vec F S1x2466x1 .f32) : Vec F S1x1000x1 .f32 :=
  VO2_2.read (Elt F) (VO2_2.writes (Elt F) VO2_2.junk (runLast2 c i arg2 harg2 arg3 harg3 arg4 harg4 arg5 harg5 arg6 harg6 hA hB hC x0 x1 xs).1)
theorem rowsLast2_cover (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : ¬isFirst2 i) (hB : isLater2 i) (hC : isLast2 i)
    (x0 : Vec F S1x1000x3 .f32) (x1 : Vec F S1x2466x3 .f32) (xs : Vec F S1x2466x1 .f32) (y : S1x1000x1.Idx) :
    ∃ pc ∈ (runLast2 c i arg2 harg2 arg3 harg3 arg4 harg4 arg5 harg5 arg6 harg6 hA hB hC x0 x1 xs).1, y ∈ pc.1.set :=
  View.cover_of_tiledL (runLast2 c i arg2 harg2 arg3 harg3 arg4 harg4 arg5 harg5 arg6 harg6 hA hB hC x0 x1 xs).1 S1x1000x1.size (by sl_kernel_rfl) y
/-- The batch's column minima as the last tile copies them out. -/
def colsLast2 (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : ¬isFirst2 i) (hB : isLater2 i) (hC : isLast2 i)
    (x0 : Vec F S1x1000x3 .f32) (x1 : Vec F S1x2466x3 .f32) (xs : Vec F S1x2466x1 .f32) : Vec F S1x2466x1 .f32 :=
  VO2_3.read (Elt F) (VO2_3.writes (Elt F) VO2_3.junk (runLast2 c i arg2 harg2 arg3 harg3 arg4 harg4 arg5 harg5 arg6 harg6 hA hB hC x0 x1 xs).2.1)
theorem colsLast2_cover (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : ¬isFirst2 i) (hB : isLater2 i) (hC : isLast2 i)
    (x0 : Vec F S1x1000x3 .f32) (x1 : Vec F S1x2466x3 .f32) (xs : Vec F S1x2466x1 .f32) (y : S1x2466x1.Idx) :
    ∃ pc ∈ (runLast2 c i arg2 harg2 arg3 harg3 arg4 harg4 arg5 harg5 arg6 harg6 hA hB hC x0 x1 xs).2.1, y ∈ pc.1.set :=
  View.cover_of_tiledL (runLast2 c i arg2 harg2 arg3 harg3 arg4 harg4 arg5 harg5 arg6 harg6 hA hB hC x0 x1 xs).2.1 S1x2466x1.size (by sl_kernel_rfl) y
/-- The scratch after a last tile. -/
def accLast2 (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : ¬isFirst2 i) (hB : isLater2 i) (hC : isLast2 i)
    (x0 : Vec F S1x1000x3 .f32) (x1 : Vec F S1x2466x3 .f32) (xs : Vec F S1x2466x1 .f32) : Vec F S1x2466x1 .f32 :=
  VS2.read (Elt F) (VS2.writes (Elt F) VS2.junk (runLast2 c i arg2 harg2 arg3 harg3 arg4 harg4 arg5 harg5 arg6 harg6 hA hB hC x0 x1 xs).2.2.1)
theorem accLast2_cover (c : Dev nD) (i : grid2.Coords) (arg2 : Memref sig .tc .vmem S1x1000x3 .f32) (harg2 : arg2.IsWhole) (arg3 : Memref sig .tc .vmem S1x2466x3 .f32) (harg3 : arg3.IsWhole) (arg4 : Memref sig .tc .vmem S1x1000x1 .f32) (harg4 : arg4.IsWhole) (arg5 : Memref sig .tc .vmem S1x2466x1 .f32) (harg5 : arg5.IsWhole) (arg6 : Memref sig .tc .vmem S1x2466x1 .f32) (harg6 : arg6.IsWhole) (hA : ¬isFirst2 i) (hB : isLater2 i) (hC : isLast2 i)
    (x0 : Vec F S1x1000x3 .f32) (x1 : Vec F S1x2466x3 .f32) (xs : Vec F S1x2466x1 .f32) (y : S1x2466x1.Idx) :
    ∃ pc ∈ (runLast2 c i arg2 harg2 arg3 harg3 arg4 harg4 arg5 harg5 arg6 harg6 hA hB hC x0 x1 xs).2.2.1, y ∈ pc.1.set :=
  View.cover_of_tiledL (runLast2 c i arg2 harg2 arg3 harg3 arg4 harg4 arg5 harg5 arg6 harg6 hA hB hC x0 x1 xs).2.2.1 S1x2466x1.size (by sl_kernel_rfl) y

/-! ## What the buffers hold after each point -/

section Points
variable (V : (c : Dev nD) → (b : Ref sig .tc) → Buf (Elt F) ((c : Thread nD τ).loc b))

theorem notLater2_of {t : Fin cfg2.N} (h0 : t.val % 10 = 0) : ¬isLater2 (grid2.coords t) := fun h => (isLater2_iff t).mp h h0
theorem notLast2_of {t : Fin cfg2.N} (h9 : ¬t.val % 10 = 9) : ¬isLast2 (grid2.coords t) := fun h => h9 ((isLast2_iff t).mp h)
theorem notFirst2_of {t : Fin cfg2.N} (h0 : ¬t.val % 10 = 0) : ¬isFirst2 (grid2.coords t) := fun h => h0 ((isFirst2_iff t).mp h)
theorem ne9_of_zero2 {n : ℕ} (h0 : n % 10 = 0) : ¬n % 10 = 9 := by omega
theorem ne2_of_nine0 {n : ℕ} (h9 : n % 10 = 9) : ¬n % 10 = 0 := by omega

/-- The row-minimum buffer, the column-minimum buffer and the scratch after the body at position `n`: the case of the
    point's tile number, run on the point's input blocks and, past a batch's first tile, on what the point before left
    in the scratch. Away from a last tile the column-minimum buffer is idle; a placeholder stands for it. -/
def outsAt2 (c : Dev nD) : (n : ℕ) → n < cfg2.N → Vec F S1x1000x1 .f32 × Vec F S1x2466x1 .f32 × Vec F S1x2466x1 .f32
  | 0, hn =>
    (rowsFirst2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((isFirst2_iff ⟨0, hn⟩).mpr (Nat.zero_mod _)) (notLater2_of (t := ⟨0, hn⟩) (Nat.zero_mod _)) (notLast2_of (t := ⟨0, hn⟩) (ne9_of_zero2 (Nat.zero_mod _))) (iblk2 V c 0 ⟨0, hn⟩) (iblk2 V c 1 ⟨0, hn⟩),
     VO2_3.read (Elt F) VO2_3.junk,
     accFirst2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((isFirst2_iff ⟨0, hn⟩).mpr (Nat.zero_mod _)) (notLater2_of (t := ⟨0, hn⟩) (Nat.zero_mod _)) (notLast2_of (t := ⟨0, hn⟩) (ne9_of_zero2 (Nat.zero_mod _))) (iblk2 V c 0 ⟨0, hn⟩) (iblk2 V c 1 ⟨0, hn⟩))
  | n + 1, hn =>
    if h0 : (n + 1) % 10 = 0 then
      (rowsFirst2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((isFirst2_iff ⟨n + 1, hn⟩).mpr h0) (notLater2_of (t := ⟨n + 1, hn⟩) h0) (notLast2_of (t := ⟨n + 1, hn⟩) (ne9_of_zero2 h0)) (iblk2 V c 0 ⟨n + 1, hn⟩) (iblk2 V c 1 ⟨n + 1, hn⟩),
       VO2_3.read (Elt F) VO2_3.junk,
       accFirst2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((isFirst2_iff ⟨n + 1, hn⟩).mpr h0) (notLater2_of (t := ⟨n + 1, hn⟩) h0) (notLast2_of (t := ⟨n + 1, hn⟩) (ne9_of_zero2 h0)) (iblk2 V c 0 ⟨n + 1, hn⟩) (iblk2 V c 1 ⟨n + 1, hn⟩))
    else if h9 : (n + 1) % 10 = 9 then
      (rowsLast2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (notFirst2_of (t := ⟨n + 1, hn⟩) h0) ((isLater2_iff ⟨n + 1, hn⟩).mpr h0) ((isLast2_iff ⟨n + 1, hn⟩).mpr h9) (iblk2 V c 0 ⟨n + 1, hn⟩) (iblk2 V c 1 ⟨n + 1, hn⟩) (outsAt2 c n (Nat.lt_of_succ_lt hn)).2.2,
       colsLast2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (notFirst2_of (t := ⟨n + 1, hn⟩) h0) ((isLater2_iff ⟨n + 1, hn⟩).mpr h0) ((isLast2_iff ⟨n + 1, hn⟩).mpr h9) (iblk2 V c 0 ⟨n + 1, hn⟩) (iblk2 V c 1 ⟨n + 1, hn⟩) (outsAt2 c n (Nat.lt_of_succ_lt hn)).2.2,
       accLast2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (notFirst2_of (t := ⟨n + 1, hn⟩) h0) ((isLater2_iff ⟨n + 1, hn⟩).mpr h0) ((isLast2_iff ⟨n + 1, hn⟩).mpr h9) (iblk2 V c 0 ⟨n + 1, hn⟩) (iblk2 V c 1 ⟨n + 1, hn⟩) (outsAt2 c n (Nat.lt_of_succ_lt hn)).2.2)
    else
      (rowsMid2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (notFirst2_of (t := ⟨n + 1, hn⟩) h0) ((isLater2_iff ⟨n + 1, hn⟩).mpr h0) (notLast2_of (t := ⟨n + 1, hn⟩) h9) (iblk2 V c 0 ⟨n + 1, hn⟩) (iblk2 V c 1 ⟨n + 1, hn⟩) (outsAt2 c n (Nat.lt_of_succ_lt hn)).2.2,
       VO2_3.read (Elt F) VO2_3.junk,
       accMid2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (notFirst2_of (t := ⟨n + 1, hn⟩) h0) ((isLater2_iff ⟨n + 1, hn⟩).mpr h0) (notLast2_of (t := ⟨n + 1, hn⟩) h9) (iblk2 V c 0 ⟨n + 1, hn⟩) (iblk2 V c 1 ⟨n + 1, hn⟩) (outsAt2 c n (Nat.lt_of_succ_lt hn)).2.2)

/-- At a first tile. -/
theorem outsAt2_first (c : Dev nD) (t : Fin cfg2.N) (h0 : t.val % 10 = 0) :
    outsAt2 V c t.val t.isLt =
      (rowsFirst2 c (grid2.coords t) (ms2_0 t) (hs2_0 t) (ms2_1 t) (hs2_1 t) (ms2_2 t) (hs2_2 t) (ms2_3 t) (hs2_3 t) scM2 (Memref.isWhole_whole _) ((isFirst2_iff t).mpr h0) (notLater2_of h0) (notLast2_of (ne9_of_zero2 h0)) (iblk2 V c 0 t) (iblk2 V c 1 t),
       VO2_3.read (Elt F) VO2_3.junk,
       accFirst2 c (grid2.coords t) (ms2_0 t) (hs2_0 t) (ms2_1 t) (hs2_1 t) (ms2_2 t) (hs2_2 t) (ms2_3 t) (hs2_3 t) scM2 (Memref.isWhole_whole _) ((isFirst2_iff t).mpr h0) (notLater2_of h0) (notLast2_of (ne9_of_zero2 h0)) (iblk2 V c 0 t) (iblk2 V c 1 t)) := by
  obtain ⟨n, hn⟩ := t
  cases n with
  | zero => exact rfl
  | succ n => exact (dif_pos h0).trans rfl

/-- At a middle tile, over what the point before left in the scratch. -/
theorem outsAt2_mid (c : Dev nD) (t : Fin cfg2.N) (h0 : ¬t.val % 10 = 0) (h9 : ¬t.val % 10 = 9) :
    outsAt2 V c t.val t.isLt =
      (rowsMid2 c (grid2.coords t) (ms2_0 t) (hs2_0 t) (ms2_1 t) (hs2_1 t) (ms2_2 t) (hs2_2 t) (ms2_3 t) (hs2_3 t) scM2 (Memref.isWhole_whole _) (notFirst2_of h0) ((isLater2_iff t).mpr h0) (notLast2_of h9) (iblk2 V c 0 t) (iblk2 V c 1 t) (outsAt2 V c (t.val - 1) (Nat.lt_of_le_of_lt (Nat.sub_le _ _) t.isLt)).2.2,
       VO2_3.read (Elt F) VO2_3.junk,
       accMid2 c (grid2.coords t) (ms2_0 t) (hs2_0 t) (ms2_1 t) (hs2_1 t) (ms2_2 t) (hs2_2 t) (ms2_3 t) (hs2_3 t) scM2 (Memref.isWhole_whole _) (notFirst2_of h0) ((isLater2_iff t).mpr h0) (notLast2_of h9) (iblk2 V c 0 t) (iblk2 V c 1 t) (outsAt2 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h9).trans rfl)

/-- At a last tile, over what the point before left in the scratch. -/
theorem outsAt2_last (c : Dev nD) (t : Fin cfg2.N) (h0 : ¬t.val % 10 = 0) (h9 : t.val % 10 = 9) :
    outsAt2 V c t.val t.isLt =
      (rowsLast2 c (grid2.coords t) (ms2_0 t) (hs2_0 t) (ms2_1 t) (hs2_1 t) (ms2_2 t) (hs2_2 t) (ms2_3 t) (hs2_3 t) scM2 (Memref.isWhole_whole _) (notFirst2_of h0) ((isLater2_iff t).mpr h0) ((isLast2_iff t).mpr h9) (iblk2 V c 0 t) (iblk2 V c 1 t) (outsAt2 V c (t.val - 1) (Nat.lt_of_le_of_lt (Nat.sub_le _ _) t.isLt)).2.2,
       colsLast2 c (grid2.coords t) (ms2_0 t) (hs2_0 t) (ms2_1 t) (hs2_1 t) (ms2_2 t) (hs2_2 t) (ms2_3 t) (hs2_3 t) scM2 (Memref.isWhole_whole _) (notFirst2_of h0) ((isLater2_iff t).mpr h0) ((isLast2_iff t).mpr h9) (iblk2 V c 0 t) (iblk2 V c 1 t) (outsAt2 V c (t.val - 1) (Nat.lt_of_le_of_lt (Nat.sub_le _ _) t.isLt)).2.2,
       accLast2 c (grid2.coords t) (ms2_0 t) (hs2_0 t) (ms2_1 t) (hs2_1 t) (ms2_2 t) (hs2_2 t) (ms2_3 t) (hs2_3 t) scM2 (Memref.isWhole_whole _) (notFirst2_of h0) ((isLater2_iff t).mpr h0) ((isLast2_iff t).mpr h9) (iblk2 V c 0 t) (iblk2 V c 1 t) (outsAt2 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h9).trans rfl)

/-! ## The region's invariant -/

/-- Before position `n`: at the very first point the class's invariant (the scratch at anything); afterwards the scratch
    at what the point before left in it, the other scoped buffers unopened, the generator register at some state. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2.2) ∗ others2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2.2) ∗ others2 c) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2.2) ∗ others2 c) ∗ (∃ r, prngReg c r)) := by
  cases n with
  | zero => exact absurd rfl hz
  | succ n => rfl

/-! ## The proof data -/

/-- The arrays as the region finds them; after the body at point `t` the inputs' buffers at their blocks, the outputs' at
    `outsAt2`'s components; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
    | ⟨3, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem after2_3 (c : Dev nD) (t : Fin cfg2.N) : (dat2 V c).after 3 t = (outsAt2 V c t.val t.isLt).2.1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

end Points

end Cert.Kernel.Chamfer

end
-- ==== Proof.KB.Chamfer2Body.lean ====
/-
  Region 2: the body takes the region's state from one grid point to the next. At every point the input windows'
  staging buffers hold their blocks; the tile number selects the case; the invariant hands the body the scratch at what
  the point before left (at anything at the very first point) and takes it back at this point's contents.
-/
import proofs.«112199_j59459527246412_1_alg».proof.Proof.KB.Chamfer2Points

set_option maxRecDepth 16384

noncomputable section

namespace Cert.Kernel.Chamfer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body
variable (V : (c : Dev nD) → (b : Ref sig .tc) → Buf (Elt F) ((c : Thread nD τ).loc b))

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 8000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  rw [show (dat2 V c).leavesExact 2 t = owns (c : Thread nD τ) (ms2_2 t) fullShare ((dat2 V c).after 2 t) from by
    unfold Dat.leavesExact; rw [live2_2 t], after2_2]
  have hN : t.val < 80 := lt_of_lt_of_eq t.isLt (show cfg2.N = 80 from N_2)
  by_cases h0 : t.val % 10 = 0
  · -- a first tile: the scratch is reset
    rw [Dat.leavesExact_idle (dat2 V c) 3 t (idle2_3 t (ne9_of_zero2 h0)) (noFlush2_3 t (ne9_of_zero2 h0))]
    rw [outsAt2_first V c t h0]
    unfold rowsFirst2 accFirst2; (try dsimp only)
    by_cases hz : t.val = 0
    · rw [PhiS2_castSucc V c t, PhiS2_zero V c _ _ hz, PhiA2_eq]
      iintro ⟨⟨⟨HS, Hoth⟩, Hg⟩, Ho, ⟨%d0, H0⟩, ⟨%d1, H1⟩, ⟨%d2, H2⟩, ⟨%d3, H3⟩⟩
      iapply ((runFirst2 c (grid2.coords t) _ _ _ _ _ _ _ _ _ _ ((isFirst2_iff t).mpr h0) (notLater2_of h0) (notLast2_of (ne9_of_zero2 h0)) (iblk2 V c 0 t) (iblk2 V c 1 t)).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, ⟨%es, HS⟩⟩
      isplitl [HS Hoth Hg]
      · isplitl [HS Hoth]
        · isplitl [HS]
          · unfold owns; iexists _; isplitr
            swap; · iexact HS
            ipureintro; exact View.read_writes_of_cover _ _ _ _ _ (accFirst2_cover c _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (rowsFirst2_cover c _ _ _ _ _ _ _ _ _ _ _ _ _ _ _ _)
      iexists _; iexact H3
    · rw [PhiS2_castSucc V c t, PhiS2_pos V c _ _ hz]
      iintro ⟨⟨⟨HS, Hoth⟩, Hg⟩, Ho, ⟨%d0, H0⟩, ⟨%d1, H1⟩, ⟨%d2, H2⟩, ⟨%d3, H3⟩⟩
      iapply ((runFirst2 c (grid2.coords t) _ _ _ _ _ _ _ _ _ _ ((isFirst2_iff t).mpr h0) (notLater2_of h0) (notLast2_of (ne9_of_zero2 h0)) (iblk2 V c 0 t) (iblk2 V c 1 t)).2.2 _ Set.univ _)
      isplitl [H0]; · iexact H0
      isplitl [H1]; · iexact H1
      isplitl [H2]; · iexists _; iexact H2
      isplitl [H3]; · iexact H3
      isplitl [HS]; · iexists _; iexact HS
      iintro ⟨H0, H1, ⟨%e2, H2⟩, H3, ⟨%es, HS⟩⟩
      isplitl [HS Hoth Hg]
      · isplitl [HS Hoth]
        · isplitl [HS]
          · unfold owns; iexists _; isplitr
            swap; · iexact HS
            ipureintro; exact View.read_writes_of_cover _ _ _ _ _ (accFirst2_cover c _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (rowsFirst2_cover c _ _ _ _ _ _ _ _ _ _ _ _ _ _ _ _)
      iexists _; iexact H3
  · have hz : t.val ≠ 0 := fun h => h0 (by rw [h])
    by_cases h9 : t.val % 10 = 9
    · -- a last tile: the scratch is lowered and copied out
      rw [show (dat2 V c).leavesExact 3 t = owns (c : Thread nD τ) (ms2_3 t) fullShare ((dat2 V c).after 3 t) from by
        unfold Dat.leavesExact; rw [live2_3 t h9], after2_3]
      rw [outsAt2_last V c t h0 h9]
      unfold rowsLast2 colsLast2 accLast2; (try dsimp only)
      rw [PhiS2_castSucc V c t, PhiS2_pos V c _ _ hz]
      iintro ⟨⟨⟨HS, Hoth⟩, Hg⟩, Ho, ⟨%d0, H0⟩, ⟨%d1, H1⟩, ⟨%d2, H2⟩, ⟨%d3, H3⟩⟩
      iapply ((runLast2 c (grid2.coords t) _ _ _ _ _ _ _ _ _ _ (notFirst2_of h0) ((isLater2_iff t).mpr h0) ((isLast2_iff t).mpr h9) (iblk2 V c 0 t) (iblk2 V c 1 t) _).2.2.2 Set.univ _)
      isplitl [H0]; · iexact H0
      isplitl [H1]; · iexact H1
      isplitl [H2]; · iexists _; iexact H2
      isplitl [H3]; · iexists _; iexact H3
      isplitl [HS]; · iexact HS
      iintro ⟨H0, H1, ⟨%e2, H2⟩, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (accLast2_cover c _ _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (rowsLast2_cover c _ _ _ _ _ _ _ _ _ _ _ _ _ _ _ _ _)
      unfold owns; iexists _; isplitr
      swap; · iexact H3
      ipureintro; exact View.read_writes_of_cover _ _ _ _ _ (colsLast2_cover c _ _ _ _ _ _ _ _ _ _ _ _ _ _ _ _ _)
    · -- a middle tile: the scratch is lowered
      rw [Dat.leavesExact_idle (dat2 V c) 3 t (idle2_3 t h9) (noFlush2_3 t h9)]
      rw [outsAt2_mid V c t h0 h9]
      unfold rowsMid2 accMid2; (try dsimp only)
      rw [PhiS2_castSucc V c t, PhiS2_pos V c _ _ hz]
      iintro ⟨⟨⟨HS, Hoth⟩, Hg⟩, Ho, ⟨%d0, H0⟩, ⟨%d1, H1⟩, ⟨%d2, H2⟩, ⟨%d3, H3⟩⟩
      iapply ((runMid2 c (grid2.coords t) _ _ _ _ _ _ _ _ _ _ (notFirst2_of h0) ((isLater2_iff t).mpr h0) (notLast2_of h9) (iblk2 V c 0 t) (iblk2 V c 1 t) _).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, ⟨%es, HS⟩⟩
      isplitl [HS Hoth Hg]
      · isplitl [HS Hoth]
        · isplitl [HS]
          · unfold owns; iexists _; isplitr
            swap; · iexact HS
            ipureintro; exact View.read_writes_of_cover _ _ _ _ _ (accMid2_cover c _ _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (rowsMid2_cover c _ _ _ _ _ _ _ _ _ _ _ _ _ _ _ _ _)
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the scratch's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 80 := N_2; omega), PhiA2_eq]
  iintro ⟨⟨HS, Hoth⟩, Hg⟩
  isplitl [HS Hoth]
  · isplitl [HS]
    · iexists _; iexact HS
    iexact Hoth
  iexact Hg

end Body

end Cert.Kernel.Chamfer

end
-- ==== Proof.KB.Program.lean ====
/-
  The whole program: its three distance regions as segments between the host stretches, and its run. The contents
  the regions leave in their output arrays are named first (each region's folded write-backs, at the valuation the
  region is entered from), then each region's record is assembled from its body obligation and invariant, and the
  program's run follows from the conditional run over the three records: every weakly fair execution terminates, the
  four results hold what the last valuation says, and every argument array ends as launched.
-/
import proofs.«112199_j59459527246412_1_alg».proof.Proof.KB.Chamfer0Body
import proofs.«112199_j59459527246412_1_alg».proof.Proof.KB.Chamfer1Body
import proofs.«112199_j59459527246412_1_alg».proof.Proof.KB.Chamfer2Body
import proofs.«112199_j59459527246412_1_alg».proof.Proof.Gen.Kernel.Regions

set_option maxRecDepth 16384

noncomputable section

namespace Cert.Kernel.Chamfer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents the regions leave -/

/-- A valuation read at the TensorCore's references. -/
abbrev asV (W : Dev nD → Valuation τ sig (Elt F)) : (c : Dev nD) → (b : Ref sig .tc) → Buf (Elt F) ((c : Thread nD τ).loc b) :=
  fun c b => W c b

/-- After region 0: its arrays at what the pipeline leaves, every other buffer as launched. -/
def W1 (c : Dev nD) : Valuation τ sig (Elt F) :=
  Pipeline.withArrays spec0 c (V0 m c) fun w => (dat0 (asV (V0 m)) c).arrAt w cfg0.N
/-- The regions' outputs as far as region 0 decides them. -/
def outsA : Outs (F := F) := fun _ r c => W1 m c r
/-- After region 1, entered from the valuation after the first nine host stretches. -/
def W11 (c : Dev nD) : Valuation τ sig (Elt F) :=
  Pipeline.withArrays spec1 c (V10 m (outsA m) c) fun w => (dat1 (asV (V10 m (outsA m))) c).arrAt w cfg1.N
def outsB : Outs (F := F) := fun j r c => match j with
  | 1 => W1 m c r
  | _ => W11 m c r
/-- After region 2. -/
def W21 (c : Dev nD) : Valuation τ sig (Elt F) :=
  Pipeline.withArrays spec2 c (V20 m (outsB m) c) fun w => (dat2 (asV (V20 m (outsB m))) c).arrAt w cfg2.N
/-- What the three regions leave in their output arrays. -/
def outs : Outs (F := F) := fun j r c => match j with
  | 1 => W1 m c r
  | 11 => W11 m c r
  | _ => W21 m c r

/-- A later region's outputs do not enter an earlier valuation. -/
theorem V10_outs (c : Dev nD) : V10 m (outs m) c = V10 m (outsA m) c := rfl
theorem V20_outs (c : Dev nD) : V20 m (outs m) c = V20 m (outsB m) c := rfl

/-! ## The proof data family and what rides beside the buffers -/

def pdats : (p : Fin 3) → (c : Dev nD) → Dat τ (Elt F) Unit ℕ (UR sig nD τ) ℕ (cfgs p) c
  | ⟨0, _⟩ => fun c => dat0 (asV (V0 m)) c
  | ⟨1, _⟩ => fun c => dat1 (asV (V10 m (outsA m))) c
  | ⟨2, _⟩ => fun c => dat2 (asV (V20 m (outsB m))) c

abbrev 𝒱₀ : Variants := Variants.none
abbrev L : GSem nD τ sig → Finset Unit := fun _ => ∅
abbrev lv : GSem nD τ sig → Unit → ℕ := fun _ _ => 0
/-- The core's generator register at some state and its dues, at nothing. -/
abbrev R (c : Dev nD) : sProp 𝕄 := iprop((∃ r, prngReg c r) ∗ ∃ W, owes (c : Thread nD τ) (0 : CellTallies nD τ sig Unit) W)

/-! ## Region 0 -/

/-- The region's four arrays at its exit are what the exit valuation holds: the inputs as entered, the outputs at the
    folded write-backs. -/
theorem hF0 (c : Dev nD) (w : Fin cfg0.W) : (pdats m 0 c).arrAt w cfg0.N = asV (V1 m (outs m)) c (Pipeline.arrRef spec0 w) := by
  have hin : ∀ w' : Fin cfg0.W, (cfg0.win w').isOut = false → (pdats m 0 c).arrAt w' cfg0.N = asV (V0 m) c (Pipeline.arrRef spec0 w') :=
    fun w' hw' => ((pdats m 0 c).arrAt_in w' hw' _).trans (A_eq0 _ c w')
  have hkeep : ∀ r : Ref sig .tc, r ∉ ([Pipeline.arrRef spec0 2, Pipeline.arrRef spec0 3] : List (Ref sig .tc)) → asV (V1 m (outs m)) c r = asV (V0 m) c r :=
    fun r hr => V1_of m (outs m) c r hr
  have h2 : (pdats m 0 c).arrAt 2 cfg0.N = V1 m (outs m) c main_v0_0 := by
    refine (Pipeline.withArrays_arr spec0 launch0.win.arr_inj c (V0 m c) (fun w => (pdats m 0 c).arrAt w cfg0.N) 2).symm.trans ?_
    show W1 m c (Proc.devRef .tc main_v0_0) = V1 m (outs m) c main_v0_0
    simp only [V1, Function.update_of_ne (StableHlo.devRef_ne_of_ne (by decide : main_v0_0 ≠ main_v0_1) : (Proc.devRef .tc main_v0_0 : DevRef τ sig) ≠ Proc.devRef .tc main_v0_1), Function.update_self]
    try rfl
  have h3 : (pdats m 0 c).arrAt 3 cfg0.N = V1 m (outs m) c main_v0_1 := by
    refine (Pipeline.withArrays_arr spec0 launch0.win.arr_inj c (V0 m c) (fun w => (pdats m 0 c).arrAt w cfg0.N) 3).symm.trans ?_
    show W1 m c (Proc.devRef .tc main_v0_1) = V1 m (outs m) c main_v0_1
    simp only [V1, Function.update_self]
    try rfl
  match w with
  | ⟨0, _⟩ => exact (hin 0 rfl).trans (hkeep _ (by decide)).symm
  | ⟨1, _⟩ => exact (hin 1 rfl).trans (hkeep _ (by decide)).symm
  | ⟨2, _⟩ => exact h2
  | ⟨3, _⟩ => exact h3

/-- Every other unscoped buffer is as the region found it. -/
theorem hrest0 (c : Dev nD) : ∀ b, b ∉ Finset.univ.image (Pipeline.arrRef spec0) → asV (V1 m (outs m)) c b = asV (V0 m) c b :=
  fun b hb => (V1_of m (outs m) c b (by
    intro hmem
    simp only [List.mem_cons, List.mem_nil_iff, or_false] at hmem
    rcases hmem with rfl | rfl
    · exact hb (Finset.mem_image.mpr ⟨2, Finset.mem_univ _, rfl⟩)
    · exact hb (Finset.mem_image.mpr ⟨3, Finset.mem_univ _, rfl⟩)))

set_option backward.isDefEq.respectTransparency.types false in
/-- REGION 0 as a segment of the program: entered from every unscoped buffer at the valuation before it, left at the one
    after it. Its arrays are split out of the unscoped buffers and put back at the exit contents; the generator register
    goes into the region's invariant and comes back; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 _ c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (asV (V0 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (asV (V0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 0).pre c (fun _ => fullShare) (adm 0).1 ∗ Pipeline.scopedRest spec0 c)
        ⊢ (Pipeline.ΦA spec0 c : sProp 𝕄) := by
      unfold Pipeline.ΦA
      iintro ⟨Hp, -, Hr⟩
      isplitl [Hr]; · iexact Hr
      iexact Hp
    exact h.trans (hin0 _ c)
  hout c := by
    rw [Pipeline.ownSems0_none]
    have h : (Pipeline.ΦA spec0 c : sProp 𝕄) ⊢ iprop(iprop(∃ r, prngReg c r) ∗ iprop(emp) ∗ Pipeline.scopedRest spec0 c) := by
      unfold Pipeline.ΦA
      iintro ⟨Hr, Hp⟩
      isplitl [Hp]; · iexact Hp
      isplitr; · iempintro
      iexact Hr
    exact (hout0 _ c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (asV (V0 m) c) (asV (V1 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- The region's four arrays at its exit are what the exit valuation holds: the inputs as entered, the outputs at the
    folded write-backs. -/
theorem hF1 (c : Dev nD) (w : Fin cfg1.W) : (pdats m 1 c).arrAt w cfg1.N = asV (V11 m (outs m)) c (Pipeline.arrRef spec1 w) := by
  have hin : ∀ w' : Fin cfg1.W, (cfg1.win w').isOut = false → (pdats m 1 c).arrAt w' cfg1.N = asV (V10 m (outsA m)) c (Pipeline.arrRef spec1 w') :=
    fun w' hw' => ((pdats m 1 c).arrAt_in w' hw' _).trans (A_eq1 _ c w')
  have hkeep : ∀ r : Ref sig .tc, r ∉ ([Pipeline.arrRef spec1 2, Pipeline.arrRef spec1 3] : List (Ref sig .tc)) → asV (V11 m (outs m)) c r = asV (V10 m (outsA m)) c r :=
    fun r hr => (V11_of m (outs m) c r hr).trans (congrFun (V10_outs m c) _)
  have h2 : (pdats m 1 c).arrAt 2 cfg1.N = V11 m (outs m) c main_v83_0 := by
    refine (Pipeline.withArrays_arr spec1 launch1.win.arr_inj c (V10 m (outsA m) c) (fun w => (pdats m 1 c).arrAt w cfg1.N) 2).symm.trans ?_
    show W11 m c (Proc.devRef .tc main_v83_0) = V11 m (outs m) c main_v83_0
    simp only [V11, Function.update_of_ne (StableHlo.devRef_ne_of_ne (by decide : main_v83_0 ≠ main_v83_1) : (Proc.devRef .tc main_v83_0 : DevRef τ sig) ≠ Proc.devRef .tc main_v83_1), Function.update_self]
    try rfl
  have h3 : (pdats m 1 c).arrAt 3 cfg1.N = V11 m (outs m) c main_v83_1 := by
    refine (Pipeline.withArrays_arr spec1 launch1.win.arr_inj c (V10 m (outsA m) c) (fun w => (pdats m 1 c).arrAt w cfg1.N) 3).symm.trans ?_
    show W11 m c (Proc.devRef .tc main_v83_1) = V11 m (outs m) c main_v83_1
    simp only [V11, Function.update_self]
    try rfl
  match w with
  | ⟨0, _⟩ => exact (hin 0 rfl).trans (hkeep _ (by decide)).symm
  | ⟨1, _⟩ => exact (hin 1 rfl).trans (hkeep _ (by decide)).symm
  | ⟨2, _⟩ => exact h2
  | ⟨3, _⟩ => exact h3

/-- Every other unscoped buffer is as the region found it. -/
theorem hrest1 (c : Dev nD) : ∀ b, b ∉ Finset.univ.image (Pipeline.arrRef spec1) → asV (V11 m (outs m)) c b = asV (V10 m (outsA m)) c b :=
  fun b hb => (V11_of m (outs m) c b (by
    intro hmem
    simp only [List.mem_cons, List.mem_nil_iff, or_false] at hmem
    rcases hmem with rfl | rfl
    · exact hb (Finset.mem_image.mpr ⟨2, Finset.mem_univ _, rfl⟩)
    · exact hb (Finset.mem_image.mpr ⟨3, Finset.mem_univ _, rfl⟩))).trans (congrFun (V10_outs m c) _)

set_option backward.isDefEq.respectTransparency.types false in
/-- REGION 1 as a segment of the program: entered from every unscoped buffer at the valuation before it, left at the one
    after it. Its arrays are split out of the unscoped buffers and put back at the exit contents; the generator register
    goes into the region's invariant and comes back; nothing is owed; the kernel has no semaphore of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 _ c).loose
  hwaits := Pipeline.hwaits_of_owed_zero _ _ _ _ L lv 1 fun _ _ => rfl
  pre c := iprop(StableHlo.held (c : Thread nD τ) (Pipeline.ucRefs τ sig) (V10 m (outs m) c) ∗ R c)
  post c := iprop(StableHlo.held (c : Thread nD τ) (Pipeline.ucRefs τ sig) (V11 m (outs m) c) ∗ R c)
  X c := iprop(∃ r, prngReg c r)
  Y c := iprop(∃ r, prngReg c r)
  Z c := Pipeline.unscopedRest (Ix := Unit) (Name := ℕ) (U := UR sig nD τ) (Lvl := ℕ) spec1 c (asV (V10 m (outsA m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (asV (V10 m (outsA m)) c) fun _ => rfl
    rw [Pipeline.unscopedBufs_held] at hsplit
    have hE : V10 m (outs m) c = V10 m (outsA m) c := V10_outs m c
    rw [hE]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 1).pre c (fun _ => fullShare) (adm 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h.trans (hin1 _ c)
  hout c := by
    rw [Pipeline.ownSems0_none]
    have h : (Pipeline.ΦA spec1 c : sProp 𝕄) ⊢ iprop(iprop(∃ r, prngReg c r) ∗ iprop(emp) ∗ Pipeline.scopedRest spec1 c) := by
      unfold Pipeline.ΦA
      iintro ⟨Hr, Hp⟩
      isplitl [Hp]; · iexact Hp
      isplitr; · iempintro
      iexact Hr
    exact (hout1 _ c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (asV (V10 m (outsA m)) c) (asV (V11 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- The region's four arrays at its exit are what the exit valuation holds: the inputs as entered, the outputs at the
    folded write-backs. -/
theorem hF2 (c : Dev nD) (w : Fin cfg2.W) : (pdats m 2 c).arrAt w cfg2.N = asV (V21 m (outs m)) c (Pipeline.arrRef spec2 w) := by
  have hin : ∀ w' : Fin cfg2.W, (cfg2.win w').isOut = false → (pdats m 2 c).arrAt w' cfg2.N = asV (V20 m (outsB m)) c (Pipeline.arrRef spec2 w') :=
    fun w' hw' => ((pdats m 2 c).arrAt_in w' hw' _).trans (A_eq2 _ c w')
  have hkeep : ∀ r : Ref sig .tc, r ∉ ([Pipeline.arrRef spec2 2, Pipeline.arrRef spec2 3] : List (Ref sig .tc)) → asV (V21 m (outs m)) c r = asV (V20 m (outsB m)) c r :=
    fun r hr => (V21_of m (outs m) c r hr).trans (congrFun (V20_outs m c) _)
  have h2 : (pdats m 2 c).arrAt 2 cfg2.N = V21 m (outs m) c main_v173_0 := by
    refine (Pipeline.withArrays_arr spec2 launch2.win.arr_inj c (V20 m (outsB m) c) (fun w => (pdats m 2 c).arrAt w cfg2.N) 2).symm.trans ?_
    show W21 m c (Proc.devRef .tc main_v173_0) = V21 m (outs m) c main_v173_0
    simp only [V21, Function.update_of_ne (StableHlo.devRef_ne_of_ne (by decide : main_v173_0 ≠ main_v173_1) : (Proc.devRef .tc main_v173_0 : DevRef τ sig) ≠ Proc.devRef .tc main_v173_1), Function.update_self]
    try rfl
  have h3 : (pdats m 2 c).arrAt 3 cfg2.N = V21 m (outs m) c main_v173_1 := by
    refine (Pipeline.withArrays_arr spec2 launch2.win.arr_inj c (V20 m (outsB m) c) (fun w => (pdats m 2 c).arrAt w cfg2.N) 3).symm.trans ?_
    show W21 m c (Proc.devRef .tc main_v173_1) = V21 m (outs m) c main_v173_1
    simp only [V21, Function.update_self]
    try rfl
  match w with
  | ⟨0, _⟩ => exact (hin 0 rfl).trans (hkeep _ (by decide)).symm
  | ⟨1, _⟩ => exact (hin 1 rfl).trans (hkeep _ (by decide)).symm
  | ⟨2, _⟩ => exact h2
  | ⟨3, _⟩ => exact h3

/-- Every other unscoped buffer is as the region found it. -/
theorem hrest2 (c : Dev nD) : ∀ b, b ∉ Finset.univ.image (Pipeline.arrRef spec2) → asV (V21 m (outs m)) c b = asV (V20 m (outsB m)) c b :=
  fun b hb => (V21_of m (outs m) c b (by
    intro hmem
    simp only [List.mem_cons, List.mem_nil_iff, or_false] at hmem
    rcases hmem with rfl | rfl
    · exact hb (Finset.mem_image.mpr ⟨2, Finset.mem_univ _, rfl⟩)
    · exact hb (Finset.mem_image.mpr ⟨3, Finset.mem_univ _, rfl⟩))).trans (congrFun (V20_outs m c) _)

set_option backward.isDefEq.respectTransparency.types false in
/-- REGION 2 as a segment of the program: entered from every unscoped buffer at the valuation before it, left at the one
    after it. Its arrays are split out of the unscoped buffers and put back at the exit contents; the generator register
    goes into the region's invariant and comes back; nothing is owed; the kernel has no semaphore of its own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 _ c).loose
  hwaits := Pipeline.hwaits_of_owed_zero _ _ _ _ L lv 2 fun _ _ => rfl
  pre c := iprop(StableHlo.held (c : Thread nD τ) (Pipeline.ucRefs τ sig) (V20 m (outs m) c) ∗ R c)
  post c := iprop(StableHlo.held (c : Thread nD τ) (Pipeline.ucRefs τ sig) (V21 m (outs m) c) ∗ R c)
  X c := iprop(∃ r, prngReg c r)
  Y c := iprop(∃ r, prngReg c r)
  Z c := Pipeline.unscopedRest (Ix := Unit) (Name := ℕ) (U := UR sig nD τ) (Lvl := ℕ) spec2 c (asV (V20 m (outsB m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (asV (V20 m (outsB m)) c) fun _ => rfl
    rw [Pipeline.unscopedBufs_held] at hsplit
    have hE : V20 m (outs m) c = V20 m (outsB m) c := V20_outs m c
    rw [hE]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 2).pre c (fun _ => fullShare) (adm 2).1 ∗ Pipeline.scopedRest spec2 c)
        ⊢ (Pipeline.ΦA spec2 c : sProp 𝕄) := by
      unfold Pipeline.ΦA
      iintro ⟨Hp, -, Hr⟩
      isplitl [Hr]; · iexact Hr
      iexact Hp
    exact h.trans (hin2 _ c)
  hout c := by
    rw [Pipeline.ownSems0_none]
    have h : (Pipeline.ΦA spec2 c : sProp 𝕄) ⊢ iprop(iprop(∃ r, prngReg c r) ∗ iprop(emp) ∗ Pipeline.scopedRest spec2 c) := by
      unfold Pipeline.ΦA
      iintro ⟨Hr, Hp⟩
      isplitl [Hp]; · iexact Hp
      isplitr; · iempintro
      iexact Hr
    exact (hout2 _ c).trans h
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (asV (V20 m (outsB m)) c) (asV (V21 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Chamfer

end
-- ==== Proof.KB.Frame.lean ====
/-
  The frame of the word-level program: the conditional frame over the three regions' records, at the launch's
  resources. Every weakly fair execution terminates, nothing faulting, and every argument array ends as launched.
-/
import proofs.«112199_j59459527246412_1_alg».proof.Proof.KB.Program

set_option maxRecDepth 16384

noncomputable section

namespace Cert.Kernel.Chamfer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The run -/

variable (ρ : Dev nD → PrngReg)

/-- What the launch deals a core beside its buffers is the register at some state and dues at nothing. -/
theorem launchRest (c : Dev nD) :
    iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp))
      ⊢ (R c : sProp 𝕄) := by
  iintro ⟨-, HO, -, Hp, -⟩
  isplitl [Hp]; · iexists _; iexact Hp
  iexists ∅; iexact HO

set_option backward.isDefEq.respectTransparency.types false in
/-- From any memory with zero counters every weakly fair execution of the word-level program terminates, nothing
    faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
          ⊢ (bigSep Finset.univ (fun c : Dev nD => R c) : sProp 𝕄) :=
        bigSep_mono fun c _ => launchRest (F := F) ρ c
      iintro ⟨H, -⟩
      imodintro
      iapply hmono; iexact H)
    (fun c => by
      iintro ⟨-, HO⟩
      iexact HO)
    (reg0 m) (fun c => .rfl) (fun c => .rfl) (reg1 m) (fun c => .rfl) (fun c => .rfl) (reg2 m) (fun c => .rfl) (fun c => .rfl)

end Cert.Kernel.Chamfer

end
-- ==== Proof.Ref.Chamfer0.lean ====
/-
  The reference's squared-distance array for the 156 rest points, and its two minimum reductions.

  At an index (i, n, m) the reference's array holds |x(i,n)|² + |y(i,m)|² − two · (x(i,n) · y(i,m)): the two
  squared norms are sums over the three coordinates, carried to the index by two broadcasts each; the inner
  product is the contraction over the last axis; the factor is a rank-0 word broadcast everywhere. This is the
  specification's "dist" for batch i. A minimum reduction over one axis, from the starting word, is the fold of
  "min" over that axis's coordinates: over the rest points it is the row minimum D1, over the ground-truth points
  the column minimum D2.
-/
import proofs.«112199_j59459527246412_1_alg».proof.ReferenceIdeal
import proofs.«112199_j59459527246412_1_alg».proof.Proof.ChamferSpec
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.Chamfer

open Cert.ReferenceIdeal Idealize.ShloMosaic Idealize.ShloMosaic.ValueIdx Cert.ChamferSpec

variable [Facts]
open Facts₀ Facts

/-- The reference's array of expanded squared distances, shape [8, 10000, 156]. -/
def refDist0 (x : FVec Ideal S8x10000x3 .f32) (y : FVec Ideal S8x156x3 .f32) : FVec Ideal S8x10000x156 .f32 :=
  subf (addf (broadcastInDim S8x10000x156 ![0, 1, 2] bcast_S8x10000x1_S8x10000x156_0_1_2 (broadcastInDim S8x10000x1 ![0, 1] bcast_S8x10000_S8x10000x1_0_1 (Host.reduceAdd (mulf x x) (constant S_ .f32 0x00000000#32) reducesTo_S8x10000x3_S8x10000_d2 h_S_))) (broadcastInDim S8x10000x156 ![0, 1, 2] bcast_S8x1x156_S8x10000x156_0_1_2 (broadcastInDim S8x1x156 ![0, 2] bcast_S8x156_S8x1x156_0_2 (Host.reduceAdd (mulf y y) (constant S_ .f32 0x00000000#32) reducesTo_S8x156x3_S8x156_d2 h_S_)))) (mulf (broadcastInDim S8x10000x156 ![] bcast_S_S8x10000x156 (constant S_ .f32 0x40000000#32)) (Host.dotGeneral dot_S8x10000x3_S8x156x3_S8x10000x156_2_2_1_1_0_0 none x y))

/-- The starting word of the minima and the factor word, never evaluated. -/
local notation "I" => (Ideal.ofBits FTy.f32 0x7F800000#32 : EReal)
local notation "two" => (Ideal.ofBits FTy.f32 0x40000000#32 : EReal)

/-- The squared norm of ground-truth point (i, n): the sum over the three coordinates, from the zero word. -/
private theorem sqx_apply (x : FVec Ideal S8x10000x3 .f32) (i : Fin 8) (n : Fin 10000) :
    Host.reduceAdd (mulf x x) (constant (F := Ideal) S_ .f32 0x00000000#32) reducesTo_S8x10000x3_S8x10000_d2 h_S_ (ix2 i n)
      = ∑ k : Fin 3, x (ix3 i n k) * x (ix3 i n k) := by
  simp only [Host.reduceAdd, Ideal.hostReduceAdd_def]
  rw [Ideal.hostReduceAdd_single reducesTo_S8x10000x3_S8x10000_d2 (by decide)]
  refine (congrArg (· + _) (show constant (F := Ideal) S_ .f32 0x00000000#32 (Shape.Idx.first h_S_) = 0 from Ideal.ofBits_zero_f32)).trans ?_
  rw [zero_add]
  refine Finset.sum_congr rfl fun k _ => ?_
  have e : Shape.Reduces.lift (s := S8x10000x3) (t := S8x10000) (a := 2) (by decide) (ix2 i n) k = ix3 i n ⟨k.val, k.isLt⟩ :=
    funext fun c => Fin.ext (by match c with | ⟨0, _⟩ => rfl | ⟨1, _⟩ => rfl | ⟨2, _⟩ => rfl)
  rw [e]
  rfl

/-- The squared norm of rest point (i, m). -/
private theorem sqy_apply (y : FVec Ideal S8x156x3 .f32) (i : Fin 8) (m : Fin 156) :
    Host.reduceAdd (mulf y y) (constant (F := Ideal) S_ .f32 0x00000000#32) reducesTo_S8x156x3_S8x156_d2 h_S_ (ix2 i m)
      = ∑ k : Fin 3, y (ix3 i m k) * y (ix3 i m k) := by
  simp only [Host.reduceAdd, Ideal.hostReduceAdd_def]
  rw [Ideal.hostReduceAdd_single reducesTo_S8x156x3_S8x156_d2 (by decide)]
  refine (congrArg (· + _) (show constant (F := Ideal) S_ .f32 0x00000000#32 (Shape.Idx.first h_S_) = 0 from Ideal.ofBits_zero_f32)).trans ?_
  rw [zero_add]
  refine Finset.sum_congr rfl fun k _ => ?_
  have e : Shape.Reduces.lift (s := S8x156x3) (t := S8x156) (a := 2) (by decide) (ix2 i m) k = ix3 i m ⟨k.val, k.isLt⟩ :=
    funext fun c => Fin.ext (by match c with | ⟨0, _⟩ => rfl | ⟨1, _⟩ => rfl | ⟨2, _⟩ => rfl)
  rw [e]
  rfl

/-- A value on [8, 10000], carried to [8, 10000, 1] and then along the rest points, read at (i, n, m), is the value at (i, n). -/
private theorem bx_apply (X : FVec Ideal S8x10000 .f32) (i : Fin 8) (n : Fin 10000) (m : Fin 156) :
    broadcastInDim S8x10000x156 ![0, 1, 2] bcast_S8x10000x1_S8x10000x156_0_1_2 (broadcastInDim S8x10000x1 ![0, 1] bcast_S8x10000_S8x10000x1_0_1 X) (ix3 i n m)
      = X (ix2 i n) := by
  refine (broadcastInDim_apply _ bcast_S8x10000x1_S8x10000x156_0_1_2 _ (ix3 i n m) (ix3 i n (0 : Fin 1)) (fun a => match a with
    | ⟨0, _⟩ => by show i.val = if (8 : Nat) = 1 then 0 else i.val; rw [if_neg (by decide)]
    | ⟨1, _⟩ => by show n.val = if (10000 : Nat) = 1 then 0 else n.val; rw [if_neg (by decide)]
    | ⟨2, _⟩ => by show 0 = if (1 : Nat) = 1 then 0 else m.val; rw [if_pos rfl])).trans ?_
  exact broadcastInDim_apply _ bcast_S8x10000_S8x10000x1_0_1 X (ix3 i n (0 : Fin 1)) (ix2 i n) (fun a => match a with
    | ⟨0, _⟩ => by show i.val = if (8 : Nat) = 1 then 0 else i.val; rw [if_neg (by decide)]
    | ⟨1, _⟩ => by show n.val = if (10000 : Nat) = 1 then 0 else n.val; rw [if_neg (by decide)])

/-- A value on [8, 156], carried to [8, 1, 156] and then along the ground-truth points, read at (i, n, m), is the value at (i, m). -/
private theorem by_apply (Y : FVec Ideal S8x156 .f32) (i : Fin 8) (n : Fin 10000) (m : Fin 156) :
    broadcastInDim S8x10000x156 ![0, 1, 2] bcast_S8x1x156_S8x10000x156_0_1_2 (broadcastInDim S8x1x156 ![0, 2] bcast_S8x156_S8x1x156_0_2 Y) (ix3 i n m)
      = Y (ix2 i m) := by
  refine (broadcastInDim_apply _ bcast_S8x1x156_S8x10000x156_0_1_2 _ (ix3 i n m) (ix3 i (0 : Fin 1) m) (fun a => match a with
    | ⟨0, _⟩ => by show i.val = if (8 : Nat) = 1 then 0 else i.val; rw [if_neg (by decide)]
    | ⟨1, _⟩ => by show 0 = if (1 : Nat) = 1 then 0 else n.val; rw [if_pos rfl]
    | ⟨2, _⟩ => by show m.val = if (156 : Nat) = 1 then 0 else m.val; rw [if_neg (by decide)])).trans ?_
  exact broadcastInDim_apply _ bcast_S8x156_S8x1x156_0_2 Y (ix3 i (0 : Fin 1) m) (ix2 i m) (fun a => match a with
    | ⟨0, _⟩ => by show i.val = if (8 : Nat) = 1 then 0 else i.val; rw [if_neg (by decide)]
    | ⟨1, _⟩ => by show m.val = if (156 : Nat) = 1 then 0 else m.val; rw [if_neg (by decide)])

/-- The factor word, broadcast from rank 0, is the same word at every index. -/
private theorem two_apply (j : S8x10000x156.Idx) :
    broadcastInDim S8x10000x156 ![] bcast_S_S8x10000x156 (constant (F := Ideal) S_ .f32 0x40000000#32) j = two :=
  broadcastInDim_apply _ bcast_S_S8x10000x156 _ j (fun a => a.elim0) (fun a => a.elim0)

local notation "D₀" => dot_S8x10000x3_S8x156x3_S8x10000x156_2_2_1_1_0_0

/-- The contraction at (i, n, m): the inner product of ground-truth point (i, n) and rest point (i, m). -/
private theorem dot_apply (x : FVec Ideal S8x10000x3 .f32) (y : FVec Ideal S8x156x3 .f32) (i : Fin 8) (n : Fin 10000) (m : Fin 156) :
    Host.dotGeneral D₀ none x y (ix3 i n m) = ∑ k : Fin 3, x (ix3 i n k) * y (ix3 i m k) := by
  simp only [Host.dotGeneral]
  rw [Ideal.dotGeneral_apply, ← Equiv.sum_comp (contrEquiv1 D₀ 3 rfl rfl).symm]
  refine Finset.sum_congr rfl fun k _ => ?_
  have hk := contrEquiv1_symm_val D₀ 3 rfl rfl k
  generalize (contrEquiv1 D₀ 3 rfl rfl).symm k = q at hk ⊢
  have l0 : ((D₀).lhsIdx (ix3 i n m) q 0).val = i.val := by
    unfold DotDims.lhsIdx
    rw [dif_pos (show (0 : Fin S8x10000x3.rank) ∈ (D₀).lhsBatch from List.mem_singleton.2 rfl)]; rfl
  have l1 : ((D₀).lhsIdx (ix3 i n m) q 1).val = n.val := by
    unfold DotDims.lhsIdx
    rw [dif_neg (show ¬(1 : Fin S8x10000x3.rank) ∈ (D₀).lhsBatch from (by decide : ¬(1 : Fin 3) ∈ ([0] : List (Fin 3)))),
      dif_pos (show (1 : Fin S8x10000x3.rank) ∈ (D₀).lhsNonContracting from List.mem_singleton.2 rfl)]; rfl
  have l2 : ((D₀).lhsIdx (ix3 i n m) q 2).val = k.val := ((D₀).lhsIdx_val_of_single rfl (ix3 i n m) q).trans hk
  have r0 : ((D₀).rhsIdx (ix3 i n m) q 0).val = i.val := by
    unfold DotDims.rhsIdx
    rw [dif_pos (show (0 : Fin S8x156x3.rank) ∈ (D₀).rhsBatch from List.mem_singleton.2 rfl)]; rfl
  have r1 : ((D₀).rhsIdx (ix3 i n m) q 1).val = m.val := by
    unfold DotDims.rhsIdx
    rw [dif_neg (show ¬(1 : Fin S8x156x3.rank) ∈ (D₀).rhsBatch from (by decide : ¬(1 : Fin 3) ∈ ([0] : List (Fin 3)))),
      dif_pos (show (1 : Fin S8x156x3.rank) ∈ (D₀).rhsNonContracting from List.mem_singleton.2 rfl)]; rfl
  have r2 : ((D₀).rhsIdx (ix3 i n m) q 2).val = k.val := ((D₀).rhsIdx_val_of_single rfl (ix3 i n m) q).trans hk
  have el : (D₀).lhsIdx (ix3 i n m) q = ix3 i n k := funext fun a => Fin.ext (by
    match a with
    | ⟨0, _⟩ => exact l0
    | ⟨1, _⟩ => exact l1
    | ⟨2, _⟩ => exact l2)
  have er : (D₀).rhsIdx (ix3 i n m) q = ix3 i m k := funext fun a => Fin.ext (by
    match a with
    | ⟨0, _⟩ => exact r0
    | ⟨1, _⟩ => exact r1
    | ⟨2, _⟩ => exact r2)
  rw [el, er]

/-- At (i, n, m) the reference's array is the specification's expanded squared distance of batch i. -/
theorem refDist0_apply (x : FVec Ideal S8x10000x3 .f32) (y : FVec Ideal S8x156x3 .f32) (i : Fin 8) (n : Fin 10000) (m : Fin 156) :
    refDist0 x y (ix3 i n m) = Cert.ChamferSpec.dist two (cur3 x i) (cur3 y i) n m := by
  unfold refDist0 Cert.ChamferSpec.dist
  rw [subf_apply, addf_apply, mulf_apply, bx_apply, by_apply, sqx_apply, sqy_apply, dot_apply, two_apply]

/-- The first result: the minimum over the rest points is the row minimum of each batch. -/
theorem ref_d1_0 (x : FVec Ideal S8x10000x3 .f32) (y : FVec Ideal S8x156x3 .f32) :
    Host.reduce FloatOps.minimumf (refDist0 x y) (constant (F := Ideal) S_ .f32 0x7F800000#32) reducesTo_S8x10000x156_S8x10000_d2 h_S_
      = fun j => D1 I two x y (j 0) (j 1) := by
  funext j
  rw [Host.reduce_eq_fold_single FloatOps.minimumf (refDist0 x y) _ reducesTo_S8x10000x156_S8x10000_d2 (by decide) h_S_]
  unfold D1 rowMin
  refine congrArg (fun f => Finset.fold min I f (Finset.univ : Finset (Fin 156))) (funext fun m => ?_)
  have e : Shape.Reduces.lift (s := S8x10000x156) (t := S8x10000) (a := 2) (by decide) j m = ix3 (j 0) (j 1) ⟨m.val, m.isLt⟩ :=
    funext fun c => Fin.ext (by match c with | ⟨0, _⟩ => rfl | ⟨1, _⟩ => rfl | ⟨2, _⟩ => rfl)
  show refDist0 x y _ = _
  rw [e]
  exact refDist0_apply x y (j 0) (j 1) m

/-- The second result: the minimum over the ground-truth points is the column minimum of each batch. -/
theorem ref_d2_0 (x : FVec Ideal S8x10000x3 .f32) (y : FVec Ideal S8x156x3 .f32) :
    Host.reduce FloatOps.minimumf (refDist0 x y) (constant (F := Ideal) S_ .f32 0x7F800000#32) reducesTo_S8x10000x156_S8x156_d1 h_S_
      = fun j => D2 I two x y (j 0) (j 1) := by
  funext j
  rw [Host.reduce_eq_fold_single FloatOps.minimumf (refDist0 x y) _ reducesTo_S8x10000x156_S8x156_d1 (by decide) h_S_]
  unfold D2 colMin
  refine congrArg (fun f => Finset.fold min I f (Finset.univ : Finset (Fin 10000))) (funext fun n => ?_)
  have e : Shape.Reduces.lift (s := S8x10000x156) (t := S8x156) (a := 1) (by decide) j n = ix3 (j 0) ⟨n.val, n.isLt⟩ (j 1) :=
    funext fun c => Fin.ext (by match c with | ⟨0, _⟩ => rfl | ⟨1, _⟩ => rfl | ⟨2, _⟩ => rfl)
  show refDist0 x y _ = _
  rw [e]
  exact refDist0_apply x y (j 0) n (j 1)

end Cert.ReferenceIdeal.Chamfer
-- ==== Proof.Ref.Chamfer1.lean ====
/-
  The reference's squared-distance array for the 618 rest points, and its two minimum reductions.

  At an index (i, n, m) the reference's array holds |x(i,n)|² + |y(i,m)|² − two · (x(i,n) · y(i,m)): the two
  squared norms are sums over the three coordinates, carried to the index by two broadcasts each; the inner
  product is the contraction over the last axis; the factor is a rank-0 word broadcast everywhere. This is the
  specification's "dist" for batch i. A minimum reduction over one axis, from the starting word, is the fold of
  "min" over that axis's coordinates: over the rest points it is the row minimum D1, over the ground-truth points
  the column minimum D2.
-/
import proofs.«112199_j59459527246412_1_alg».proof.ReferenceIdeal
import proofs.«112199_j59459527246412_1_alg».proof.Proof.ChamferSpec
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.Chamfer

open Cert.ReferenceIdeal Idealize.ShloMosaic Idealize.ShloMosaic.ValueIdx Cert.ChamferSpec

variable [Facts]
open Facts₀ Facts

/-- The reference's array of expanded squared distances, shape [8, 10000, 618]. -/
def refDist1 (x : FVec Ideal S8x10000x3 .f32) (y : FVec Ideal S8x618x3 .f32) : FVec Ideal S8x10000x618 .f32 :=
  subf (addf (broadcastInDim S8x10000x618 ![0, 1, 2] bcast_S8x10000x1_S8x10000x618_0_1_2 (broadcastInDim S8x10000x1 ![0, 1] bcast_S8x10000_S8x10000x1_0_1 (Host.reduceAdd (mulf x x) (constant S_ .f32 0x00000000#32) reducesTo_S8x10000x3_S8x10000_d2 h_S_))) (broadcastInDim S8x10000x618 ![0, 1, 2] bcast_S8x1x618_S8x10000x618_0_1_2 (broadcastInDim S8x1x618 ![0, 2] bcast_S8x618_S8x1x618_0_2 (Host.reduceAdd (mulf y y) (constant S_ .f32 0x00000000#32) reducesTo_S8x618x3_S8x618_d2 h_S_)))) (mulf (broadcastInDim S8x10000x618 ![] bcast_S_S8x10000x618 (constant S_ .f32 0x40000000#32)) (Host.dotGeneral dot_S8x10000x3_S8x618x3_S8x10000x618_2_2_1_1_0_0 none x y))

/-- The starting word of the minima and the factor word, never evaluated. -/
local notation "I" => (Ideal.ofBits FTy.f32 0x7F800000#32 : EReal)
local notation "two" => (Ideal.ofBits FTy.f32 0x40000000#32 : EReal)

/-- The squared norm of ground-truth point (i, n): the sum over the three coordinates, from the zero word. -/
private theorem sqx_apply (x : FVec Ideal S8x10000x3 .f32) (i : Fin 8) (n : Fin 10000) :
    Host.reduceAdd (mulf x x) (constant (F := Ideal) S_ .f32 0x00000000#32) reducesTo_S8x10000x3_S8x10000_d2 h_S_ (ix2 i n)
      = ∑ k : Fin 3, x (ix3 i n k) * x (ix3 i n k) := by
  simp only [Host.reduceAdd, Ideal.hostReduceAdd_def]
  rw [Ideal.hostReduceAdd_single reducesTo_S8x10000x3_S8x10000_d2 (by decide)]
  refine (congrArg (· + _) (show constant (F := Ideal) S_ .f32 0x00000000#32 (Shape.Idx.first h_S_) = 0 from Ideal.ofBits_zero_f32)).trans ?_
  rw [zero_add]
  refine Finset.sum_congr rfl fun k _ => ?_
  have e : Shape.Reduces.lift (s := S8x10000x3) (t := S8x10000) (a := 2) (by decide) (ix2 i n) k = ix3 i n ⟨k.val, k.isLt⟩ :=
    funext fun c => Fin.ext (by match c with | ⟨0, _⟩ => rfl | ⟨1, _⟩ => rfl | ⟨2, _⟩ => rfl)
  rw [e]
  rfl

/-- The squared norm of rest point (i, m). -/
private theorem sqy_apply (y : FVec Ideal S8x618x3 .f32) (i : Fin 8) (m : Fin 618) :
    Host.reduceAdd (mulf y y) (constant (F := Ideal) S_ .f32 0x00000000#32) reducesTo_S8x618x3_S8x618_d2 h_S_ (ix2 i m)
      = ∑ k : Fin 3, y (ix3 i m k) * y (ix3 i m k) := by
  simp only [Host.reduceAdd, Ideal.hostReduceAdd_def]
  rw [Ideal.hostReduceAdd_single reducesTo_S8x618x3_S8x618_d2 (by decide)]
  refine (congrArg (· + _) (show constant (F := Ideal) S_ .f32 0x00000000#32 (Shape.Idx.first h_S_) = 0 from Ideal.ofBits_zero_f32)).trans ?_
  rw [zero_add]
  refine Finset.sum_congr rfl fun k _ => ?_
  have e : Shape.Reduces.lift (s := S8x618x3) (t := S8x618) (a := 2) (by decide) (ix2 i m) k = ix3 i m ⟨k.val, k.isLt⟩ :=
    funext fun c => Fin.ext (by match c with | ⟨0, _⟩ => rfl | ⟨1, _⟩ => rfl | ⟨2, _⟩ => rfl)
  rw [e]
  rfl

/-- A value on [8, 10000], carried to [8, 10000, 1] and then along the rest points, read at (i, n, m), is the value at (i, n). -/
private theorem bx_apply (X : FVec Ideal S8x10000 .f32) (i : Fin 8) (n : Fin 10000) (m : Fin 618) :
    broadcastInDim S8x10000x618 ![0, 1, 2] bcast_S8x10000x1_S8x10000x618_0_1_2 (broadcastInDim S8x10000x1 ![0, 1] bcast_S8x10000_S8x10000x1_0_1 X) (ix3 i n m)
      = X (ix2 i n) := by
  refine (broadcastInDim_apply _ bcast_S8x10000x1_S8x10000x618_0_1_2 _ (ix3 i n m) (ix3 i n (0 : Fin 1)) (fun a => match a with
    | ⟨0, _⟩ => by show i.val = if (8 : Nat) = 1 then 0 else i.val; rw [if_neg (by decide)]
    | ⟨1, _⟩ => by show n.val = if (10000 : Nat) = 1 then 0 else n.val; rw [if_neg (by decide)]
    | ⟨2, _⟩ => by show 0 = if (1 : Nat) = 1 then 0 else m.val; rw [if_pos rfl])).trans ?_
  exact broadcastInDim_apply _ bcast_S8x10000_S8x10000x1_0_1 X (ix3 i n (0 : Fin 1)) (ix2 i n) (fun a => match a with
    | ⟨0, _⟩ => by show i.val = if (8 : Nat) = 1 then 0 else i.val; rw [if_neg (by decide)]
    | ⟨1, _⟩ => by show n.val = if (10000 : Nat) = 1 then 0 else n.val; rw [if_neg (by decide)])

/-- A value on [8, 618], carried to [8, 1, 618] and then along the ground-truth points, read at (i, n, m), is the value at (i, m). -/
private theorem by_apply (Y : FVec Ideal S8x618 .f32) (i : Fin 8) (n : Fin 10000) (m : Fin 618) :
    broadcastInDim S8x10000x618 ![0, 1, 2] bcast_S8x1x618_S8x10000x618_0_1_2 (broadcastInDim S8x1x618 ![0, 2] bcast_S8x618_S8x1x618_0_2 Y) (ix3 i n m)
      = Y (ix2 i m) := by
  refine (broadcastInDim_apply _ bcast_S8x1x618_S8x10000x618_0_1_2 _ (ix3 i n m) (ix3 i (0 : Fin 1) m) (fun a => match a with
    | ⟨0, _⟩ => by show i.val = if (8 : Nat) = 1 then 0 else i.val; rw [if_neg (by decide)]
    | ⟨1, _⟩ => by show 0 = if (1 : Nat) = 1 then 0 else n.val; rw [if_pos rfl]
    | ⟨2, _⟩ => by show m.val = if (618 : Nat) = 1 then 0 else m.val; rw [if_neg (by decide)])).trans ?_
  exact broadcastInDim_apply _ bcast_S8x618_S8x1x618_0_2 Y (ix3 i (0 : Fin 1) m) (ix2 i m) (fun a => match a with
    | ⟨0, _⟩ => by show i.val = if (8 : Nat) = 1 then 0 else i.val; rw [if_neg (by decide)]
    | ⟨1, _⟩ => by show m.val = if (618 : Nat) = 1 then 0 else m.val; rw [if_neg (by decide)])

/-- The factor word, broadcast from rank 0, is the same word at every index. -/
private theorem two_apply (j : S8x10000x618.Idx) :
    broadcastInDim S8x10000x618 ![] bcast_S_S8x10000x618 (constant (F := Ideal) S_ .f32 0x40000000#32) j = two :=
  broadcastInDim_apply _ bcast_S_S8x10000x618 _ j (fun a => a.elim0) (fun a => a.elim0)

local notation "D₀" => dot_S8x10000x3_S8x618x3_S8x10000x618_2_2_1_1_0_0

/-- The contraction at (i, n, m): the inner product of ground-truth point (i, n) and rest point (i, m). -/
private theorem dot_apply (x : FVec Ideal S8x10000x3 .f32) (y : FVec Ideal S8x618x3 .f32) (i : Fin 8) (n : Fin 10000) (m : Fin 618) :
    Host.dotGeneral D₀ none x y (ix3 i n m) = ∑ k : Fin 3, x (ix3 i n k) * y (ix3 i m k) := by
  simp only [Host.dotGeneral]
  rw [Ideal.dotGeneral_apply, ← Equiv.sum_comp (contrEquiv1 D₀ 3 rfl rfl).symm]
  refine Finset.sum_congr rfl fun k _ => ?_
  have hk := contrEquiv1_symm_val D₀ 3 rfl rfl k
  generalize (contrEquiv1 D₀ 3 rfl rfl).symm k = q at hk ⊢
  have l0 : ((D₀).lhsIdx (ix3 i n m) q 0).val = i.val := by
    unfold DotDims.lhsIdx
    rw [dif_pos (show (0 : Fin S8x10000x3.rank) ∈ (D₀).lhsBatch from List.mem_singleton.2 rfl)]; rfl
  have l1 : ((D₀).lhsIdx (ix3 i n m) q 1).val = n.val := by
    unfold DotDims.lhsIdx
    rw [dif_neg (show ¬(1 : Fin S8x10000x3.rank) ∈ (D₀).lhsBatch from (by decide : ¬(1 : Fin 3) ∈ ([0] : List (Fin 3)))),
      dif_pos (show (1 : Fin S8x10000x3.rank) ∈ (D₀).lhsNonContracting from List.mem_singleton.2 rfl)]; rfl
  have l2 : ((D₀).lhsIdx (ix3 i n m) q 2).val = k.val := ((D₀).lhsIdx_val_of_single rfl (ix3 i n m) q).trans hk
  have r0 : ((D₀).rhsIdx (ix3 i n m) q 0).val = i.val := by
    unfold DotDims.rhsIdx
    rw [dif_pos (show (0 : Fin S8x618x3.rank) ∈ (D₀).rhsBatch from List.mem_singleton.2 rfl)]; rfl
  have r1 : ((D₀).rhsIdx (ix3 i n m) q 1).val = m.val := by
    unfold DotDims.rhsIdx
    rw [dif_neg (show ¬(1 : Fin S8x618x3.rank) ∈ (D₀).rhsBatch from (by decide : ¬(1 : Fin 3) ∈ ([0] : List (Fin 3)))),
      dif_pos (show (1 : Fin S8x618x3.rank) ∈ (D₀).rhsNonContracting from List.mem_singleton.2 rfl)]; rfl
  have r2 : ((D₀).rhsIdx (ix3 i n m) q 2).val = k.val := ((D₀).rhsIdx_val_of_single rfl (ix3 i n m) q).trans hk
  have el : (D₀).lhsIdx (ix3 i n m) q = ix3 i n k := funext fun a => Fin.ext (by
    match a with
    | ⟨0, _⟩ => exact l0
    | ⟨1, _⟩ => exact l1
    | ⟨2, _⟩ => exact l2)
  have er : (D₀).rhsIdx (ix3 i n m) q = ix3 i m k := funext fun a => Fin.ext (by
    match a with
    | ⟨0, _⟩ => exact r0
    | ⟨1, _⟩ => exact r1
    | ⟨2, _⟩ => exact r2)
  rw [el, er]

/-- At (i, n, m) the reference's array is the specification's expanded squared distance of batch i. -/
theorem refDist1_apply (x : FVec Ideal S8x10000x3 .f32) (y : FVec Ideal S8x618x3 .f32) (i : Fin 8) (n : Fin 10000) (m : Fin 618) :
    refDist1 x y (ix3 i n m) = Cert.ChamferSpec.dist two (cur3 x i) (cur3 y i) n m := by
  unfold refDist1 Cert.ChamferSpec.dist
  rw [subf_apply, addf_apply, mulf_apply, bx_apply, by_apply, sqx_apply, sqy_apply, dot_apply, two_apply]

/-- The first result: the minimum over the rest points is the row minimum of each batch. -/
theorem ref_d1_1 (x : FVec Ideal S8x10000x3 .f32) (y : FVec Ideal S8x618x3 .f32) :
    Host.reduce FloatOps.minimumf (refDist1 x y) (constant (F := Ideal) S_ .f32 0x7F800000#32) reducesTo_S8x10000x618_S8x10000_d2 h_S_
      = fun j => D1 I two x y (j 0) (j 1) := by
  funext j
  rw [Host.reduce_eq_fold_single FloatOps.minimumf (refDist1 x y) _ reducesTo_S8x10000x618_S8x10000_d2 (by decide) h_S_]
  unfold D1 rowMin
  refine congrArg (fun f => Finset.fold min I f (Finset.univ : Finset (Fin 618))) (funext fun m => ?_)
  have e : Shape.Reduces.lift (s := S8x10000x618) (t := S8x10000) (a := 2) (by decide) j m = ix3 (j 0) (j 1) ⟨m.val, m.isLt⟩ :=
    funext fun c => Fin.ext (by match c with | ⟨0, _⟩ => rfl | ⟨1, _⟩ => rfl | ⟨2, _⟩ => rfl)
  show refDist1 x y _ = _
  rw [e]
  exact refDist1_apply x y (j 0) (j 1) m

/-- The second result: the minimum over the ground-truth points is the column minimum of each batch. -/
theorem ref_d2_1 (x : FVec Ideal S8x10000x3 .f32) (y : FVec Ideal S8x618x3 .f32) :
    Host.reduce FloatOps.minimumf (refDist1 x y) (constant (F := Ideal) S_ .f32 0x7F800000#32) reducesTo_S8x10000x618_S8x618_d1 h_S_
      = fun j => D2 I two x y (j 0) (j 1) := by
  funext j
  rw [Host.reduce_eq_fold_single FloatOps.minimumf (refDist1 x y) _ reducesTo_S8x10000x618_S8x618_d1 (by decide) h_S_]
  unfold D2 colMin
  refine congrArg (fun f => Finset.fold min I f (Finset.univ : Finset (Fin 10000))) (funext fun n => ?_)
  have e : Shape.Reduces.lift (s := S8x10000x618) (t := S8x618) (a := 1) (by decide) j n = ix3 (j 0) ⟨n.val, n.isLt⟩ (j 1) :=
    funext fun c => Fin.ext (by match c with | ⟨0, _⟩ => rfl | ⟨1, _⟩ => rfl | ⟨2, _⟩ => rfl)
  show refDist1 x y _ = _
  rw [e]
  exact refDist1_apply x y (j 0) n (j 1)

end Cert.ReferenceIdeal.Chamfer
-- ==== Proof.Ref.Chamfer2.lean ====
/-
  The reference's squared-distance array for the 2466 rest points, and its two minimum reductions.

  At an index (i, n, m) the reference's array holds |x(i,n)|² + |y(i,m)|² − two · (x(i,n) · y(i,m)): the two
  squared norms are sums over the three coordinates, carried to the index by two broadcasts each; the inner
  product is the contraction over the last axis; the factor is a rank-0 word broadcast everywhere. This is the
  specification's "dist" for batch i. A minimum reduction over one axis, from the starting word, is the fold of
  "min" over that axis's coordinates: over the rest points it is the row minimum D1, over the ground-truth points
  the column minimum D2.
-/
import proofs.«112199_j59459527246412_1_alg».proof.ReferenceIdeal
import proofs.«112199_j59459527246412_1_alg».proof.Proof.ChamferSpec
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.Chamfer

open Cert.ReferenceIdeal Idealize.ShloMosaic Idealize.ShloMosaic.ValueIdx Cert.ChamferSpec

variable [Facts]
open Facts₀ Facts

/-- The reference's array of expanded squared distances, shape [8, 10000, 2466]. -/
def refDist2 (x : FVec Ideal S8x10000x3 .f32) (y : FVec Ideal S8x2466x3 .f32) : FVec Ideal S8x10000x2466 .f32 :=
  subf (addf (broadcastInDim S8x10000x2466 ![0, 1, 2] bcast_S8x10000x1_S8x10000x2466_0_1_2 (broadcastInDim S8x10000x1 ![0, 1] bcast_S8x10000_S8x10000x1_0_1 (Host.reduceAdd (mulf x x) (constant S_ .f32 0x00000000#32) reducesTo_S8x10000x3_S8x10000_d2 h_S_))) (broadcastInDim S8x10000x2466 ![0, 1, 2] bcast_S8x1x2466_S8x10000x2466_0_1_2 (broadcastInDim S8x1x2466 ![0, 2] bcast_S8x2466_S8x1x2466_0_2 (Host.reduceAdd (mulf y y) (constant S_ .f32 0x00000000#32) reducesTo_S8x2466x3_S8x2466_d2 h_S_)))) (mulf (broadcastInDim S8x10000x2466 ![] bcast_S_S8x10000x2466 (constant S_ .f32 0x40000000#32)) (Host.dotGeneral dot_S8x10000x3_S8x2466x3_S8x10000x2466_2_2_1_1_0_0 none x y))

/-- The starting word of the minima and the factor word, never evaluated. -/
local notation "I" => (Ideal.ofBits FTy.f32 0x7F800000#32 : EReal)
local notation "two" => (Ideal.ofBits FTy.f32 0x40000000#32 : EReal)

/-- The squared norm of ground-truth point (i, n): the sum over the three coordinates, from the zero word. -/
private theorem sqx_apply (x : FVec Ideal S8x10000x3 .f32) (i : Fin 8) (n : Fin 10000) :
    Host.reduceAdd (mulf x x) (constant (F := Ideal) S_ .f32 0x00000000#32) reducesTo_S8x10000x3_S8x10000_d2 h_S_ (ix2 i n)
      = ∑ k : Fin 3, x (ix3 i n k) * x (ix3 i n k) := by
  simp only [Host.reduceAdd, Ideal.hostReduceAdd_def]
  rw [Ideal.hostReduceAdd_single reducesTo_S8x10000x3_S8x10000_d2 (by decide)]
  refine (congrArg (· + _) (show constant (F := Ideal) S_ .f32 0x00000000#32 (Shape.Idx.first h_S_) = 0 from Ideal.ofBits_zero_f32)).trans ?_
  rw [zero_add]
  refine Finset.sum_congr rfl fun k _ => ?_
  have e : Shape.Reduces.lift (s := S8x10000x3) (t := S8x10000) (a := 2) (by decide) (ix2 i n) k = ix3 i n ⟨k.val, k.isLt⟩ :=
    funext fun c => Fin.ext (by match c with | ⟨0, _⟩ => rfl | ⟨1, _⟩ => rfl | ⟨2, _⟩ => rfl)
  rw [e]
  rfl

/-- The squared norm of rest point (i, m). -/
private theorem sqy_apply (y : FVec Ideal S8x2466x3 .f32) (i : Fin 8) (m : Fin 2466) :
    Host.reduceAdd (mulf y y) (constant (F := Ideal) S_ .f32 0x00000000#32) reducesTo_S8x2466x3_S8x2466_d2 h_S_ (ix2 i m)
      = ∑ k : Fin 3, y (ix3 i m k) * y (ix3 i m k) := by
  simp only [Host.reduceAdd, Ideal.hostReduceAdd_def]
  rw [Ideal.hostReduceAdd_single reducesTo_S8x2466x3_S8x2466_d2 (by decide)]
  refine (congrArg (· + _) (show constant (F := Ideal) S_ .f32 0x00000000#32 (Shape.Idx.first h_S_) = 0 from Ideal.ofBits_zero_f32)).trans ?_
  rw [zero_add]
  refine Finset.sum_congr rfl fun k _ => ?_
  have e : Shape.Reduces.lift (s := S8x2466x3) (t := S8x2466) (a := 2) (by decide) (ix2 i m) k = ix3 i m ⟨k.val, k.isLt⟩ :=
    funext fun c => Fin.ext (by match c with | ⟨0, _⟩ => rfl | ⟨1, _⟩ => rfl | ⟨2, _⟩ => rfl)
  rw [e]
  rfl

/-- A value on [8, 10000], carried to [8, 10000, 1] and then along the rest points, read at (i, n, m), is the value at (i, n). -/
private theorem bx_apply (X : FVec Ideal S8x10000 .f32) (i : Fin 8) (n : Fin 10000) (m : Fin 2466) :
    broadcastInDim S8x10000x2466 ![0, 1, 2] bcast_S8x10000x1_S8x10000x2466_0_1_2 (broadcastInDim S8x10000x1 ![0, 1] bcast_S8x10000_S8x10000x1_0_1 X) (ix3 i n m)
      = X (ix2 i n) := by
  refine (broadcastInDim_apply _ bcast_S8x10000x1_S8x10000x2466_0_1_2 _ (ix3 i n m) (ix3 i n (0 : Fin 1)) (fun a => match a with
    | ⟨0, _⟩ => by show i.val = if (8 : Nat) = 1 then 0 else i.val; rw [if_neg (by decide)]
    | ⟨1, _⟩ => by show n.val = if (10000 : Nat) = 1 then 0 else n.val; rw [if_neg (by decide)]
    | ⟨2, _⟩ => by show 0 = if (1 : Nat) = 1 then 0 else m.val; rw [if_pos rfl])).trans ?_
  exact broadcastInDim_apply _ bcast_S8x10000_S8x10000x1_0_1 X (ix3 i n (0 : Fin 1)) (ix2 i n) (fun a => match a with
    | ⟨0, _⟩ => by show i.val = if (8 : Nat) = 1 then 0 else i.val; rw [if_neg (by decide)]
    | ⟨1, _⟩ => by show n.val = if (10000 : Nat) = 1 then 0 else n.val; rw [if_neg (by decide)])

/-- A value on [8, 2466], carried to [8, 1, 2466] and then along the ground-truth points, read at (i, n, m), is the value at (i, m). -/
private theorem by_apply (Y : FVec Ideal S8x2466 .f32) (i : Fin 8) (n : Fin 10000) (m : Fin 2466) :
    broadcastInDim S8x10000x2466 ![0, 1, 2] bcast_S8x1x2466_S8x10000x2466_0_1_2 (broadcastInDim S8x1x2466 ![0, 2] bcast_S8x2466_S8x1x2466_0_2 Y) (ix3 i n m)
      = Y (ix2 i m) := by
  refine (broadcastInDim_apply _ bcast_S8x1x2466_S8x10000x2466_0_1_2 _ (ix3 i n m) (ix3 i (0 : Fin 1) m) (fun a => match a with
    | ⟨0, _⟩ => by show i.val = if (8 : Nat) = 1 then 0 else i.val; rw [if_neg (by decide)]
    | ⟨1, _⟩ => by show 0 = if (1 : Nat) = 1 then 0 else n.val; rw [if_pos rfl]
    | ⟨2, _⟩ => by show m.val = if (2466 : Nat) = 1 then 0 else m.val; rw [if_neg (by decide)])).trans ?_
  exact broadcastInDim_apply _ bcast_S8x2466_S8x1x2466_0_2 Y (ix3 i (0 : Fin 1) m) (ix2 i m) (fun a => match a with
    | ⟨0, _⟩ => by show i.val = if (8 : Nat) = 1 then 0 else i.val; rw [if_neg (by decide)]
    | ⟨1, _⟩ => by show m.val = if (2466 : Nat) = 1 then 0 else m.val; rw [if_neg (by decide)])

/-- The factor word, broadcast from rank 0, is the same word at every index. -/
private theorem two_apply (j : S8x10000x2466.Idx) :
    broadcastInDim S8x10000x2466 ![] bcast_S_S8x10000x2466 (constant (F := Ideal) S_ .f32 0x40000000#32) j = two :=
  broadcastInDim_apply _ bcast_S_S8x10000x2466 _ j (fun a => a.elim0) (fun a => a.elim0)

local notation "D₀" => dot_S8x10000x3_S8x2466x3_S8x10000x2466_2_2_1_1_0_0

/-- The contraction at (i, n, m): the inner product of ground-truth point (i, n) and rest point (i, m). -/
private theorem dot_apply (x : FVec Ideal S8x10000x3 .f32) (y : FVec Ideal S8x2466x3 .f32) (i : Fin 8) (n : Fin 10000) (m : Fin 2466) :
    Host.dotGeneral D₀ none x y (ix3 i n m) = ∑ k : Fin 3, x (ix3 i n k) * y (ix3 i m k) := by
  simp only [Host.dotGeneral]
  rw [Ideal.dotGeneral_apply, ← Equiv.sum_comp (contrEquiv1 D₀ 3 rfl rfl).symm]
  refine Finset.sum_congr rfl fun k _ => ?_
  have hk := contrEquiv1_symm_val D₀ 3 rfl rfl k
  generalize (contrEquiv1 D₀ 3 rfl rfl).symm k = q at hk ⊢
  have l0 : ((D₀).lhsIdx (ix3 i n m) q 0).val = i.val := by
    unfold DotDims.lhsIdx
    rw [dif_pos (show (0 : Fin S8x10000x3.rank) ∈ (D₀).lhsBatch from List.mem_singleton.2 rfl)]; rfl
  have l1 : ((D₀).lhsIdx (ix3 i n m) q 1).val = n.val := by
    unfold DotDims.lhsIdx
    rw [dif_neg (show ¬(1 : Fin S8x10000x3.rank) ∈ (D₀).lhsBatch from (by decide : ¬(1 : Fin 3) ∈ ([0] : List (Fin 3)))),
      dif_pos (show (1 : Fin S8x10000x3.rank) ∈ (D₀).lhsNonContracting from List.mem_singleton.2 rfl)]; rfl
  have l2 : ((D₀).lhsIdx (ix3 i n m) q 2).val = k.val := ((D₀).lhsIdx_val_of_single rfl (ix3 i n m) q).trans hk
  have r0 : ((D₀).rhsIdx (ix3 i n m) q 0).val = i.val := by
    unfold DotDims.rhsIdx
    rw [dif_pos (show (0 : Fin S8x2466x3.rank) ∈ (D₀).rhsBatch from List.mem_singleton.2 rfl)]; rfl
  have r1 : ((D₀).rhsIdx (ix3 i n m) q 1).val = m.val := by
    unfold DotDims.rhsIdx
    rw [dif_neg (show ¬(1 : Fin S8x2466x3.rank) ∈ (D₀).rhsBatch from (by decide : ¬(1 : Fin 3) ∈ ([0] : List (Fin 3)))),
      dif_pos (show (1 : Fin S8x2466x3.rank) ∈ (D₀).rhsNonContracting from List.mem_singleton.2 rfl)]; rfl
  have r2 : ((D₀).rhsIdx (ix3 i n m) q 2).val = k.val := ((D₀).rhsIdx_val_of_single rfl (ix3 i n m) q).trans hk
  have el : (D₀).lhsIdx (ix3 i n m) q = ix3 i n k := funext fun a => Fin.ext (by
    match a with
    | ⟨0, _⟩ => exact l0
    | ⟨1, _⟩ => exact l1
    | ⟨2, _⟩ => exact l2)
  have er : (D₀).rhsIdx (ix3 i n m) q = ix3 i m k := funext fun a => Fin.ext (by
    match a with
    | ⟨0, _⟩ => exact r0
    | ⟨1, _⟩ => exact r1
    | ⟨2, _⟩ => exact r2)
  rw [el, er]

/-- At (i, n, m) the reference's array is the specification's expanded squared distance of batch i. -/
theorem refDist2_apply (x : FVec Ideal S8x10000x3 .f32) (y : FVec Ideal S8x2466x3 .f32) (i : Fin 8) (n : Fin 10000) (m : Fin 2466) :
    refDist2 x y (ix3 i n m) = Cert.ChamferSpec.dist two (cur3 x i) (cur3 y i) n m := by
  unfold refDist2 Cert.ChamferSpec.dist
  rw [subf_apply, addf_apply, mulf_apply, bx_apply, by_apply, sqx_apply, sqy_apply, dot_apply, two_apply]

/-- The first result: the minimum over the rest points is the row minimum of each batch. -/
theorem ref_d1_2 (x : FVec Ideal S8x10000x3 .f32) (y : FVec Ideal S8x2466x3 .f32) :
    Host.reduce FloatOps.minimumf (refDist2 x y) (constant (F := Ideal) S_ .f32 0x7F800000#32) reducesTo_S8x10000x2466_S8x10000_d2 h_S_
      = fun j => D1 I two x y (j 0) (j 1) := by
  funext j
  rw [Host.reduce_eq_fold_single FloatOps.minimumf (refDist2 x y) _ reducesTo_S8x10000x2466_S8x10000_d2 (by decide) h_S_]
  unfold D1 rowMin
  refine congrArg (fun f => Finset.fold min I f (Finset.univ : Finset (Fin 2466))) (funext fun m => ?_)
  have e : Shape.Reduces.lift (s := S8x10000x2466) (t := S8x10000) (a := 2) (by decide) j m = ix3 (j 0) (j 1) ⟨m.val, m.isLt⟩ :=
    funext fun c => Fin.ext (by match c with | ⟨0, _⟩ => rfl | ⟨1, _⟩ => rfl | ⟨2, _⟩ => rfl)
  show refDist2 x y _ = _
  rw [e]
  exact refDist2_apply x y (j 0) (j 1) m

/-- The second result: the minimum over the ground-truth points is the column minimum of each batch. -/
theorem ref_d2_2 (x : FVec Ideal S8x10000x3 .f32) (y : FVec Ideal S8x2466x3 .f32) :
    Host.reduce FloatOps.minimumf (refDist2 x y) (constant (F := Ideal) S_ .f32 0x7F800000#32) reducesTo_S8x10000x2466_S8x2466_d1 h_S_
      = fun j => D2 I two x y (j 0) (j 1) := by
  funext j
  rw [Host.reduce_eq_fold_single FloatOps.minimumf (refDist2 x y) _ reducesTo_S8x10000x2466_S8x2466_d1 (by decide) h_S_]
  unfold D2 colMin
  refine congrArg (fun f => Finset.fold min I f (Finset.univ : Finset (Fin 10000))) (funext fun n => ?_)
  have e : Shape.Reduces.lift (s := S8x10000x2466) (t := S8x2466) (a := 1) (by decide) j n = ix3 (j 0) ⟨n.val, n.isLt⟩ (j 1) :=
    funext fun c => Fin.ext (by match c with | ⟨0, _⟩ => rfl | ⟨1, _⟩ => rfl | ⟨2, _⟩ => rfl)
  show refDist2 x y _ = _
  rw [e]
  exact refDist2_apply x y (j 0) n (j 1)

end Cert.ReferenceIdeal.Chamfer
-- ==== Proof.Bridge.Final.lean ====
/-
  The certificate's claims. The kernel program's run (at the word level and idealized) and the reference's run give
  the three frames; at the ideal values the reference's four results are the kernel program's: the edge, laplacian
  and move losses are one composed term of the arguments in both programs, and the chamfer loss is in both the shared
  host operations applied to the specification's row and column minima.
-/
import proofs.«112199_j59459527246412_1_alg».proof.Proof.Bridge.Kernel
import proofs.«112199_j59459527246412_1_alg».proof.Proof.KB.Frame
import proofs.«112199_j59459527246412_1_alg».proof.Proof.Ref.Chamfer0
import proofs.«112199_j59459527246412_1_alg».proof.Proof.Ref.Chamfer1
import proofs.«112199_j59459527246412_1_alg».proof.Proof.Ref.Chamfer2
import proofs.«112199_j59459527246412_1_alg».proof.Proof.Ref.Run
import proofs.«112199_j59459527246412_1_alg».proof.Defs
import proofs.«112199_j59459527246412_1_alg».proof.Proof.Gen.Pre_finite_inputs
import proofs.«112199_j59459527246412_1_alg».proof.Proof.Gen.ReferenceIdeal

set_option maxRecDepth 16384

noncomputable section

namespace Cert.Bridge

open Idealize.ShloMosaic Idealize.ShloMosaic.TcCoe Idealize.SL.Sem
open Cert.KernelIdeal.Chamfer Cert.ChamferSpec

/-! ## The reference's chamfer loss -/

/-- The reference's chamfer loss: its six minimum-reductions are the specification's arrays. -/
theorem ref_cham_spec (m' : (ℓ : Loc Cert.ReferenceIdeal.nD Cert.ReferenceIdeal.τ Cert.ReferenceIdeal.sig) → Buf (Elt Ideal) ℓ) (c : Dev Cert.ReferenceIdeal.nD) :
    Cert.ReferenceIdeal.RunH.res_main_v218 m' c = chamTerm'
      (fun j => D1 wI wTwo (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg7)) (j 0) (j 1)) (fun j => D2 wI wTwo (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg7)) (j 0) (j 1))
      (fun j => D1 wI wTwo (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg8)) (j 0) (j 1)) (fun j => D2 wI wTwo (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg8)) (j 0) (j 1))
      (fun j => D1 wI wTwo (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg9)) (j 0) (j 1)) (fun j => D2 wI wTwo (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg9)) (j 0) (j 1)) := by
  have h10 := Cert.ReferenceIdeal.Chamfer.ref_d1_0 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg7))
  have h20 := Cert.ReferenceIdeal.Chamfer.ref_d2_0 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg7))
  have h11 := Cert.ReferenceIdeal.Chamfer.ref_d1_1 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg8))
  have h21 := Cert.ReferenceIdeal.Chamfer.ref_d2_1 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg8))
  have h12 := Cert.ReferenceIdeal.Chamfer.ref_d1_2 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg9))
  have h22 := Cert.ReferenceIdeal.Chamfer.ref_d2_2 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg9))
  unfold Cert.ReferenceIdeal.Chamfer.refDist0 at h10 h20
  unfold Cert.ReferenceIdeal.Chamfer.refDist1 at h11 h21
  unfold Cert.ReferenceIdeal.Chamfer.refDist2 at h12 h22
  rw [ref_cham (F := Ideal) m' c, h10, h20, h11, h21, h12, h22]

/-! ## The claims -/

theorem frame_k : Cert.frame_Kernel := fun m ρ _ => Cert.Kernel.Chamfer.frame (F := Bits) m ρ

theorem frame_ki : Cert.frame_KernelIdeal := fun m ρ _ =>
  (θ_run Cert.KernelIdeal.defs _ _).mono (fun _ h c => (h c).2.2.2.2) (Cert.KernelIdeal.Chamfer.run (F := Ideal) m ρ)

theorem frame_ri : Cert.frame_ReferenceIdeal := fun m ρ _ =>
  (θ_run Cert.ReferenceIdeal.defs _ _).mono (fun _ h c => (h c).2.2.2.2) (Cert.ReferenceIdeal.RunH.run (F := Ideal) m ρ)

/-- Run from memories that agree on the arguments, the two idealized programs end with equal results. -/
theorem algebraic : Cert.algebraic_KernelIdeal_ReferenceIdeal := by
  intro m ρ m' ρ' _ hagree
  refine ⟨fun c => Cert.KernelIdeal.Gen.V30 m (outs m) c Cert.KernelIdeal.main_v206, fun c => Cert.KernelIdeal.Gen.V30 m (outs m) c Cert.KernelIdeal.main_v255,
    fun c => Cert.KernelIdeal.Gen.V30 m (outs m) c Cert.KernelIdeal.main_v262, fun c => Cert.KernelIdeal.Gen.V30 m (outs m) c Cert.KernelIdeal.main_v182,
    Cert.KernelIdeal.Chamfer.run (F := Ideal) m ρ, ?_⟩
  refine (θ_run Cert.ReferenceIdeal.defs _ _).mono (fun _ h c => ?_) (Cert.ReferenceIdeal.RunH.run (F := Ideal) m' ρ')
  obtain ⟨h0, h1, h2, h3, hargs⟩ := h c
  obtain ⟨a0, a1, a2, a3, a4, a5, a6, a7, a8, a9, a10, a11, a12, a13, a14, a15⟩ := hagree c
  refine ⟨h0.trans ?_, h1.trans ?_, h2.trans ?_, h3.trans ?_, hargs⟩
  · -- the edge loss: one composed term of the arguments
    rw [ref_edge (F := Ideal) m' c, a1, a2, a3, a13, a14, a15]
    exact (v206_eq m (outs m) c).symm
  · -- the laplacian loss
    rw [ref_lap (F := Ideal) m' c, a1, a4, a2, a5, a3, a6, a10, a11, a12]
    exact (v255_eq m (outs m) c).symm
  · -- the move loss
    rw [ref_move (F := Ideal) m' c, a5, a2, a6, a3]
    exact (v262_eq m (outs m) c).symm
  · -- the chamfer loss: both are the shared host operations on the specification's arrays
    rw [ref_cham_spec m' c, a0, a7, a8, a9]
    exact (kernel_cham m c).symm

end Cert.Bridge

end
-- ==== Proof.lean ====
/-
  The certificate: the chamfer-distance kernel program (three tiled distance regions between host operations)
  against its reference (the same losses by host operations alone). Each region's body is run case by case
  (first, middle and last tile of a batch) and carried over the 80 grid points with the running column minimum held
  in the region's invariant; the regions' records give the programs' runs; at the ideal values what the regions
  leave is the specification's row and column minima, which is what the reference's minimum-reductions compute, and
  every other host operation is the same in both programs. The idealization rewrote nothing, so `preserves` is trivial.
-/
import proofs.«112199_j59459527246412_1_alg».proof.Defs
import proofs.«112199_j59459527246412_1_alg».proof.Proof.Gen.Kernel
import proofs.«112199_j59459527246412_1_alg».proof.Proof.Gen.KernelIdeal
import proofs.«112199_j59459527246412_1_alg».proof.Proof.Gen.ReferenceIdeal
import proofs.«112199_j59459527246412_1_alg».proof.Proof.Gen.Pre_finite_inputs
import proofs.«112199_j59459527246412_1_alg».proof.Proof.Bridge.Final

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Cert.Bridge.frame_k, Cert.Bridge.frame_ki, Cert.Bridge.frame_ri, trivial, Cert.Bridge.algebraic⟩

end Cert.Proof

end
